-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x128x128x512 : Shape := ⟨4, ![8, 128, 128, 512]⟩
abbrev S8x127 : Shape := ⟨2, ![8, 127]⟩
abbrev S512x512 : Shape := ⟨2, ![512, 512]⟩
abbrev S512 : Shape := ⟨1, ![512]⟩
abbrev S50x512 : Shape := ⟨2, ![50, 512]⟩
abbrev S50 : Shape := ⟨1, ![50]⟩
abbrev S_ : Shape := ⟨0, ![]⟩

class Facts : Prop where
  bcast_S_S8x128x128x512 : S_.BroadcastsInDim S8x128x128x512 (![] : Fin 0 → Fin S8x128x128x512.rank)
  reducesTo_S8x128x128x512_S_d0_1_2_3 : S8x128x128x512.ReducesTo [0, 1, 2, 3] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S50x512 : S_.BroadcastsInDim S50x512 (![] : Fin 0 → Fin S50x512.rank)
  reducesTo_S50x512_S_d0_1 : S50x512.ReducesTo [0, 1] S_
  bcast_S_S50 : S_.BroadcastsInDim S50 (![] : Fin 0 → Fin S50.rank)
  reducesTo_S50_S_d0 : S50.ReducesTo [0] S_
  bcast_S_S8x127 : S_.BroadcastsInDim S8x127 (![] : Fin 0 → Fin S8x127.rank)
  reducesTo_S8x127_S_d0_1 : S8x127.ReducesTo [0, 1] S_

variable [Facts]

def fn_part1 {F : FTy → Type} [FloatOps F] (main_arg1 : IVec S8x127 32) (main_arg5 : FVec F S50 .f32) (main_v13 : IVec S_ 1) (main_v16 : IVec S50x512 1) : IVec S_ 1 :=
  let main_c_5 : IVec S_ 1 := constantI S_ 1 1#1
  let main_v17 : IVec S_ 1 := (fun x v => Host.reduce IntOp.andi x v reducesTo_S50x512_S_d0_1 h_S_) main_v16 main_c_5
  let main_v18 : IVec S_ 1 := andi main_v13 main_v17
  let main_v19 : FVec F S50 .f32 := Host.absf main_arg5
  let main_cst_6 : FVec F S_ .f32 := constant S_ .f32 0x7F800000#32
  let main_v20 : FVec F S50 .f32 := broadcastInDim S50 ![] bcast_S_S50 main_cst_6
  let main_v21 : IVec S50 1 := cmpf .olt main_v19 main_v20
  let main_c_7 : IVec S_ 1 := constantI S_ 1 1#1
  let main_v22 : IVec S_ 1 := (fun x v => Host.reduce IntOp.andi x v reducesTo_S50_S_d0 h_S_) main_v21 main_c_7
  let main_v23 : IVec S_ 1 := andi main_v18 main_v22
  let main_c_8 : IVec S_ 32 := constantI S_ 32 0#32
  let main_v24 : IVec S8x127 32 := broadcastInDim S8x127 ![] bcast_S_S8x127 main_c_8
  let main_v25 : IVec S8x127 1 := cmpi .sge main_arg1 main_v24
  let main_c_9 : IVec S_ 32 := constantI S_ 32 128#32
  let main_v26 : IVec S8x127 32 := broadcastInDim S8x127 ![] bcast_S_S8x127 main_c_9
  let main_v27 : IVec S8x127 1 := cmpi .slt main_arg1 main_v26
  let main_v28 : IVec S8x127 1 := andi main_v25 main_v27
  let main_c_10 : IVec S_ 1 := constantI S_ 1 1#1
  let main_v29 : IVec S_ 1 := (fun x v => Host.reduce IntOp.andi x v reducesTo_S8x127_S_d0_1 h_S_) main_v28 main_c_10
  let main_v30 : IVec S_ 1 := andi main_v23 main_v29
  main_v30

def fn {F : FTy → Type} [FloatOps F] (main_arg0 : FVec F S8x128x128x512 .f32) (main_arg1 : IVec S8x127 32) (main_arg2 : FVec F S512x512 .f32) (main_arg3 : FVec F S512 .f32) (main_arg4 : FVec F S50x512 .f32) (main_arg5 : FVec F S50 .f32) : IVec S_ 1 :=
  let main_v0 : FVec F S8x128x128x512 .f32 := Host.absf main_arg0
  let main_cst : FVec F S_ .f32 := constant S_ .f32 0x7F800000#32
  let main_v1 : FVec F S8x128x128x512 .f32 := broadcastInDim S8x128x128x512 ![] bcast_S_S8x128x128x512 main_cst
  let main_v2 : IVec S8x128x128x512 1 := cmpf .olt main_v0 main_v1
  let main_c : IVec S_ 1 := constantI S_ 1 1#1
  let main_v3 : IVec S_ 1 := (fun x v => Host.reduce IntOp.andi x v reducesTo_S8x128x128x512_S_d0_1_2_3 h_S_) main_v2 main_c
  let main_v4 : FVec F S512x512 .f32 := Host.absf main_arg2
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S50x512 .f32 := Host.absf main_arg4
  let main_cst_4 : FVec F S_ .f32 := constant S_ .f32 0x7F800000#32
  let main_v15 : FVec F S50x512 .f32 := broadcastInDim S50x512 ![] bcast_S_S50x512 main_cst_4
  let main_v16 : IVec S50x512 1 := cmpf .olt main_v14 main_v15
  fn_part1 (F := F) main_arg1 main_arg5 main_v13 main_v16
-- ==== Kernel.lean ====
abbrev S8x128x128x512 : Shape := ⟨4, ![8, 128, 128, 512]⟩
abbrev S8x127 : Shape := ⟨2, ![8, 127]⟩
abbrev S512x512 : Shape := ⟨2, ![512, 512]⟩
abbrev S512 : Shape := ⟨1, ![512]⟩
abbrev S50x512 : Shape := ⟨2, ![50, 512]⟩
abbrev S50 : Shape := ⟨1, ![50]⟩
abbrev S512x50 : Shape := ⟨2, ![512, 50]⟩
abbrev S8x127x50 : Shape := ⟨3, ![8, 127, 50]⟩
abbrev S1x127x50 : Shape := ⟨3, ![1, 127, 50]⟩
abbrev S128x512 : Shape := ⟨2, ![128, 512]⟩
abbrev S32 : Shape := ⟨1, ![32]⟩
abbrev S1x1 : Shape := ⟨2, ![1, 1]⟩
abbrev S1 : Shape := ⟨1, ![1]⟩
abbrev S_ : Shape := ⟨0, ![]⟩
abbrev S1x512 : Shape := ⟨2, ![1, 512]⟩
abbrev S1x1x1x512 : Shape := ⟨4, ![1, 1, 1, 512]⟩
abbrev S128x50 : Shape := ⟨2, ![128, 50]⟩
abbrev S1x50 : Shape := ⟨2, ![1, 50]⟩
abbrev S127x50 : Shape := ⟨2, ![127, 50]⟩

abbrev nBuf : Space → Nat
  | .hbm => 8
  | .vmem => 7
  | .smem => 1
  | _ => 0

abbrev bufTy : (tb : Table) → Fin (tcTables nBuf tb) → BufTy
  | .hbm, ⟨0, _⟩ => ⟨S8x128x128x512, .f32⟩
  | .hbm, ⟨1, _⟩ => ⟨S512x512, .f32⟩
  | .hbm, ⟨2, _⟩ => ⟨S512, .f32⟩
  | .hbm, ⟨3, _⟩ => ⟨S50x512, .f32⟩
  | .hbm, ⟨4, _⟩ => ⟨S50, .f32⟩
  | .hbm, ⟨5, _⟩ => ⟨S512x512, .f32⟩
  | .hbm, ⟨6, _⟩ => ⟨S512x50, .f32⟩
  | .hbm, ⟨7, _⟩ => ⟨S8x127x50, .f32⟩
  | .local _ .vmem, ⟨0, _⟩ => ⟨S512x512, .f32⟩
  | .local _ .vmem, ⟨1, _⟩ => ⟨S512, .f32⟩
  | .local _ .vmem, ⟨2, _⟩ => ⟨S512x50, .f32⟩
  | .local _ .vmem, ⟨3, _⟩ => ⟨S50, .f32⟩
  | .local _ .vmem, ⟨4, _⟩ => ⟨S1x127x50, .f32⟩
  | .local _ .vmem, ⟨5, _⟩ => ⟨S1x127x50, .f32⟩
  | .local _ .vmem, ⟨6, _⟩ => ⟨S128x512, .f32⟩
  | .local _ .smem, ⟨0, _⟩ => ⟨S8x127, .i32⟩
  | _, _ => ⟨S8x128x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_arg1 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 2 → Nat :=
  let arg0 : BitVec 32 := BitVec.ofNat 32 (i 0).val
  let v0 : Index := Scalar.indexCast arg0
  let c0 : Index := 0#32
  ![v0.toNat, 0]
def k0_off2 (i : grid0.Coords) (v1 : BitVec 32) : Fin 4 → Nat :=
  let arg0 : BitVec 32 := BitVec.ofNat 32 (i 0).val
  let c1_i32 : BitVec 32 := 1#32
  let c0_i32_2 : BitVec 32 := 0#32
  ![arg0.toNat, 1, v1.toNat, 0]

def k0_chk1 (i : grid0.Coords) (v1 : BitVec 32) : Prop :=
  (∀ a, (k0_off2 i v1) a + S1x1x1x512.size a ≤ S8x128x128x512.size a)
instance k0_chk1.dec : ∀ (i : grid0.Coords) (v1 : BitVec 32), Decidable (k0_chk1 i v1) := fun i v1 => decidable_of_iff' _ (Iff.of_eq (k0_chk1.eq_1 i v1))
theorem k0_off2_inb : ∀ (i : grid0.Coords) (v1 : BitVec 32) (k0_hw1 : k0_chk1 i v1), ∀ a, (k0_off2 i v1) a + S1x1x1x512.size a ≤ S8x128x128x512.size a := fun i v1 k0_hw1 => k0_hw1

def k0_off3 (i : grid0.Coords) : Fin 2 → Nat :=
  let arg0 : BitVec 32 := BitVec.ofNat 32 (i 0).val
  let v8 : Index := Scalar.indexCast arg0
  let c1 : Index := 1#32
  ![v8.toNat, 1]
def k0_off4 (i : grid0.Coords) (v9 : BitVec 32) : Fin 4 → Nat :=
  let arg0 : BitVec 32 := BitVec.ofNat 32 (i 0).val
  let c2_i32 : BitVec 32 := 2#32
  let c0_i32_6 : BitVec 32 := 0#32
  ![arg0.toNat, 2, v9.toNat, 0]

def k0_chk2 (i : grid0.Coords) (v9 : BitVec 32) : Prop :=
  (∀ a, (k0_off4 i v9) a + S1x1x1x512.size a ≤ S8x128x128x512.size a)
instance k0_chk2.dec : ∀ (i : grid0.Coords) (v9 : BitVec 32), Decidable (k0_chk2 i v9) := fun i v9 => decidable_of_iff' _ (Iff.of_eq (k0_chk2.eq_1 i v9))
theorem k0_off4_inb : ∀ (i : grid0.Coords) (v9 : BitVec 32) (k0_hw2 : k0_chk2 i v9), ∀ a, (k0_off4 i v9) a + S1x1x1x512.size a ≤ S8x128x128x512.size a := fun i v9 k0_hw2 => k0_hw2

def k0_off5 (i : grid0.Coords) : Fin 2 → Nat :=
  let arg0 : BitVec 32 := BitVec.ofNat 32 (i 0).val
  let v16 : Index := Scalar.indexCast arg0
  let c2 : Index := 2#32
  ![v16.toNat, 2]
def k0_off6 (i : grid0.Coords) (v17 : BitVec 32) : Fin 4 → Nat :=
  let arg0 : BitVec 32 := BitVec.ofNat 32 (i 0).val
  let c3_i32 : BitVec 32 := 3#32
  let c0_i32_10 : BitVec 32 := 0#32
  ![arg0.toNat, 3, v17.toNat, 0]

def k0_chk3 (i : grid0.Coords) (v17 : BitVec 32) : Prop :=
  (∀ a, (k0_off6 i v17) a + S1x1x1x512.size a ≤ S8x128x128x512.size a)
instance k0_chk3.dec : ∀ (i : grid0.Coords) (v17 : BitVec 32), Decidable (k0_chk3 i v17) := fun i v17 => decidable_of_iff' _ (Iff.of_eq (k0_chk3.eq_1 i v17))
theorem k0_off6_inb : ∀ (i : grid0.Coords) (v17 : BitVec 32) (k0_hw3 : k0_chk3 i v17), ∀ a, (k0_off6 i v17) a + S1x1x1x512.size a ≤ S8x128x128x512.size a := fun i v17 k0_hw3 => k0_hw3

def k0_off7 (i : grid0.Coords) : Fin 2 → Nat :=
  let arg0 : BitVec 32 := BitVec.ofNat 32 (i 0).val
  let v24 : Index := Scalar.indexCast arg0
  let c3 : Index := 3#32
  ![v24.toNat, 3]
def k0_off8 (i : grid0.Coords) (v25 : BitVec 32) : Fin 4 → Nat :=
  let arg0 : BitVec 32 := BitVec.ofNat 32 (i 0).val
  let c4_i32 : BitVec 32 := 4#32
  let c0_i32_14 : BitVec 32 := 0#32
  ![arg0.toNat, 4, v25.toNat, 0]

def k0_chk4 (i : grid0.Coords) (v25 : BitVec 32) : Prop :=
  (∀ a, (k0_off8 i v25) a + S1x1x1x512.size a ≤ S8x128x128x512.size a)
instance k0_chk4.dec : ∀ (i : grid0.Coords) (v25 : BitVec 32), Decidable (k0_chk4 i v25) := fun i v25 => decidable_of_iff' _ (Iff.of_eq (k0_chk4.eq_1 i v25))
theorem k0_off8_inb : ∀ (i : grid0.Coords) (v25 : BitVec 32) (k0_hw4 : k0_chk4 i v25), ∀ a, (k0_off8 i v25) a + S1x1x1x512.size a ≤ S8x128x128x512.size a := fun i v25 k0_hw4 => k0_hw4

def k0_off9 (i : grid0.Coords) : Fin 2 → Nat :=
  let arg0 : BitVec 32 := BitVec.ofNat 32 (i 0).val
  let v32 : Index := Scalar.indexCast arg0
  let c4 : Index := 4#32
  ![v32.toNat, 4]
def k0_off10 (i : grid0.Coords) (v33 : BitVec 32) : Fin 4 → Nat :=
  let arg0 : BitVec 32 := BitVec.ofNat 32 (i 0).val
  let c5_i32 : BitVec 32 := 5#32
  let c0_i32_18 : BitVec 32 := 0#32
  ![arg0.toNat, 5, v33.toNat, 0]

def k0_chk5 (i : grid0.Coords) (v33 : BitVec 32) : Prop :=
  (∀ a, (k0_off10 i v33) a + S1x1x1x512.size a ≤ S8x128x128x512.size a)
instance k0_chk5.dec : ∀ (i : grid0.Coords) (v33 : BitVec 32), Decidable (k0_chk5 i v33) := fun i v33 => decidable_of_iff' _ (Iff.of_eq (k0_chk5.eq_1 i v33))
theorem k0_off10_inb : ∀ (i : grid0.Coords) (v33 : BitVec 32) (k0_hw5 : k0_chk5 i v33), ∀ a, (k0_off10 i v33) a + S1x1x1x512.size a ≤ S8x128x128x512.size a := fun i v33 k0_hw5 => k0_hw5

def k0_off11 (i : grid0.Coords) : Fin 2 → Nat :=
  let arg0 : BitVec 32 := BitVec.ofNat 32 (i 0).val
  let v40 : Index := Scalar.indexCast arg0
  let c5 : Index := 5#32
  ![v40.toNat, 5]
def k0_off12 (i : grid0.Coords) (v41 : BitVec 32) : Fin 4 → Nat :=
  let arg0 : BitVec 32 := BitVec.ofNat 32 (i 0).val
  let c6_i32 : BitVec 32 := 6#32
  let c0_i32_22 : BitVec 32 := 0#32
  ![arg0.toNat, 6, v41.toNat, 0]

def k0_chk6 (i : grid0.Coords) (v41 : BitVec 32) : Prop :=
  (∀ a, (k0_off12 i v41) a + S1x1x1x512.size a ≤ S8x128x128x512.size a)
instance k0_chk6.dec : ∀ (i : grid0.Coords) (v41 : BitVec 32), Decidable (k0_chk6 i v41) := fun i v41 => decidable_of_iff' _ (Iff.of_eq (k0_chk6.eq_1 i v41))
theorem k0_off12_inb : ∀ (i : grid0.Coords) (v41 : BitVec 32) (k0_hw6 : k0_chk6 i v41), ∀ a, (k0_off12 i v41) a + S1x1x1x512.size a ≤ S8x128x128x512.size a := fun i v41 k0_hw6 => k0_hw6

def k0_off13 (i : grid0.Coords) : Fin 2 → Nat :=
  let arg0 : BitVec 32 := BitVec.ofNat 32 (i 0).val
  let v48 : Index := Scalar.indexCast arg0
  let c6 : Index := 6#32
  ![v48.toNat, 6]
def k0_off14 (i : grid0.Coords) (v49 : BitVec 32) : Fin 4 → Nat :=
  let arg0 : BitVec 32 := BitVec.ofNat 32 (i 0).val
  let c7_i32 : BitVec 32 := 7#32
  let c0_i32_26 : BitVec 32 := 0#32
  ![arg0.toNat, 7, v49.toNat, 0]

def k0_chk7 (i : grid0.Coords) (v49 : BitVec 32) : Prop :=
  (∀ a, (k0_off14 i v49) a + S1x1x1x512.size a ≤ S8x128x128x512.size a)
instance k0_chk7.dec : ∀ (i : grid0.Coords) (v49 : BitVec 32), Decidable (k0_chk7 i v49) := fun i v49 => decidable_of_iff' _ (Iff.of_eq (k0_chk7.eq_1 i v49))
theorem k0_off14_inb : ∀ (i : grid0.Coords) (v49 : BitVec 32) (k0_hw7 : k0_chk7 i v49), ∀ a, (k0_off14 i v49) a + S1x1x1x512.size a ≤ S8x128x128x512.size a := fun i v49 k0_hw7 => k0_hw7

def k0_off15 (i : grid0.Coords) : Fin 2 → Nat :=
  let arg0 : BitVec 32 := BitVec.ofNat 32 (i 0).val
  let v56 : Index := Scalar.indexCast arg0
  let c7 : Index := 7#32
  ![v56.toNat, 7]
def k0_off16 (i : grid0.Coords) (v57 : BitVec 32) : Fin 4 → Nat :=
  let arg0 : BitVec 32 := BitVec.ofNat 32 (i 0).val
  let c8_i32 : BitVec 32 := 8#32
  let c0_i32_30 : BitVec 32 := 0#32
  ![arg0.toNat, 8, v57.toNat, 0]

def k0_chk8 (i : grid0.Coords) (v57 : BitVec 32) : Prop :=
  (∀ a, (k0_off16 i v57) a + S1x1x1x512.size a ≤ S8x128x128x512.size a)
instance k0_chk8.dec : ∀ (i : grid0.Coords) (v57 : BitVec 32), Decidable (k0_chk8 i v57) := fun i v57 => decidable_of_iff' _ (Iff.of_eq (k0_chk8.eq_1 i v57))
theorem k0_off16_inb : ∀ (i : grid0.Coords) (v57 : BitVec 32) (k0_hw8 : k0_chk8 i v57), ∀ a, (k0_off16 i v57) a + S1x1x1x512.size a ≤ S8x128x128x512.size a := fun i v57 k0_hw8 => k0_hw8

def k0_off17 (i : grid0.Coords) : Fin 2 → Nat :=
  let arg0 : BitVec 32 := BitVec.ofNat 32 (i 0).val
  let v64 : Index := Scalar.indexCast arg0
  let c8 : Index := 8#32
  ![v64.toNat, 8]
def k0_off18 (i : grid0.Coords) (v65 : BitVec 32) : Fin 4 → Nat :=
  let arg0 : BitVec 32 := BitVec.ofNat 32 (i 0).val
  let c9_i32 : BitVec 32 := 9#32
  let c0_i32_34 : BitVec 32 := 0#32
  ![arg0.toNat, 9, v65.toNat, 0]

def k0_chk9 (i : grid0.Coords) (v65 : BitVec 32) : Prop :=
  (∀ a, (k0_off18 i v65) a + S1x1x1x512.size a ≤ S8x128x128x512.size a)
instance k0_chk9.dec : ∀ (i : grid0.Coords) (v65 : BitVec 32), Decidable (k0_chk9 i v65) := fun i v65 => decidable_of_iff' _ (Iff.of_eq (k0_chk9.eq_1 i v65))
theorem k0_off18_inb : ∀ (i : grid0.Coords) (v65 : BitVec 32) (k0_hw9 : k0_chk9 i v65), ∀ a, (k0_off18 i v65) a + S1x1x1x512.size a ≤ S8x128x128x512.size a := fun i v65 k0_hw9 => k0_hw9

def k0_off19 (i : grid0.Coords) : Fin 2 → Nat :=
  let arg0 : BitVec 32 := BitVec.ofNat 32 (i 0).val
  let v72 : Index := Scalar.indexCast arg0
  let c9 : Index := 9#32
  ![v72.toNat, 9]
def k0_off20 (i : grid0.Coords) (v73 : BitVec 32) : Fin 4 → Nat :=
  let arg0 : BitVec 32 := BitVec.ofNat 32 (i 0).val
  let c10_i32 : BitVec 32 := 10#32
  let c0_i32_38 : BitVec 32 := 0#32
  ![arg0.toNat, 10, v73.toNat, 0]

def k0_chk10 (i : grid0.Coords) (v73 : BitVec 32) : Prop :=
  (∀ a, (k0_off20 i v73) a + S1x1x1x512.size a ≤ S8x128x128x512.size a)
instance k0_chk10.dec : ∀ (i : grid0.Coords) (v73 : BitVec 32), Decidable (k0_chk10 i v73) := fun i v73 => decidable_of_iff' _ (Iff.of_eq (k0_chk10.eq_1 i v73))
theorem k0_off20_inb : ∀ (i : grid0.Coords) (v73 : BitVec 32) (k0_hw10 : k0_chk10 i v73), ∀ a, (k0_off20 i v73) a + S1x1x1x512.size a ≤ S8x128x128x512.size a := fun i v73 k0_hw10 => k0_hw10

def k0_off21 (i : grid0.Coords) : Fin 2 → Nat :=
  let arg0 : BitVec 32 := BitVec.ofNat 32 (i 0).val
  let v80 : Index := Scalar.indexCast arg0
  let c10 : Index := 10#32
  ![v80.toNat, 10]
def k0_off22 (i : grid0.Coords) (v81 : BitVec 32) : Fin 4 → Nat :=
  let arg0 : BitVec 32 := BitVec.ofNat 32 (i 0).val
  let c11_i32 : BitVec 32 := 11#32
  let c0_i32_42 : BitVec 32 := 0#32
  ![arg0.toNat, 11, v81.toNat, 0]

def k0_chk11 (i : grid0.Coords) (v81 : BitVec 32) : Prop :=
  (∀ a, (k0_off22 i v81) a + S1x1x1x512.size a ≤ S8x128x128x512.size a)
instance k0_chk11.dec : ∀ (i : grid0.Coords) (v81 : BitVec 32), Decidable (k0_chk11 i v81) := fun i v81 => decidable_of_iff' _ (Iff.of_eq (k0_chk11.eq_1 i v81))
theorem k0_off22_inb : ∀ (i : grid0.Coords) (v81 : BitVec 32) (k0_hw11 : k0_chk11 i v81), ∀ a, (k0_off22 i v81) a + S1x1x1x512.size a ≤ S8x128x128x512.size a := fun i v81 k0_hw11 => k0_hw11

def k0_off23 (i : grid0.Coords) : Fin 2 → Nat :=
  let arg0 : BitVec 32 := BitVec.ofNat 32 (i 0).val
  let v88 : Index := Scalar.indexCast arg0
  let c11 : Index := 11#32
  ![v88.toNat, 11]
def k0_off24 (i : grid0.Coords) (v89 : BitVec 32) : Fin 4 → Nat :=
  let arg0 : BitVec 32 := BitVec.ofNat 32 (i 0).val
  let c12_i32 : BitVec 32 := 12#32
  let c0_i32_46 : BitVec 32 := 0#32
  ![arg0.toNat, 12, v89.toNat, 0]

def k0_chk12 (i : grid0.Coords) (v89 : BitVec 32) : Prop :=
  (∀ a, (k0_off24 i v89) a + S1x1x1x512.size a ≤ S8x128x128x512.size a)
instance k0_chk12.dec : ∀ (i : grid0.Coords) (v89 : BitVec 32), Decidable (k0_chk12 i v89) := fun i v89 => decidable_of_iff' _ (Iff.of_eq (k0_chk12.eq_1 i v89))
theorem k0_off24_inb : ∀ (i : grid0.Coords) (v89 : BitVec 32) (k0_hw12 : k0_chk12 i v89), ∀ a, (k0_off24 i v89) a + S1x1x1x512.size a ≤ S8x128x128x512.size a := fun i v89 k0_hw12 => k0_hw12

def k0_off25 (i : grid0.Coords) : Fin 2 → Nat :=
  let arg0 : BitVec 32 := BitVec.ofNat 32 (i 0).val
  let v96 : Index := Scalar.indexCast arg0
  let c12 : Index := 12#32
  ![v96.toNat, 12]
def k0_off26 (i : grid0.Coords) (v97 : BitVec 32) : Fin 4 → Nat :=
  let arg0 : BitVec 32 := BitVec.ofNat 32 (i 0).val
  let c13_i32 : BitVec 32 := 13#32
  let c0_i32_50 : BitVec 32 := 0#32
  ![arg0.toNat, 13, v97.toNat, 0]

def k0_chk13 (i : grid0.Coords) (v97 : BitVec 32) : Prop :=
  (∀ a, (k0_off26 i v97) a + S1x1x1x512.size a ≤ S8x128x128x512.size a)
instance k0_chk13.dec : ∀ (i : grid0.Coords) (v97 : BitVec 32), Decidable (k0_chk13 i v97) := fun i v97 => decidable_of_iff' _ (Iff.of_eq (k0_chk13.eq_1 i v97))
theorem k0_off26_inb : ∀ (i : grid0.Coords) (v97 : BitVec 32) (k0_hw13 : k0_chk13 i v97), ∀ a, (k0_off26 i v97) a + S1x1x1x512.size a ≤ S8x128x128x512.size a := fun i v97 k0_hw13 => k0_hw13

def k0_off27 (i : grid0.Coords) : Fin 2 → Nat :=
  let arg0 : BitVec 32 := BitVec.ofNat 32 (i 0).val
  let v104 : Index := Scalar.indexCast arg0
  let c13 : Index := 13#32
  ![v104.toNat, 13]
def k0_off28 (i : grid0.Coords) (v105 : BitVec 32) : Fin 4 → Nat :=
  let arg0 : BitVec 32 := BitVec.ofNat 32 (i 0).val
  let c14_i32 : BitVec 32 := 14#32
  let c0_i32_54 : BitVec 32 := 0#32
  ![arg0.toNat, 14, v105.toNat, 0]

def k0_chk14 (i : grid0.Coords) (v105 : BitVec 32) : Prop :=
  (∀ a, (k0_off28 i v105) a + S1x1x1x512.size a ≤ S8x128x128x512.size a)
instance k0_chk14.dec : ∀ (i : grid0.Coords) (v105 : BitVec 32), Decidable (k0_chk14 i v105) := fun i v105 => decidable_of_iff' _ (Iff.of_eq (k0_chk14.eq_1 i v105))
theorem k0_off28_inb : ∀ (i : grid0.Coords) (v105 : BitVec 32) (k0_hw14 : k0_chk14 i v105), ∀ a, (k0_off28 i v105) a + S1x1x1x512.size a ≤ S8x128x128x512.size a := fun i v105 k0_hw14 => k0_hw14

def k0_off29 (i : grid0.Coords) : Fin 2 → Nat :=
  let arg0 : BitVec 32 := BitVec.ofNat 32 (i 0).val
  let v112 : Index := Scalar.indexCast arg0
  let c14 : Index := 14#32
  ![v112.toNat, 14]
def k0_off30 (i : grid0.Coords) (v113 : BitVec 32) : Fin 4 → Nat :=
  let arg0 : BitVec 32 := BitVec.ofNat 32 (i 0).val
  let c15_i32 : BitVec 32 := 15#32
  let c0_i32_58 : BitVec 32 := 0#32
  ![arg0.toNat, 15, v113.toNat, 0]

def k0_chk15 (i : grid0.Coords) (v113 : BitVec 32) : Prop :=
  (∀ a, (k0_off30 i v113) a + S1x1x1x512.size a ≤ S8x128x128x512.size a)
instance k0_chk15.dec : ∀ (i : grid0.Coords) (v113 : BitVec 32), Decidable (k0_chk15 i v113) := fun i v113 => decidable_of_iff' _ (Iff.of_eq (k0_chk15.eq_1 i v113))
theorem k0_off30_inb : ∀ (i : grid0.Coords) (v113 : BitVec 32) (k0_hw15 : k0_chk15 i v113), ∀ a, (k0_off30 i v113) a + S1x1x1x512.size a ≤ S8x128x128x512.size a := fun i v113 k0_hw15 => k0_hw15

def k0_off31 (i : grid0.Coords) : Fin 2 → Nat :=
  let arg0 : BitVec 32 := BitVec.ofNat 32 (i 0).val
  let v120 : Index := Scalar.indexCast arg0
  let c15 : Index := 15#32
  ![v120.toNat, 15]
def k0_off32 (i : grid0.Coords) (v121 : BitVec 32) : Fin 4 → Nat :=
  let arg0 : BitVec 32 := BitVec.ofNat 32 (i 0).val
  let c16_i32 : BitVec 32 := 16#32
  let c0_i32_62 : BitVec 32 := 0#32
  ![arg0.toNat, 16, v121.toNat, 0]

def k0_chk16 (i : grid0.Coords) (v121 : BitVec 32) : Prop :=
  (∀ a, (k0_off32 i v121) a + S1x1x1x512.size a ≤ S8x128x128x512.size a)
instance k0_chk16.dec : ∀ (i : grid0.Coords) (v121 : BitVec 32), Decidable (k0_chk16 i v121) := fun i v121 => decidable_of_iff' _ (Iff.of_eq (k0_chk16.eq_1 i v121))
theorem k0_off32_inb : ∀ (i : grid0.Coords) (v121 : BitVec 32) (k0_hw16 : k0_chk16 i v121), ∀ a, (k0_off32 i v121) a + S1x1x1x512.size a ≤ S8x128x128x512.size a := fun i v121 k0_hw16 => k0_hw16

def k0_off33 (i : grid0.Coords) : Fin 2 → Nat :=
  let arg0 : BitVec 32 := BitVec.ofNat 32 (i 0).val
  let v128 : Index := Scalar.indexCast arg0
  let c16 : Index := 16#32
  ![v128.toNat, 16]
def k0_off34 (i : grid0.Coords) (v129 : BitVec 32) : Fin 4 → Nat :=
  let arg0 : BitVec 32 := BitVec.ofNat 32 (i 0).val
  let c17_i32 : BitVec 32 := 17#32
  let c0_i32_66 : BitVec 32 := 0#32
  ![arg0.toNat, 17, v129.toNat, 0]

def k0_chk17 (i : grid0.Coords) (v129 : BitVec 32) : Prop :=
  (∀ a, (k0_off34 i v129) a + S1x1x1x512.size a ≤ S8x128x128x512.size a)
instance k0_chk17.dec : ∀ (i : grid0.Coords) (v129 : BitVec 32), Decidable (k0_chk17 i v129) := fun i v129 => decidable_of_iff' _ (Iff.of_eq (k0_chk17.eq_1 i v129))
theorem k0_off34_inb : ∀ (i : grid0.Coords) (v129 : BitVec 32) (k0_hw17 : k0_chk17 i v129), ∀ a, (k0_off34 i v129) a + S1x1x1x512.size a ≤ S8x128x128x512.size a := fun i v129 k0_hw17 => k0_hw17

def k0_off35 (i : grid0.Coords) : Fin 2 → Nat :=
  let arg0 : BitVec 32 := BitVec.ofNat 32 (i 0).val
  let v136 : Index := Scalar.indexCast arg0
  let c17 : Index := 17#32
  ![v136.toNat, 17]
def k0_off36 (i : grid0.Coords) (v137 : BitVec 32) : Fin 4 → Nat :=
  let arg0 : BitVec 32 := BitVec.ofNat 32 (i 0).val
  let c18_i32 : BitVec 32 := 18#32
  let c0_i32_70 : BitVec 32 := 0#32
  ![arg0.toNat, 18, v137.toNat, 0]

def k0_chk18 (i : grid0.Coords) (v137 : BitVec 32) : Prop :=
  (∀ a, (k0_off36 i v137) a + S1x1x1x512.size a ≤ S8x128x128x512.size a)
instance k0_chk18.dec : ∀ (i : grid0.Coords) (v137 : BitVec 32), Decidable (k0_chk18 i v137) := fun i v137 => decidable_of_iff' _ (Iff.of_eq (k0_chk18.eq_1 i v137))
theorem k0_off36_inb : ∀ (i : grid0.Coords) (v137 : BitVec 32) (k0_hw18 : k0_chk18 i v137), ∀ a, (k0_off36 i v137) a + S1x1x1x512.size a ≤ S8x128x128x512.size a := fun i v137 k0_hw18 => k0_hw18

def k0_off37 (i : grid0.Coords) : Fin 2 → Nat :=
  let arg0 : BitVec 32 := BitVec.ofNat 32 (i 0).val
  let v144 : Index := Scalar.indexCast arg0
  let c18 : Index := 18#32
  ![v144.toNat, 18]
def k0_off38 (i : grid0.Coords) (v145 : BitVec 32) : Fin 4 → Nat :=
  let arg0 : BitVec 32 := BitVec.ofNat 32 (i 0).val
  let c19_i32 : BitVec 32 := 19#32
  let c0_i32_74 : BitVec 32 := 0#32
  ![arg0.toNat, 19, v145.toNat, 0]

def k0_chk19 (i : grid0.Coords) (v145 : BitVec 32) : Prop :=
  (∀ a, (k0_off38 i v145) a + S1x1x1x512.size a ≤ S8x128x128x512.size a)
instance k0_chk19.dec : ∀ (i : grid0.Coords) (v145 : BitVec 32), Decidable (k0_chk19 i v145) := fun i v145 => decidable_of_iff' _ (Iff.of_eq (k0_chk19.eq_1 i v145))
theorem k0_off38_inb : ∀ (i : grid0.Coords) (v145 : BitVec 32) (k0_hw19 : k0_chk19 i v145), ∀ a, (k0_off38 i v145) a + S1x1x1x512.size a ≤ S8x128x128x512.size a := fun i v145 k0_hw19 => k0_hw19

def k0_off39 (i : grid0.Coords) : Fin 2 → Nat :=
  let arg0 : BitVec 32 := BitVec.ofNat 32 (i 0).val
  let v152 : Index := Scalar.indexCast arg0
  let c19 : Index := 19#32
  ![v152.toNat, 19]
def k0_off40 (i : grid0.Coords) (v153 : BitVec 32) : Fin 4 → Nat :=
  let arg0 : BitVec 32 := BitVec.ofNat 32 (i 0).val
  let c20_i32 : BitVec 32 := 20#32
  let c0_i32_78 : BitVec 32 := 0#32
  ![arg0.toNat, 20, v153.toNat, 0]

def k0_chk20 (i : grid0.Coords) (v153 : BitVec 32) : Prop :=
  (∀ a, (k0_off40 i v153) a + S1x1x1x512.size a ≤ S8x128x128x512.size a)
instance k0_chk20.dec : ∀ (i : grid0.Coords) (v153 : BitVec 32), Decidable (k0_chk20 i v153) := fun i v153 => decidable_of_iff' _ (Iff.of_eq (k0_chk20.eq_1 i v153))
theorem k0_off40_inb : ∀ (i : grid0.Coords) (v153 : BitVec 32) (k0_hw20 : k0_chk20 i v153), ∀ a, (k0_off40 i v153) a + S1x1x1x512.size a ≤ S8x128x128x512.size a := fun i v153 k0_hw20 => k0_hw20

def k0_off41 (i : grid0.Coords) : Fin 2 → Nat :=
  let arg0 : BitVec 32 := BitVec.ofNat 32 (i 0).val
  let v160 : Index := Scalar.indexCast arg0
  let c20 : Index := 20#32
  ![v160.toNat, 20]
def k0_off42 (i : grid0.Coords) (v161 : BitVec 32) : Fin 4 → Nat :=
  let arg0 : BitVec 32 := BitVec.ofNat 32 (i 0).val
  let c21_i32 : BitVec 32 := 21#32
  let c0_i32_82 : BitVec 32 := 0#32
  ![arg0.toNat, 21, v161.toNat, 0]

def k0_chk21 (i : grid0.Coords) (v161 : BitVec 32) : Prop :=
  (∀ a, (k0_off42 i v161) a + S1x1x1x512.size a ≤ S8x128x128x512.size a)
instance k0_chk21.dec : ∀ (i : grid0.Coords) (v161 : BitVec 32), Decidable (k0_chk21 i v161) := fun i v161 => decidable_of_iff' _ (Iff.of_eq (k0_chk21.eq_1 i v161))
theorem k0_off42_inb : ∀ (i : grid0.Coords) (v161 : BitVec 32) (k0_hw21 : k0_chk21 i v161), ∀ a, (k0_off42 i v161) a + S1x1x1x512.size a ≤ S8x128x128x512.size a := fun i v161 k0_hw21 => k0_hw21

def k0_off43 (i : grid0.Coords) : Fin 2 → Nat :=
  let arg0 : BitVec 32 := BitVec.ofNat 32 (i 0).val
  let v168 : Index := Scalar.indexCast arg0
  let c21 : Index := 21#32
  ![v168.toNat, 21]
def k0_off44 (i : grid0.Coords) (v169 : BitVec 32) : Fin 4 → Nat :=
  let arg0 : BitVec 32 := BitVec.ofNat 32 (i 0).val
  let c22_i32 : BitVec 32 := 22#32
  let c0_i32_86 : BitVec 32 := 0#32
  ![arg0.toNat, 22, v169.toNat, 0]

def k0_chk22 (i : grid0.Coords) (v169 : BitVec 32) : Prop :=
  (∀ a, (k0_off44 i v169) a + S1x1x1x512.size a ≤ S8x128x128x512.size a)
instance k0_chk22.dec : ∀ (i : grid0.Coords) (v169 : BitVec 32), Decidable (k0_chk22 i v169) := fun i v169 => decidable_of_iff' _ (Iff.of_eq (k0_chk22.eq_1 i v169))
theorem k0_off44_inb : ∀ (i : grid0.Coords) (v169 : BitVec 32) (k0_hw22 : k0_chk22 i v169), ∀ a, (k0_off44 i v169) a + S1x1x1x512.size a ≤ S8x128x128x512.size a := fun i v169 k0_hw22 => k0_hw22

def k0_off45 (i : grid0.Coords) : Fin 2 → Nat :=
  let arg0 : BitVec 32 := BitVec.ofNat 32 (i 0).val
  let v176 : Index := Scalar.indexCast arg0
  let c22 : Index := 22#32
  ![v176.toNat, 22]
def k0_off46 (i : grid0.Coords) (v177 : BitVec 32) : Fin 4 → Nat :=
  let arg0 : BitVec 32 := BitVec.ofNat 32 (i 0).val
  let c23_i32 : BitVec 32 := 23#32
  let c0_i32_90 : BitVec 32 := 0#32
  ![arg0.toNat, 23, v177.toNat, 0]

def k0_chk23 (i : grid0.Coords) (v177 : BitVec 32) : Prop :=
  (∀ a, (k0_off46 i v177) a + S1x1x1x512.size a ≤ S8x128x128x512.size a)
instance k0_chk23.dec : ∀ (i : grid0.Coords) (v177 : BitVec 32), Decidable (k0_chk23 i v177) := fun i v177 => decidable_of_iff' _ (Iff.of_eq (k0_chk23.eq_1 i v177))
theorem k0_off46_inb : ∀ (i : grid0.Coords) (v177 : BitVec 32) (k0_hw23 : k0_chk23 i v177), ∀ a, (k0_off46 i v177) a + S1x1x1x512.size a ≤ S8x128x128x512.size a := fun i v177 k0_hw23 => k0_hw23

def k0_off47 (i : grid0.Coords) : Fin 2 → Nat :=
  let arg0 : BitVec 32 := BitVec.ofNat 32 (i 0).val
  let v184 : Index := Scalar.indexCast arg0
  let c23 : Index := 23#32
  ![v184.toNat, 23]
def k0_off48 (i : grid0.Coords) (v185 : BitVec 32) : Fin 4 → Nat :=
  let arg0 : BitVec 32 := BitVec.ofNat 32 (i 0).val
  let c24_i32 : BitVec 32 := 24#32
  let c0_i32_94 : BitVec 32 := 0#32
  ![arg0.toNat, 24, v185.toNat, 0]

def k0_chk24 (i : grid0.Coords) (v185 : BitVec 32) : Prop :=
  (∀ a, (k0_off48 i v185) a + S1x1x1x512.size a ≤ S8x128x128x512.size a)
instance k0_chk24.dec : ∀ (i : grid0.Coords) (v185 : BitVec 32), Decidable (k0_chk24 i v185) := fun i v185 => decidable_of_iff' _ (Iff.of_eq (k0_chk24.eq_1 i v185))
theorem k0_off48_inb : ∀ (i : grid0.Coords) (v185 : BitVec 32) (k0_hw24 : k0_chk24 i v185), ∀ a, (k0_off48 i v185) a + S1x1x1x512.size a ≤ S8x128x128x512.size a := fun i v185 k0_hw24 => k0_hw24

def k0_off49 (i : grid0.Coords) : Fin 2 → Nat :=
  let arg0 : BitVec 32 := BitVec.ofNat 32 (i 0).val
  let v192 : Index := Scalar.indexCast arg0
  let c24 : Index := 24#32
  ![v192.toNat, 24]
def k0_off50 (i : grid0.Coords) (v193 : BitVec 32) : Fin 4 → Nat :=
  let arg0 : BitVec 32 := BitVec.ofNat 32 (i 0).val
  let c25_i32 : BitVec 32 := 25#32
  let c0_i32_98 : BitVec 32 := 0#32
  ![arg0.toNat, 25, v193.toNat, 0]

def k0_chk25 (i : grid0.Coords) (v193 : BitVec 32) : Prop :=
  (∀ a, (k0_off50 i v193) a + S1x1x1x512.size a ≤ S8x128x128x512.size a)
instance k0_chk25.dec : ∀ (i : grid0.Coords) (v193 : BitVec 32), Decidable (k0_chk25 i v193) := fun i v193 => decidable_of_iff' _ (Iff.of_eq (k0_chk25.eq_1 i v193))
theorem k0_off50_inb : ∀ (i : grid0.Coords) (v193 : BitVec 32) (k0_hw25 : k0_chk25 i v193), ∀ a, (k0_off50 i v193) a + S1x1x1x512.size a ≤ S8x128x128x512.size a := fun i v193 k0_hw25 => k0_hw25

def k0_off51 (i : grid0.Coords) : Fin 2 → Nat :=
  let arg0 : BitVec 32 := BitVec.ofNat 32 (i 0).val
  let v200 : Index := Scalar.indexCast arg0
  let c25 : Index := 25#32
  ![v200.toNat, 25]
def k0_off52 (i : grid0.Coords) (v201 : BitVec 32) : Fin 4 → Nat :=
  let arg0 : BitVec 32 := BitVec.ofNat 32 (i 0).val
  let c26_i32 : BitVec 32 := 26#32
  let c0_i32_102 : BitVec 32 := 0#32
  ![arg0.toNat, 26, v201.toNat, 0]

def k0_chk26 (i : grid0.Coords) (v201 : BitVec 32) : Prop :=
  (∀ a, (k0_off52 i v201) a + S1x1x1x512.size a ≤ S8x128x128x512.size a)
instance k0_chk26.dec : ∀ (i : grid0.Coords) (v201 : BitVec 32), Decidable (k0_chk26 i v201) := fun i v201 => decidable_of_iff' _ (Iff.of_eq (k0_chk26.eq_1 i v201))
theorem k0_off52_inb : ∀ (i : grid0.Coords) (v201 : BitVec 32) (k0_hw26 : k0_chk26 i v201), ∀ a, (k0_off52 i v201) a + S1x1x1x512.size a ≤ S8x128x128x512.size a := fun i v201 k0_hw26 => k0_hw26

def k0_off53 (i : grid0.Coords) : Fin 2 → Nat :=
  let arg0 : BitVec 32 := BitVec.ofNat 32 (i 0).val
  let v208 : Index := Scalar.indexCast arg0
  let c26 : Index := 26#32
  ![v208.toNat, 26]
def k0_off54 (i : grid0.Coords) (v209 : BitVec 32) : Fin 4 → Nat :=
  let arg0 : BitVec 32 := BitVec.ofNat 32 (i 0).val
  let c27_i32 : BitVec 32 := 27#32
  let c0_i32_106 : BitVec 32 := 0#32
  ![arg0.toNat, 27, v209.toNat, 0]

def k0_chk27 (i : grid0.Coords) (v209 : BitVec 32) : Prop :=
  (∀ a, (k0_off54 i v209) a + S1x1x1x512.size a ≤ S8x128x128x512.size a)
instance k0_chk27.dec : ∀ (i : grid0.Coords) (v209 : BitVec 32), Decidable (k0_chk27 i v209) := fun i v209 => decidable_of_iff' _ (Iff.of_eq (k0_chk27.eq_1 i v209))
theorem k0_off54_inb : ∀ (i : grid0.Coords) (v209 : BitVec 32) (k0_hw27 : k0_chk27 i v209), ∀ a, (k0_off54 i v209) a + S1x1x1x512.size a ≤ S8x128x128x512.size a := fun i v209 k0_hw27 => k0_hw27

def k0_off55 (i : grid0.Coords) : Fin 2 → Nat :=
  let arg0 : BitVec 32 := BitVec.ofNat 32 (i 0).val
  let v216 : Index := Scalar.indexCast arg0
  let c27 : Index := 27#32
  ![v216.toNat, 27]
def k0_off56 (i : grid0.Coords) (v217 : BitVec 32) : Fin 4 → Nat :=
  let arg0 : BitVec 32 := BitVec.ofNat 32 (i 0).val
  let c28_i32 : BitVec 32 := 28#32
  let c0_i32_110 : BitVec 32 := 0#32
  ![arg0.toNat, 28, v217.toNat, 0]

def k0_chk28 (i : grid0.Coords) (v217 : BitVec 32) : Prop :=
  (∀ a, (k0_off56 i v217) a + S1x1x1x512.size a ≤ S8x128x128x512.size a)
instance k0_chk28.dec : ∀ (i : grid0.Coords) (v217 : BitVec 32), Decidable (k0_chk28 i v217) := fun i v217 => decidable_of_iff' _ (Iff.of_eq (k0_chk28.eq_1 i v217))
theorem k0_off56_inb : ∀ (i : grid0.Coords) (v217 : BitVec 32) (k0_hw28 : k0_chk28 i v217), ∀ a, (k0_off56 i v217) a + S1x1x1x512.size a ≤ S8x128x128x512.size a := fun i v217 k0_hw28 => k0_hw28

def k0_off57 (i : grid0.Coords) : Fin 2 → Nat :=
  let arg0 : BitVec 32 := BitVec.ofNat 32 (i 0).val
  let v224 : Index := Scalar.indexCast arg0
  let c28 : Index := 28#32
  ![v224.toNat, 28]
def k0_off58 (i : grid0.Coords) (v225 : BitVec 32) : Fin 4 → Nat :=
  let arg0 : BitVec 32 := BitVec.ofNat 32 (i 0).val
  let c29_i32 : BitVec 32 := 29#32
  let c0_i32_114 : BitVec 32 := 0#32
  ![arg0.toNat, 29, v225.toNat, 0]

def k0_chk29 (i : grid0.Coords) (v225 : BitVec 32) : Prop :=
  (∀ a, (k0_off58 i v225) a + S1x1x1x512.size a ≤ S8x128x128x512.size a)
instance k0_chk29.dec : ∀ (i : grid0.Coords) (v225 : BitVec 32), Decidable (k0_chk29 i v225) := fun i v225 => decidable_of_iff' _ (Iff.of_eq (k0_chk29.eq_1 i v225))
theorem k0_off58_inb : ∀ (i : grid0.Coords) (v225 : BitVec 32) (k0_hw29 : k0_chk29 i v225), ∀ a, (k0_off58 i v225) a + S1x1x1x512.size a ≤ S8x128x128x512.size a := fun i v225 k0_hw29 => k0_hw29

def k0_off59 (i : grid0.Coords) : Fin 2 → Nat :=
  let arg0 : BitVec 32 := BitVec.ofNat 32 (i 0).val
  let v232 : Index := Scalar.indexCast arg0
  let c29 : Index := 29#32
  ![v232.toNat, 29]
def k0_off60 (i : grid0.Coords) (v233 : BitVec 32) : Fin 4 → Nat :=
  let arg0 : BitVec 32 := BitVec.ofNat 32 (i 0).val
  let c30_i32 : BitVec 32 := 30#32
  let c0_i32_118 : BitVec 32 := 0#32
  ![arg0.toNat, 30, v233.toNat, 0]

def k0_chk30 (i : grid0.Coords) (v233 : BitVec 32) : Prop :=
  (∀ a, (k0_off60 i v233) a + S1x1x1x512.size a ≤ S8x128x128x512.size a)
instance k0_chk30.dec : ∀ (i : grid0.Coords) (v233 : BitVec 32), Decidable (k0_chk30 i v233) := fun i v233 => decidable_of_iff' _ (Iff.of_eq (k0_chk30.eq_1 i v233))
theorem k0_off60_inb : ∀ (i : grid0.Coords) (v233 : BitVec 32) (k0_hw30 : k0_chk30 i v233), ∀ a, (k0_off60 i v233) a + S1x1x1x512.size a ≤ S8x128x128x512.size a := fun i v233 k0_hw30 => k0_hw30

def k0_off61 (i : grid0.Coords) : Fin 2 → Nat :=
  let arg0 : BitVec 32 := BitVec.ofNat 32 (i 0).val
  let v240 : Index := Scalar.indexCast arg0
  let c30 : Index := 30#32
  ![v240.toNat, 30]
def k0_off62 (i : grid0.Coords) (v241 : BitVec 32) : Fin 4 → Nat :=
  let arg0 : BitVec 32 := BitVec.ofNat 32 (i 0).val
  let c31_i32 : BitVec 32 := 31#32
  let c0_i32_122 : BitVec 32 := 0#32
  ![arg0.toNat, 31, v241.toNat, 0]

def k0_chk31 (i : grid0.Coords) (v241 : BitVec 32) : Prop :=
  (∀ a, (k0_off62 i v241) a + S1x1x1x512.size a ≤ S8x128x128x512.size a)
instance k0_chk31.dec : ∀ (i : grid0.Coords) (v241 : BitVec 32), Decidable (k0_chk31 i v241) := fun i v241 => decidable_of_iff' _ (Iff.of_eq (k0_chk31.eq_1 i v241))
theorem k0_off62_inb : ∀ (i : grid0.Coords) (v241 : BitVec 32) (k0_hw31 : k0_chk31 i v241), ∀ a, (k0_off62 i v241) a + S1x1x1x512.size a ≤ S8x128x128x512.size a := fun i v241 k0_hw31 => k0_hw31

def k0_off63 (i : grid0.Coords) : Fin 2 → Nat :=
  let arg0 : BitVec 32 := BitVec.ofNat 32 (i 0).val
  let v248 : Index := Scalar.indexCast arg0
  let c31 : Index := 31#32
  ![v248.toNat, 31]
def k0_off64 (i : grid0.Coords) (v249 : BitVec 32) : Fin 4 → Nat :=
  let arg0 : BitVec 32 := BitVec.ofNat 32 (i 0).val
  let c32_i32 : BitVec 32 := 32#32
  let c0_i32_126 : BitVec 32 := 0#32
  ![arg0.toNat, 32, v249.toNat, 0]

def k0_chk32 (i : grid0.Coords) (v249 : BitVec 32) : Prop :=
  (∀ a, (k0_off64 i v249) a + S1x1x1x512.size a ≤ S8x128x128x512.size a)
instance k0_chk32.dec : ∀ (i : grid0.Coords) (v249 : BitVec 32), Decidable (k0_chk32 i v249) := fun i v249 => decidable_of_iff' _ (Iff.of_eq (k0_chk32.eq_1 i v249))
theorem k0_off64_inb : ∀ (i : grid0.Coords) (v249 : BitVec 32) (k0_hw32 : k0_chk32 i v249), ∀ a, (k0_off64 i v249) a + S1x1x1x512.size a ≤ S8x128x128x512.size a := fun i v249 k0_hw32 => k0_hw32

def k0_off65 (i : grid0.Coords) : Fin 4 → Nat :=
  let arg0 : BitVec 32 := BitVec.ofNat 32 (i 0).val
  let c0_i32_127 : BitVec 32 := 0#32
  let c0_i32_128 : BitVec 32 := 0#32
  let c0_i32_132 : BitVec 32 := 0#32
  ![arg0.toNat, 0, 0, 0]
def k0_off66 (i : grid0.Coords) : Fin 2 → Nat :=
  let arg0 : BitVec 32 := BitVec.ofNat 32 (i 0).val
  let v448 : Index := Scalar.indexCast arg0
  let c32 : Index := 32#32
  ![v448.toNat, 32]
def k0_off67 (i : grid0.Coords) (v449 : BitVec 32) : Fin 4 → Nat :=
  let arg0 : BitVec 32 := BitVec.ofNat 32 (i 0).val
  let c33_i32 : BitVec 32 := 33#32
  let c0_i32_322 : BitVec 32 := 0#32
  ![arg0.toNat, 33, v449.toNat, 0]

def k0_chk33 (i : grid0.Coords) (v449 : BitVec 32) : Prop :=
  (∀ a, (k0_off67 i v449) a + S1x1x1x512.size a ≤ S8x128x128x512.size a)
instance k0_chk33.dec : ∀ (i : grid0.Coords) (v449 : BitVec 32), Decidable (k0_chk33 i v449) := fun i v449 => decidable_of_iff' _ (Iff.of_eq (k0_chk33.eq_1 i v449))
theorem k0_off67_inb : ∀ (i : grid0.Coords) (v449 : BitVec 32) (k0_hw33 : k0_chk33 i v449), ∀ a, (k0_off67 i v449) a + S1x1x1x512.size a ≤ S8x128x128x512.size a := fun i v449 k0_hw33 => k0_hw33

def k0_off68 (i : grid0.Coords) : Fin 2 → Nat :=
  let arg0 : BitVec 32 := BitVec.ofNat 32 (i 0).val
  let v456 : Index := Scalar.indexCast arg0
  let c33 : Index := 33#32
  ![v456.toNat, 33]
def k0_off69 (i : grid0.Coords) (v457 : BitVec 32) : Fin 4 → Nat :=
  let arg0 : BitVec 32 := BitVec.ofNat 32 (i 0).val
  let c34_i32 : BitVec 32 := 34#32
  let c0_i32_326 : BitVec 32 := 0#32
  ![arg0.toNat, 34, v457.toNat, 0]

def k0_chk34 (i : grid0.Coords) (v457 : BitVec 32) : Prop :=
  (∀ a, (k0_off69 i v457) a + S1x1x1x512.size a ≤ S8x128x128x512.size a)
instance k0_chk34.dec : ∀ (i : grid0.Coords) (v457 : BitVec 32), Decidable (k0_chk34 i v457) := fun i v457 => decidable_of_iff' _ (Iff.of_eq (k0_chk34.eq_1 i v457))
theorem k0_off69_inb : ∀ (i : grid0.Coords) (v457 : BitVec 32) (k0_hw34 : k0_chk34 i v457), ∀ a, (k0_off69 i v457) a + S1x1x1x512.size a ≤ S8x128x128x512.size a := fun i v457 k0_hw34 => k0_hw34

def k0_off70 (i : grid0.Coords) : Fin 2 → Nat :=
  let arg0 : BitVec 32 := BitVec.ofNat 32 (i 0).val
  let v464 : Index := Scalar.indexCast arg0
  let c34 : Index := 34#32
  ![v464.toNat, 34]
def k0_off71 (i : grid0.Coords) (v465 : BitVec 32) : Fin 4 → Nat :=
  let arg0 : BitVec 32 := BitVec.ofNat 32 (i 0).val
  let c35_i32 : BitVec 32 := 35#32
  let c0_i32_330 : BitVec 32 := 0#32
  ![arg0.toNat, 35, v465.toNat, 0]

def k0_chk35 (i : grid0.Coords) (v465 : BitVec 32) : Prop :=
  (∀ a, (k0_off71 i v465) a + S1x1x1x512.size a ≤ S8x128x128x512.size a)
instance k0_chk35.dec : ∀ (i : grid0.Coords) (v465 : BitVec 32), Decidable (k0_chk35 i v465) := fun i v465 => decidable_of_iff' _ (Iff.of_eq (k0_chk35.eq_1 i v465))
theorem k0_off71_inb : ∀ (i : grid0.Coords) (v465 : BitVec 32) (k0_hw35 : k0_chk35 i v465), ∀ a, (k0_off71 i v465) a + S1x1x1x512.size a ≤ S8x128x128x512.size a := fun i v465 k0_hw35 => k0_hw35

def k0_off72 (i : grid0.Coords) : Fin 2 → Nat :=
  let arg0 : BitVec 32 := BitVec.ofNat 32 (i 0).val
  let v472 : Index := Scalar.indexCast arg0
  let c35 : Index := 35#32
  ![v472.toNat, 35]
def k0_off73 (i : grid0.Coords) (v473 : BitVec 32) : Fin 4 → Nat :=
  let arg0 : BitVec 32 := BitVec.ofNat 32 (i 0).val
  let c36_i32 : BitVec 32 := 36#32
  let c0_i32_334 : BitVec 32 := 0#32
  ![arg0.toNat, 36, v473.toNat, 0]

def k0_chk36 (i : grid0.Coords) (v473 : BitVec 32) : Prop :=
  (∀ a, (k0_off73 i v473) a + S1x1x1x512.size a ≤ S8x128x128x512.size a)
instance k0_chk36.dec : ∀ (i : grid0.Coords) (v473 : BitVec 32), Decidable (k0_chk36 i v473) := fun i v473 => decidable_of_iff' _ (Iff.of_eq (k0_chk36.eq_1 i v473))
theorem k0_off73_inb : ∀ (i : grid0.Coords) (v473 : BitVec 32) (k0_hw36 : k0_chk36 i v473), ∀ a, (k0_off73 i v473) a + S1x1x1x512.size a ≤ S8x128x128x512.size a := fun i v473 k0_hw36 => k0_hw36

def k0_off74 (i : grid0.Coords) : Fin 2 → Nat :=
  let arg0 : BitVec 32 := BitVec.ofNat 32 (i 0).val
  let v480 : Index := Scalar.indexCast arg0
  let c36 : Index := 36#32
  ![v480.toNat, 36]
def k0_off75 (i : grid0.Coords) (v481 : BitVec 32) : Fin 4 → Nat :=
  let arg0 : BitVec 32 := BitVec.ofNat 32 (i 0).val
  let c37_i32 : BitVec 32 := 37#32
  let c0_i32_338 : BitVec 32 := 0#32
  ![arg0.toNat, 37, v481.toNat, 0]

def k0_chk37 (i : grid0.Coords) (v481 : BitVec 32) : Prop :=
  (∀ a, (k0_off75 i v481) a + S1x1x1x512.size a ≤ S8x128x128x512.size a)
instance k0_chk37.dec : ∀ (i : grid0.Coords) (v481 : BitVec 32), Decidable (k0_chk37 i v481) := fun i v481 => decidable_of_iff' _ (Iff.of_eq (k0_chk37.eq_1 i v481))
theorem k0_off75_inb : ∀ (i : grid0.Coords) (v481 : BitVec 32) (k0_hw37 : k0_chk37 i v481), ∀ a, (k0_off75 i v481) a + S1x1x1x512.size a ≤ S8x128x128x512.size a := fun i v481 k0_hw37 => k0_hw37

def k0_off76 (i : grid0.Coords) : Fin 2 → Nat :=
  let arg0 : BitVec 32 := BitVec.ofNat 32 (i 0).val
  let v488 : Index := Scalar.indexCast arg0
  let c37 : Index := 37#32
  ![v488.toNat, 37]
def k0_off77 (i : grid0.Coords) (v489 : BitVec 32) : Fin 4 → Nat :=
  let arg0 : BitVec 32 := BitVec.ofNat 32 (i 0).val
  let c38_i32 : BitVec 32 := 38#32
  let c0_i32_342 : BitVec 32 := 0#32
  ![arg0.toNat, 38, v489.toNat, 0]

def k0_chk38 (i : grid0.Coords) (v489 : BitVec 32) : Prop :=
  (∀ a, (k0_off77 i v489) a + S1x1x1x512.size a ≤ S8x128x128x512.size a)
instance k0_chk38.dec : ∀ (i : grid0.Coords) (v489 : BitVec 32), Decidable (k0_chk38 i v489) := fun i v489 => decidable_of_iff' _ (Iff.of_eq (k0_chk38.eq_1 i v489))
theorem k0_off77_inb : ∀ (i : grid0.Coords) (v489 : BitVec 32) (k0_hw38 : k0_chk38 i v489), ∀ a, (k0_off77 i v489) a + S1x1x1x512.size a ≤ S8x128x128x512.size a := fun i v489 k0_hw38 => k0_hw38

def k0_off78 (i : grid0.Coords) : Fin 2 → Nat :=
  let arg0 : BitVec 32 := BitVec.ofNat 32 (i 0).val
  let v496 : Index := Scalar.indexCast arg0
  let c38 : Index := 38#32
  ![v496.toNat, 38]
def k0_off79 (i : grid0.Coords) (v497 : BitVec 32) : Fin 4 → Nat :=
  let arg0 : BitVec 32 := BitVec.ofNat 32 (i 0).val
  let c39_i32 : BitVec 32 := 39#32
  let c0_i32_346 : BitVec 32 := 0#32
  ![arg0.toNat, 39, v497.toNat, 0]

def k0_chk39 (i : grid0.Coords) (v497 : BitVec 32) : Prop :=
  (∀ a, (k0_off79 i v497) a + S1x1x1x512.size a ≤ S8x128x128x512.size a)
instance k0_chk39.dec : ∀ (i : grid0.Coords) (v497 : BitVec 32), Decidable (k0_chk39 i v497) := fun i v497 => decidable_of_iff' _ (Iff.of_eq (k0_chk39.eq_1 i v497))
theorem k0_off79_inb : ∀ (i : grid0.Coords) (v497 : BitVec 32) (k0_hw39 : k0_chk39 i v497), ∀ a, (k0_off79 i v497) a + S1x1x1x512.size a ≤ S8x128x128x512.size a := fun i v497 k0_hw39 => k0_hw39

def k0_off80 (i : grid0.Coords) : Fin 2 → Nat :=
  let arg0 : BitVec 32 := BitVec.ofNat 32 (i 0).val
  let v504 : Index := Scalar.indexCast arg0
  let c39 : Index := 39#32
  ![v504.toNat, 39]
def k0_off81 (i : grid0.Coords) (v505 : BitVec 32) : Fin 4 → Nat :=
  let arg0 : BitVec 32 := BitVec.ofNat 32 (i 0).val
  let c40_i32 : BitVec 32 := 40#32
  let c0_i32_350 : BitVec 32 := 0#32
  ![arg0.toNat, 40, v505.toNat, 0]

def k0_chk40 (i : grid0.Coords) (v505 : BitVec 32) : Prop :=
  (∀ a, (k0_off81 i v505) a + S1x1x1x512.size a ≤ S8x128x128x512.size a)
instance k0_chk40.dec : ∀ (i : grid0.Coords) (v505 : BitVec 32), Decidable (k0_chk40 i v505) := fun i v505 => decidable_of_iff' _ (Iff.of_eq (k0_chk40.eq_1 i v505))
theorem k0_off81_inb : ∀ (i : grid0.Coords) (v505 : BitVec 32) (k0_hw40 : k0_chk40 i v505), ∀ a, (k0_off81 i v505) a + S1x1x1x512.size a ≤ S8x128x128x512.size a := fun i v505 k0_hw40 => k0_hw40

def k0_off82 (i : grid0.Coords) : Fin 2 → Nat :=
  let arg0 : BitVec 32 := BitVec.ofNat 32 (i 0).val
  let v512 : Index := Scalar.indexCast arg0
  let c40 : Index := 40#32
  ![v512.toNat, 40]
def k0_off83 (i : grid0.Coords) (v513 : BitVec 32) : Fin 4 → Nat :=
  let arg0 : BitVec 32 := BitVec.ofNat 32 (i 0).val
  let c41_i32 : BitVec 32 := 41#32
  let c0_i32_354 : BitVec 32 := 0#32
  ![arg0.toNat, 41, v513.toNat, 0]

def k0_chk41 (i : grid0.Coords) (v513 : BitVec 32) : Prop :=
  (∀ a, (k0_off83 i v513) a + S1x1x1x512.size a ≤ S8x128x128x512.size a)
instance k0_chk41.dec : ∀ (i : grid0.Coords) (v513 : BitVec 32), Decidable (k0_chk41 i v513) := fun i v513 => decidable_of_iff' _ (Iff.of_eq (k0_chk41.eq_1 i v513))
theorem k0_off83_inb : ∀ (i : grid0.Coords) (v513 : BitVec 32) (k0_hw41 : k0_chk41 i v513), ∀ a, (k0_off83 i v513) a + S1x1x1x512.size a ≤ S8x128x128x512.size a := fun i v513 k0_hw41 => k0_hw41

def k0_off84 (i : grid0.Coords) : Fin 2 → Nat :=
  let arg0 : BitVec 32 := BitVec.ofNat 32 (i 0).val
  let v520 : Index := Scalar.indexCast arg0
  let c41 : Index := 41#32
  ![v520.toNat, 41]
def k0_off85 (i : grid0.Coords) (v521 : BitVec 32) : Fin 4 → Nat :=
  let arg0 : BitVec 32 := BitVec.ofNat 32 (i 0).val
  let c42_i32 : BitVec 32 := 42#32
  let c0_i32_358 : BitVec 32 := 0#32
  ![arg0.toNat, 42, v521.toNat, 0]

def k0_chk42 (i : grid0.Coords) (v521 : BitVec 32) : Prop :=
  (∀ a, (k0_off85 i v521) a + S1x1x1x512.size a ≤ S8x128x128x512.size a)
instance k0_chk42.dec : ∀ (i : grid0.Coords) (v521 : BitVec 32), Decidable (k0_chk42 i v521) := fun i v521 => decidable_of_iff' _ (Iff.of_eq (k0_chk42.eq_1 i v521))
theorem k0_off85_inb : ∀ (i : grid0.Coords) (v521 : BitVec 32) (k0_hw42 : k0_chk42 i v521), ∀ a, (k0_off85 i v521) a + S1x1x1x512.size a ≤ S8x128x128x512.size a := fun i v521 k0_hw42 => k0_hw42

def k0_off86 (i : grid0.Coords) : Fin 2 → Nat :=
  let arg0 : BitVec 32 := BitVec.ofNat 32 (i 0).val
  let v528 : Index := Scalar.indexCast arg0
  let c42 : Index := 42#32
  ![v528.toNat, 42]
def k0_off87 (i : grid0.Coords) (v529 : BitVec 32) : Fin 4 → Nat :=
  let arg0 : BitVec 32 := BitVec.ofNat 32 (i 0).val
  let c43_i32 : BitVec 32 := 43#32
  let c0_i32_362 : BitVec 32 := 0#32
  ![arg0.toNat, 43, v529.toNat, 0]

def k0_chk43 (i : grid0.Coords) (v529 : BitVec 32) : Prop :=
  (∀ a, (k0_off87 i v529) a + S1x1x1x512.size a ≤ S8x128x128x512.size a)
instance k0_chk43.dec : ∀ (i : grid0.Coords) (v529 : BitVec 32), Decidable (k0_chk43 i v529) := fun i v529 => decidable_of_iff' _ (Iff.of_eq (k0_chk43.eq_1 i v529))
theorem k0_off87_inb : ∀ (i : grid0.Coords) (v529 : BitVec 32) (k0_hw43 : k0_chk43 i v529), ∀ a, (k0_off87 i v529) a + S1x1x1x512.size a ≤ S8x128x128x512.size a := fun i v529 k0_hw43 => k0_hw43

def k0_off88 (i : grid0.Coords) : Fin 2 → Nat :=
  let arg0 : BitVec 32 := BitVec.ofNat 32 (i 0).val
  let v536 : Index := Scalar.indexCast arg0
  let c43 : Index := 43#32
  ![v536.toNat, 43]
def k0_off89 (i : grid0.Coords) (v537 : BitVec 32) : Fin 4 → Nat :=
  let arg0 : BitVec 32 := BitVec.ofNat 32 (i 0).val
  let c44_i32 : BitVec 32 := 44#32
  let c0_i32_366 : BitVec 32 := 0#32
  ![arg0.toNat, 44, v537.toNat, 0]

def k0_chk44 (i : grid0.Coords) (v537 : BitVec 32) : Prop :=
  (∀ a, (k0_off89 i v537) a + S1x1x1x512.size a ≤ S8x128x128x512.size a)
instance k0_chk44.dec : ∀ (i : grid0.Coords) (v537 : BitVec 32), Decidable (k0_chk44 i v537) := fun i v537 => decidable_of_iff' _ (Iff.of_eq (k0_chk44.eq_1 i v537))
theorem k0_off89_inb : ∀ (i : grid0.Coords) (v537 : BitVec 32) (k0_hw44 : k0_chk44 i v537), ∀ a, (k0_off89 i v537) a + S1x1x1x512.size a ≤ S8x128x128x512.size a := fun i v537 k0_hw44 => k0_hw44

def k0_off90 (i : grid0.Coords) : Fin 2 → Nat :=
  let arg0 : BitVec 32 := BitVec.ofNat 32 (i 0).val
  let v544 : Index := Scalar.indexCast arg0
  let c44 : Index := 44#32
  ![v544.toNat, 44]
def k0_off91 (i : grid0.Coords) (v545 : BitVec 32) : Fin 4 → Nat :=
  let arg0 : BitVec 32 := BitVec.ofNat 32 (i 0).val
  let c45_i32 : BitVec 32 := 45#32
  let c0_i32_370 : BitVec 32 := 0#32
  ![arg0.toNat, 45, v545.toNat, 0]

def k0_chk45 (i : grid0.Coords) (v545 : BitVec 32) : Prop :=
  (∀ a, (k0_off91 i v545) a + S1x1x1x512.size a ≤ S8x128x128x512.size a)
instance k0_chk45.dec : ∀ (i : grid0.Coords) (v545 : BitVec 32), Decidable (k0_chk45 i v545) := fun i v545 => decidable_of_iff' _ (Iff.of_eq (k0_chk45.eq_1 i v545))
theorem k0_off91_inb : ∀ (i : grid0.Coords) (v545 : BitVec 32) (k0_hw45 : k0_chk45 i v545), ∀ a, (k0_off91 i v545) a + S1x1x1x512.size a ≤ S8x128x128x512.size a := fun i v545 k0_hw45 => k0_hw45

def k0_off92 (i : grid0.Coords) : Fin 2 → Nat :=
  let arg0 : BitVec 32 := BitVec.ofNat 32 (i 0).val
  let v552 : Index := Scalar.indexCast arg0
  let c45 : Index := 45#32
  ![v552.toNat, 45]
def k0_off93 (i : grid0.Coords) (v553 : BitVec 32) : Fin 4 → Nat :=
  let arg0 : BitVec 32 := BitVec.ofNat 32 (i 0).val
  let c46_i32 : BitVec 32 := 46#32
  let c0_i32_374 : BitVec 32 := 0#32
  ![arg0.toNat, 46, v553.toNat, 0]

def k0_chk46 (i : grid0.Coords) (v553 : BitVec 32) : Prop :=
  (∀ a, (k0_off93 i v553) a + S1x1x1x512.size a ≤ S8x128x128x512.size a)
instance k0_chk46.dec : ∀ (i : grid0.Coords) (v553 : BitVec 32), Decidable (k0_chk46 i v553) := fun i v553 => decidable_of_iff' _ (Iff.of_eq (k0_chk46.eq_1 i v553))
theorem k0_off93_inb : ∀ (i : grid0.Coords) (v553 : BitVec 32) (k0_hw46 : k0_chk46 i v553), ∀ a, (k0_off93 i v553) a + S1x1x1x512.size a ≤ S8x128x128x512.size a := fun i v553 k0_hw46 => k0_hw46

def k0_off94 (i : grid0.Coords) : Fin 2 → Nat :=
  let arg0 : BitVec 32 := BitVec.ofNat 32 (i 0).val
  let v560 : Index := Scalar.indexCast arg0
  let c46 : Index := 46#32
  ![v560.toNat, 46]
def k0_off95 (i : grid0.Coords) (v561 : BitVec 32) : Fin 4 → Nat :=
  let arg0 : BitVec 32 := BitVec.ofNat 32 (i 0).val
  let c47_i32 : BitVec 32 := 47#32
  let c0_i32_378 : BitVec 32 := 0#32
  ![arg0.toNat, 47, v561.toNat, 0]

def k0_chk47 (i : grid0.Coords) (v561 : BitVec 32) : Prop :=
  (∀ a, (k0_off95 i v561) a + S1x1x1x512.size a ≤ S8x128x128x512.size a)
instance k0_chk47.dec : ∀ (i : grid0.Coords) (v561 : BitVec 32), Decidable (k0_chk47 i v561) := fun i v561 => decidable_of_iff' _ (Iff.of_eq (k0_chk47.eq_1 i v561))
theorem k0_off95_inb : ∀ (i : grid0.Coords) (v561 : BitVec 32) (k0_hw47 : k0_chk47 i v561), ∀ a, (k0_off95 i v561) a + S1x1x1x512.size a ≤ S8x128x128x512.size a := fun i v561 k0_hw47 => k0_hw47

def k0_off96 (i : grid0.Coords) : Fin 2 → Nat :=
  let arg0 : BitVec 32 := BitVec.ofNat 32 (i 0).val
  let v568 : Index := Scalar.indexCast arg0
  let c47 : Index := 47#32
  ![v568.toNat, 47]
def k0_off97 (i : grid0.Coords) (v569 : BitVec 32) : Fin 4 → Nat :=
  let arg0 : BitVec 32 := BitVec.ofNat 32 (i 0).val
  let c48_i32 : BitVec 32 := 48#32
  let c0_i32_382 : BitVec 32 := 0#32
  ![arg0.toNat, 48, v569.toNat, 0]

def k0_chk48 (i : grid0.Coords) (v569 : BitVec 32) : Prop :=
  (∀ a, (k0_off97 i v569) a + S1x1x1x512.size a ≤ S8x128x128x512.size a)
instance k0_chk48.dec : ∀ (i : grid0.Coords) (v569 : BitVec 32), Decidable (k0_chk48 i v569) := fun i v569 => decidable_of_iff' _ (Iff.of_eq (k0_chk48.eq_1 i v569))
theorem k0_off97_inb : ∀ (i : grid0.Coords) (v569 : BitVec 32) (k0_hw48 : k0_chk48 i v569), ∀ a, (k0_off97 i v569) a + S1x1x1x512.size a ≤ S8x128x128x512.size a := fun i v569 k0_hw48 => k0_hw48

def k0_off98 (i : grid0.Coords) : Fin 2 → Nat :=
  let arg0 : BitVec 32 := BitVec.ofNat 32 (i 0).val
  let v576 : Index := Scalar.indexCast arg0
  let c48 : Index := 48#32
  ![v576.toNat, 48]
def k0_off99 (i : grid0.Coords) (v577 : BitVec 32) : Fin 4 → Nat :=
  let arg0 : BitVec 32 := BitVec.ofNat 32 (i 0).val
  let c49_i32 : BitVec 32 := 49#32
  let c0_i32_386 : BitVec 32 := 0#32
  ![arg0.toNat, 49, v577.toNat, 0]

def k0_chk49 (i : grid0.Coords) (v577 : BitVec 32) : Prop :=
  (∀ a, (k0_off99 i v577) a + S1x1x1x512.size a ≤ S8x128x128x512.size a)
instance k0_chk49.dec : ∀ (i : grid0.Coords) (v577 : BitVec 32), Decidable (k0_chk49 i v577) := fun i v577 => decidable_of_iff' _ (Iff.of_eq (k0_chk49.eq_1 i v577))
theorem k0_off99_inb : ∀ (i : grid0.Coords) (v577 : BitVec 32) (k0_hw49 : k0_chk49 i v577), ∀ a, (k0_off99 i v577) a + S1x1x1x512.size a ≤ S8x128x128x512.size a := fun i v577 k0_hw49 => k0_hw49

def k0_off100 (i : grid0.Coords) : Fin 2 → Nat :=
  let arg0 : BitVec 32 := BitVec.ofNat 32 (i 0).val
  let v584 : Index := Scalar.indexCast arg0
  let c49 : Index := 49#32
  ![v584.toNat, 49]
def k0_off101 (i : grid0.Coords) (v585 : BitVec 32) : Fin 4 → Nat :=
  let arg0 : BitVec 32 := BitVec.ofNat 32 (i 0).val
  let c50_i32 : BitVec 32 := 50#32
  let c0_i32_390 : BitVec 32 := 0#32
  ![arg0.toNat, 50, v585.toNat, 0]

def k0_chk50 (i : grid0.Coords) (v585 : BitVec 32) : Prop :=
  (∀ a, (k0_off101 i v585) a + S1x1x1x512.size a ≤ S8x128x128x512.size a)
instance k0_chk50.dec : ∀ (i : grid0.Coords) (v585 : BitVec 32), Decidable (k0_chk50 i v585) := fun i v585 => decidable_of_iff' _ (Iff.of_eq (k0_chk50.eq_1 i v585))
theorem k0_off101_inb : ∀ (i : grid0.Coords) (v585 : BitVec 32) (k0_hw50 : k0_chk50 i v585), ∀ a, (k0_off101 i v585) a + S1x1x1x512.size a ≤ S8x128x128x512.size a := fun i v585 k0_hw50 => k0_hw50

def k0_off102 (i : grid0.Coords) : Fin 2 → Nat :=
  let arg0 : BitVec 32 := BitVec.ofNat 32 (i 0).val
  let v592 : Index := Scalar.indexCast arg0
  let c50 : Index := 50#32
  ![v592.toNat, 50]
def k0_off103 (i : grid0.Coords) (v593 : BitVec 32) : Fin 4 → Nat :=
  let arg0 : BitVec 32 := BitVec.ofNat 32 (i 0).val
  let c51_i32 : BitVec 32 := 51#32
  let c0_i32_394 : BitVec 32 := 0#32
  ![arg0.toNat, 51, v593.toNat, 0]

def k0_chk51 (i : grid0.Coords) (v593 : BitVec 32) : Prop :=
  (∀ a, (k0_off103 i v593) a + S1x1x1x512.size a ≤ S8x128x128x512.size a)
instance k0_chk51.dec : ∀ (i : grid0.Coords) (v593 : BitVec 32), Decidable (k0_chk51 i v593) := fun i v593 => decidable_of_iff' _ (Iff.of_eq (k0_chk51.eq_1 i v593))
theorem k0_off103_inb : ∀ (i : grid0.Coords) (v593 : BitVec 32) (k0_hw51 : k0_chk51 i v593), ∀ a, (k0_off103 i v593) a + S1x1x1x512.size a ≤ S8x128x128x512.size a := fun i v593 k0_hw51 => k0_hw51

def k0_off104 (i : grid0.Coords) : Fin 2 → Nat :=
  let arg0 : BitVec 32 := BitVec.ofNat 32 (i 0).val
  let v600 : Index := Scalar.indexCast arg0
  let c51 : Index := 51#32
  ![v600.toNat, 51]
def k0_off105 (i : grid0.Coords) (v601 : BitVec 32) : Fin 4 → Nat :=
  let arg0 : BitVec 32 := BitVec.ofNat 32 (i 0).val
  let c52_i32 : BitVec 32 := 52#32
  let c0_i32_398 : BitVec 32 := 0#32
  ![arg0.toNat, 52, v601.toNat, 0]

def k0_chk52 (i : grid0.Coords) (v601 : BitVec 32) : Prop :=
  (∀ a, (k0_off105 i v601) a + S1x1x1x512.size a ≤ S8x128x128x512.size a)
instance k0_chk52.dec : ∀ (i : grid0.Coords) (v601 : BitVec 32), Decidable (k0_chk52 i v601) := fun i v601 => decidable_of_iff' _ (Iff.of_eq (k0_chk52.eq_1 i v601))
theorem k0_off105_inb : ∀ (i : grid0.Coords) (v601 : BitVec 32) (k0_hw52 : k0_chk52 i v601), ∀ a, (k0_off105 i v601) a + S1x1x1x512.size a ≤ S8x128x128x512.size a := fun i v601 k0_hw52 => k0_hw52

def k0_off106 (i : grid0.Coords) : Fin 2 → Nat :=
  let arg0 : BitVec 32 := BitVec.ofNat 32 (i 0).val
  let v608 : Index := Scalar.indexCast arg0
  let c52 : Index := 52#32
  ![v608.toNat, 52]
def k0_off107 (i : grid0.Coords) (v609 : BitVec 32) : Fin 4 → Nat :=
  let arg0 : BitVec 32 := BitVec.ofNat 32 (i 0).val
  let c53_i32 : BitVec 32 := 53#32
  let c0_i32_402 : BitVec 32 := 0#32
  ![arg0.toNat, 53, v609.toNat, 0]

def k0_chk53 (i : grid0.Coords) (v609 : BitVec 32) : Prop :=
  (∀ a, (k0_off107 i v609) a + S1x1x1x512.size a ≤ S8x128x128x512.size a)
instance k0_chk53.dec : ∀ (i : grid0.Coords) (v609 : BitVec 32), Decidable (k0_chk53 i v609) := fun i v609 => decidable_of_iff' _ (Iff.of_eq (k0_chk53.eq_1 i v609))
theorem k0_off107_inb : ∀ (i : grid0.Coords) (v609 : BitVec 32) (k0_hw53 : k0_chk53 i v609), ∀ a, (k0_off107 i v609) a + S1x1x1x512.size a ≤ S8x128x128x512.size a := fun i v609 k0_hw53 => k0_hw53

def k0_off108 (i : grid0.Coords) : Fin 2 → Nat :=
  let arg0 : BitVec 32 := BitVec.ofNat 32 (i 0).val
  let v616 : Index := Scalar.indexCast arg0
  let c53 : Index := 53#32
  ![v616.toNat, 53]
def k0_off109 (i : grid0.Coords) (v617 : BitVec 32) : Fin 4 → Nat :=
  let arg0 : BitVec 32 := BitVec.ofNat 32 (i 0).val
  let c54_i32 : BitVec 32 := 54#32
  let c0_i32_406 : BitVec 32 := 0#32
  ![arg0.toNat, 54, v617.toNat, 0]

def k0_chk54 (i : grid0.Coords) (v617 : BitVec 32) : Prop :=
  (∀ a, (k0_off109 i v617) a + S1x1x1x512.size a ≤ S8x128x128x512.size a)
instance k0_chk54.dec : ∀ (i : grid0.Coords) (v617 : BitVec 32), Decidable (k0_chk54 i v617) := fun i v617 => decidable_of_iff' _ (Iff.of_eq (k0_chk54.eq_1 i v617))
theorem k0_off109_inb : ∀ (i : grid0.Coords) (v617 : BitVec 32) (k0_hw54 : k0_chk54 i v617), ∀ a, (k0_off109 i v617) a + S1x1x1x512.size a ≤ S8x128x128x512.size a := fun i v617 k0_hw54 => k0_hw54

def k0_off110 (i : grid0.Coords) : Fin 2 → Nat :=
  let arg0 : BitVec 32 := BitVec.ofNat 32 (i 0).val
  let v624 : Index := Scalar.indexCast arg0
  let c54 : Index := 54#32
  ![v624.toNat, 54]
def k0_off111 (i : grid0.Coords) (v625 : BitVec 32) : Fin 4 → Nat :=
  let arg0 : BitVec 32 := BitVec.ofNat 32 (i 0).val
  let c55_i32 : BitVec 32 := 55#32
  let c0_i32_410 : BitVec 32 := 0#32
  ![arg0.toNat, 55, v625.toNat, 0]

def k0_chk55 (i : grid0.Coords) (v625 : BitVec 32) : Prop :=
  (∀ a, (k0_off111 i v625) a + S1x1x1x512.size a ≤ S8x128x128x512.size a)
instance k0_chk55.dec : ∀ (i : grid0.Coords) (v625 : BitVec 32), Decidable (k0_chk55 i v625) := fun i v625 => decidable_of_iff' _ (Iff.of_eq (k0_chk55.eq_1 i v625))
theorem k0_off111_inb : ∀ (i : grid0.Coords) (v625 : BitVec 32) (k0_hw55 : k0_chk55 i v625), ∀ a, (k0_off111 i v625) a + S1x1x1x512.size a ≤ S8x128x128x512.size a := fun i v625 k0_hw55 => k0_hw55

def k0_off112 (i : grid0.Coords) : Fin 2 → Nat :=
  let arg0 : BitVec 32 := BitVec.ofNat 32 (i 0).val
  let v632 : Index := Scalar.indexCast arg0
  let c55 : Index := 55#32
  ![v632.toNat, 55]
def k0_off113 (i : grid0.Coords) (v633 : BitVec 32) : Fin 4 → Nat :=
  let arg0 : BitVec 32 := BitVec.ofNat 32 (i 0).val
  let c56_i32 : BitVec 32 := 56#32
  let c0_i32_414 : BitVec 32 := 0#32
  ![arg0.toNat, 56, v633.toNat, 0]

def k0_chk56 (i : grid0.Coords) (v633 : BitVec 32) : Prop :=
  (∀ a, (k0_off113 i v633) a + S1x1x1x512.size a ≤ S8x128x128x512.size a)
instance k0_chk56.dec : ∀ (i : grid0.Coords) (v633 : BitVec 32), Decidable (k0_chk56 i v633) := fun i v633 => decidable_of_iff' _ (Iff.of_eq (k0_chk56.eq_1 i v633))
theorem k0_off113_inb : ∀ (i : grid0.Coords) (v633 : BitVec 32) (k0_hw56 : k0_chk56 i v633), ∀ a, (k0_off113 i v633) a + S1x1x1x512.size a ≤ S8x128x128x512.size a := fun i v633 k0_hw56 => k0_hw56

def k0_off114 (i : grid0.Coords) : Fin 2 → Nat :=
  let arg0 : BitVec 32 := BitVec.ofNat 32 (i 0).val
  let v640 : Index := Scalar.indexCast arg0
  let c56 : Index := 56#32
  ![v640.toNat, 56]
def k0_off115 (i : grid0.Coords) (v641 : BitVec 32) : Fin 4 → Nat :=
  let arg0 : BitVec 32 := BitVec.ofNat 32 (i 0).val
  let c57_i32 : BitVec 32 := 57#32
  let c0_i32_418 : BitVec 32 := 0#32
  ![arg0.toNat, 57, v641.toNat, 0]

def k0_chk57 (i : grid0.Coords) (v641 : BitVec 32) : Prop :=
  (∀ a, (k0_off115 i v641) a + S1x1x1x512.size a ≤ S8x128x128x512.size a)
instance k0_chk57.dec : ∀ (i : grid0.Coords) (v641 : BitVec 32), Decidable (k0_chk57 i v641) := fun i v641 => decidable_of_iff' _ (Iff.of_eq (k0_chk57.eq_1 i v641))
theorem k0_off115_inb : ∀ (i : grid0.Coords) (v641 : BitVec 32) (k0_hw57 : k0_chk57 i v641), ∀ a, (k0_off115 i v641) a + S1x1x1x512.size a ≤ S8x128x128x512.size a := fun i v641 k0_hw57 => k0_hw57

def k0_off116 (i : grid0.Coords) : Fin 2 → Nat :=
  let arg0 : BitVec 32 := BitVec.ofNat 32 (i 0).val
  let v648 : Index := Scalar.indexCast arg0
  let c57 : Index := 57#32
  ![v648.toNat, 57]
def k0_off117 (i : grid0.Coords) (v649 : BitVec 32) : Fin 4 → Nat :=
  let arg0 : BitVec 32 := BitVec.ofNat 32 (i 0).val
  let c58_i32 : BitVec 32 := 58#32
  let c0_i32_422 : BitVec 32 := 0#32
  ![arg0.toNat, 58, v649.toNat, 0]

def k0_chk58 (i : grid0.Coords) (v649 : BitVec 32) : Prop :=
  (∀ a, (k0_off117 i v649) a + S1x1x1x512.size a ≤ S8x128x128x512.size a)
instance k0_chk58.dec : ∀ (i : grid0.Coords) (v649 : BitVec 32), Decidable (k0_chk58 i v649) := fun i v649 => decidable_of_iff' _ (Iff.of_eq (k0_chk58.eq_1 i v649))
theorem k0_off117_inb : ∀ (i : grid0.Coords) (v649 : BitVec 32) (k0_hw58 : k0_chk58 i v649), ∀ a, (k0_off117 i v649) a + S1x1x1x512.size a ≤ S8x128x128x512.size a := fun i v649 k0_hw58 => k0_hw58

def k0_off118 (i : grid0.Coords) : Fin 2 → Nat :=
  let arg0 : BitVec 32 := BitVec.ofNat 32 (i 0).val
  let v656 : Index := Scalar.indexCast arg0
  let c58 : Index := 58#32
  ![v656.toNat, 58]
def k0_off119 (i : grid0.Coords) (v657 : BitVec 32) : Fin 4 → Nat :=
  let arg0 : BitVec 32 := BitVec.ofNat 32 (i 0).val
  let c59_i32 : BitVec 32 := 59#32
  let c0_i32_426 : BitVec 32 := 0#32
  ![arg0.toNat, 59, v657.toNat, 0]

def k0_chk59 (i : grid0.Coords) (v657 : BitVec 32) : Prop :=
  (∀ a, (k0_off119 i v657) a + S1x1x1x512.size a ≤ S8x128x128x512.size a)
instance k0_chk59.dec : ∀ (i : grid0.Coords) (v657 : BitVec 32), Decidable (k0_chk59 i v657) := fun i v657 => decidable_of_iff' _ (Iff.of_eq (k0_chk59.eq_1 i v657))
theorem k0_off119_inb : ∀ (i : grid0.Coords) (v657 : BitVec 32) (k0_hw59 : k0_chk59 i v657), ∀ a, (k0_off119 i v657) a + S1x1x1x512.size a ≤ S8x128x128x512.size a := fun i v657 k0_hw59 => k0_hw59

def k0_off120 (i : grid0.Coords) : Fin 2 → Nat :=
  let arg0 : BitVec 32 := BitVec.ofNat 32 (i 0).val
  let v664 : Index := Scalar.indexCast arg0
  let c59 : Index := 59#32
  ![v664.toNat, 59]
def k0_off121 (i : grid0.Coords) (v665 : BitVec 32) : Fin 4 → Nat :=
  let arg0 : BitVec 32 := BitVec.ofNat 32 (i 0).val
  let c60_i32 : BitVec 32 := 60#32
  let c0_i32_430 : BitVec 32 := 0#32
  ![arg0.toNat, 60, v665.toNat, 0]

def k0_chk60 (i : grid0.Coords) (v665 : BitVec 32) : Prop :=
  (∀ a, (k0_off121 i v665) a + S1x1x1x512.size a ≤ S8x128x128x512.size a)
instance k0_chk60.dec : ∀ (i : grid0.Coords) (v665 : BitVec 32), Decidable (k0_chk60 i v665) := fun i v665 => decidable_of_iff' _ (Iff.of_eq (k0_chk60.eq_1 i v665))
theorem k0_off121_inb : ∀ (i : grid0.Coords) (v665 : BitVec 32) (k0_hw60 : k0_chk60 i v665), ∀ a, (k0_off121 i v665) a + S1x1x1x512.size a ≤ S8x128x128x512.size a := fun i v665 k0_hw60 => k0_hw60

def k0_off122 (i : grid0.Coords) : Fin 2 → Nat :=
  let arg0 : BitVec 32 := BitVec.ofNat 32 (i 0).val
  let v672 : Index := Scalar.indexCast arg0
  let c60 : Index := 60#32
  ![v672.toNat, 60]
def k0_off123 (i : grid0.Coords) (v673 : BitVec 32) : Fin 4 → Nat :=
  let arg0 : BitVec 32 := BitVec.ofNat 32 (i 0).val
  let c61_i32 : BitVec 32 := 61#32
  let c0_i32_434 : BitVec 32 := 0#32
  ![arg0.toNat, 61, v673.toNat, 0]

def k0_chk61 (i : grid0.Coords) (v673 : BitVec 32) : Prop :=
  (∀ a, (k0_off123 i v673) a + S1x1x1x512.size a ≤ S8x128x128x512.size a)
instance k0_chk61.dec : ∀ (i : grid0.Coords) (v673 : BitVec 32), Decidable (k0_chk61 i v673) := fun i v673 => decidable_of_iff' _ (Iff.of_eq (k0_chk61.eq_1 i v673))
theorem k0_off123_inb : ∀ (i : grid0.Coords) (v673 : BitVec 32) (k0_hw61 : k0_chk61 i v673), ∀ a, (k0_off123 i v673) a + S1x1x1x512.size a ≤ S8x128x128x512.size a := fun i v673 k0_hw61 => k0_hw61

def k0_off124 (i : grid0.Coords) : Fin 2 → Nat :=
  let arg0 : BitVec 32 := BitVec.ofNat 32 (i 0).val
  let v680 : Index := Scalar.indexCast arg0
  let c61 : Index := 61#32
  ![v680.toNat, 61]
def k0_off125 (i : grid0.Coords) (v681 : BitVec 32) : Fin 4 → Nat :=
  let arg0 : BitVec 32 := BitVec.ofNat 32 (i 0).val
  let c62_i32 : BitVec 32 := 62#32
  let c0_i32_438 : BitVec 32 := 0#32
  ![arg0.toNat, 62, v681.toNat, 0]

def k0_chk62 (i : grid0.Coords) (v681 : BitVec 32) : Prop :=
  (∀ a, (k0_off125 i v681) a + S1x1x1x512.size a ≤ S8x128x128x512.size a)
instance k0_chk62.dec : ∀ (i : grid0.Coords) (v681 : BitVec 32), Decidable (k0_chk62 i v681) := fun i v681 => decidable_of_iff' _ (Iff.of_eq (k0_chk62.eq_1 i v681))
theorem k0_off125_inb : ∀ (i : grid0.Coords) (v681 : BitVec 32) (k0_hw62 : k0_chk62 i v681), ∀ a, (k0_off125 i v681) a + S1x1x1x512.size a ≤ S8x128x128x512.size a := fun i v681 k0_hw62 => k0_hw62

def k0_off126 (i : grid0.Coords) : Fin 2 → Nat :=
  let arg0 : BitVec 32 := BitVec.ofNat 32 (i 0).val
  let v688 : Index := Scalar.indexCast arg0
  let c62 : Index := 62#32
  ![v688.toNat, 62]
def k0_off127 (i : grid0.Coords) (v689 : BitVec 32) : Fin 4 → Nat :=
  let arg0 : BitVec 32 := BitVec.ofNat 32 (i 0).val
  let c63_i32 : BitVec 32 := 63#32
  let c0_i32_442 : BitVec 32 := 0#32
  ![arg0.toNat, 63, v689.toNat, 0]

def k0_chk63 (i : grid0.Coords) (v689 : BitVec 32) : Prop :=
  (∀ a, (k0_off127 i v689) a + S1x1x1x512.size a ≤ S8x128x128x512.size a)
instance k0_chk63.dec : ∀ (i : grid0.Coords) (v689 : BitVec 32), Decidable (k0_chk63 i v689) := fun i v689 => decidable_of_iff' _ (Iff.of_eq (k0_chk63.eq_1 i v689))
theorem k0_off127_inb : ∀ (i : grid0.Coords) (v689 : BitVec 32) (k0_hw63 : k0_chk63 i v689), ∀ a, (k0_off127 i v689) a + S1x1x1x512.size a ≤ S8x128x128x512.size a := fun i v689 k0_hw63 => k0_hw63

def k0_off128 (i : grid0.Coords) : Fin 2 → Nat :=
  let arg0 : BitVec 32 := BitVec.ofNat 32 (i 0).val
  let v696 : Index := Scalar.indexCast arg0
  let c63 : Index := 63#32
  ![v696.toNat, 63]
def k0_off129 (i : grid0.Coords) (v697 : BitVec 32) : Fin 4 → Nat :=
  let arg0 : BitVec 32 := BitVec.ofNat 32 (i 0).val
  let c64_i32 : BitVec 32 := 64#32
  let c0_i32_446 : BitVec 32 := 0#32
  ![arg0.toNat, 64, v697.toNat, 0]

def k0_chk64 (i : grid0.Coords) (v697 : BitVec 32) : Prop :=
  (∀ a, (k0_off129 i v697) a + S1x1x1x512.size a ≤ S8x128x128x512.size a)
instance k0_chk64.dec : ∀ (i : grid0.Coords) (v697 : BitVec 32), Decidable (k0_chk64 i v697) := fun i v697 => decidable_of_iff' _ (Iff.of_eq (k0_chk64.eq_1 i v697))
theorem k0_off129_inb : ∀ (i : grid0.Coords) (v697 : BitVec 32) (k0_hw64 : k0_chk64 i v697), ∀ a, (k0_off129 i v697) a + S1x1x1x512.size a ≤ S8x128x128x512.size a := fun i v697 k0_hw64 => k0_hw64

def k0_off130 (i : grid0.Coords) : Fin 4 → Nat :=
  let arg0 : BitVec 32 := BitVec.ofNat 32 (i 0).val
  let c0_i32_447 : BitVec 32 := 0#32
  let c0_i32_448 : BitVec 32 := 0#32
  let c0_i32_452 : BitVec 32 := 0#32
  ![arg0.toNat, 0, 0, 0]
def k0_off131 (i : grid0.Coords) : Fin 2 → Nat :=
  let arg0 : BitVec 32 := BitVec.ofNat 32 (i 0).val
  let v896 : Index := Scalar.indexCast arg0
  let c64 : Index := 64#32
  ![v896.toNat, 64]
def k0_off132 (i : grid0.Coords) (v897 : BitVec 32) : Fin 4 → Nat :=
  let arg0 : BitVec 32 := BitVec.ofNat 32 (i 0).val
  let c65_i32 : BitVec 32 := 65#32
  let c0_i32_642 : BitVec 32 := 0#32
  ![arg0.toNat, 65, v897.toNat, 0]

def k0_chk65 (i : grid0.Coords) (v897 : BitVec 32) : Prop :=
  (∀ a, (k0_off132 i v897) a + S1x1x1x512.size a ≤ S8x128x128x512.size a)
instance k0_chk65.dec : ∀ (i : grid0.Coords) (v897 : BitVec 32), Decidable (k0_chk65 i v897) := fun i v897 => decidable_of_iff' _ (Iff.of_eq (k0_chk65.eq_1 i v897))
theorem k0_off132_inb : ∀ (i : grid0.Coords) (v897 : BitVec 32) (k0_hw65 : k0_chk65 i v897), ∀ a, (k0_off132 i v897) a + S1x1x1x512.size a ≤ S8x128x128x512.size a := fun i v897 k0_hw65 => k0_hw65

def k0_off133 (i : grid0.Coords) : Fin 2 → Nat :=
  let arg0 : BitVec 32 := BitVec.ofNat 32 (i 0).val
  let v904 : Index := Scalar.indexCast arg0
  let c65 : Index := 65#32
  ![v904.toNat, 65]
def k0_off134 (i : grid0.Coords) (v905 : BitVec 32) : Fin 4 → Nat :=
  let arg0 : BitVec 32 := BitVec.ofNat 32 (i 0).val
  let c66_i32 : BitVec 32 := 66#32
  let c0_i32_646 : BitVec 32 := 0#32
  ![arg0.toNat, 66, v905.toNat, 0]

def k0_chk66 (i : grid0.Coords) (v905 : BitVec 32) : Prop :=
  (∀ a, (k0_off134 i v905) a + S1x1x1x512.size a ≤ S8x128x128x512.size a)
instance k0_chk66.dec : ∀ (i : grid0.Coords) (v905 : BitVec 32), Decidable (k0_chk66 i v905) := fun i v905 => decidable_of_iff' _ (Iff.of_eq (k0_chk66.eq_1 i v905))
theorem k0_off134_inb : ∀ (i : grid0.Coords) (v905 : BitVec 32) (k0_hw66 : k0_chk66 i v905), ∀ a, (k0_off134 i v905) a + S1x1x1x512.size a ≤ S8x128x128x512.size a := fun i v905 k0_hw66 => k0_hw66

def k0_off135 (i : grid0.Coords) : Fin 2 → Nat :=
  let arg0 : BitVec 32 := BitVec.ofNat 32 (i 0).val
  let v912 : Index := Scalar.indexCast arg0
  let c66 : Index := 66#32
  ![v912.toNat, 66]
def k0_off136 (i : grid0.Coords) (v913 : BitVec 32) : Fin 4 → Nat :=
  let arg0 : BitVec 32 := BitVec.ofNat 32 (i 0).val
  let c67_i32 : BitVec 32 := 67#32
  let c0_i32_650 : BitVec 32 := 0#32
  ![arg0.toNat, 67, v913.toNat, 0]

def k0_chk67 (i : grid0.Coords) (v913 : BitVec 32) : Prop :=
  (∀ a, (k0_off136 i v913) a + S1x1x1x512.size a ≤ S8x128x128x512.size a)
instance k0_chk67.dec : ∀ (i : grid0.Coords) (v913 : BitVec 32), Decidable (k0_chk67 i v913) := fun i v913 => decidable_of_iff' _ (Iff.of_eq (k0_chk67.eq_1 i v913))
theorem k0_off136_inb : ∀ (i : grid0.Coords) (v913 : BitVec 32) (k0_hw67 : k0_chk67 i v913), ∀ a, (k0_off136 i v913) a + S1x1x1x512.size a ≤ S8x128x128x512.size a := fun i v913 k0_hw67 => k0_hw67

def k0_off137 (i : grid0.Coords) : Fin 2 → Nat :=
  let arg0 : BitVec 32 := BitVec.ofNat 32 (i 0).val
  let v920 : Index := Scalar.indexCast arg0
  let c67 : Index := 67#32
  ![v920.toNat, 67]
def k0_off138 (i : grid0.Coords) (v921 : BitVec 32) : Fin 4 → Nat :=
  let arg0 : BitVec 32 := BitVec.ofNat 32 (i 0).val
  let c68_i32 : BitVec 32 := 68#32
  let c0_i32_654 : BitVec 32 := 0#32
  ![arg0.toNat, 68, v921.toNat, 0]

def k0_chk68 (i : grid0.Coords) (v921 : BitVec 32) : Prop :=
  (∀ a, (k0_off138 i v921) a + S1x1x1x512.size a ≤ S8x128x128x512.size a)
instance k0_chk68.dec : ∀ (i : grid0.Coords) (v921 : BitVec 32), Decidable (k0_chk68 i v921) := fun i v921 => decidable_of_iff' _ (Iff.of_eq (k0_chk68.eq_1 i v921))
theorem k0_off138_inb : ∀ (i : grid0.Coords) (v921 : BitVec 32) (k0_hw68 : k0_chk68 i v921), ∀ a, (k0_off138 i v921) a + S1x1x1x512.size a ≤ S8x128x128x512.size a := fun i v921 k0_hw68 => k0_hw68

def k0_off139 (i : grid0.Coords) : Fin 2 → Nat :=
  let arg0 : BitVec 32 := BitVec.ofNat 32 (i 0).val
  let v928 : Index := Scalar.indexCast arg0
  let c68 : Index := 68#32
  ![v928.toNat, 68]
def k0_off140 (i : grid0.Coords) (v929 : BitVec 32) : Fin 4 → Nat :=
  let arg0 : BitVec 32 := BitVec.ofNat 32 (i 0).val
  let c69_i32 : BitVec 32 := 69#32
  let c0_i32_658 : BitVec 32 := 0#32
  ![arg0.toNat, 69, v929.toNat, 0]

def k0_chk69 (i : grid0.Coords) (v929 : BitVec 32) : Prop :=
  (∀ a, (k0_off140 i v929) a + S1x1x1x512.size a ≤ S8x128x128x512.size a)
instance k0_chk69.dec : ∀ (i : grid0.Coords) (v929 : BitVec 32), Decidable (k0_chk69 i v929) := fun i v929 => decidable_of_iff' _ (Iff.of_eq (k0_chk69.eq_1 i v929))
theorem k0_off140_inb : ∀ (i : grid0.Coords) (v929 : BitVec 32) (k0_hw69 : k0_chk69 i v929), ∀ a, (k0_off140 i v929) a + S1x1x1x512.size a ≤ S8x128x128x512.size a := fun i v929 k0_hw69 => k0_hw69

def k0_off141 (i : grid0.Coords) : Fin 2 → Nat :=
  let arg0 : BitVec 32 := BitVec.ofNat 32 (i 0).val
  let v936 : Index := Scalar.indexCast arg0
  let c69 : Index := 69#32
  ![v936.toNat, 69]
def k0_off142 (i : grid0.Coords) (v937 : BitVec 32) : Fin 4 → Nat :=
  let arg0 : BitVec 32 := BitVec.ofNat 32 (i 0).val
  let c70_i32 : BitVec 32 := 70#32
  let c0_i32_662 : BitVec 32 := 0#32
  ![arg0.toNat, 70, v937.toNat, 0]

def k0_chk70 (i : grid0.Coords) (v937 : BitVec 32) : Prop :=
  (∀ a, (k0_off142 i v937) a + S1x1x1x512.size a ≤ S8x128x128x512.size a)
instance k0_chk70.dec : ∀ (i : grid0.Coords) (v937 : BitVec 32), Decidable (k0_chk70 i v937) := fun i v937 => decidable_of_iff' _ (Iff.of_eq (k0_chk70.eq_1 i v937))
theorem k0_off142_inb : ∀ (i : grid0.Coords) (v937 : BitVec 32) (k0_hw70 : k0_chk70 i v937), ∀ a, (k0_off142 i v937) a + S1x1x1x512.size a ≤ S8x128x128x512.size a := fun i v937 k0_hw70 => k0_hw70

def k0_off143 (i : grid0.Coords) : Fin 2 → Nat :=
  let arg0 : BitVec 32 := BitVec.ofNat 32 (i 0).val
  let v944 : Index := Scalar.indexCast arg0
  let c70 : Index := 70#32
  ![v944.toNat, 70]
def k0_off144 (i : grid0.Coords) (v945 : BitVec 32) : Fin 4 → Nat :=
  let arg0 : BitVec 32 := BitVec.ofNat 32 (i 0).val
  let c71_i32 : BitVec 32 := 71#32
  let c0_i32_666 : BitVec 32 := 0#32
  ![arg0.toNat, 71, v945.toNat, 0]

def k0_chk71 (i : grid0.Coords) (v945 : BitVec 32) : Prop :=
  (∀ a, (k0_off144 i v945) a + S1x1x1x512.size a ≤ S8x128x128x512.size a)
instance k0_chk71.dec : ∀ (i : grid0.Coords) (v945 : BitVec 32), Decidable (k0_chk71 i v945) := fun i v945 => decidable_of_iff' _ (Iff.of_eq (k0_chk71.eq_1 i v945))
theorem k0_off144_inb : ∀ (i : grid0.Coords) (v945 : BitVec 32) (k0_hw71 : k0_chk71 i v945), ∀ a, (k0_off144 i v945) a + S1x1x1x512.size a ≤ S8x128x128x512.size a := fun i v945 k0_hw71 => k0_hw71

def k0_off145 (i : grid0.Coords) : Fin 2 → Nat :=
  let arg0 : BitVec 32 := BitVec.ofNat 32 (i 0).val
  let v952 : Index := Scalar.indexCast arg0
  let c71 : Index := 71#32
  ![v952.toNat, 71]
def k0_off146 (i : grid0.Coords) (v953 : BitVec 32) : Fin 4 → Nat :=
  let arg0 : BitVec 32 := BitVec.ofNat 32 (i 0).val
  let c72_i32 : BitVec 32 := 72#32
  let c0_i32_670 : BitVec 32 := 0#32
  ![arg0.toNat, 72, v953.toNat, 0]

def k0_chk72 (i : grid0.Coords) (v953 : BitVec 32) : Prop :=
  (∀ a, (k0_off146 i v953) a + S1x1x1x512.size a ≤ S8x128x128x512.size a)
instance k0_chk72.dec : ∀ (i : grid0.Coords) (v953 : BitVec 32), Decidable (k0_chk72 i v953) := fun i v953 => decidable_of_iff' _ (Iff.of_eq (k0_chk72.eq_1 i v953))
theorem k0_off146_inb : ∀ (i : grid0.Coords) (v953 : BitVec 32) (k0_hw72 : k0_chk72 i v953), ∀ a, (k0_off146 i v953) a + S1x1x1x512.size a ≤ S8x128x128x512.size a := fun i v953 k0_hw72 => k0_hw72

def k0_off147 (i : grid0.Coords) : Fin 2 → Nat :=
  let arg0 : BitVec 32 := BitVec.ofNat 32 (i 0).val
  let v960 : Index := Scalar.indexCast arg0
  let c72 : Index := 72#32
  ![v960.toNat, 72]
def k0_off148 (i : grid0.Coords) (v961 : BitVec 32) : Fin 4 → Nat :=
  let arg0 : BitVec 32 := BitVec.ofNat 32 (i 0).val
  let c73_i32 : BitVec 32 := 73#32
  let c0_i32_674 : BitVec 32 := 0#32
  ![arg0.toNat, 73, v961.toNat, 0]

def k0_chk73 (i : grid0.Coords) (v961 : BitVec 32) : Prop :=
  (∀ a, (k0_off148 i v961) a + S1x1x1x512.size a ≤ S8x128x128x512.size a)
instance k0_chk73.dec : ∀ (i : grid0.Coords) (v961 : BitVec 32), Decidable (k0_chk73 i v961) := fun i v961 => decidable_of_iff' _ (Iff.of_eq (k0_chk73.eq_1 i v961))
theorem k0_off148_inb : ∀ (i : grid0.Coords) (v961 : BitVec 32) (k0_hw73 : k0_chk73 i v961), ∀ a, (k0_off148 i v961) a + S1x1x1x512.size a ≤ S8x128x128x512.size a := fun i v961 k0_hw73 => k0_hw73

def k0_off149 (i : grid0.Coords) : Fin 2 → Nat :=
  let arg0 : BitVec 32 := BitVec.ofNat 32 (i 0).val
  let v968 : Index := Scalar.indexCast arg0
  let c73 : Index := 73#32
  ![v968.toNat, 73]
def k0_off150 (i : grid0.Coords) (v969 : BitVec 32) : Fin 4 → Nat :=
  let arg0 : BitVec 32 := BitVec.ofNat 32 (i 0).val
  let c74_i32 : BitVec 32 := 74#32
  let c0_i32_678 : BitVec 32 := 0#32
  ![arg0.toNat, 74, v969.toNat, 0]

def k0_chk74 (i : grid0.Coords) (v969 : BitVec 32) : Prop :=
  (∀ a, (k0_off150 i v969) a + S1x1x1x512.size a ≤ S8x128x128x512.size a)
instance k0_chk74.dec : ∀ (i : grid0.Coords) (v969 : BitVec 32), Decidable (k0_chk74 i v969) := fun i v969 => decidable_of_iff' _ (Iff.of_eq (k0_chk74.eq_1 i v969))
theorem k0_off150_inb : ∀ (i : grid0.Coords) (v969 : BitVec 32) (k0_hw74 : k0_chk74 i v969), ∀ a, (k0_off150 i v969) a + S1x1x1x512.size a ≤ S8x128x128x512.size a := fun i v969 k0_hw74 => k0_hw74

def k0_off151 (i : grid0.Coords) : Fin 2 → Nat :=
  let arg0 : BitVec 32 := BitVec.ofNat 32 (i 0).val
  let v976 : Index := Scalar.indexCast arg0
  let c74 : Index := 74#32
  ![v976.toNat, 74]
def k0_off152 (i : grid0.Coords) (v977 : BitVec 32) : Fin 4 → Nat :=
  let arg0 : BitVec 32 := BitVec.ofNat 32 (i 0).val
  let c75_i32 : BitVec 32 := 75#32
  let c0_i32_682 : BitVec 32 := 0#32
  ![arg0.toNat, 75, v977.toNat, 0]

def k0_chk75 (i : grid0.Coords) (v977 : BitVec 32) : Prop :=
  (∀ a, (k0_off152 i v977) a + S1x1x1x512.size a ≤ S8x128x128x512.size a)
instance k0_chk75.dec : ∀ (i : grid0.Coords) (v977 : BitVec 32), Decidable (k0_chk75 i v977) := fun i v977 => decidable_of_iff' _ (Iff.of_eq (k0_chk75.eq_1 i v977))
theorem k0_off152_inb : ∀ (i : grid0.Coords) (v977 : BitVec 32) (k0_hw75 : k0_chk75 i v977), ∀ a, (k0_off152 i v977) a + S1x1x1x512.size a ≤ S8x128x128x512.size a := fun i v977 k0_hw75 => k0_hw75

def k0_off153 (i : grid0.Coords) : Fin 2 → Nat :=
  let arg0 : BitVec 32 := BitVec.ofNat 32 (i 0).val
  let v984 : Index := Scalar.indexCast arg0
  let c75 : Index := 75#32
  ![v984.toNat, 75]
def k0_off154 (i : grid0.Coords) (v985 : BitVec 32) : Fin 4 → Nat :=
  let arg0 : BitVec 32 := BitVec.ofNat 32 (i 0).val
  let c76_i32 : BitVec 32 := 76#32
  let c0_i32_686 : BitVec 32 := 0#32
  ![arg0.toNat, 76, v985.toNat, 0]

def k0_chk76 (i : grid0.Coords) (v985 : BitVec 32) : Prop :=
  (∀ a, (k0_off154 i v985) a + S1x1x1x512.size a ≤ S8x128x128x512.size a)
instance k0_chk76.dec : ∀ (i : grid0.Coords) (v985 : BitVec 32), Decidable (k0_chk76 i v985) := fun i v985 => decidable_of_iff' _ (Iff.of_eq (k0_chk76.eq_1 i v985))
theorem k0_off154_inb : ∀ (i : grid0.Coords) (v985 : BitVec 32) (k0_hw76 : k0_chk76 i v985), ∀ a, (k0_off154 i v985) a + S1x1x1x512.size a ≤ S8x128x128x512.size a := fun i v985 k0_hw76 => k0_hw76

def k0_off155 (i : grid0.Coords) : Fin 2 → Nat :=
  let arg0 : BitVec 32 := BitVec.ofNat 32 (i 0).val
  let v992 : Index := Scalar.indexCast arg0
  let c76 : Index := 76#32
  ![v992.toNat, 76]
def k0_off156 (i : grid0.Coords) (v993 : BitVec 32) : Fin 4 → Nat :=
  let arg0 : BitVec 32 := BitVec.ofNat 32 (i 0).val
  let c77_i32 : BitVec 32 := 77#32
  let c0_i32_690 : BitVec 32 := 0#32
  ![arg0.toNat, 77, v993.toNat, 0]

def k0_chk77 (i : grid0.Coords) (v993 : BitVec 32) : Prop :=
  (∀ a, (k0_off156 i v993) a + S1x1x1x512.size a ≤ S8x128x128x512.size a)
instance k0_chk77.dec : ∀ (i : grid0.Coords) (v993 : BitVec 32), Decidable (k0_chk77 i v993) := fun i v993 => decidable_of_iff' _ (Iff.of_eq (k0_chk77.eq_1 i v993))
theorem k0_off156_inb : ∀ (i : grid0.Coords) (v993 : BitVec 32) (k0_hw77 : k0_chk77 i v993), ∀ a, (k0_off156 i v993) a + S1x1x1x512.size a ≤ S8x128x128x512.size a := fun i v993 k0_hw77 => k0_hw77

def k0_off157 (i : grid0.Coords) : Fin 2 → Nat :=
  let arg0 : BitVec 32 := BitVec.ofNat 32 (i 0).val
  let v1000 : Index := Scalar.indexCast arg0
  let c77 : Index := 77#32
  ![v1000.toNat, 77]
def k0_off158 (i : grid0.Coords) (v1001 : BitVec 32) : Fin 4 → Nat :=
  let arg0 : BitVec 32 := BitVec.ofNat 32 (i 0).val
  let c78_i32 : BitVec 32 := 78#32
  let c0_i32_694 : BitVec 32 := 0#32
  ![arg0.toNat, 78, v1001.toNat, 0]

def k0_chk78 (i : grid0.Coords) (v1001 : BitVec 32) : Prop :=
  (∀ a, (k0_off158 i v1001) a + S1x1x1x512.size a ≤ S8x128x128x512.size a)
instance k0_chk78.dec : ∀ (i : grid0.Coords) (v1001 : BitVec 32), Decidable (k0_chk78 i v1001) := fun i v1001 => decidable_of_iff' _ (Iff.of_eq (k0_chk78.eq_1 i v1001))
theorem k0_off158_inb : ∀ (i : grid0.Coords) (v1001 : BitVec 32) (k0_hw78 : k0_chk78 i v1001), ∀ a, (k0_off158 i v1001) a + S1x1x1x512.size a ≤ S8x128x128x512.size a := fun i v1001 k0_hw78 => k0_hw78

def k0_off159 (i : grid0.Coords) : Fin 2 → Nat :=
  let arg0 : BitVec 32 := BitVec.ofNat 32 (i 0).val
  let v1008 : Index := Scalar.indexCast arg0
  let c78 : Index := 78#32
  ![v1008.toNat, 78]
def k0_off160 (i : grid0.Coords) (v1009 : BitVec 32) : Fin 4 → Nat :=
  let arg0 : BitVec 32 := BitVec.ofNat 32 (i 0).val
  let c79_i32 : BitVec 32 := 79#32
  let c0_i32_698 : BitVec 32 := 0#32
  ![arg0.toNat, 79, v1009.toNat, 0]

def k0_chk79 (i : grid0.Coords) (v1009 : BitVec 32) : Prop :=
  (∀ a, (k0_off160 i v1009) a + S1x1x1x512.size a ≤ S8x128x128x512.size a)
instance k0_chk79.dec : ∀ (i : grid0.Coords) (v1009 : BitVec 32), Decidable (k0_chk79 i v1009) := fun i v1009 => decidable_of_iff' _ (Iff.of_eq (k0_chk79.eq_1 i v1009))
theorem k0_off160_inb : ∀ (i : grid0.Coords) (v1009 : BitVec 32) (k0_hw79 : k0_chk79 i v1009), ∀ a, (k0_off160 i v1009) a + S1x1x1x512.size a ≤ S8x128x128x512.size a := fun i v1009 k0_hw79 => k0_hw79

def k0_off161 (i : grid0.Coords) : Fin 2 → Nat :=
  let arg0 : BitVec 32 := BitVec.ofNat 32 (i 0).val
  let v1016 : Index := Scalar.indexCast arg0
  let c79 : Index := 79#32
  ![v1016.toNat, 79]
def k0_off162 (i : grid0.Coords) (v1017 : BitVec 32) : Fin 4 → Nat :=
  let arg0 : BitVec 32 := BitVec.ofNat 32 (i 0).val
  let c80_i32 : BitVec 32 := 80#32
  let c0_i32_702 : BitVec 32 := 0#32
  ![arg0.toNat, 80, v1017.toNat, 0]

def k0_chk80 (i : grid0.Coords) (v1017 : BitVec 32) : Prop :=
  (∀ a, (k0_off162 i v1017) a + S1x1x1x512.size a ≤ S8x128x128x512.size a)
instance k0_chk80.dec : ∀ (i : grid0.Coords) (v1017 : BitVec 32), Decidable (k0_chk80 i v1017) := fun i v1017 => decidable_of_iff' _ (Iff.of_eq (k0_chk80.eq_1 i v1017))
theorem k0_off162_inb : ∀ (i : grid0.Coords) (v1017 : BitVec 32) (k0_hw80 : k0_chk80 i v1017), ∀ a, (k0_off162 i v1017) a + S1x1x1x512.size a ≤ S8x128x128x512.size a := fun i v1017 k0_hw80 => k0_hw80

def k0_off163 (i : grid0.Coords) : Fin 2 → Nat :=
  let arg0 : BitVec 32 := BitVec.ofNat 32 (i 0).val
  let v1024 : Index := Scalar.indexCast arg0
  let c80 : Index := 80#32
  ![v1024.toNat, 80]
def k0_off164 (i : grid0.Coords) (v1025 : BitVec 32) : Fin 4 → Nat :=
  let arg0 : BitVec 32 := BitVec.ofNat 32 (i 0).val
  let c81_i32 : BitVec 32 := 81#32
  let c0_i32_706 : BitVec 32 := 0#32
  ![arg0.toNat, 81, v1025.toNat, 0]

def k0_chk81 (i : grid0.Coords) (v1025 : BitVec 32) : Prop :=
  (∀ a, (k0_off164 i v1025) a + S1x1x1x512.size a ≤ S8x128x128x512.size a)
instance k0_chk81.dec : ∀ (i : grid0.Coords) (v1025 : BitVec 32), Decidable (k0_chk81 i v1025) := fun i v1025 => decidable_of_iff' _ (Iff.of_eq (k0_chk81.eq_1 i v1025))
theorem k0_off164_inb : ∀ (i : grid0.Coords) (v1025 : BitVec 32) (k0_hw81 : k0_chk81 i v1025), ∀ a, (k0_off164 i v1025) a + S1x1x1x512.size a ≤ S8x128x128x512.size a := fun i v1025 k0_hw81 => k0_hw81

def k0_off165 (i : grid0.Coords) : Fin 2 → Nat :=
  let arg0 : BitVec 32 := BitVec.ofNat 32 (i 0).val
  let v1032 : Index := Scalar.indexCast arg0
  let c81 : Index := 81#32
  ![v1032.toNat, 81]
def k0_off166 (i : grid0.Coords) (v1033 : BitVec 32) : Fin 4 → Nat :=
  let arg0 : BitVec 32 := BitVec.ofNat 32 (i 0).val
  let c82_i32 : BitVec 32 := 82#32
  let c0_i32_710 : BitVec 32 := 0#32
  ![arg0.toNat, 82, v1033.toNat, 0]

def k0_chk82 (i : grid0.Coords) (v1033 : BitVec 32) : Prop :=
  (∀ a, (k0_off166 i v1033) a + S1x1x1x512.size a ≤ S8x128x128x512.size a)
instance k0_chk82.dec : ∀ (i : grid0.Coords) (v1033 : BitVec 32), Decidable (k0_chk82 i v1033) := fun i v1033 => decidable_of_iff' _ (Iff.of_eq (k0_chk82.eq_1 i v1033))
theorem k0_off166_inb : ∀ (i : grid0.Coords) (v1033 : BitVec 32) (k0_hw82 : k0_chk82 i v1033), ∀ a, (k0_off166 i v1033) a + S1x1x1x512.size a ≤ S8x128x128x512.size a := fun i v1033 k0_hw82 => k0_hw82

def k0_off167 (i : grid0.Coords) : Fin 2 → Nat :=
  let arg0 : BitVec 32 := BitVec.ofNat 32 (i 0).val
  let v1040 : Index := Scalar.indexCast arg0
  let c82 : Index := 82#32
  ![v1040.toNat, 82]
def k0_off168 (i : grid0.Coords) (v1041 : BitVec 32) : Fin 4 → Nat :=
  let arg0 : BitVec 32 := BitVec.ofNat 32 (i 0).val
  let c83_i32 : BitVec 32 := 83#32
  let c0_i32_714 : BitVec 32 := 0#32
  ![arg0.toNat, 83, v1041.toNat, 0]

def k0_chk83 (i : grid0.Coords) (v1041 : BitVec 32) : Prop :=
  (∀ a, (k0_off168 i v1041) a + S1x1x1x512.size a ≤ S8x128x128x512.size a)
instance k0_chk83.dec : ∀ (i : grid0.Coords) (v1041 : BitVec 32), Decidable (k0_chk83 i v1041) := fun i v1041 => decidable_of_iff' _ (Iff.of_eq (k0_chk83.eq_1 i v1041))
theorem k0_off168_inb : ∀ (i : grid0.Coords) (v1041 : BitVec 32) (k0_hw83 : k0_chk83 i v1041), ∀ a, (k0_off168 i v1041) a + S1x1x1x512.size a ≤ S8x128x128x512.size a := fun i v1041 k0_hw83 => k0_hw83

def k0_off169 (i : grid0.Coords) : Fin 2 → Nat :=
  let arg0 : BitVec 32 := BitVec.ofNat 32 (i 0).val
  let v1048 : Index := Scalar.indexCast arg0
  let c83 : Index := 83#32
  ![v1048.toNat, 83]
def k0_off170 (i : grid0.Coords) (v1049 : BitVec 32) : Fin 4 → Nat :=
  let arg0 : BitVec 32 := BitVec.ofNat 32 (i 0).val
  let c84_i32 : BitVec 32 := 84#32
  let c0_i32_718 : BitVec 32 := 0#32
  ![arg0.toNat, 84, v1049.toNat, 0]

def k0_chk84 (i : grid0.Coords) (v1049 : BitVec 32) : Prop :=
  (∀ a, (k0_off170 i v1049) a + S1x1x1x512.size a ≤ S8x128x128x512.size a)
instance k0_chk84.dec : ∀ (i : grid0.Coords) (v1049 : BitVec 32), Decidable (k0_chk84 i v1049) := fun i v1049 => decidable_of_iff' _ (Iff.of_eq (k0_chk84.eq_1 i v1049))
theorem k0_off170_inb : ∀ (i : grid0.Coords) (v1049 : BitVec 32) (k0_hw84 : k0_chk84 i v1049), ∀ a, (k0_off170 i v1049) a + S1x1x1x512.size a ≤ S8x128x128x512.size a := fun i v1049 k0_hw84 => k0_hw84

def k0_off171 (i : grid0.Coords) : Fin 2 → Nat :=
  let arg0 : BitVec 32 := BitVec.ofNat 32 (i 0).val
  let v1056 : Index := Scalar.indexCast arg0
  let c84 : Index := 84#32
  ![v1056.toNat, 84]
def k0_off172 (i : grid0.Coords) (v1057 : BitVec 32) : Fin 4 → Nat :=
  let arg0 : BitVec 32 := BitVec.ofNat 32 (i 0).val
  let c85_i32 : BitVec 32 := 85#32
  let c0_i32_722 : BitVec 32 := 0#32
  ![arg0.toNat, 85, v1057.toNat, 0]

def k0_chk85 (i : grid0.Coords) (v1057 : BitVec 32) : Prop :=
  (∀ a, (k0_off172 i v1057) a + S1x1x1x512.size a ≤ S8x128x128x512.size a)
instance k0_chk85.dec : ∀ (i : grid0.Coords) (v1057 : BitVec 32), Decidable (k0_chk85 i v1057) := fun i v1057 => decidable_of_iff' _ (Iff.of_eq (k0_chk85.eq_1 i v1057))
theorem k0_off172_inb : ∀ (i : grid0.Coords) (v1057 : BitVec 32) (k0_hw85 : k0_chk85 i v1057), ∀ a, (k0_off172 i v1057) a + S1x1x1x512.size a ≤ S8x128x128x512.size a := fun i v1057 k0_hw85 => k0_hw85

def k0_off173 (i : grid0.Coords) : Fin 2 → Nat :=
  let arg0 : BitVec 32 := BitVec.ofNat 32 (i 0).val
  let v1064 : Index := Scalar.indexCast arg0
  let c85 : Index := 85#32
  ![v1064.toNat, 85]
def k0_off174 (i : grid0.Coords) (v1065 : BitVec 32) : Fin 4 → Nat :=
  let arg0 : BitVec 32 := BitVec.ofNat 32 (i 0).val
  let c86_i32 : BitVec 32 := 86#32
  let c0_i32_726 : BitVec 32 := 0#32
  ![arg0.toNat, 86, v1065.toNat, 0]

def k0_chk86 (i : grid0.Coords) (v1065 : BitVec 32) : Prop :=
  (∀ a, (k0_off174 i v1065) a + S1x1x1x512.size a ≤ S8x128x128x512.size a)
instance k0_chk86.dec : ∀ (i : grid0.Coords) (v1065 : BitVec 32), Decidable (k0_chk86 i v1065) := fun i v1065 => decidable_of_iff' _ (Iff.of_eq (k0_chk86.eq_1 i v1065))
theorem k0_off174_inb : ∀ (i : grid0.Coords) (v1065 : BitVec 32) (k0_hw86 : k0_chk86 i v1065), ∀ a, (k0_off174 i v1065) a + S1x1x1x512.size a ≤ S8x128x128x512.size a := fun i v1065 k0_hw86 => k0_hw86

def k0_off175 (i : grid0.Coords) : Fin 2 → Nat :=
  let arg0 : BitVec 32 := BitVec.ofNat 32 (i 0).val
  let v1072 : Index := Scalar.indexCast arg0
  let c86 : Index := 86#32
  ![v1072.toNat, 86]
def k0_off176 (i : grid0.Coords) (v1073 : BitVec 32) : Fin 4 → Nat :=
  let arg0 : BitVec 32 := BitVec.ofNat 32 (i 0).val
  let c87_i32 : BitVec 32 := 87#32
  let c0_i32_730 : BitVec 32 := 0#32
  ![arg0.toNat, 87, v1073.toNat, 0]

def k0_chk87 (i : grid0.Coords) (v1073 : BitVec 32) : Prop :=
  (∀ a, (k0_off176 i v1073) a + S1x1x1x512.size a ≤ S8x128x128x512.size a)
instance k0_chk87.dec : ∀ (i : grid0.Coords) (v1073 : BitVec 32), Decidable (k0_chk87 i v1073) := fun i v1073 => decidable_of_iff' _ (Iff.of_eq (k0_chk87.eq_1 i v1073))
theorem k0_off176_inb : ∀ (i : grid0.Coords) (v1073 : BitVec 32) (k0_hw87 : k0_chk87 i v1073), ∀ a, (k0_off176 i v1073) a + S1x1x1x512.size a ≤ S8x128x128x512.size a := fun i v1073 k0_hw87 => k0_hw87

def k0_off177 (i : grid0.Coords) : Fin 2 → Nat :=
  let arg0 : BitVec 32 := BitVec.ofNat 32 (i 0).val
  let v1080 : Index := Scalar.indexCast arg0
  let c87 : Index := 87#32
  ![v1080.toNat, 87]
def k0_off178 (i : grid0.Coords) (v1081 : BitVec 32) : Fin 4 → Nat :=
  let arg0 : BitVec 32 := BitVec.ofNat 32 (i 0).val
  let c88_i32 : BitVec 32 := 88#32
  let c0_i32_734 : BitVec 32 := 0#32
  ![arg0.toNat, 88, v1081.toNat, 0]

def k0_chk88 (i : grid0.Coords) (v1081 : BitVec 32) : Prop :=
  (∀ a, (k0_off178 i v1081) a + S1x1x1x512.size a ≤ S8x128x128x512.size a)
instance k0_chk88.dec : ∀ (i : grid0.Coords) (v1081 : BitVec 32), Decidable (k0_chk88 i v1081) := fun i v1081 => decidable_of_iff' _ (Iff.of_eq (k0_chk88.eq_1 i v1081))
theorem k0_off178_inb : ∀ (i : grid0.Coords) (v1081 : BitVec 32) (k0_hw88 : k0_chk88 i v1081), ∀ a, (k0_off178 i v1081) a + S1x1x1x512.size a ≤ S8x128x128x512.size a := fun i v1081 k0_hw88 => k0_hw88

def k0_off179 (i : grid0.Coords) : Fin 2 → Nat :=
  let arg0 : BitVec 32 := BitVec.ofNat 32 (i 0).val
  let v1088 : Index := Scalar.indexCast arg0
  let c88 : Index := 88#32
  ![v1088.toNat, 88]
def k0_off180 (i : grid0.Coords) (v1089 : BitVec 32) : Fin 4 → Nat :=
  let arg0 : BitVec 32 := BitVec.ofNat 32 (i 0).val
  let c89_i32 : BitVec 32 := 89#32
  let c0_i32_738 : BitVec 32 := 0#32
  ![arg0.toNat, 89, v1089.toNat, 0]

def k0_chk89 (i : grid0.Coords) (v1089 : BitVec 32) : Prop :=
  (∀ a, (k0_off180 i v1089) a + S1x1x1x512.size a ≤ S8x128x128x512.size a)
instance k0_chk89.dec : ∀ (i : grid0.Coords) (v1089 : BitVec 32), Decidable (k0_chk89 i v1089) := fun i v1089 => decidable_of_iff' _ (Iff.of_eq (k0_chk89.eq_1 i v1089))
theorem k0_off180_inb : ∀ (i : grid0.Coords) (v1089 : BitVec 32) (k0_hw89 : k0_chk89 i v1089), ∀ a, (k0_off180 i v1089) a + S1x1x1x512.size a ≤ S8x128x128x512.size a := fun i v1089 k0_hw89 => k0_hw89

def k0_off181 (i : grid0.Coords) : Fin 2 → Nat :=
  let arg0 : BitVec 32 := BitVec.ofNat 32 (i 0).val
  let v1096 : Index := Scalar.indexCast arg0
  let c89 : Index := 89#32
  ![v1096.toNat, 89]
def k0_off182 (i : grid0.Coords) (v1097 : BitVec 32) : Fin 4 → Nat :=
  let arg0 : BitVec 32 := BitVec.ofNat 32 (i 0).val
  let c90_i32 : BitVec 32 := 90#32
  let c0_i32_742 : BitVec 32 := 0#32
  ![arg0.toNat, 90, v1097.toNat, 0]

def k0_chk90 (i : grid0.Coords) (v1097 : BitVec 32) : Prop :=
  (∀ a, (k0_off182 i v1097) a + S1x1x1x512.size a ≤ S8x128x128x512.size a)
instance k0_chk90.dec : ∀ (i : grid0.Coords) (v1097 : BitVec 32), Decidable (k0_chk90 i v1097) := fun i v1097 => decidable_of_iff' _ (Iff.of_eq (k0_chk90.eq_1 i v1097))
theorem k0_off182_inb : ∀ (i : grid0.Coords) (v1097 : BitVec 32) (k0_hw90 : k0_chk90 i v1097), ∀ a, (k0_off182 i v1097) a + S1x1x1x512.size a ≤ S8x128x128x512.size a := fun i v1097 k0_hw90 => k0_hw90

def k0_off183 (i : grid0.Coords) : Fin 2 → Nat :=
  let arg0 : BitVec 32 := BitVec.ofNat 32 (i 0).val
  let v1104 : Index := Scalar.indexCast arg0
  let c90 : Index := 90#32
  ![v1104.toNat, 90]
def k0_off184 (i : grid0.Coords) (v1105 : BitVec 32) : Fin 4 → Nat :=
  let arg0 : BitVec 32 := BitVec.ofNat 32 (i 0).val
  let c91_i32 : BitVec 32 := 91#32
  let c0_i32_746 : BitVec 32 := 0#32
  ![arg0.toNat, 91, v1105.toNat, 0]

def k0_chk91 (i : grid0.Coords) (v1105 : BitVec 32) : Prop :=
  (∀ a, (k0_off184 i v1105) a + S1x1x1x512.size a ≤ S8x128x128x512.size a)
instance k0_chk91.dec : ∀ (i : grid0.Coords) (v1105 : BitVec 32), Decidable (k0_chk91 i v1105) := fun i v1105 => decidable_of_iff' _ (Iff.of_eq (k0_chk91.eq_1 i v1105))
theorem k0_off184_inb : ∀ (i : grid0.Coords) (v1105 : BitVec 32) (k0_hw91 : k0_chk91 i v1105), ∀ a, (k0_off184 i v1105) a + S1x1x1x512.size a ≤ S8x128x128x512.size a := fun i v1105 k0_hw91 => k0_hw91

def k0_off185 (i : grid0.Coords) : Fin 2 → Nat :=
  let arg0 : BitVec 32 := BitVec.ofNat 32 (i 0).val
  let v1112 : Index := Scalar.indexCast arg0
  let c91 : Index := 91#32
  ![v1112.toNat, 91]
def k0_off186 (i : grid0.Coords) (v1113 : BitVec 32) : Fin 4 → Nat :=
  let arg0 : BitVec 32 := BitVec.ofNat 32 (i 0).val
  let c92_i32 : BitVec 32 := 92#32
  let c0_i32_750 : BitVec 32 := 0#32
  ![arg0.toNat, 92, v1113.toNat, 0]

def k0_chk92 (i : grid0.Coords) (v1113 : BitVec 32) : Prop :=
  (∀ a, (k0_off186 i v1113) a + S1x1x1x512.size a ≤ S8x128x128x512.size a)
instance k0_chk92.dec : ∀ (i : grid0.Coords) (v1113 : BitVec 32), Decidable (k0_chk92 i v1113) := fun i v1113 => decidable_of_iff' _ (Iff.of_eq (k0_chk92.eq_1 i v1113))
theorem k0_off186_inb : ∀ (i : grid0.Coords) (v1113 : BitVec 32) (k0_hw92 : k0_chk92 i v1113), ∀ a, (k0_off186 i v1113) a + S1x1x1x512.size a ≤ S8x128x128x512.size a := fun i v1113 k0_hw92 => k0_hw92

def k0_off187 (i : grid0.Coords) : Fin 2 → Nat :=
  let arg0 : BitVec 32 := BitVec.ofNat 32 (i 0).val
  let v1120 : Index := Scalar.indexCast arg0
  let c92 : Index := 92#32
  ![v1120.toNat, 92]
def k0_off188 (i : grid0.Coords) (v1121 : BitVec 32) : Fin 4 → Nat :=
  let arg0 : BitVec 32 := BitVec.ofNat 32 (i 0).val
  let c93_i32 : BitVec 32 := 93#32
  let c0_i32_754 : BitVec 32 := 0#32
  ![arg0.toNat, 93, v1121.toNat, 0]

def k0_chk93 (i : grid0.Coords) (v1121 : BitVec 32) : Prop :=
  (∀ a, (k0_off188 i v1121) a + S1x1x1x512.size a ≤ S8x128x128x512.size a)
instance k0_chk93.dec : ∀ (i : grid0.Coords) (v1121 : BitVec 32), Decidable (k0_chk93 i v1121) := fun i v1121 => decidable_of_iff' _ (Iff.of_eq (k0_chk93.eq_1 i v1121))
theorem k0_off188_inb : ∀ (i : grid0.Coords) (v1121 : BitVec 32) (k0_hw93 : k0_chk93 i v1121), ∀ a, (k0_off188 i v1121) a + S1x1x1x512.size a ≤ S8x128x128x512.size a := fun i v1121 k0_hw93 => k0_hw93

def k0_off189 (i : grid0.Coords) : Fin 2 → Nat :=
  let arg0 : BitVec 32 := BitVec.ofNat 32 (i 0).val
  let v1128 : Index := Scalar.indexCast arg0
  let c93 : Index := 93#32
  ![v1128.toNat, 93]
def k0_off190 (i : grid0.Coords) (v1129 : BitVec 32) : Fin 4 → Nat :=
  let arg0 : BitVec 32 := BitVec.ofNat 32 (i 0).val
  let c94_i32 : BitVec 32 := 94#32
  let c0_i32_758 : BitVec 32 := 0#32
  ![arg0.toNat, 94, v1129.toNat, 0]

def k0_chk94 (i : grid0.Coords) (v1129 : BitVec 32) : Prop :=
  (∀ a, (k0_off190 i v1129) a + S1x1x1x512.size a ≤ S8x128x128x512.size a)
instance k0_chk94.dec : ∀ (i : grid0.Coords) (v1129 : BitVec 32), Decidable (k0_chk94 i v1129) := fun i v1129 => decidable_of_iff' _ (Iff.of_eq (k0_chk94.eq_1 i v1129))
theorem k0_off190_inb : ∀ (i : grid0.Coords) (v1129 : BitVec 32) (k0_hw94 : k0_chk94 i v1129), ∀ a, (k0_off190 i v1129) a + S1x1x1x512.size a ≤ S8x128x128x512.size a := fun i v1129 k0_hw94 => k0_hw94

def k0_off191 (i : grid0.Coords) : Fin 2 → Nat :=
  let arg0 : BitVec 32 := BitVec.ofNat 32 (i 0).val
  let v1136 : Index := Scalar.indexCast arg0
  let c94 : Index := 94#32
  ![v1136.toNat, 94]
def k0_off192 (i : grid0.Coords) (v1137 : BitVec 32) : Fin 4 → Nat :=
  let arg0 : BitVec 32 := BitVec.ofNat 32 (i 0).val
  let c95_i32 : BitVec 32 := 95#32
  let c0_i32_762 : BitVec 32 := 0#32
  ![arg0.toNat, 95, v1137.toNat, 0]

def k0_chk95 (i : grid0.Coords) (v1137 : BitVec 32) : Prop :=
  (∀ a, (k0_off192 i v1137) a + S1x1x1x512.size a ≤ S8x128x128x512.size a)
instance k0_chk95.dec : ∀ (i : grid0.Coords) (v1137 : BitVec 32), Decidable (k0_chk95 i v1137) := fun i v1137 => decidable_of_iff' _ (Iff.of_eq (k0_chk95.eq_1 i v1137))
theorem k0_off192_inb : ∀ (i : grid0.Coords) (v1137 : BitVec 32) (k0_hw95 : k0_chk95 i v1137), ∀ a, (k0_off192 i v1137) a + S1x1x1x512.size a ≤ S8x128x128x512.size a := fun i v1137 k0_hw95 => k0_hw95

def k0_off193 (i : grid0.Coords) : Fin 2 → Nat :=
  let arg0 : BitVec 32 := BitVec.ofNat 32 (i 0).val
  let v1144 : Index := Scalar.indexCast arg0
  let c95 : Index := 95#32
  ![v1144.toNat, 95]
def k0_off194 (i : grid0.Coords) (v1145 : BitVec 32) : Fin 4 → Nat :=
  let arg0 : BitVec 32 := BitVec.ofNat 32 (i 0).val
  let c96_i32 : BitVec 32 := 96#32
  let c0_i32_766 : BitVec 32 := 0#32
  ![arg0.toNat, 96, v1145.toNat, 0]

def k0_chk96 (i : grid0.Coords) (v1145 : BitVec 32) : Prop :=
  (∀ a, (k0_off194 i v1145) a + S1x1x1x512.size a ≤ S8x128x128x512.size a)
instance k0_chk96.dec : ∀ (i : grid0.Coords) (v1145 : BitVec 32), Decidable (k0_chk96 i v1145) := fun i v1145 => decidable_of_iff' _ (Iff.of_eq (k0_chk96.eq_1 i v1145))
theorem k0_off194_inb : ∀ (i : grid0.Coords) (v1145 : BitVec 32) (k0_hw96 : k0_chk96 i v1145), ∀ a, (k0_off194 i v1145) a + S1x1x1x512.size a ≤ S8x128x128x512.size a := fun i v1145 k0_hw96 => k0_hw96

def k0_off195 (i : grid0.Coords) : Fin 4 → Nat :=
  let arg0 : BitVec 32 := BitVec.ofNat 32 (i 0).val
  let c0_i32_767 : BitVec 32 := 0#32
  let c0_i32_768 : BitVec 32 := 0#32
  let c0_i32_772 : BitVec 32 := 0#32
  ![arg0.toNat, 0, 0, 0]
def k0_off196 (i : grid0.Coords) : Fin 2 → Nat :=
  let arg0 : BitVec 32 := BitVec.ofNat 32 (i 0).val
  let v1344 : Index := Scalar.indexCast arg0
  let c96 : Index := 96#32
  ![v1344.toNat, 96]
def k0_off197 (i : grid0.Coords) (v1345 : BitVec 32) : Fin 4 → Nat :=
  let arg0 : BitVec 32 := BitVec.ofNat 32 (i 0).val
  let c97_i32 : BitVec 32 := 97#32
  let c0_i32_962 : BitVec 32 := 0#32
  ![arg0.toNat, 97, v1345.toNat, 0]

def k0_chk97 (i : grid0.Coords) (v1345 : BitVec 32) : Prop :=
  (∀ a, (k0_off197 i v1345) a + S1x1x1x512.size a ≤ S8x128x128x512.size a)
instance k0_chk97.dec : ∀ (i : grid0.Coords) (v1345 : BitVec 32), Decidable (k0_chk97 i v1345) := fun i v1345 => decidable_of_iff' _ (Iff.of_eq (k0_chk97.eq_1 i v1345))
theorem k0_off197_inb : ∀ (i : grid0.Coords) (v1345 : BitVec 32) (k0_hw97 : k0_chk97 i v1345), ∀ a, (k0_off197 i v1345) a + S1x1x1x512.size a ≤ S8x128x128x512.size a := fun i v1345 k0_hw97 => k0_hw97

def k0_off198 (i : grid0.Coords) : Fin 2 → Nat :=
  let arg0 : BitVec 32 := BitVec.ofNat 32 (i 0).val
  let v1352 : Index := Scalar.indexCast arg0
  let c97 : Index := 97#32
  ![v1352.toNat, 97]
def k0_off199 (i : grid0.Coords) (v1353 : BitVec 32) : Fin 4 → Nat :=
  let arg0 : BitVec 32 := BitVec.ofNat 32 (i 0).val
  let c98_i32 : BitVec 32 := 98#32
  let c0_i32_966 : BitVec 32 := 0#32
  ![arg0.toNat, 98, v1353.toNat, 0]

def k0_chk98 (i : grid0.Coords) (v1353 : BitVec 32) : Prop :=
  (∀ a, (k0_off199 i v1353) a + S1x1x1x512.size a ≤ S8x128x128x512.size a)
instance k0_chk98.dec : ∀ (i : grid0.Coords) (v1353 : BitVec 32), Decidable (k0_chk98 i v1353) := fun i v1353 => decidable_of_iff' _ (Iff.of_eq (k0_chk98.eq_1 i v1353))
theorem k0_off199_inb : ∀ (i : grid0.Coords) (v1353 : BitVec 32) (k0_hw98 : k0_chk98 i v1353), ∀ a, (k0_off199 i v1353) a + S1x1x1x512.size a ≤ S8x128x128x512.size a := fun i v1353 k0_hw98 => k0_hw98

def k0_off200 (i : grid0.Coords) : Fin 2 → Nat :=
  let arg0 : BitVec 32 := BitVec.ofNat 32 (i 0).val
  let v1360 : Index := Scalar.indexCast arg0
  let c98 : Index := 98#32
  ![v1360.toNat, 98]
def k0_off201 (i : grid0.Coords) (v1361 : BitVec 32) : Fin 4 → Nat :=
  let arg0 : BitVec 32 := BitVec.ofNat 32 (i 0).val
  let c99_i32 : BitVec 32 := 99#32
  let c0_i32_970 : BitVec 32 := 0#32
  ![arg0.toNat, 99, v1361.toNat, 0]

def k0_chk99 (i : grid0.Coords) (v1361 : BitVec 32) : Prop :=
  (∀ a, (k0_off201 i v1361) a + S1x1x1x512.size a ≤ S8x128x128x512.size a)
instance k0_chk99.dec : ∀ (i : grid0.Coords) (v1361 : BitVec 32), Decidable (k0_chk99 i v1361) := fun i v1361 => decidable_of_iff' _ (Iff.of_eq (k0_chk99.eq_1 i v1361))
theorem k0_off201_inb : ∀ (i : grid0.Coords) (v1361 : BitVec 32) (k0_hw99 : k0_chk99 i v1361), ∀ a, (k0_off201 i v1361) a + S1x1x1x512.size a ≤ S8x128x128x512.size a := fun i v1361 k0_hw99 => k0_hw99

def k0_off202 (i : grid0.Coords) : Fin 2 → Nat :=
  let arg0 : BitVec 32 := BitVec.ofNat 32 (i 0).val
  let v1368 : Index := Scalar.indexCast arg0
  let c99 : Index := 99#32
  ![v1368.toNat, 99]
def k0_off203 (i : grid0.Coords) (v1369 : BitVec 32) : Fin 4 → Nat :=
  let arg0 : BitVec 32 := BitVec.ofNat 32 (i 0).val
  let c100_i32 : BitVec 32 := 100#32
  let c0_i32_974 : BitVec 32 := 0#32
  ![arg0.toNat, 100, v1369.toNat, 0]

def k0_chk100 (i : grid0.Coords) (v1369 : BitVec 32) : Prop :=
  (∀ a, (k0_off203 i v1369) a + S1x1x1x512.size a ≤ S8x128x128x512.size a)
instance k0_chk100.dec : ∀ (i : grid0.Coords) (v1369 : BitVec 32), Decidable (k0_chk100 i v1369) := fun i v1369 => decidable_of_iff' _ (Iff.of_eq (k0_chk100.eq_1 i v1369))
theorem k0_off203_inb : ∀ (i : grid0.Coords) (v1369 : BitVec 32) (k0_hw100 : k0_chk100 i v1369), ∀ a, (k0_off203 i v1369) a + S1x1x1x512.size a ≤ S8x128x128x512.size a := fun i v1369 k0_hw100 => k0_hw100

def k0_off204 (i : grid0.Coords) : Fin 2 → Nat :=
  let arg0 : BitVec 32 := BitVec.ofNat 32 (i 0).val
  let v1376 : Index := Scalar.indexCast arg0
  let c100 : Index := 100#32
  ![v1376.toNat, 100]
def k0_off205 (i : grid0.Coords) (v1377 : BitVec 32) : Fin 4 → Nat :=
  let arg0 : BitVec 32 := BitVec.ofNat 32 (i 0).val
  let c101_i32 : BitVec 32 := 101#32
  let c0_i32_978 : BitVec 32 := 0#32
  ![arg0.toNat, 101, v1377.toNat, 0]

def k0_chk101 (i : grid0.Coords) (v1377 : BitVec 32) : Prop :=
  (∀ a, (k0_off205 i v1377) a + S1x1x1x512.size a ≤ S8x128x128x512.size a)
instance k0_chk101.dec : ∀ (i : grid0.Coords) (v1377 : BitVec 32), Decidable (k0_chk101 i v1377) := fun i v1377 => decidable_of_iff' _ (Iff.of_eq (k0_chk101.eq_1 i v1377))
theorem k0_off205_inb : ∀ (i : grid0.Coords) (v1377 : BitVec 32) (k0_hw101 : k0_chk101 i v1377), ∀ a, (k0_off205 i v1377) a + S1x1x1x512.size a ≤ S8x128x128x512.size a := fun i v1377 k0_hw101 => k0_hw101

def k0_off206 (i : grid0.Coords) : Fin 2 → Nat :=
  let arg0 : BitVec 32 := BitVec.ofNat 32 (i 0).val
  let v1384 : Index := Scalar.indexCast arg0
  let c101 : Index := 101#32
  ![v1384.toNat, 101]
def k0_off207 (i : grid0.Coords) (v1385 : BitVec 32) : Fin 4 → Nat :=
  let arg0 : BitVec 32 := BitVec.ofNat 32 (i 0).val
  let c102_i32 : BitVec 32 := 102#32
  let c0_i32_982 : BitVec 32 := 0#32
  ![arg0.toNat, 102, v1385.toNat, 0]

def k0_chk102 (i : grid0.Coords) (v1385 : BitVec 32) : Prop :=
  (∀ a, (k0_off207 i v1385) a + S1x1x1x512.size a ≤ S8x128x128x512.size a)
instance k0_chk102.dec : ∀ (i : grid0.Coords) (v1385 : BitVec 32), Decidable (k0_chk102 i v1385) := fun i v1385 => decidable_of_iff' _ (Iff.of_eq (k0_chk102.eq_1 i v1385))
theorem k0_off207_inb : ∀ (i : grid0.Coords) (v1385 : BitVec 32) (k0_hw102 : k0_chk102 i v1385), ∀ a, (k0_off207 i v1385) a + S1x1x1x512.size a ≤ S8x128x128x512.size a := fun i v1385 k0_hw102 => k0_hw102

def k0_off208 (i : grid0.Coords) : Fin 2 → Nat :=
  let arg0 : BitVec 32 := BitVec.ofNat 32 (i 0).val
  let v1392 : Index := Scalar.indexCast arg0
  let c102 : Index := 102#32
  ![v1392.toNat, 102]
def k0_off209 (i : grid0.Coords) (v1393 : BitVec 32) : Fin 4 → Nat :=
  let arg0 : BitVec 32 := BitVec.ofNat 32 (i 0).val
  let c103_i32 : BitVec 32 := 103#32
  let c0_i32_986 : BitVec 32 := 0#32
  ![arg0.toNat, 103, v1393.toNat, 0]

def k0_chk103 (i : grid0.Coords) (v1393 : BitVec 32) : Prop :=
  (∀ a, (k0_off209 i v1393) a + S1x1x1x512.size a ≤ S8x128x128x512.size a)
instance k0_chk103.dec : ∀ (i : grid0.Coords) (v1393 : BitVec 32), Decidable (k0_chk103 i v1393) := fun i v1393 => decidable_of_iff' _ (Iff.of_eq (k0_chk103.eq_1 i v1393))
theorem k0_off209_inb : ∀ (i : grid0.Coords) (v1393 : BitVec 32) (k0_hw103 : k0_chk103 i v1393), ∀ a, (k0_off209 i v1393) a + S1x1x1x512.size a ≤ S8x128x128x512.size a := fun i v1393 k0_hw103 => k0_hw103

def k0_off210 (i : grid0.Coords) : Fin 2 → Nat :=
  let arg0 : BitVec 32 := BitVec.ofNat 32 (i 0).val
  let v1400 : Index := Scalar.indexCast arg0
  let c103 : Index := 103#32
  ![v1400.toNat, 103]
def k0_off211 (i : grid0.Coords) (v1401 : BitVec 32) : Fin 4 → Nat :=
  let arg0 : BitVec 32 := BitVec.ofNat 32 (i 0).val
  let c104_i32 : BitVec 32 := 104#32
  let c0_i32_990 : BitVec 32 := 0#32
  ![arg0.toNat, 104, v1401.toNat, 0]

def k0_chk104 (i : grid0.Coords) (v1401 : BitVec 32) : Prop :=
  (∀ a, (k0_off211 i v1401) a + S1x1x1x512.size a ≤ S8x128x128x512.size a)
instance k0_chk104.dec : ∀ (i : grid0.Coords) (v1401 : BitVec 32), Decidable (k0_chk104 i v1401) := fun i v1401 => decidable_of_iff' _ (Iff.of_eq (k0_chk104.eq_1 i v1401))
theorem k0_off211_inb : ∀ (i : grid0.Coords) (v1401 : BitVec 32) (k0_hw104 : k0_chk104 i v1401), ∀ a, (k0_off211 i v1401) a + S1x1x1x512.size a ≤ S8x128x128x512.size a := fun i v1401 k0_hw104 => k0_hw104

def k0_off212 (i : grid0.Coords) : Fin 2 → Nat :=
  let arg0 : BitVec 32 := BitVec.ofNat 32 (i 0).val
  let v1408 : Index := Scalar.indexCast arg0
  let c104 : Index := 104#32
  ![v1408.toNat, 104]
def k0_off213 (i : grid0.Coords) (v1409 : BitVec 32) : Fin 4 → Nat :=
  let arg0 : BitVec 32 := BitVec.ofNat 32 (i 0).val
  let c105_i32 : BitVec 32 := 105#32
  let c0_i32_994 : BitVec 32 := 0#32
  ![arg0.toNat, 105, v1409.toNat, 0]

def k0_chk105 (i : grid0.Coords) (v1409 : BitVec 32) : Prop :=
  (∀ a, (k0_off213 i v1409) a + S1x1x1x512.size a ≤ S8x128x128x512.size a)
instance k0_chk105.dec : ∀ (i : grid0.Coords) (v1409 : BitVec 32), Decidable (k0_chk105 i v1409) := fun i v1409 => decidable_of_iff' _ (Iff.of_eq (k0_chk105.eq_1 i v1409))
theorem k0_off213_inb : ∀ (i : grid0.Coords) (v1409 : BitVec 32) (k0_hw105 : k0_chk105 i v1409), ∀ a, (k0_off213 i v1409) a + S1x1x1x512.size a ≤ S8x128x128x512.size a := fun i v1409 k0_hw105 => k0_hw105

def k0_off214 (i : grid0.Coords) : Fin 2 → Nat :=
  let arg0 : BitVec 32 := BitVec.ofNat 32 (i 0).val
  let v1416 : Index := Scalar.indexCast arg0
  let c105 : Index := 105#32
  ![v1416.toNat, 105]
def k0_off215 (i : grid0.Coords) (v1417 : BitVec 32) : Fin 4 → Nat :=
  let arg0 : BitVec 32 := BitVec.ofNat 32 (i 0).val
  let c106_i32 : BitVec 32 := 106#32
  let c0_i32_998 : BitVec 32 := 0#32
  ![arg0.toNat, 106, v1417.toNat, 0]

def k0_chk106 (i : grid0.Coords) (v1417 : BitVec 32) : Prop :=
  (∀ a, (k0_off215 i v1417) a + S1x1x1x512.size a ≤ S8x128x128x512.size a)
instance k0_chk106.dec : ∀ (i : grid0.Coords) (v1417 : BitVec 32), Decidable (k0_chk106 i v1417) := fun i v1417 => decidable_of_iff' _ (Iff.of_eq (k0_chk106.eq_1 i v1417))
theorem k0_off215_inb : ∀ (i : grid0.Coords) (v1417 : BitVec 32) (k0_hw106 : k0_chk106 i v1417), ∀ a, (k0_off215 i v1417) a + S1x1x1x512.size a ≤ S8x128x128x512.size a := fun i v1417 k0_hw106 => k0_hw106

def k0_off216 (i : grid0.Coords) : Fin 2 → Nat :=
  let arg0 : BitVec 32 := BitVec.ofNat 32 (i 0).val
  let v1424 : Index := Scalar.indexCast arg0
  let c106 : Index := 106#32
  ![v1424.toNat, 106]
def k0_off217 (i : grid0.Coords) (v1425 : BitVec 32) : Fin 4 → Nat :=
  let arg0 : BitVec 32 := BitVec.ofNat 32 (i 0).val
  let c107_i32 : BitVec 32 := 107#32
  let c0_i32_1002 : BitVec 32 := 0#32
  ![arg0.toNat, 107, v1425.toNat, 0]

def k0_chk107 (i : grid0.Coords) (v1425 : BitVec 32) : Prop :=
  (∀ a, (k0_off217 i v1425) a + S1x1x1x512.size a ≤ S8x128x128x512.size a)
instance k0_chk107.dec : ∀ (i : grid0.Coords) (v1425 : BitVec 32), Decidable (k0_chk107 i v1425) := fun i v1425 => decidable_of_iff' _ (Iff.of_eq (k0_chk107.eq_1 i v1425))
theorem k0_off217_inb : ∀ (i : grid0.Coords) (v1425 : BitVec 32) (k0_hw107 : k0_chk107 i v1425), ∀ a, (k0_off217 i v1425) a + S1x1x1x512.size a ≤ S8x128x128x512.size a := fun i v1425 k0_hw107 => k0_hw107

def k0_off218 (i : grid0.Coords) : Fin 2 → Nat :=
  let arg0 : BitVec 32 := BitVec.ofNat 32 (i 0).val
  let v1432 : Index := Scalar.indexCast arg0
  let c107 : Index := 107#32
  ![v1432.toNat, 107]
def k0_off219 (i : grid0.Coords) (v1433 : BitVec 32) : Fin 4 → Nat :=
  let arg0 : BitVec 32 := BitVec.ofNat 32 (i 0).val
  let c108_i32 : BitVec 32 := 108#32
  let c0_i32_1006 : BitVec 32 := 0#32
  ![arg0.toNat, 108, v1433.toNat, 0]

def k0_chk108 (i : grid0.Coords) (v1433 : BitVec 32) : Prop :=
  (∀ a, (k0_off219 i v1433) a + S1x1x1x512.size a ≤ S8x128x128x512.size a)
instance k0_chk108.dec : ∀ (i : grid0.Coords) (v1433 : BitVec 32), Decidable (k0_chk108 i v1433) := fun i v1433 => decidable_of_iff' _ (Iff.of_eq (k0_chk108.eq_1 i v1433))
theorem k0_off219_inb : ∀ (i : grid0.Coords) (v1433 : BitVec 32) (k0_hw108 : k0_chk108 i v1433), ∀ a, (k0_off219 i v1433) a + S1x1x1x512.size a ≤ S8x128x128x512.size a := fun i v1433 k0_hw108 => k0_hw108

def k0_off220 (i : grid0.Coords) : Fin 2 → Nat :=
  let arg0 : BitVec 32 := BitVec.ofNat 32 (i 0).val
  let v1440 : Index := Scalar.indexCast arg0
  let c108 : Index := 108#32
  ![v1440.toNat, 108]
def k0_off221 (i : grid0.Coords) (v1441 : BitVec 32) : Fin 4 → Nat :=
  let arg0 : BitVec 32 := BitVec.ofNat 32 (i 0).val
  let c109_i32 : BitVec 32 := 109#32
  let c0_i32_1010 : BitVec 32 := 0#32
  ![arg0.toNat, 109, v1441.toNat, 0]

def k0_chk109 (i : grid0.Coords) (v1441 : BitVec 32) : Prop :=
  (∀ a, (k0_off221 i v1441) a + S1x1x1x512.size a ≤ S8x128x128x512.size a)
instance k0_chk109.dec : ∀ (i : grid0.Coords) (v1441 : BitVec 32), Decidable (k0_chk109 i v1441) := fun i v1441 => decidable_of_iff' _ (Iff.of_eq (k0_chk109.eq_1 i v1441))
theorem k0_off221_inb : ∀ (i : grid0.Coords) (v1441 : BitVec 32) (k0_hw109 : k0_chk109 i v1441), ∀ a, (k0_off221 i v1441) a + S1x1x1x512.size a ≤ S8x128x128x512.size a := fun i v1441 k0_hw109 => k0_hw109

def k0_off222 (i : grid0.Coords) : Fin 2 → Nat :=
  let arg0 : BitVec 32 := BitVec.ofNat 32 (i 0).val
  let v1448 : Index := Scalar.indexCast arg0
  let c109 : Index := 109#32
  ![v1448.toNat, 109]
def k0_off223 (i : grid0.Coords) (v1449 : BitVec 32) : Fin 4 → Nat :=
  let arg0 : BitVec 32 := BitVec.ofNat 32 (i 0).val
  let c110_i32 : BitVec 32 := 110#32
  let c0_i32_1014 : BitVec 32 := 0#32
  ![arg0.toNat, 110, v1449.toNat, 0]

def k0_chk110 (i : grid0.Coords) (v1449 : BitVec 32) : Prop :=
  (∀ a, (k0_off223 i v1449) a + S1x1x1x512.size a ≤ S8x128x128x512.size a)
instance k0_chk110.dec : ∀ (i : grid0.Coords) (v1449 : BitVec 32), Decidable (k0_chk110 i v1449) := fun i v1449 => decidable_of_iff' _ (Iff.of_eq (k0_chk110.eq_1 i v1449))
theorem k0_off223_inb : ∀ (i : grid0.Coords) (v1449 : BitVec 32) (k0_hw110 : k0_chk110 i v1449), ∀ a, (k0_off223 i v1449) a + S1x1x1x512.size a ≤ S8x128x128x512.size a := fun i v1449 k0_hw110 => k0_hw110

def k0_off224 (i : grid0.Coords) : Fin 2 → Nat :=
  let arg0 : BitVec 32 := BitVec.ofNat 32 (i 0).val
  let v1456 : Index := Scalar.indexCast arg0
  let c110 : Index := 110#32
  ![v1456.toNat, 110]
def k0_off225 (i : grid0.Coords) (v1457 : BitVec 32) : Fin 4 → Nat :=
  let arg0 : BitVec 32 := BitVec.ofNat 32 (i 0).val
  let c111_i32 : BitVec 32 := 111#32
  let c0_i32_1018 : BitVec 32 := 0#32
  ![arg0.toNat, 111, v1457.toNat, 0]

def k0_chk111 (i : grid0.Coords) (v1457 : BitVec 32) : Prop :=
  (∀ a, (k0_off225 i v1457) a + S1x1x1x512.size a ≤ S8x128x128x512.size a)
instance k0_chk111.dec : ∀ (i : grid0.Coords) (v1457 : BitVec 32), Decidable (k0_chk111 i v1457) := fun i v1457 => decidable_of_iff' _ (Iff.of_eq (k0_chk111.eq_1 i v1457))
theorem k0_off225_inb : ∀ (i : grid0.Coords) (v1457 : BitVec 32) (k0_hw111 : k0_chk111 i v1457), ∀ a, (k0_off225 i v1457) a + S1x1x1x512.size a ≤ S8x128x128x512.size a := fun i v1457 k0_hw111 => k0_hw111

def k0_off226 (i : grid0.Coords) : Fin 2 → Nat :=
  let arg0 : BitVec 32 := BitVec.ofNat 32 (i 0).val
  let v1464 : Index := Scalar.indexCast arg0
  let c111 : Index := 111#32
  ![v1464.toNat, 111]
def k0_off227 (i : grid0.Coords) (v1465 : BitVec 32) : Fin 4 → Nat :=
  let arg0 : BitVec 32 := BitVec.ofNat 32 (i 0).val
  let c112_i32 : BitVec 32 := 112#32
  let c0_i32_1022 : BitVec 32 := 0#32
  ![arg0.toNat, 112, v1465.toNat, 0]

def k0_chk112 (i : grid0.Coords) (v1465 : BitVec 32) : Prop :=
  (∀ a, (k0_off227 i v1465) a + S1x1x1x512.size a ≤ S8x128x128x512.size a)
instance k0_chk112.dec : ∀ (i : grid0.Coords) (v1465 : BitVec 32), Decidable (k0_chk112 i v1465) := fun i v1465 => decidable_of_iff' _ (Iff.of_eq (k0_chk112.eq_1 i v1465))
theorem k0_off227_inb : ∀ (i : grid0.Coords) (v1465 : BitVec 32) (k0_hw112 : k0_chk112 i v1465), ∀ a, (k0_off227 i v1465) a + S1x1x1x512.size a ≤ S8x128x128x512.size a := fun i v1465 k0_hw112 => k0_hw112

def k0_off228 (i : grid0.Coords) : Fin 2 → Nat :=
  let arg0 : BitVec 32 := BitVec.ofNat 32 (i 0).val
  let v1472 : Index := Scalar.indexCast arg0
  let c112 : Index := 112#32
  ![v1472.toNat, 112]
def k0_off229 (i : grid0.Coords) (v1473 : BitVec 32) : Fin 4 → Nat :=
  let arg0 : BitVec 32 := BitVec.ofNat 32 (i 0).val
  let c113_i32 : BitVec 32 := 113#32
  let c0_i32_1026 : BitVec 32 := 0#32
  ![arg0.toNat, 113, v1473.toNat, 0]

def k0_chk113 (i : grid0.Coords) (v1473 : BitVec 32) : Prop :=
  (∀ a, (k0_off229 i v1473) a + S1x1x1x512.size a ≤ S8x128x128x512.size a)
instance k0_chk113.dec : ∀ (i : grid0.Coords) (v1473 : BitVec 32), Decidable (k0_chk113 i v1473) := fun i v1473 => decidable_of_iff' _ (Iff.of_eq (k0_chk113.eq_1 i v1473))
theorem k0_off229_inb : ∀ (i : grid0.Coords) (v1473 : BitVec 32) (k0_hw113 : k0_chk113 i v1473), ∀ a, (k0_off229 i v1473) a + S1x1x1x512.size a ≤ S8x128x128x512.size a := fun i v1473 k0_hw113 => k0_hw113

def k0_off230 (i : grid0.Coords) : Fin 2 → Nat :=
  let arg0 : BitVec 32 := BitVec.ofNat 32 (i 0).val
  let v1480 : Index := Scalar.indexCast arg0
  let c113 : Index := 113#32
  ![v1480.toNat, 113]
def k0_off231 (i : grid0.Coords) (v1481 : BitVec 32) : Fin 4 → Nat :=
  let arg0 : BitVec 32 := BitVec.ofNat 32 (i 0).val
  let c114_i32 : BitVec 32 := 114#32
  let c0_i32_1030 : BitVec 32 := 0#32
  ![arg0.toNat, 114, v1481.toNat, 0]

def k0_chk114 (i : grid0.Coords) (v1481 : BitVec 32) : Prop :=
  (∀ a, (k0_off231 i v1481) a + S1x1x1x512.size a ≤ S8x128x128x512.size a)
instance k0_chk114.dec : ∀ (i : grid0.Coords) (v1481 : BitVec 32), Decidable (k0_chk114 i v1481) := fun i v1481 => decidable_of_iff' _ (Iff.of_eq (k0_chk114.eq_1 i v1481))
theorem k0_off231_inb : ∀ (i : grid0.Coords) (v1481 : BitVec 32) (k0_hw114 : k0_chk114 i v1481), ∀ a, (k0_off231 i v1481) a + S1x1x1x512.size a ≤ S8x128x128x512.size a := fun i v1481 k0_hw114 => k0_hw114

def k0_off232 (i : grid0.Coords) : Fin 2 → Nat :=
  let arg0 : BitVec 32 := BitVec.ofNat 32 (i 0).val
  let v1488 : Index := Scalar.indexCast arg0
  let c114 : Index := 114#32
  ![v1488.toNat, 114]
def k0_off233 (i : grid0.Coords) (v1489 : BitVec 32) : Fin 4 → Nat :=
  let arg0 : BitVec 32 := BitVec.ofNat 32 (i 0).val
  let c115_i32 : BitVec 32 := 115#32
  let c0_i32_1034 : BitVec 32 := 0#32
  ![arg0.toNat, 115, v1489.toNat, 0]

def k0_chk115 (i : grid0.Coords) (v1489 : BitVec 32) : Prop :=
  (∀ a, (k0_off233 i v1489) a + S1x1x1x512.size a ≤ S8x128x128x512.size a)
instance k0_chk115.dec : ∀ (i : grid0.Coords) (v1489 : BitVec 32), Decidable (k0_chk115 i v1489) := fun i v1489 => decidable_of_iff' _ (Iff.of_eq (k0_chk115.eq_1 i v1489))
theorem k0_off233_inb : ∀ (i : grid0.Coords) (v1489 : BitVec 32) (k0_hw115 : k0_chk115 i v1489), ∀ a, (k0_off233 i v1489) a + S1x1x1x512.size a ≤ S8x128x128x512.size a := fun i v1489 k0_hw115 => k0_hw115

def k0_off234 (i : grid0.Coords) : Fin 2 → Nat :=
  let arg0 : BitVec 32 := BitVec.ofNat 32 (i 0).val
  let v1496 : Index := Scalar.indexCast arg0
  let c115 : Index := 115#32
  ![v1496.toNat, 115]
def k0_off235 (i : grid0.Coords) (v1497 : BitVec 32) : Fin 4 → Nat :=
  let arg0 : BitVec 32 := BitVec.ofNat 32 (i 0).val
  let c116_i32 : BitVec 32 := 116#32
  let c0_i32_1038 : BitVec 32 := 0#32
  ![arg0.toNat, 116, v1497.toNat, 0]

def k0_chk116 (i : grid0.Coords) (v1497 : BitVec 32) : Prop :=
  (∀ a, (k0_off235 i v1497) a + S1x1x1x512.size a ≤ S8x128x128x512.size a)
instance k0_chk116.dec : ∀ (i : grid0.Coords) (v1497 : BitVec 32), Decidable (k0_chk116 i v1497) := fun i v1497 => decidable_of_iff' _ (Iff.of_eq (k0_chk116.eq_1 i v1497))
theorem k0_off235_inb : ∀ (i : grid0.Coords) (v1497 : BitVec 32) (k0_hw116 : k0_chk116 i v1497), ∀ a, (k0_off235 i v1497) a + S1x1x1x512.size a ≤ S8x128x128x512.size a := fun i v1497 k0_hw116 => k0_hw116

def k0_off236 (i : grid0.Coords) : Fin 2 → Nat :=
  let arg0 : BitVec 32 := BitVec.ofNat 32 (i 0).val
  let v1504 : Index := Scalar.indexCast arg0
  let c116 : Index := 116#32
  ![v1504.toNat, 116]
def k0_off237 (i : grid0.Coords) (v1505 : BitVec 32) : Fin 4 → Nat :=
  let arg0 : BitVec 32 := BitVec.ofNat 32 (i 0).val
  let c117_i32 : BitVec 32 := 117#32
  let c0_i32_1042 : BitVec 32 := 0#32
  ![arg0.toNat, 117, v1505.toNat, 0]

def k0_chk117 (i : grid0.Coords) (v1505 : BitVec 32) : Prop :=
  (∀ a, (k0_off237 i v1505) a + S1x1x1x512.size a ≤ S8x128x128x512.size a)
instance k0_chk117.dec : ∀ (i : grid0.Coords) (v1505 : BitVec 32), Decidable (k0_chk117 i v1505) := fun i v1505 => decidable_of_iff' _ (Iff.of_eq (k0_chk117.eq_1 i v1505))
theorem k0_off237_inb : ∀ (i : grid0.Coords) (v1505 : BitVec 32) (k0_hw117 : k0_chk117 i v1505), ∀ a, (k0_off237 i v1505) a + S1x1x1x512.size a ≤ S8x128x128x512.size a := fun i v1505 k0_hw117 => k0_hw117

def k0_off238 (i : grid0.Coords) : Fin 2 → Nat :=
  let arg0 : BitVec 32 := BitVec.ofNat 32 (i 0).val
  let v1512 : Index := Scalar.indexCast arg0
  let c117 : Index := 117#32
  ![v1512.toNat, 117]
def k0_off239 (i : grid0.Coords) (v1513 : BitVec 32) : Fin 4 → Nat :=
  let arg0 : BitVec 32 := BitVec.ofNat 32 (i 0).val
  let c118_i32 : BitVec 32 := 118#32
  let c0_i32_1046 : BitVec 32 := 0#32
  ![arg0.toNat, 118, v1513.toNat, 0]

def k0_chk118 (i : grid0.Coords) (v1513 : BitVec 32) : Prop :=
  (∀ a, (k0_off239 i v1513) a + S1x1x1x512.size a ≤ S8x128x128x512.size a)
instance k0_chk118.dec : ∀ (i : grid0.Coords) (v1513 : BitVec 32), Decidable (k0_chk118 i v1513) := fun i v1513 => decidable_of_iff' _ (Iff.of_eq (k0_chk118.eq_1 i v1513))
theorem k0_off239_inb : ∀ (i : grid0.Coords) (v1513 : BitVec 32) (k0_hw118 : k0_chk118 i v1513), ∀ a, (k0_off239 i v1513) a + S1x1x1x512.size a ≤ S8x128x128x512.size a := fun i v1513 k0_hw118 => k0_hw118

def k0_off240 (i : grid0.Coords) : Fin 2 → Nat :=
  let arg0 : BitVec 32 := BitVec.ofNat 32 (i 0).val
  let v1520 : Index := Scalar.indexCast arg0
  let c118 : Index := 118#32
  ![v1520.toNat, 118]
def k0_off241 (i : grid0.Coords) (v1521 : BitVec 32) : Fin 4 → Nat :=
  let arg0 : BitVec 32 := BitVec.ofNat 32 (i 0).val
  let c119_i32 : BitVec 32 := 119#32
  let c0_i32_1050 : BitVec 32 := 0#32
  ![arg0.toNat, 119, v1521.toNat, 0]

def k0_chk119 (i : grid0.Coords) (v1521 : BitVec 32) : Prop :=
  (∀ a, (k0_off241 i v1521) a + S1x1x1x512.size a ≤ S8x128x128x512.size a)
instance k0_chk119.dec : ∀ (i : grid0.Coords) (v1521 : BitVec 32), Decidable (k0_chk119 i v1521) := fun i v1521 => decidable_of_iff' _ (Iff.of_eq (k0_chk119.eq_1 i v1521))
theorem k0_off241_inb : ∀ (i : grid0.Coords) (v1521 : BitVec 32) (k0_hw119 : k0_chk119 i v1521), ∀ a, (k0_off241 i v1521) a + S1x1x1x512.size a ≤ S8x128x128x512.size a := fun i v1521 k0_hw119 => k0_hw119

def k0_off242 (i : grid0.Coords) : Fin 2 → Nat :=
  let arg0 : BitVec 32 := BitVec.ofNat 32 (i 0).val
  let v1528 : Index := Scalar.indexCast arg0
  let c119 : Index := 119#32
  ![v1528.toNat, 119]
def k0_off243 (i : grid0.Coords) (v1529 : BitVec 32) : Fin 4 → Nat :=
  let arg0 : BitVec 32 := BitVec.ofNat 32 (i 0).val
  let c120_i32 : BitVec 32 := 120#32
  let c0_i32_1054 : BitVec 32 := 0#32
  ![arg0.toNat, 120, v1529.toNat, 0]

def k0_chk120 (i : grid0.Coords) (v1529 : BitVec 32) : Prop :=
  (∀ a, (k0_off243 i v1529) a + S1x1x1x512.size a ≤ S8x128x128x512.size a)
instance k0_chk120.dec : ∀ (i : grid0.Coords) (v1529 : BitVec 32), Decidable (k0_chk120 i v1529) := fun i v1529 => decidable_of_iff' _ (Iff.of_eq (k0_chk120.eq_1 i v1529))
theorem k0_off243_inb : ∀ (i : grid0.Coords) (v1529 : BitVec 32) (k0_hw120 : k0_chk120 i v1529), ∀ a, (k0_off243 i v1529) a + S1x1x1x512.size a ≤ S8x128x128x512.size a := fun i v1529 k0_hw120 => k0_hw120

def k0_off244 (i : grid0.Coords) : Fin 2 → Nat :=
  let arg0 : BitVec 32 := BitVec.ofNat 32 (i 0).val
  let v1536 : Index := Scalar.indexCast arg0
  let c120 : Index := 120#32
  ![v1536.toNat, 120]
def k0_off245 (i : grid0.Coords) (v1537 : BitVec 32) : Fin 4 → Nat :=
  let arg0 : BitVec 32 := BitVec.ofNat 32 (i 0).val
  let c121_i32 : BitVec 32 := 121#32
  let c0_i32_1058 : BitVec 32 := 0#32
  ![arg0.toNat, 121, v1537.toNat, 0]

def k0_chk121 (i : grid0.Coords) (v1537 : BitVec 32) : Prop :=
  (∀ a, (k0_off245 i v1537) a + S1x1x1x512.size a ≤ S8x128x128x512.size a)
instance k0_chk121.dec : ∀ (i : grid0.Coords) (v1537 : BitVec 32), Decidable (k0_chk121 i v1537) := fun i v1537 => decidable_of_iff' _ (Iff.of_eq (k0_chk121.eq_1 i v1537))
theorem k0_off245_inb : ∀ (i : grid0.Coords) (v1537 : BitVec 32) (k0_hw121 : k0_chk121 i v1537), ∀ a, (k0_off245 i v1537) a + S1x1x1x512.size a ≤ S8x128x128x512.size a := fun i v1537 k0_hw121 => k0_hw121

def k0_off246 (i : grid0.Coords) : Fin 2 → Nat :=
  let arg0 : BitVec 32 := BitVec.ofNat 32 (i 0).val
  let v1544 : Index := Scalar.indexCast arg0
  let c121 : Index := 121#32
  ![v1544.toNat, 121]
def k0_off247 (i : grid0.Coords) (v1545 : BitVec 32) : Fin 4 → Nat :=
  let arg0 : BitVec 32 := BitVec.ofNat 32 (i 0).val
  let c122_i32 : BitVec 32 := 122#32
  let c0_i32_1062 : BitVec 32 := 0#32
  ![arg0.toNat, 122, v1545.toNat, 0]

def k0_chk122 (i : grid0.Coords) (v1545 : BitVec 32) : Prop :=
  (∀ a, (k0_off247 i v1545) a + S1x1x1x512.size a ≤ S8x128x128x512.size a)
instance k0_chk122.dec : ∀ (i : grid0.Coords) (v1545 : BitVec 32), Decidable (k0_chk122 i v1545) := fun i v1545 => decidable_of_iff' _ (Iff.of_eq (k0_chk122.eq_1 i v1545))
theorem k0_off247_inb : ∀ (i : grid0.Coords) (v1545 : BitVec 32) (k0_hw122 : k0_chk122 i v1545), ∀ a, (k0_off247 i v1545) a + S1x1x1x512.size a ≤ S8x128x128x512.size a := fun i v1545 k0_hw122 => k0_hw122

def k0_off248 (i : grid0.Coords) : Fin 2 → Nat :=
  let arg0 : BitVec 32 := BitVec.ofNat 32 (i 0).val
  let v1552 : Index := Scalar.indexCast arg0
  let c122 : Index := 122#32
  ![v1552.toNat, 122]
def k0_off249 (i : grid0.Coords) (v1553 : BitVec 32) : Fin 4 → Nat :=
  let arg0 : BitVec 32 := BitVec.ofNat 32 (i 0).val
  let c123_i32 : BitVec 32 := 123#32
  let c0_i32_1066 : BitVec 32 := 0#32
  ![arg0.toNat, 123, v1553.toNat, 0]

def k0_chk123 (i : grid0.Coords) (v1553 : BitVec 32) : Prop :=
  (∀ a, (k0_off249 i v1553) a + S1x1x1x512.size a ≤ S8x128x128x512.size a)
instance k0_chk123.dec : ∀ (i : grid0.Coords) (v1553 : BitVec 32), Decidable (k0_chk123 i v1553) := fun i v1553 => decidable_of_iff' _ (Iff.of_eq (k0_chk123.eq_1 i v1553))
theorem k0_off249_inb : ∀ (i : grid0.Coords) (v1553 : BitVec 32) (k0_hw123 : k0_chk123 i v1553), ∀ a, (k0_off249 i v1553) a + S1x1x1x512.size a ≤ S8x128x128x512.size a := fun i v1553 k0_hw123 => k0_hw123

def k0_off250 (i : grid0.Coords) : Fin 2 → Nat :=
  let arg0 : BitVec 32 := BitVec.ofNat 32 (i 0).val
  let v1560 : Index := Scalar.indexCast arg0
  let c123 : Index := 123#32
  ![v1560.toNat, 123]
def k0_off251 (i : grid0.Coords) (v1561 : BitVec 32) : Fin 4 → Nat :=
  let arg0 : BitVec 32 := BitVec.ofNat 32 (i 0).val
  let c124_i32 : BitVec 32 := 124#32
  let c0_i32_1070 : BitVec 32 := 0#32
  ![arg0.toNat, 124, v1561.toNat, 0]

def k0_chk124 (i : grid0.Coords) (v1561 : BitVec 32) : Prop :=
  (∀ a, (k0_off251 i v1561) a + S1x1x1x512.size a ≤ S8x128x128x512.size a)
instance k0_chk124.dec : ∀ (i : grid0.Coords) (v1561 : BitVec 32), Decidable (k0_chk124 i v1561) := fun i v1561 => decidable_of_iff' _ (Iff.of_eq (k0_chk124.eq_1 i v1561))
theorem k0_off251_inb : ∀ (i : grid0.Coords) (v1561 : BitVec 32) (k0_hw124 : k0_chk124 i v1561), ∀ a, (k0_off251 i v1561) a + S1x1x1x512.size a ≤ S8x128x128x512.size a := fun i v1561 k0_hw124 => k0_hw124

def k0_off252 (i : grid0.Coords) : Fin 2 → Nat :=
  let arg0 : BitVec 32 := BitVec.ofNat 32 (i 0).val
  let v1568 : Index := Scalar.indexCast arg0
  let c124 : Index := 124#32
  ![v1568.toNat, 124]
def k0_off253 (i : grid0.Coords) (v1569 : BitVec 32) : Fin 4 → Nat :=
  let arg0 : BitVec 32 := BitVec.ofNat 32 (i 0).val
  let c125_i32 : BitVec 32 := 125#32
  let c0_i32_1074 : BitVec 32 := 0#32
  ![arg0.toNat, 125, v1569.toNat, 0]

def k0_chk125 (i : grid0.Coords) (v1569 : BitVec 32) : Prop :=
  (∀ a, (k0_off253 i v1569) a + S1x1x1x512.size a ≤ S8x128x128x512.size a)
instance k0_chk125.dec : ∀ (i : grid0.Coords) (v1569 : BitVec 32), Decidable (k0_chk125 i v1569) := fun i v1569 => decidable_of_iff' _ (Iff.of_eq (k0_chk125.eq_1 i v1569))
theorem k0_off253_inb : ∀ (i : grid0.Coords) (v1569 : BitVec 32) (k0_hw125 : k0_chk125 i v1569), ∀ a, (k0_off253 i v1569) a + S1x1x1x512.size a ≤ S8x128x128x512.size a := fun i v1569 k0_hw125 => k0_hw125

def k0_off254 (i : grid0.Coords) : Fin 2 → Nat :=
  let arg0 : BitVec 32 := BitVec.ofNat 32 (i 0).val
  let v1576 : Index := Scalar.indexCast arg0
  let c125 : Index := 125#32
  ![v1576.toNat, 125]
def k0_off255 (i : grid0.Coords) (v1577 : BitVec 32) : Fin 4 → Nat :=
  let arg0 : BitVec 32 := BitVec.ofNat 32 (i 0).val
  let c126_i32 : BitVec 32 := 126#32
  let c0_i32_1078 : BitVec 32 := 0#32
  ![arg0.toNat, 126, v1577.toNat, 0]

def k0_chk126 (i : grid0.Coords) (v1577 : BitVec 32) : Prop :=
  (∀ a, (k0_off255 i v1577) a + S1x1x1x512.size a ≤ S8x128x128x512.size a)
instance k0_chk126.dec : ∀ (i : grid0.Coords) (v1577 : BitVec 32), Decidable (k0_chk126 i v1577) := fun i v1577 => decidable_of_iff' _ (Iff.of_eq (k0_chk126.eq_1 i v1577))
theorem k0_off255_inb : ∀ (i : grid0.Coords) (v1577 : BitVec 32) (k0_hw126 : k0_chk126 i v1577), ∀ a, (k0_off255 i v1577) a + S1x1x1x512.size a ≤ S8x128x128x512.size a := fun i v1577 k0_hw126 => k0_hw126

def k0_off256 (i : grid0.Coords) : Fin 2 → Nat :=
  let arg0 : BitVec 32 := BitVec.ofNat 32 (i 0).val
  let v1584 : Index := Scalar.indexCast arg0
  let c126 : Index := 126#32
  ![v1584.toNat, 126]
def k0_off257 (i : grid0.Coords) (v1585 : BitVec 32) : Fin 4 → Nat :=
  let arg0 : BitVec 32 := BitVec.ofNat 32 (i 0).val
  let c127_i32 : BitVec 32 := 127#32
  let c0_i32_1082 : BitVec 32 := 0#32
  ![arg0.toNat, 127, v1585.toNat, 0]

def k0_chk127 (i : grid0.Coords) (v1585 : BitVec 32) : Prop :=
  (∀ a, (k0_off257 i v1585) a + S1x1x1x512.size a ≤ S8x128x128x512.size a)
instance k0_chk127.dec : ∀ (i : grid0.Coords) (v1585 : BitVec 32), Decidable (k0_chk127 i v1585) := fun i v1585 => decidable_of_iff' _ (Iff.of_eq (k0_chk127.eq_1 i v1585))
theorem k0_off257_inb : ∀ (i : grid0.Coords) (v1585 : BitVec 32) (k0_hw127 : k0_chk127 i v1585), ∀ a, (k0_off257 i v1585) a + S1x1x1x512.size a ≤ S8x128x128x512.size a := fun i v1585 k0_hw127 => k0_hw127

def k0_off258 (i : grid0.Coords) : Fin 4 → Nat :=
  let arg0 : BitVec 32 := BitVec.ofNat 32 (i 0).val
  let c0_i32_1083 : BitVec 32 := 0#32
  let c0_i32_1084 : BitVec 32 := 0#32
  let c0_i32_1088 : BitVec 32 := 0#32
  ![arg0.toNat, 0, 0, 0]
def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x50 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S50 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x127x50 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  transposes_S512x512_S512x512_1_0 : S512x512.Transposes [1, 0] S512x512
  transposes_S50x512_S512x50_1_0 : S50x512.Transposes [1, 0] S512x50
  numel1_S1x1 : S1x1.numel = 1
  inb_S32_S1_0 : ∀ a, (![0] : Fin 1 → Nat) a + S1.size a ≤ S32.size a
  squeezes_S1_S_ : S1.Squeezes S_
  inb_S128x512_S1x512_0_0 : ∀ a, (![0, 0] : Fin 2 → Nat) a + S1x512.size a ≤ S128x512.size a
  squeezes_S1x512_S512 : S1x512.Squeezes S512
  squeezes_S1x1x1x512_S512 : S1x1x1x512.Squeezes S512
  inb_S32_S1_1 : ∀ a, (![1] : Fin 1 → Nat) a + S1.size a ≤ S32.size a
  inb_S128x512_S1x512_1_0 : ∀ a, (![1, 0] : Fin 2 → Nat) a + S1x512.size a ≤ S128x512.size a
  inb_S32_S1_2 : ∀ a, (![2] : Fin 1 → Nat) a + S1.size a ≤ S32.size a
  inb_S128x512_S1x512_2_0 : ∀ a, (![2, 0] : Fin 2 → Nat) a + S1x512.size a ≤ S128x512.size a
  inb_S32_S1_3 : ∀ a, (![3] : Fin 1 → Nat) a + S1.size a ≤ S32.size a
  inb_S128x512_S1x512_3_0 : ∀ a, (![3, 0] : Fin 2 → Nat) a + S1x512.size a ≤ S128x512.size a
  inb_S32_S1_4 : ∀ a, (![4] : Fin 1 → Nat) a + S1.size a ≤ S32.size a
  inb_S128x512_S1x512_4_0 : ∀ a, (![4, 0] : Fin 2 → Nat) a + S1x512.size a ≤ S128x512.size a
  inb_S32_S1_5 : ∀ a, (![5] : Fin 1 → Nat) a + S1.size a ≤ S32.size a
  inb_S128x512_S1x512_5_0 : ∀ a, (![5, 0] : Fin 2 → Nat) a + S1x512.size a ≤ S128x512.size a
  inb_S32_S1_6 : ∀ a, (![6] : Fin 1 → Nat) a + S1.size a ≤ S32.size a
  inb_S128x512_S1x512_6_0 : ∀ a, (![6, 0] : Fin 2 → Nat) a + S1x512.size a ≤ S128x512.size a
  inb_S32_S1_7 : ∀ a, (![7] : Fin 1 → Nat) a + S1.size a ≤ S32.size a
  inb_S128x512_S1x512_7_0 : ∀ a, (![7, 0] : Fin 2 → Nat) a + S1x512.size a ≤ S128x512.size a
  inb_S32_S1_8 : ∀ a, (![8] : Fin 1 → Nat) a + S1.size a ≤ S32.size a
  inb_S128x512_S1x512_8_0 : ∀ a, (![8, 0] : Fin 2 → Nat) a + S1x512.size a ≤ S128x512.size a
  inb_S32_S1_9 : ∀ a, (![9] : Fin 1 → Nat) a + S1.size a ≤ S32.size a
  inb_S128x512_S1x512_9_0 : ∀ a, (![9, 0] : Fin 2 → Nat) a + S1x512.size a ≤ S128x512.size a
  inb_S32_S1_10 : ∀ a, (![10] : Fin 1 → Nat) a + S1.size a ≤ S32.size a
  inb_S128x512_S1x512_10_0 : ∀ a, (![10, 0] : Fin 2 → Nat) a + S1x512.size a ≤ S128x512.size a
  inb_S32_S1_11 : ∀ a, (![11] : Fin 1 → Nat) a + S1.size a ≤ S32.size a
  inb_S128x512_S1x512_11_0 : ∀ a, (![11, 0] : Fin 2 → Nat) a + S1x512.size a ≤ S128x512.size a
  inb_S32_S1_12 : ∀ a, (![12] : Fin 1 → Nat) a + S1.size a ≤ S32.size a
  inb_S128x512_S1x512_12_0 : ∀ a, (![12, 0] : Fin 2 → Nat) a + S1x512.size a ≤ S128x512.size a
  inb_S32_S1_13 : ∀ a, (![13] : Fin 1 → Nat) a + S1.size a ≤ S32.size a
  inb_S128x512_S1x512_13_0 : ∀ a, (![13, 0] : Fin 2 → Nat) a + S1x512.size a ≤ S128x512.size a
  inb_S32_S1_14 : ∀ a, (![14] : Fin 1 → Nat) a + S1.size a ≤ S32.size a
  inb_S128x512_S1x512_14_0 : ∀ a, (![14, 0] : Fin 2 → Nat) a + S1x512.size a ≤ S128x512.size a
  inb_S32_S1_15 : ∀ a, (![15] : Fin 1 → Nat) a + S1.size a ≤ S32.size a
  inb_S128x512_S1x512_15_0 : ∀ a, (![15, 0] : Fin 2 → Nat) a + S1x512.size a ≤ S128x512.size a
  inb_S32_S1_16 : ∀ a, (![16] : Fin 1 → Nat) a + S1.size a ≤ S32.size a
  inb_S128x512_S1x512_16_0 : ∀ a, (![16, 0] : Fin 2 → Nat) a + S1x512.size a ≤ S128x512.size a
  inb_S32_S1_17 : ∀ a, (![17] : Fin 1 → Nat) a + S1.size a ≤ S32.size a
  inb_S128x512_S1x512_17_0 : ∀ a, (![17, 0] : Fin 2 → Nat) a + S1x512.size a ≤ S128x512.size a
  inb_S32_S1_18 : ∀ a, (![18] : Fin 1 → Nat) a + S1.size a ≤ S32.size a
  inb_S128x512_S1x512_18_0 : ∀ a, (![18, 0] : Fin 2 → Nat) a + S1x512.size a ≤ S128x512.size a
  inb_S32_S1_19 : ∀ a, (![19] : Fin 1 → Nat) a + S1.size a ≤ S32.size a
  inb_S128x512_S1x512_19_0 : ∀ a, (![19, 0] : Fin 2 → Nat) a + S1x512.size a ≤ S128x512.size a
  inb_S32_S1_20 : ∀ a, (![20] : Fin 1 → Nat) a + S1.size a ≤ S32.size a
  inb_S128x512_S1x512_20_0 : ∀ a, (![20, 0] : Fin 2 → Nat) a + S1x512.size a ≤ S128x512.size a
  inb_S32_S1_21 : ∀ a, (![21] : Fin 1 → Nat) a + S1.size a ≤ S32.size a
  inb_S128x512_S1x512_21_0 : ∀ a, (![21, 0] : Fin 2 → Nat) a + S1x512.size a ≤ S128x512.size a
  inb_S32_S1_22 : ∀ a, (![22] : Fin 1 → Nat) a + S1.size a ≤ S32.size a
  inb_S128x512_S1x512_22_0 : ∀ a, (![22, 0] : Fin 2 → Nat) a + S1x512.size a ≤ S128x512.size a
  inb_S32_S1_23 : ∀ a, (![23] : Fin 1 → Nat) a + S1.size a ≤ S32.size a
  inb_S128x512_S1x512_23_0 : ∀ a, (![23, 0] : Fin 2 → Nat) a + S1x512.size a ≤ S128x512.size a
  inb_S32_S1_24 : ∀ a, (![24] : Fin 1 → Nat) a + S1.size a ≤ S32.size a
  inb_S128x512_S1x512_24_0 : ∀ a, (![24, 0] : Fin 2 → Nat) a + S1x512.size a ≤ S128x512.size a
  inb_S32_S1_25 : ∀ a, (![25] : Fin 1 → Nat) a + S1.size a ≤ S32.size a
  inb_S128x512_S1x512_25_0 : ∀ a, (![25, 0] : Fin 2 → Nat) a + S1x512.size a ≤ S128x512.size a
  inb_S32_S1_26 : ∀ a, (![26] : Fin 1 → Nat) a + S1.size a ≤ S32.size a
  inb_S128x512_S1x512_26_0 : ∀ a, (![26, 0] : Fin 2 → Nat) a + S1x512.size a ≤ S128x512.size a
  inb_S32_S1_27 : ∀ a, (![27] : Fin 1 → Nat) a + S1.size a ≤ S32.size a
  inb_S128x512_S1x512_27_0 : ∀ a, (![27, 0] : Fin 2 → Nat) a + S1x512.size a ≤ S128x512.size a
  inb_S32_S1_28 : ∀ a, (![28] : Fin 1 → Nat) a + S1.size a ≤ S32.size a
  inb_S128x512_S1x512_28_0 : ∀ a, (![28, 0] : Fin 2 → Nat) a + S1x512.size a ≤ S128x512.size a
  inb_S32_S1_29 : ∀ a, (![29] : Fin 1 → Nat) a + S1.size a ≤ S32.size a
  inb_S128x512_S1x512_29_0 : ∀ a, (![29, 0] : Fin 2 → Nat) a + S1x512.size a ≤ S128x512.size a
  inb_S32_S1_30 : ∀ a, (![30] : Fin 1 → Nat) a + S1.size a ≤ S32.size a
  inb_S128x512_S1x512_30_0 : ∀ a, (![30, 0] : Fin 2 → Nat) a + S1x512.size a ≤ S128x512.size a
  inb_S32_S1_31 : ∀ a, (![31] : Fin 1 → Nat) a + S1.size a ≤ S32.size a
  inb_S128x512_S1x512_31_0 : ∀ a, (![31, 0] : Fin 2 → Nat) a + S1x512.size a ≤ S128x512.size a
  inb_S128x512_S1x512_32_0 : ∀ a, (![32, 0] : Fin 2 → Nat) a + S1x512.size a ≤ S128x512.size a
  inb_S128x512_S1x512_33_0 : ∀ a, (![33, 0] : Fin 2 → Nat) a + S1x512.size a ≤ S128x512.size a
  inb_S128x512_S1x512_34_0 : ∀ a, (![34, 0] : Fin 2 → Nat) a + S1x512.size a ≤ S128x512.size a
  inb_S128x512_S1x512_35_0 : ∀ a, (![35, 0] : Fin 2 → Nat) a + S1x512.size a ≤ S128x512.size a
  inb_S128x512_S1x512_36_0 : ∀ a, (![36, 0] : Fin 2 → Nat) a + S1x512.size a ≤ S128x512.size a
  inb_S128x512_S1x512_37_0 : ∀ a, (![37, 0] : Fin 2 → Nat) a + S1x512.size a ≤ S128x512.size a
  inb_S128x512_S1x512_38_0 : ∀ a, (![38, 0] : Fin 2 → Nat) a + S1x512.size a ≤ S128x512.size a
  inb_S128x512_S1x512_39_0 : ∀ a, (![39, 0] : Fin 2 → Nat) a + S1x512.size a ≤ S128x512.size a
  inb_S128x512_S1x512_40_0 : ∀ a, (![40, 0] : Fin 2 → Nat) a + S1x512.size a ≤ S128x512.size a
  inb_S128x512_S1x512_41_0 : ∀ a, (![41, 0] : Fin 2 → Nat) a + S1x512.size a ≤ S128x512.size a
  inb_S128x512_S1x512_42_0 : ∀ a, (![42, 0] : Fin 2 → Nat) a + S1x512.size a ≤ S128x512.size a
  inb_S128x512_S1x512_43_0 : ∀ a, (![43, 0] : Fin 2 → Nat) a + S1x512.size a ≤ S128x512.size a
  inb_S128x512_S1x512_44_0 : ∀ a, (![44, 0] : Fin 2 → Nat) a + S1x512.size a ≤ S128x512.size a
  inb_S128x512_S1x512_45_0 : ∀ a, (![45, 0] : Fin 2 → Nat) a + S1x512.size a ≤ S128x512.size a
  inb_S128x512_S1x512_46_0 : ∀ a, (![46, 0] : Fin 2 → Nat) a + S1x512.size a ≤ S128x512.size a
  inb_S128x512_S1x512_47_0 : ∀ a, (![47, 0] : Fin 2 → Nat) a + S1x512.size a ≤ S128x512.size a
  inb_S128x512_S1x512_48_0 : ∀ a, (![48, 0] : Fin 2 → Nat) a + S1x512.size a ≤ S128x512.size a
  inb_S128x512_S1x512_49_0 : ∀ a, (![49, 0] : Fin 2 → Nat) a + S1x512.size a ≤ S128x512.size a
  inb_S128x512_S1x512_50_0 : ∀ a, (![50, 0] : Fin 2 → Nat) a + S1x512.size a ≤ S128x512.size a
  inb_S128x512_S1x512_51_0 : ∀ a, (![51, 0] : Fin 2 → Nat) a + S1x512.size a ≤ S128x512.size a
  inb_S128x512_S1x512_52_0 : ∀ a, (![52, 0] : Fin 2 → Nat) a + S1x512.size a ≤ S128x512.size a
  inb_S128x512_S1x512_53_0 : ∀ a, (![53, 0] : Fin 2 → Nat) a + S1x512.size a ≤ S128x512.size a
  inb_S128x512_S1x512_54_0 : ∀ a, (![54, 0] : Fin 2 → Nat) a + S1x512.size a ≤ S128x512.size a
  inb_S128x512_S1x512_55_0 : ∀ a, (![55, 0] : Fin 2 → Nat) a + S1x512.size a ≤ S128x512.size a
  inb_S128x512_S1x512_56_0 : ∀ a, (![56, 0] : Fin 2 → Nat) a + S1x512.size a ≤ S128x512.size a
  inb_S128x512_S1x512_57_0 : ∀ a, (![57, 0] : Fin 2 → Nat) a + S1x512.size a ≤ S128x512.size a
  inb_S128x512_S1x512_58_0 : ∀ a, (![58, 0] : Fin 2 → Nat) a + S1x512.size a ≤ S128x512.size a
  inb_S128x512_S1x512_59_0 : ∀ a, (![59, 0] : Fin 2 → Nat) a + S1x512.size a ≤ S128x512.size a
  inb_S128x512_S1x512_60_0 : ∀ a, (![60, 0] : Fin 2 → Nat) a + S1x512.size a ≤ S128x512.size a
  inb_S128x512_S1x512_61_0 : ∀ a, (![61, 0] : Fin 2 → Nat) a + S1x512.size a ≤ S128x512.size a
  inb_S128x512_S1x512_62_0 : ∀ a, (![62, 0] : Fin 2 → Nat) a + S1x512.size a ≤ S128x512.size a
  inb_S128x512_S1x512_63_0 : ∀ a, (![63, 0] : Fin 2 → Nat) a + S1x512.size a ≤ S128x512.size a
  inb_S128x512_S1x512_64_0 : ∀ a, (![64, 0] : Fin 2 → Nat) a + S1x512.size a ≤ S128x512.size a
  inb_S128x512_S1x512_65_0 : ∀ a, (![65, 0] : Fin 2 → Nat) a + S1x512.size a ≤ S128x512.size a
  inb_S128x512_S1x512_66_0 : ∀ a, (![66, 0] : Fin 2 → Nat) a + S1x512.size a ≤ S128x512.size a
  inb_S128x512_S1x512_67_0 : ∀ a, (![67, 0] : Fin 2 → Nat) a + S1x512.size a ≤ S128x512.size a
  inb_S128x512_S1x512_68_0 : ∀ a, (![68, 0] : Fin 2 → Nat) a + S1x512.size a ≤ S128x512.size a
  inb_S128x512_S1x512_69_0 : ∀ a, (![69, 0] : Fin 2 → Nat) a + S1x512.size a ≤ S128x512.size a
  inb_S128x512_S1x512_70_0 : ∀ a, (![70, 0] : Fin 2 → Nat) a + S1x512.size a ≤ S128x512.size a
  inb_S128x512_S1x512_71_0 : ∀ a, (![71, 0] : Fin 2 → Nat) a + S1x512.size a ≤ S128x512.size a
  inb_S128x512_S1x512_72_0 : ∀ a, (![72, 0] : Fin 2 → Nat) a + S1x512.size a ≤ S128x512.size a
  inb_S128x512_S1x512_73_0 : ∀ a, (![73, 0] : Fin 2 → Nat) a + S1x512.size a ≤ S128x512.size a
  inb_S128x512_S1x512_74_0 : ∀ a, (![74, 0] : Fin 2 → Nat) a + S1x512.size a ≤ S128x512.size a
  inb_S128x512_S1x512_75_0 : ∀ a, (![75, 0] : Fin 2 → Nat) a + S1x512.size a ≤ S128x512.size a
  inb_S128x512_S1x512_76_0 : ∀ a, (![76, 0] : Fin 2 → Nat) a + S1x512.size a ≤ S128x512.size a
  inb_S128x512_S1x512_77_0 : ∀ a, (![77, 0] : Fin 2 → Nat) a + S1x512.size a ≤ S128x512.size a
  inb_S128x512_S1x512_78_0 : ∀ a, (![78, 0] : Fin 2 → Nat) a + S1x512.size a ≤ S128x512.size a
  inb_S128x512_S1x512_79_0 : ∀ a, (![79, 0] : Fin 2 → Nat) a + S1x512.size a ≤ S128x512.size a
  inb_S128x512_S1x512_80_0 : ∀ a, (![80, 0] : Fin 2 → Nat) a + S1x512.size a ≤ S128x512.size a
  inb_S128x512_S1x512_81_0 : ∀ a, (![81, 0] : Fin 2 → Nat) a + S1x512.size a ≤ S128x512.size a
  inb_S128x512_S1x512_82_0 : ∀ a, (![82, 0] : Fin 2 → Nat) a + S1x512.size a ≤ S128x512.size a
  inb_S128x512_S1x512_83_0 : ∀ a, (![83, 0] : Fin 2 → Nat) a + S1x512.size a ≤ S128x512.size a
  inb_S128x512_S1x512_84_0 : ∀ a, (![84, 0] : Fin 2 → Nat) a + S1x512.size a ≤ S128x512.size a
  inb_S128x512_S1x512_85_0 : ∀ a, (![85, 0] : Fin 2 → Nat) a + S1x512.size a ≤ S128x512.size a
  inb_S128x512_S1x512_86_0 : ∀ a, (![86, 0] : Fin 2 → Nat) a + S1x512.size a ≤ S128x512.size a
  inb_S128x512_S1x512_87_0 : ∀ a, (![87, 0] : Fin 2 → Nat) a + S1x512.size a ≤ S128x512.size a
  inb_S128x512_S1x512_88_0 : ∀ a, (![88, 0] : Fin 2 → Nat) a + S1x512.size a ≤ S128x512.size a
  inb_S128x512_S1x512_89_0 : ∀ a, (![89, 0] : Fin 2 → Nat) a + S1x512.size a ≤ S128x512.size a
  inb_S128x512_S1x512_90_0 : ∀ a, (![90, 0] : Fin 2 → Nat) a + S1x512.size a ≤ S128x512.size a
  inb_S128x512_S1x512_91_0 : ∀ a, (![91, 0] : Fin 2 → Nat) a + S1x512.size a ≤ S128x512.size a
  inb_S128x512_S1x512_92_0 : ∀ a, (![92, 0] : Fin 2 → Nat) a + S1x512.size a ≤ S128x512.size a
  inb_S128x512_S1x512_93_0 : ∀ a, (![93, 0] : Fin 2 → Nat) a + S1x512.size a ≤ S128x512.size a
  inb_S128x512_S1x512_94_0 : ∀ a, (![94, 0] : Fin 2 → Nat) a + S1x512.size a ≤ S128x512.size a
  inb_S128x512_S1x512_95_0 : ∀ a, (![95, 0] : Fin 2 → Nat) a + S1x512.size a ≤ S128x512.size a
  inb_S128x512_S1x512_96_0 : ∀ a, (![96, 0] : Fin 2 → Nat) a + S1x512.size a ≤ S128x512.size a
  inb_S128x512_S1x512_97_0 : ∀ a, (![97, 0] : Fin 2 → Nat) a + S1x512.size a ≤ S128x512.size a
  inb_S128x512_S1x512_98_0 : ∀ a, (![98, 0] : Fin 2 → Nat) a + S1x512.size a ≤ S128x512.size a
  inb_S128x512_S1x512_99_0 : ∀ a, (![99, 0] : Fin 2 → Nat) a + S1x512.size a ≤ S128x512.size a
  inb_S128x512_S1x512_100_0 : ∀ a, (![100, 0] : Fin 2 → Nat) a + S1x512.size a ≤ S128x512.size a
  inb_S128x512_S1x512_101_0 : ∀ a, (![101, 0] : Fin 2 → Nat) a + S1x512.size a ≤ S128x512.size a
  inb_S128x512_S1x512_102_0 : ∀ a, (![102, 0] : Fin 2 → Nat) a + S1x512.size a ≤ S128x512.size a
  inb_S128x512_S1x512_103_0 : ∀ a, (![103, 0] : Fin 2 → Nat) a + S1x512.size a ≤ S128x512.size a
  inb_S128x512_S1x512_104_0 : ∀ a, (![104, 0] : Fin 2 → Nat) a + S1x512.size a ≤ S128x512.size a
  inb_S128x512_S1x512_105_0 : ∀ a, (![105, 0] : Fin 2 → Nat) a + S1x512.size a ≤ S128x512.size a
  inb_S128x512_S1x512_106_0 : ∀ a, (![106, 0] : Fin 2 → Nat) a + S1x512.size a ≤ S128x512.size a
  inb_S128x512_S1x512_107_0 : ∀ a, (![107, 0] : Fin 2 → Nat) a + S1x512.size a ≤ S128x512.size a
  inb_S128x512_S1x512_108_0 : ∀ a, (![108, 0] : Fin 2 → Nat) a + S1x512.size a ≤ S128x512.size a
  inb_S128x512_S1x512_109_0 : ∀ a, (![109, 0] : Fin 2 → Nat) a + S1x512.size a ≤ S128x512.size a
  inb_S128x512_S1x512_110_0 : ∀ a, (![110, 0] : Fin 2 → Nat) a + S1x512.size a ≤ S128x512.size a
  inb_S128x512_S1x512_111_0 : ∀ a, (![111, 0] : Fin 2 → Nat) a + S1x512.size a ≤ S128x512.size a
  inb_S128x512_S1x512_112_0 : ∀ a, (![112, 0] : Fin 2 → Nat) a + S1x512.size a ≤ S128x512.size a
  inb_S128x512_S1x512_113_0 : ∀ a, (![113, 0] : Fin 2 → Nat) a + S1x512.size a ≤ S128x512.size a
  inb_S128x512_S1x512_114_0 : ∀ a, (![114, 0] : Fin 2 → Nat) a + S1x512.size a ≤ S128x512.size a
  inb_S128x512_S1x512_115_0 : ∀ a, (![115, 0] : Fin 2 → Nat) a + S1x512.size a ≤ S128x512.size a
  inb_S128x512_S1x512_116_0 : ∀ a, (![116, 0] : Fin 2 → Nat) a + S1x512.size a ≤ S128x512.size a
  inb_S128x512_S1x512_117_0 : ∀ a, (![117, 0] : Fin 2 → Nat) a + S1x512.size a ≤ S128x512.size a
  inb_S128x512_S1x512_118_0 : ∀ a, (![118, 0] : Fin 2 → Nat) a + S1x512.size a ≤ S128x512.size a
  inb_S128x512_S1x512_119_0 : ∀ a, (![119, 0] : Fin 2 → Nat) a + S1x512.size a ≤ S128x512.size a
  inb_S128x512_S1x512_120_0 : ∀ a, (![120, 0] : Fin 2 → Nat) a + S1x512.size a ≤ S128x512.size a
  inb_S128x512_S1x512_121_0 : ∀ a, (![121, 0] : Fin 2 → Nat) a + S1x512.size a ≤ S128x512.size a
  inb_S128x512_S1x512_122_0 : ∀ a, (![122, 0] : Fin 2 → Nat) a + S1x512.size a ≤ S128x512.size a
  inb_S128x512_S1x512_123_0 : ∀ a, (![123, 0] : Fin 2 → Nat) a + S1x512.size a ≤ S128x512.size a
  inb_S128x512_S1x512_124_0 : ∀ a, (![124, 0] : Fin 2 → Nat) a + S1x512.size a ≤ S128x512.size a
  inb_S128x512_S1x512_125_0 : ∀ a, (![125, 0] : Fin 2 → Nat) a + S1x512.size a ≤ S128x512.size a
  inb_S128x512_S1x512_126_0 : ∀ a, (![126, 0] : Fin 2 → Nat) a + S1x512.size a ≤ S128x512.size a
  inb_S128x512_S128x512_0_0 : ∀ a, (![0, 0] : Fin 2 → Nat) a + S128x512.size a ≤ S128x512.size a
  h_S128x512 : 0 < S128x512.numel
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512_S512_0 : ∀ a, (![0] : Fin 1 → Nat) a + S512.size a ≤ S512.size a
  h_S512 : 0 < S512.numel
  shapeCasts_S512_S1x512 : S512.ShapeCasts S1x512
  broadcasts_S1x512_S128x512 : S1x512.Broadcasts S128x512
  inb_S512x50_S512x50_0_0 : ∀ a, (![0, 0] : Fin 2 → Nat) a + S512x50.size a ≤ S512x50.size a
  h_S512x50 : 0 < S512x50.numel
  shapeCasts_S512x50_S512x50 : S512x50.ShapeCasts S512x50
  inb_S50_S50_0 : ∀ a, (![0] : Fin 1 → Nat) a + S50.size a ≤ S50.size a
  h_S50 : 0 < S50.numel
  shapeCasts_S50_S1x50 : S50.ShapeCasts S1x50
  broadcasts_S1x50_S128x50 : S1x50.Broadcasts S128x50
  slices_S128x50_o0_0_S127x50 : S128x50.Slices ![0, 0] S127x50
  inb_S1x127x50_S1x127x50_0_0_0 : ∀ a, (![0, 0, 0] : Fin 3 → Nat) a + S1x127x50.size a ≤ S1x127x50.size a
  h_S1x127x50 : 0 < S1x127x50.numel
  shapeCasts_S1x127x50_S127x50 : S1x127x50.ShapeCasts S127x50
  shapeCasts_S127x50_S1x127x50 : S127x50.ShapeCasts S1x127x50
  dot_S128x512_S512x512_S128x512_1_0_0_1_n_n_wf : DotDims.WF S128x512 S512x512 S128x512 [1] [0] [0] [1] [] []
  dot_S128x512_S512x50_S128x50_1_0_0_1_n_n_wf : DotDims.WF S128x512 S512x50 S128x50 [1] [0] [0] [1] [] []
  hcc0_scratch1 : 6 + S32.numel ≤ 38
  hrank0 : 0 < grid0.rank
  k0_off1_inb : ∀ i : grid0.Coords, ∀ a, (k0_off1 i) a + S1x1.size a ≤ S8x127.size a
  k0_off3_inb : ∀ i : grid0.Coords, ∀ a, (k0_off3 i) a + S1x1.size a ≤ S8x127.size a
  k0_off5_inb : ∀ i : grid0.Coords, ∀ a, (k0_off5 i) a + S1x1.size a ≤ S8x127.size a
  k0_off7_inb : ∀ i : grid0.Coords, ∀ a, (k0_off7 i) a + S1x1.size a ≤ S8x127.size a
  k0_off9_inb : ∀ i : grid0.Coords, ∀ a, (k0_off9 i) a + S1x1.size a ≤ S8x127.size a
  k0_off11_inb : ∀ i : grid0.Coords, ∀ a, (k0_off11 i) a + S1x1.size a ≤ S8x127.size a
  k0_off13_inb : ∀ i : grid0.Coords, ∀ a, (k0_off13 i) a + S1x1.size a ≤ S8x127.size a
  k0_off15_inb : ∀ i : grid0.Coords, ∀ a, (k0_off15 i) a + S1x1.size a ≤ S8x127.size a
  k0_off17_inb : ∀ i : grid0.Coords, ∀ a, (k0_off17 i) a + S1x1.size a ≤ S8x127.size a
  k0_off19_inb : ∀ i : grid0.Coords, ∀ a, (k0_off19 i) a + S1x1.size a ≤ S8x127.size a
  k0_off21_inb : ∀ i : grid0.Coords, ∀ a, (k0_off21 i) a + S1x1.size a ≤ S8x127.size a
  k0_off23_inb : ∀ i : grid0.Coords, ∀ a, (k0_off23 i) a + S1x1.size a ≤ S8x127.size a
  k0_off25_inb : ∀ i : grid0.Coords, ∀ a, (k0_off25 i) a + S1x1.size a ≤ S8x127.size a
  k0_off27_inb : ∀ i : grid0.Coords, ∀ a, (k0_off27 i) a + S1x1.size a ≤ S8x127.size a
  k0_off29_inb : ∀ i : grid0.Coords, ∀ a, (k0_off29 i) a + S1x1.size a ≤ S8x127.size a
  k0_off31_inb : ∀ i : grid0.Coords, ∀ a, (k0_off31 i) a + S1x1.size a ≤ S8x127.size a
  k0_off33_inb : ∀ i : grid0.Coords, ∀ a, (k0_off33 i) a + S1x1.size a ≤ S8x127.size a
  k0_off35_inb : ∀ i : grid0.Coords, ∀ a, (k0_off35 i) a + S1x1.size a ≤ S8x127.size a
  k0_off37_inb : ∀ i : grid0.Coords, ∀ a, (k0_off37 i) a + S1x1.size a ≤ S8x127.size a
  k0_off39_inb : ∀ i : grid0.Coords, ∀ a, (k0_off39 i) a + S1x1.size a ≤ S8x127.size a
  k0_off41_inb : ∀ i : grid0.Coords, ∀ a, (k0_off41 i) a + S1x1.size a ≤ S8x127.size a
  k0_off43_inb : ∀ i : grid0.Coords, ∀ a, (k0_off43 i) a + S1x1.size a ≤ S8x127.size a
  k0_off45_inb : ∀ i : grid0.Coords, ∀ a, (k0_off45 i) a + S1x1.size a ≤ S8x127.size a
  k0_off47_inb : ∀ i : grid0.Coords, ∀ a, (k0_off47 i) a + S1x1.size a ≤ S8x127.size a
  k0_off49_inb : ∀ i : grid0.Coords, ∀ a, (k0_off49 i) a + S1x1.size a ≤ S8x127.size a
  k0_off51_inb : ∀ i : grid0.Coords, ∀ a, (k0_off51 i) a + S1x1.size a ≤ S8x127.size a
  k0_off53_inb : ∀ i : grid0.Coords, ∀ a, (k0_off53 i) a + S1x1.size a ≤ S8x127.size a
  k0_off55_inb : ∀ i : grid0.Coords, ∀ a, (k0_off55 i) a + S1x1.size a ≤ S8x127.size a
  k0_off57_inb : ∀ i : grid0.Coords, ∀ a, (k0_off57 i) a + S1x1.size a ≤ S8x127.size a
  k0_off59_inb : ∀ i : grid0.Coords, ∀ a, (k0_off59 i) a + S1x1.size a ≤ S8x127.size a
  k0_off61_inb : ∀ i : grid0.Coords, ∀ a, (k0_off61 i) a + S1x1.size a ≤ S8x127.size a
  k0_off63_inb : ∀ i : grid0.Coords, ∀ a, (k0_off63 i) a + S1x1.size a ≤ S8x127.size a
  k0_off65_inb : ∀ i : grid0.Coords, ∀ a, (k0_off65 i) a + S1x1x1x512.size a ≤ S8x128x128x512.size a
  k0_off66_inb : ∀ i : grid0.Coords, ∀ a, (k0_off66 i) a + S1x1.size a ≤ S8x127.size a
  k0_off68_inb : ∀ i : grid0.Coords, ∀ a, (k0_off68 i) a + S1x1.size a ≤ S8x127.size a
  k0_off70_inb : ∀ i : grid0.Coords, ∀ a, (k0_off70 i) a + S1x1.size a ≤ S8x127.size a
  k0_off72_inb : ∀ i : grid0.Coords, ∀ a, (k0_off72 i) a + S1x1.size a ≤ S8x127.size a
  k0_off74_inb : ∀ i : grid0.Coords, ∀ a, (k0_off74 i) a + S1x1.size a ≤ S8x127.size a
  k0_off76_inb : ∀ i : grid0.Coords, ∀ a, (k0_off76 i) a + S1x1.size a ≤ S8x127.size a
  k0_off78_inb : ∀ i : grid0.Coords, ∀ a, (k0_off78 i) a + S1x1.size a ≤ S8x127.size a
  k0_off80_inb : ∀ i : grid0.Coords, ∀ a, (k0_off80 i) a + S1x1.size a ≤ S8x127.size a
  k0_off82_inb : ∀ i : grid0.Coords, ∀ a, (k0_off82 i) a + S1x1.size a ≤ S8x127.size a
  k0_off84_inb : ∀ i : grid0.Coords, ∀ a, (k0_off84 i) a + S1x1.size a ≤ S8x127.size a
  k0_off86_inb : ∀ i : grid0.Coords, ∀ a, (k0_off86 i) a + S1x1.size a ≤ S8x127.size a
  k0_off88_inb : ∀ i : grid0.Coords, ∀ a, (k0_off88 i) a + S1x1.size a ≤ S8x127.size a
  k0_off90_inb : ∀ i : grid0.Coords, ∀ a, (k0_off90 i) a + S1x1.size a ≤ S8x127.size a
  k0_off92_inb : ∀ i : grid0.Coords, ∀ a, (k0_off92 i) a + S1x1.size a ≤ S8x127.size a
  k0_off94_inb : ∀ i : grid0.Coords, ∀ a, (k0_off94 i) a + S1x1.size a ≤ S8x127.size a
  k0_off96_inb : ∀ i : grid0.Coords, ∀ a, (k0_off96 i) a + S1x1.size a ≤ S8x127.size a
  k0_off98_inb : ∀ i : grid0.Coords, ∀ a, (k0_off98 i) a + S1x1.size a ≤ S8x127.size a
  k0_off100_inb : ∀ i : grid0.Coords, ∀ a, (k0_off100 i) a + S1x1.size a ≤ S8x127.size a
  k0_off102_inb : ∀ i : grid0.Coords, ∀ a, (k0_off102 i) a + S1x1.size a ≤ S8x127.size a
  k0_off104_inb : ∀ i : grid0.Coords, ∀ a, (k0_off104 i) a + S1x1.size a ≤ S8x127.size a
  k0_off106_inb : ∀ i : grid0.Coords, ∀ a, (k0_off106 i) a + S1x1.size a ≤ S8x127.size a
  k0_off108_inb : ∀ i : grid0.Coords, ∀ a, (k0_off108 i) a + S1x1.size a ≤ S8x127.size a
  k0_off110_inb : ∀ i : grid0.Coords, ∀ a, (k0_off110 i) a + S1x1.size a ≤ S8x127.size a
  k0_off112_inb : ∀ i : grid0.Coords, ∀ a, (k0_off112 i) a + S1x1.size a ≤ S8x127.size a
  k0_off114_inb : ∀ i : grid0.Coords, ∀ a, (k0_off114 i) a + S1x1.size a ≤ S8x127.size a
  k0_off116_inb : ∀ i : grid0.Coords, ∀ a, (k0_off116 i) a + S1x1.size a ≤ S8x127.size a
  k0_off118_inb : ∀ i : grid0.Coords, ∀ a, (k0_off118 i) a + S1x1.size a ≤ S8x127.size a
  k0_off120_inb : ∀ i : grid0.Coords, ∀ a, (k0_off120 i) a + S1x1.size a ≤ S8x127.size a
  k0_off122_inb : ∀ i : grid0.Coords, ∀ a, (k0_off122 i) a + S1x1.size a ≤ S8x127.size a
  k0_off124_inb : ∀ i : grid0.Coords, ∀ a, (k0_off124 i) a + S1x1.size a ≤ S8x127.size a
  k0_off126_inb : ∀ i : grid0.Coords, ∀ a, (k0_off126 i) a + S1x1.size a ≤ S8x127.size a
  k0_off128_inb : ∀ i : grid0.Coords, ∀ a, (k0_off128 i) a + S1x1.size a ≤ S8x127.size a
  k0_off130_inb : ∀ i : grid0.Coords, ∀ a, (k0_off130 i) a + S1x1x1x512.size a ≤ S8x128x128x512.size a
  k0_off131_inb : ∀ i : grid0.Coords, ∀ a, (k0_off131 i) a + S1x1.size a ≤ S8x127.size a
  k0_off133_inb : ∀ i : grid0.Coords, ∀ a, (k0_off133 i) a + S1x1.size a ≤ S8x127.size a
  k0_off135_inb : ∀ i : grid0.Coords, ∀ a, (k0_off135 i) a + S1x1.size a ≤ S8x127.size a
  k0_off137_inb : ∀ i : grid0.Coords, ∀ a, (k0_off137 i) a + S1x1.size a ≤ S8x127.size a
  k0_off139_inb : ∀ i : grid0.Coords, ∀ a, (k0_off139 i) a + S1x1.size a ≤ S8x127.size a
  k0_off141_inb : ∀ i : grid0.Coords, ∀ a, (k0_off141 i) a + S1x1.size a ≤ S8x127.size a
  k0_off143_inb : ∀ i : grid0.Coords, ∀ a, (k0_off143 i) a + S1x1.size a ≤ S8x127.size a
  k0_off145_inb : ∀ i : grid0.Coords, ∀ a, (k0_off145 i) a + S1x1.size a ≤ S8x127.size a
  k0_off147_inb : ∀ i : grid0.Coords, ∀ a, (k0_off147 i) a + S1x1.size a ≤ S8x127.size a
  k0_off149_inb : ∀ i : grid0.Coords, ∀ a, (k0_off149 i) a + S1x1.size a ≤ S8x127.size a
  k0_off151_inb : ∀ i : grid0.Coords, ∀ a, (k0_off151 i) a + S1x1.size a ≤ S8x127.size a
  k0_off153_inb : ∀ i : grid0.Coords, ∀ a, (k0_off153 i) a + S1x1.size a ≤ S8x127.size a
  k0_off155_inb : ∀ i : grid0.Coords, ∀ a, (k0_off155 i) a + S1x1.size a ≤ S8x127.size a
  k0_off157_inb : ∀ i : grid0.Coords, ∀ a, (k0_off157 i) a + S1x1.size a ≤ S8x127.size a
  k0_off159_inb : ∀ i : grid0.Coords, ∀ a, (k0_off159 i) a + S1x1.size a ≤ S8x127.size a
  k0_off161_inb : ∀ i : grid0.Coords, ∀ a, (k0_off161 i) a + S1x1.size a ≤ S8x127.size a
  k0_off163_inb : ∀ i : grid0.Coords, ∀ a, (k0_off163 i) a + S1x1.size a ≤ S8x127.size a
  k0_off165_inb : ∀ i : grid0.Coords, ∀ a, (k0_off165 i) a + S1x1.size a ≤ S8x127.size a
  k0_off167_inb : ∀ i : grid0.Coords, ∀ a, (k0_off167 i) a + S1x1.size a ≤ S8x127.size a
  k0_off169_inb : ∀ i : grid0.Coords, ∀ a, (k0_off169 i) a + S1x1.size a ≤ S8x127.size a
  k0_off171_inb : ∀ i : grid0.Coords, ∀ a, (k0_off171 i) a + S1x1.size a ≤ S8x127.size a
  k0_off173_inb : ∀ i : grid0.Coords, ∀ a, (k0_off173 i) a + S1x1.size a ≤ S8x127.size a
  k0_off175_inb : ∀ i : grid0.Coords, ∀ a, (k0_off175 i) a + S1x1.size a ≤ S8x127.size a
  k0_off177_inb : ∀ i : grid0.Coords, ∀ a, (k0_off177 i) a + S1x1.size a ≤ S8x127.size a
  k0_off179_inb : ∀ i : grid0.Coords, ∀ a, (k0_off179 i) a + S1x1.size a ≤ S8x127.size a
  k0_off181_inb : ∀ i : grid0.Coords, ∀ a, (k0_off181 i) a + S1x1.size a ≤ S8x127.size a
  k0_off183_inb : ∀ i : grid0.Coords, ∀ a, (k0_off183 i) a + S1x1.size a ≤ S8x127.size a
  k0_off185_inb : ∀ i : grid0.Coords, ∀ a, (k0_off185 i) a + S1x1.size a ≤ S8x127.size a
  k0_off187_inb : ∀ i : grid0.Coords, ∀ a, (k0_off187 i) a + S1x1.size a ≤ S8x127.size a
  k0_off189_inb : ∀ i : grid0.Coords, ∀ a, (k0_off189 i) a + S1x1.size a ≤ S8x127.size a
  k0_off191_inb : ∀ i : grid0.Coords, ∀ a, (k0_off191 i) a + S1x1.size a ≤ S8x127.size a
  k0_off193_inb : ∀ i : grid0.Coords, ∀ a, (k0_off193 i) a + S1x1.size a ≤ S8x127.size a
  k0_off195_inb : ∀ i : grid0.Coords, ∀ a, (k0_off195 i) a + S1x1x1x512.size a ≤ S8x128x128x512.size a
  k0_off196_inb : ∀ i : grid0.Coords, ∀ a, (k0_off196 i) a + S1x1.size a ≤ S8x127.size a
  k0_off198_inb : ∀ i : grid0.Coords, ∀ a, (k0_off198 i) a + S1x1.size a ≤ S8x127.size a
  k0_off200_inb : ∀ i : grid0.Coords, ∀ a, (k0_off200 i) a + S1x1.size a ≤ S8x127.size a
  k0_off202_inb : ∀ i : grid0.Coords, ∀ a, (k0_off202 i) a + S1x1.size a ≤ S8x127.size a
  k0_off204_inb : ∀ i : grid0.Coords, ∀ a, (k0_off204 i) a + S1x1.size a ≤ S8x127.size a
  k0_off206_inb : ∀ i : grid0.Coords, ∀ a, (k0_off206 i) a + S1x1.size a ≤ S8x127.size a
  k0_off208_inb : ∀ i : grid0.Coords, ∀ a, (k0_off208 i) a + S1x1.size a ≤ S8x127.size a
  k0_off210_inb : ∀ i : grid0.Coords, ∀ a, (k0_off210 i) a + S1x1.size a ≤ S8x127.size a
  k0_off212_inb : ∀ i : grid0.Coords, ∀ a, (k0_off212 i) a + S1x1.size a ≤ S8x127.size a
  k0_off214_inb : ∀ i : grid0.Coords, ∀ a, (k0_off214 i) a + S1x1.size a ≤ S8x127.size a
  k0_off216_inb : ∀ i : grid0.Coords, ∀ a, (k0_off216 i) a + S1x1.size a ≤ S8x127.size a
  k0_off218_inb : ∀ i : grid0.Coords, ∀ a, (k0_off218 i) a + S1x1.size a ≤ S8x127.size a
  k0_off220_inb : ∀ i : grid0.Coords, ∀ a, (k0_off220 i) a + S1x1.size a ≤ S8x127.size a
  k0_off222_inb : ∀ i : grid0.Coords, ∀ a, (k0_off222 i) a + S1x1.size a ≤ S8x127.size a
  k0_off224_inb : ∀ i : grid0.Coords, ∀ a, (k0_off224 i) a + S1x1.size a ≤ S8x127.size a
  k0_off226_inb : ∀ i : grid0.Coords, ∀ a, (k0_off226 i) a + S1x1.size a ≤ S8x127.size a
  k0_off228_inb : ∀ i : grid0.Coords, ∀ a, (k0_off228 i) a + S1x1.size a ≤ S8x127.size a
  k0_off230_inb : ∀ i : grid0.Coords, ∀ a, (k0_off230 i) a + S1x1.size a ≤ S8x127.size a
  k0_off232_inb : ∀ i : grid0.Coords, ∀ a, (k0_off232 i) a + S1x1.size a ≤ S8x127.size a
  k0_off234_inb : ∀ i : grid0.Coords, ∀ a, (k0_off234 i) a + S1x1.size a ≤ S8x127.size a
  k0_off236_inb : ∀ i : grid0.Coords, ∀ a, (k0_off236 i) a + S1x1.size a ≤ S8x127.size a
  k0_off238_inb : ∀ i : grid0.Coords, ∀ a, (k0_off238 i) a + S1x1.size a ≤ S8x127.size a
  k0_off240_inb : ∀ i : grid0.Coords, ∀ a, (k0_off240 i) a + S1x1.size a ≤ S8x127.size a
  k0_off242_inb : ∀ i : grid0.Coords, ∀ a, (k0_off242 i) a + S1x1.size a ≤ S8x127.size a
  k0_off244_inb : ∀ i : grid0.Coords, ∀ a, (k0_off244 i) a + S1x1.size a ≤ S8x127.size a
  k0_off246_inb : ∀ i : grid0.Coords, ∀ a, (k0_off246 i) a + S1x1.size a ≤ S8x127.size a
  k0_off248_inb : ∀ i : grid0.Coords, ∀ a, (k0_off248 i) a + S1x1.size a ≤ S8x127.size a
  k0_off250_inb : ∀ i : grid0.Coords, ∀ a, (k0_off250 i) a + S1x1.size a ≤ S8x127.size a
  k0_off252_inb : ∀ i : grid0.Coords, ∀ a, (k0_off252 i) a + S1x1.size a ≤ S8x127.size a
  k0_off254_inb : ∀ i : grid0.Coords, ∀ a, (k0_off254 i) a + S1x1.size a ≤ S8x127.size a
  k0_off256_inb : ∀ i : grid0.Coords, ∀ a, (k0_off256 i) a + S1x1.size a ≤ S8x127.size a
  k0_off258_inb : ∀ i : grid0.Coords, ∀ a, (k0_off258 i) a + S1x1x1x512.size a ≤ S8x128x128x512.size a
  hstage0_0 : ∀ j, (stage0_0 j).IsWhole
  nbuf0_0 : grid0.bufCount reads0_0 true = 1
  hreads0_0 : ∀ i i' : grid0.Coords, (∀ a, reads0_0 a = true → i a = i' a) → cc0_transform_1 i = cc0_transform_1 i'
  hinb0_0 : ∀ (i : grid0.Coords) a, (cc0_transform_1 i a + 1) * S512x512.size a ≤ S512x512.size a
  hwx0_0 : ∀ i : grid0.Coords, EltTy.bits .f32 = 32 ∨ (Rect.block (s := S512x512) S512x512.size (cc0_transform_1 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_2 i = cc0_transform_2 i'
  hinb0_1 : ∀ (i : grid0.Coords) a, (cc0_transform_2 i a + 1) * S512.size a ≤ S512.size a
  hwx0_1 : ∀ i : grid0.Coords, EltTy.bits .f32 = 32 ∨ (Rect.block (s := S512) S512.size (cc0_transform_2 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_3 i = cc0_transform_3 i'
  hinb0_2 : ∀ (i : grid0.Coords) a, (cc0_transform_3 i a + 1) * S512x50.size a ≤ S512x50.size a
  hwx0_2 : ∀ i : grid0.Coords, EltTy.bits .f32 = 32 ∨ (Rect.block (s := S512x50) S512x50.size (cc0_transform_3 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_4 i = cc0_transform_4 i'
  hinb0_3 : ∀ (i : grid0.Coords) a, (cc0_transform_4 i a + 1) * S50.size a ≤ S50.size a
  hwx0_3 : ∀ i : grid0.Coords, EltTy.bits .f32 = 32 ∨ (Rect.block (s := S50) S50.size (cc0_transform_4 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_5 i = cc0_transform_5 i'
  hinb0_4 : ∀ (i : grid0.Coords) a, (cc0_transform_5 i a + 1) * S1x127x50.size a ≤ S8x127x50.size a
  hwx0_4 : ∀ i : grid0.Coords, EltTy.bits .f32 = 32 ∨ (Rect.block (s := S8x127x50) S1x127x50.size (cc0_transform_5 i) (hinb0_4 i)).WholeWords (EltTy.packing .f32)

variable [Facts₀]

abbrev cc0_scratch1 : DmaSems sig S32 := SemArray.consecutive 6 S32 hcc0_scratch1
def dot_S128x512_S512x512_S128x512_1_0_0_1_n_n : DotDims S128x512 S512x512 S128x512 where
  lhsContracting := [1]
  rhsContracting := [0]
  lhsNonContracting := [0]
  rhsNonContracting := [1]
  lhsBatch := []
  rhsBatch := []
  wf := dot_S128x512_S512x512_S128x512_1_0_0_1_n_n_wf
def dot_S128x512_S512x50_S128x50_1_0_0_1_n_n : DotDims S128x512 S512x50 S128x50 where
  lhsContracting := [1]
  rhsContracting := [0]
  lhsNonContracting := [0]
  rhsNonContracting := [1]
  lhsBatch := []
  rhsBatch := []
  wf := dot_S128x512_S512x50_S128x50_1_0_0_1_n_n_wf

abbrev spec0_0 : Pipeline.WinSpec sig grid0.rank :=
  Pipeline.WinSpec.ofSpec (Memref.whole main_v0) S512x512.size reads0_0 false true 1 stage0_0 sem0_0 nbuf0_0 hstage0_0

abbrev spec0_1 : Pipeline.WinSpec sig grid0.rank :=
  Pipeline.WinSpec.ofSpec (Memref.whole main_arg3) S512.size reads0_1 false true 1 stage0_1 sem0_1 nbuf0_1 hstage0_1

abbrev spec0_2 : Pipeline.WinSpec sig grid0.rank :=
  Pipeline.WinSpec.ofSpec (Memref.whole main_v1) S512x50.size reads0_2 false true 1 stage0_2 sem0_2 nbuf0_2 hstage0_2

abbrev spec0_3 : Pipeline.WinSpec sig grid0.rank :=
  Pipeline.WinSpec.ofSpec (Memref.whole main_arg5) S50.size reads0_3 false true 1 stage0_3 sem0_3 nbuf0_3 hstage0_3

abbrev spec0_4 : Pipeline.WinSpec sig grid0.rank :=
  Pipeline.WinSpec.ofSpec (Memref.whole main_v2) S1x127x50.size reads0_4 true false 2 stage0_4 sem0_4 nbuf0_4 hstage0_4

abbrev spec0 : Fin 5 → Pipeline.WinSpec sig grid0.rank := fun | 0 => spec0_0 | 1 => spec0_1 | 2 => spec0_2 | 3 => spec0_3 | 4 => spec0_4 | ⟨_ + 5, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | ⟨_ + 5, h⟩ => absurd h (Nat.not_lt.2 (Nat.le_add_left _ _))
abbrev ix0 (pf : pre0.Contents (Elt F)) : (w : Fin 5) → grid0.Coords → Fin (spec0 w).shape.rank → Nat := fun | 0 => cc0_transform_1 | 1 => cc0_transform_2 | 2 => cc0_transform_3 | 3 => cc0_transform_4 | 4 => cc0_transform_5 | ⟨_ + 5, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | 3 => hreads0_3 | 4 => hreads0_4 | ⟨_ + 5, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | 2 => hinb0_2 | 3 => hinb0_3 | 4 => hinb0_4 | ⟨_ + 5, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | 2 => hwx0_2 | 3 => hwx0_3 | 4 => hwx0_4 | ⟨_ + 5, h⟩ => absurd h (Nat.not_lt.2 (Nat.le_add_left _ _))

class Facts : Prop extends Facts₀ where
  harr0 : ∀ w, (spec0 w).arr.IsWhole

variable [Facts]
-- ==== ReferenceIdeal.lean ====
abbrev S8x128x128x512 : Shape := ⟨4, ![8, 128, 128, 512]⟩
abbrev S8x127 : Shape := ⟨2, ![8, 127]⟩
abbrev S512x512 : Shape := ⟨2, ![512, 512]⟩
abbrev S512 : Shape := ⟨1, ![512]⟩
abbrev S50x512 : Shape := ⟨2, ![50, 512]⟩
abbrev S50 : Shape := ⟨1, ![50]⟩
abbrev S8x127x128x512 : Shape := ⟨4, ![8, 127, 128, 512]⟩
abbrev S8 : Shape := ⟨1, ![8]⟩
abbrev S8x1 : Shape := ⟨2, ![8, 1]⟩
abbrev S127 : Shape := ⟨1, ![127]⟩
abbrev S1x127 : Shape := ⟨2, ![1, 127]⟩
abbrev S_ : Shape := ⟨0, ![]⟩
abbrev S8x127x1 : Shape := ⟨3, ![8, 127, 1]⟩
abbrev S8x127x3 : Shape := ⟨3, ![8, 127, 3]⟩
abbrev S8x127x512 : Shape := ⟨3, ![8, 127, 512]⟩
abbrev S1x1x512 : Shape := ⟨3, ![1, 1, 512]⟩
abbrev S8x127x50 : Shape := ⟨3, ![8, 127, 50]⟩
abbrev S1x1x50 : Shape := ⟨3, ![1, 1, 50]⟩

abbrev nBuf : Space → Nat
  | .hbm => 48
  | .vmem => 0
  | .smem => 0
  | _ => 0

abbrev bufTy : (tb : Table) → Fin (tcTables nBuf tb) → BufTy
  | .hbm, ⟨0, _⟩ => ⟨S8x128x128x512, .f32⟩
  | .hbm, ⟨1, _⟩ => ⟨S8x127, .i32⟩
  | .hbm, ⟨2, _⟩ => ⟨S512x512, .f32⟩
  | .hbm, ⟨3, _⟩ => ⟨S512, .f32⟩
  | .hbm, ⟨4, _⟩ => ⟨S50x512, .f32⟩
  | .hbm, ⟨5, _⟩ => ⟨S50, .f32⟩
  | .hbm, ⟨6, _⟩ => ⟨S8x127x128x512, .f32⟩
  | .hbm, ⟨7, _⟩ => ⟨S8, .i32⟩
  | .hbm, ⟨8, _⟩ => ⟨S8x1, .i32⟩
  | .hbm, ⟨9, _⟩ => ⟨S127, .i32⟩
  | .hbm, ⟨10, _⟩ => ⟨S1x127, .i32⟩
  | .hbm, ⟨11, _⟩ => ⟨S_, .i32⟩
  | .hbm, ⟨12, _⟩ => ⟨S8x1, .i32⟩
  | .hbm, ⟨13, _⟩ => ⟨S8x1, .i1⟩
  | .hbm, ⟨14, _⟩ => ⟨S_, .i32⟩
  | .hbm, ⟨15, _⟩ => ⟨S8x1, .i32⟩
  | .hbm, ⟨16, _⟩ => ⟨S8x1, .i32⟩
  | .hbm, ⟨17, _⟩ => ⟨S8x1, .i32⟩
  | .hbm, ⟨18, _⟩ => ⟨S_, .i32⟩
  | .hbm, ⟨19, _⟩ => ⟨S1x127, .i32⟩
  | .hbm, ⟨20, _⟩ => ⟨S1x127, .i1⟩
  | .hbm, ⟨21, _⟩ => ⟨S_, .i32⟩
  | .hbm, ⟨22, _⟩ => ⟨S1x127, .i32⟩
  | .hbm, ⟨23, _⟩ => ⟨S1x127, .i32⟩
  | .hbm, ⟨24, _⟩ => ⟨S1x127, .i32⟩
  | .hbm, ⟨25, _⟩ => ⟨S_, .i32⟩
  | .hbm, ⟨26, _⟩ => ⟨S8x127, .i32⟩
  | .hbm, ⟨27, _⟩ => ⟨S8x127, .i1⟩
  | .hbm, ⟨28, _⟩ => ⟨S_, .i32⟩
  | .hbm, ⟨29, _⟩ => ⟨S8x127, .i32⟩
  | .hbm, ⟨30, _⟩ => ⟨S8x127, .i32⟩
  | .hbm, ⟨31, _⟩ => ⟨S8x127, .i32⟩
  | .hbm, ⟨32, _⟩ => ⟨S8x127, .i32⟩
  | .hbm, ⟨33, _⟩ => ⟨S8x127, .i32⟩
  | .hbm, ⟨34, _⟩ => ⟨S8x127x1, .i32⟩
  | .hbm, ⟨35, _⟩ => ⟨S8x127x1, .i32⟩
  | .hbm, ⟨36, _⟩ => ⟨S8x127x1, .i32⟩
  | .hbm, ⟨37, _⟩ => ⟨S8x127x3, .i32⟩
  | .hbm, ⟨38, _⟩ => ⟨S8x127x512, .f32⟩
  | .hbm, ⟨39, _⟩ => ⟨S8x127x512, .f32⟩
  | .hbm, ⟨40, _⟩ => ⟨S1x1x512, .f32⟩
  | .hbm, ⟨41, _⟩ => ⟨S8x127x512, .f32⟩
  | .hbm, ⟨42, _⟩ => ⟨S8x127x512, .f32⟩
  | .hbm, ⟨43, _⟩ => ⟨S8x127x512, .f32⟩
  | .hbm, ⟨44, _⟩ => ⟨S8x127x50, .f32⟩
  | .hbm, ⟨45, _⟩ => ⟨S1x1x50, .f32⟩
  | .hbm, ⟨46, _⟩ => ⟨S8x127x50, .f32⟩
  | .hbm, ⟨47, _⟩ => ⟨S8x127x50, .f32⟩
  | _, _ => ⟨S8x128x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_1 : Ref sig .tc := ⟨.hbm, 18, rfl⟩
abbrev main_v10 : Ref sig .tc := ⟨.hbm, 19, rfl⟩
abbrev main_v11 : Ref sig .tc := ⟨.hbm, 20, rfl⟩
abbrev main_c_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c_3 : Ref sig .tc := ⟨.hbm, 25, rfl⟩
abbrev main_v15 : Ref sig .tc := ⟨.hbm, 26, rfl⟩
abbrev main_v16 : Ref sig .tc := ⟨.hbm, 27, rfl⟩
abbrev main_c_4 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]

class Facts₀ : Prop where
  slices_S8x128x128x512_S8x127x128x512_0_1_0_0 : S8x128x128x512.Slices ![0, 1, 0, 0] S8x127x128x512
  bcast_S8_S8x1_0 : S8.BroadcastsInDim S8x1 (![0] : Fin 1 → Fin S8x1.rank)
  bcast_S127_S1x127_1 : S127.BroadcastsInDim S1x127 (![1] : Fin 1 → Fin S1x127.rank)
  bcast_S_S8x1 : S_.BroadcastsInDim S8x1 (![] : Fin 0 → Fin S8x1.rank)
  bcast_S_S1x127 : S_.BroadcastsInDim S1x127 (![] : Fin 0 → Fin S1x127.rank)
  bcast_S_S8x127 : S_.BroadcastsInDim S8x127 (![] : Fin 0 → Fin S8x127.rank)
  bcast_S8x1_S8x127_0_1 : S8x1.BroadcastsInDim S8x127 (![0, 1] : Fin 2 → Fin S8x127.rank)
  bcast_S1x127_S8x127_0_1 : S1x127.BroadcastsInDim S8x127 (![0, 1] : Fin 2 → Fin S8x127.rank)
  bcast_S8x127_S8x127x1_0_1 : S8x127.BroadcastsInDim S8x127x1 (![0, 1] : Fin 2 → Fin S8x127x1.rank)
  concatenates_S8x127x1_S8x127x1_S8x127x1_S8x127x3_d2 : Shape.Concatenates [S8x127x1, S8x127x1, S8x127x1] S8x127x3 2
  bcast_S512_S1x1x512_2 : S512.BroadcastsInDim S1x1x512 (![2] : Fin 1 → Fin S1x1x512.rank)
  bcast_S1x1x512_S8x127x512_0_1_2 : S1x1x512.BroadcastsInDim S8x127x512 (![0, 1, 2] : Fin 3 → Fin S8x127x512.rank)
  bcast_S50_S1x1x50_2 : S50.BroadcastsInDim S1x1x50 (![2] : Fin 1 → Fin S1x1x50.rank)
  bcast_S1x1x50_S8x127x50_0_1_2 : S1x1x50.BroadcastsInDim S8x127x50 (![0, 1, 2] : Fin 3 → Fin S8x127x50.rank)
  gather_S8x127x128x512_S8x127x3_S8x127x512_2_012_n_n_012_2_111512_wf : GatherDims.WF S8x127x128x512 S8x127x3 S8x127x512 [2] [0, 1, 2] [] [0, 1, 2] [] 2 ![1, 1, 1, 512]
  dot_S8x127x512_S512x512_S8x127x512_2_1_01_0_n_n_wf : DotDims.WF S8x127x512 S512x512 S8x127x512 [2] [1] [0, 1] [0] [] []
  dot_S8x127x512_S50x512_S8x127x50_2_1_01_0_n_n_wf : DotDims.WF S8x127x512 S50x512 S8x127x50 [2] [1] [0, 1] [0] [] []

variable [Facts₀]

def gather_S8x127x128x512_S8x127x3_S8x127x512_2_012_n_n_012_2_111512 : GatherDims S8x127x128x512 S8x127x3 S8x127x512 where
  offsetDims := [2]
  collapsedSliceDims := [0, 1, 2]
  operandBatchingDims := []
  startIndicesBatchingDims := []
  startIndexMap := [0, 1, 2]
  indexVectorDim := 2
  sliceSizes := ![1, 1, 1, 512]
  wf := gather_S8x127x128x512_S8x127x3_S8x127x512_2_012_n_n_012_2_111512_wf
def dot_S8x127x512_S512x512_S8x127x512_2_1_01_0_n_n : DotDims S8x127x512 S512x512 S8x127x512 where
  lhsContracting := [2]
  rhsContracting := [1]
  lhsNonContracting := [0, 1]
  rhsNonContracting := [0]
  lhsBatch := []
  rhsBatch := []
  wf := dot_S8x127x512_S512x512_S8x127x512_2_1_01_0_n_n_wf
def dot_S8x127x512_S50x512_S8x127x50_2_1_01_0_n_n : DotDims S8x127x512 S50x512 S8x127x50 where
  lhsContracting := [2]
  rhsContracting := [1]
  lhsNonContracting := [0, 1]
  rhsNonContracting := [0]
  lhsBatch := []
  rhsBatch := []
  wf := dot_S8x127x512_S50x512_S8x127x50_2_1_01_0_n_n_wf

class Facts : Prop extends Facts₀ where

variable [Facts]
-- ==== Proof.PreHeads.lean ====
/-
  The index range carried by the precondition. The precondition is the conjunction of six "all entries" tests; its last
  conjunct says that every entry `x` of the head-word array satisfies `0 ≤ x` and `x < 128`, both read as signed
  32-bit comparisons. From the precondition being true we read that conjunct back at one entry and conclude that the
  entry, read as a natural number, is below 128 — the fact that makes every selected feature row lie inside the array.
  The five conjuncts on the float arrays are only peeled off; the statement holds for every float family.
-/
import proofs.«414620_j69801808495255_1_alg».proof.Pre_finite_inputs
import Idealize.ShloMosaic.Lib.ReduceAll
import Idealize.ShloMosaic.Lib.ValueIdx

namespace Cert.PreHeads

open Idealize.ShloMosaic Idealize.ShloMosaic.ValueIdx
open Cert.Pre_finite_inputs

/-- The scalar shape has exactly one index. -/
instance : Subsingleton S_.Idx := ⟨fun a b => funext fun d => d.elim0⟩

/-- A 32-bit word whose signed value lies in `[0, 128)` has unsigned value below 128: a word with the sign bit set
    has a negative signed value, so the sign bit is clear and the two readings agree. -/
theorem toNat_lt_of_signed_range (x : BitVec 32) (h0 : (0#32).toInt ≤ x.toInt) (h1 : x.toInt < (128#32).toInt) :
    x.toNat < 128 := by
  have e0 : (0#32).toInt = 0 := by decide
  have e1 : (128#32).toInt = 128 := by decide
  rw [e0] at h0
  rw [e1] at h1
  rw [BitVec.toInt_eq_toNat_cond] at h0 h1
  split at h0 <;> omega

/-- Under the precondition every head word, read as a natural number, is below 128. -/
theorem heads_lt_of_pre {F : FTy → Type} [FloatOps F] [Facts]
    (a0 : FVec F S8x128x128x512 .f32) (a1 : IVec S8x127 32) (a2 : FVec F S512x512 .f32)
    (a3 : FVec F S512 .f32) (a4 : FVec F S50x512 .f32) (a5 : FVec F S50 .f32)
    (h : fn (F := F) a0 a1 a2 a3 a4 a5 = fun _ => 1#1) :
    ∀ j : S8x127.Idx, (a1 j).toNat < 128 := by
  intro j
  -- the precondition's one result word, written out as the nested conjunction of the six tests
  have h0 := congrFun h ix0
  dsimp only [fn, fn_part1] at h0
  -- the outermost conjunction: its right side is the test on the head words
  have h1 := (IntOp.andi_eq_one.1 h0).2
  -- a conjunction over all entries that is true is true at the entry `j`
  have h2 := Host.reduce_andi_all _ _ _ _ _ h1 j
  -- at `j`: the two signed comparisons against the constants 0 and 128 (a broadcast scalar reads the scalar)
  obtain ⟨hge, hlt⟩ := IntOp.andi_eq_one.1 h2
  have hge' : IntOp.cmpi .sge (a1 j) (0#32) = 1#1 := hge
  have hlt' : IntOp.cmpi .slt (a1 j) (128#32) = 1#1 := hlt
  exact toNat_lt_of_signed_range (a1 j) (IntOp.cmpi_sge.1 hge') (IntOp.cmpi_slt.1 hlt')

end Cert.PreHeads
-- ==== Proof.Spec.lean ====
/-
  The result both programs compute, as ONE function of the argument arrays, index by index, over the
  extended reals: a two-layer perceptron applied to the feature row each (batch, position) pair selects.
  For batch `n`, position `l` (0 ≤ l < 127) and label `k`:

    out[n, l, k] = b2[k] + Σ_d tanh (b1[d] + Σ_h feat[n, l + 1, heads[n, l], h] · W1[d, h]) · W2[k, d]

  The head word is read as a natural number; where it is at least 128 (outside the domain of the
  claim) it is reduced modulo 128 only so that the function is total.
-/
import Idealize.ShloMosaic.PureOps.Ideal
import Idealize.ShloMosaic.Lib.ValueIdx

noncomputable section

namespace Cert.Spec

open Idealize.ShloMosaic Idealize.ShloMosaic.ValueIdx

abbrev SFeat : Shape := ⟨4, ![8, 128, 128, 512]⟩
abbrev SHeads : Shape := ⟨2, ![8, 127]⟩
abbrev SW1 : Shape := ⟨2, ![512, 512]⟩
abbrev SB1 : Shape := ⟨1, ![512]⟩
abbrev SW2 : Shape := ⟨2, ![50, 512]⟩
abbrev SB2 : Shape := ⟨1, ![50]⟩
abbrev SOut : Shape := ⟨3, ![8, 127, 50]⟩

/-- The row of `feat` that batch `n`, position `l` selects: the position axis is shifted by one (the first
    row of every batch is dropped) and the third axis is the head word of that pair. -/
def headIx (heads : SHeads.Idx → BitVec 32) (n : Fin 8) (l : Fin 127) : Fin 128 :=
  ⟨(heads (ix2 n l)).toNat % 128, Nat.mod_lt _ (by decide)⟩

/-- The selected feature row, entry `h`. -/
def row (feat : SFeat.Idx → EReal) (heads : SHeads.Idx → BitVec 32) (n : Fin 8) (l : Fin 127) (h : Fin 512) : EReal :=
  feat (ix4 n ⟨l.val + 1, by omega⟩ (headIx heads n l) h)

/-- The hidden layer of a row `g`: `tanh (Σ_h g[h] · W1[d, h] + b1[d])`. -/
def hidden (g : Fin 512 → EReal) (W1 : SW1.Idx → EReal) (b1 : SB1.Idx → EReal) (d : Fin 512) : EReal :=
  Ideal.tanh ((∑ h : Fin 512, g h * W1 (ix2 d h)) + b1 (ix1 d))

/-- The output layer of a row `g`: `Σ_d hidden[d] · W2[k, d] + b2[k]`. -/
def outRow (g : Fin 512 → EReal) (W1 : SW1.Idx → EReal) (b1 : SB1.Idx → EReal) (W2 : SW2.Idx → EReal) (b2 : SB2.Idx → EReal)
    (k : Fin 50) : EReal :=
  (∑ d : Fin 512, hidden g W1 b1 d * W2 (ix2 k d)) + b2 (ix1 k)

/-- The whole result. -/
def G (feat : SFeat.Idx → EReal) (heads : SHeads.Idx → BitVec 32) (W1 : SW1.Idx → EReal) (b1 : SB1.Idx → EReal)
    (W2 : SW2.Idx → EReal) (b2 : SB2.Idx → EReal) : SOut.Idx → EReal :=
  fun j => outRow (row feat heads (j 0) (j 1)) W1 b1 W2 b2 (j 2)

end Cert.Spec

end
-- ==== Proof.RefValue.lean ====
/-
  The reference program computes the specification: read index by index, its result is the two-layer
  perceptron of the feature row that each (batch, position) pair selects. The integer part builds, for
  every pair, the start index (batch, position, head word) of a gather; where the head word is below 128
  the gather clamps nothing and reads the row of the specification. The float part is two contractions,
  two bias additions and one hyperbolic tangent, each read at an index.
-/
import proofs.«414620_j69801808495255_1_alg».proof.Proof.Gen.ReferenceIdeal.Read
import proofs.«414620_j69801808495255_1_alg».proof.Proof.Spec
import Idealize.ShloMosaic.Lib.StableHlo.Predicate

noncomputable section

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx Idealize.ShloMosaic.StableHlo.Predicate

/-! ## Words: a signed comparison with zero of a small word is false, and the select takes its last operand -/

/-- A word below 2³¹ is not negative: the signed comparison `w < 0` gives the bit `0`. -/
theorem slt_zero_small (w : BitVec 32) (hw : w.toNat < 2 ^ 31) : IntOp.cmpi .slt w 0#32 = 0#1 := by
  refine eq_zero_of_ne_one fun h => ?_
  have := (slt_iff_toNat hw (by decide)).mp h
  simp at this

/-- So the select `if w < 0 then a else w` is `w`. -/
theorem select_neg_small {α : Type} (w : BitVec 32) (hw : w.toNat < 2 ^ 31) (a b : α) :
    Scalar.select (IntOp.cmpi .slt w 0#32) a b = b := by
  rw [slt_zero_small w hw, select_zero]

theorem toNat_ofNat_small (k : Nat) (hk : k < 2 ^ 31) : (BitVec.ofNat 32 k).toNat < 2 ^ 31 := by
  rw [BitVec.toNat_ofNat]; exact lt_of_le_of_lt (Nat.mod_le _ _) hk

/-! ## The three columns of the start indices -/

variable {F : FTy → Type} [FloatOps F]

/-- The batch column before its broadcasts: the batch number. -/
theorem v9_at (i : S8x1.Idx) : val_main_v9 (F := F) i = BitVec.ofNat 32 (i 0).val := by
  have h0 : (i 0).val < 8 := (i 0).isLt
  rw [val_main_v9_apply, val_main_v6_apply, val_main_v5_apply, val_main_c_apply, val_main_v2_apply, val_main_v1_apply]
  exact select_neg_small _ (toNat_ofNat_small _ (by show (i 0).val < 2 ^ 31; omega)) _ _

/-- The position column before its broadcasts: the position. -/
theorem v14_at (i : S1x127.Idx) : val_main_v14 (F := F) i = BitVec.ofNat 32 (i 1).val := by
  have h1 : (i 1).val < 127 := (i 1).isLt
  rw [val_main_v14_apply, val_main_v11_apply, val_main_v10_apply, val_main_c_1_apply, val_main_v4_apply, val_main_v3_apply]
  exact select_neg_small _ (toNat_ofNat_small _ (by show (i 1).val < 2 ^ 31; omega)) _ _

/-- The head column before its broadcast: a head word below 128 is kept. -/
theorem v19_at (x1 : (⟨S8x127, .i32⟩ : BufTy).Contents (Elt F)) (i : S8x127.Idx) (h : (x1 i).toNat < 128) :
    val_main_v19 (F := F) x1 i = x1 i := by
  rw [val_main_v19_apply, val_main_v16_apply, val_main_v15_apply, val_main_c_3_apply]
  exact select_neg_small _ (by omega) _ _

theorem v22_at (i : S8x127x1.Idx) : val_main_v22 (F := F) i = BitVec.ofNat 32 (i 0).val := by
  rw [val_main_v22_apply, val_main_v20_apply, v9_at]

theorem v23_at (i : S8x127x1.Idx) : val_main_v23 (F := F) i = BitVec.ofNat 32 (i 1).val := by
  rw [val_main_v23_apply, val_main_v21_apply, v14_at]

theorem v24_at (x1 : (⟨S8x127, .i32⟩ : BufTy).Contents (Elt F)) (n : Fin 8) (l : Fin 127) (z : Fin 1)
    (h : (x1 (ix2 n l)).toNat < 128) : val_main_v24 (F := F) x1 (ix3 n l z) = x1 (ix2 n l) := by
  rw [val_main_v24_apply]
  have e : idx_main_v24 (ix3 n l z) = ix2 n l := by
    funext a; match a with | ⟨0, _⟩ => rfl | ⟨1, _⟩ => rfl
  rw [e, v19_at x1 _ h]

/-- Away from the joined axis, and on it, the index of a unit piece of the start indices. -/
theorem piece_hi (n : Fin 8) (l : Fin 127) (c : Fin 3) (hr : S8x127x1.rank = S8x127x3.rank) :
    ∀ b : Fin S8x127x1.rank, b.cast hr ≠ (2 : Fin S8x127x3.rank) →
      ((ix3 n l (0 : Fin 1) : S8x127x1.Idx) b).val = ((ix3 n l c : S8x127x3.Idx) (b.cast hr)).val := by
  intro b hb
  match b with
  | ⟨0, _⟩ => rfl
  | ⟨1, _⟩ => rfl
  | ⟨2, _⟩ => exact absurd rfl hb

/-- Column 0 of the start indices is the batch number. -/
theorem v25_col0 (x1 : (⟨S8x127, .i32⟩ : BufTy).Contents (Elt F)) (n : Fin 8) (l : Fin 127) :
    val_main_v25 (F := F) x1 (ix3 n l (0 : Fin 3)) = BitVec.ofNat 32 n.val := by
  unfold val_main_v25
  refine (concatenate_apply_piece (2 : Fin S8x127x3.rank) _ _ (ix3 n l (0 : Fin 3)) 0 (by simp) S8x127x1
    (val_main_v22 (F := F)) rfl rfl 0 rfl (ix3 n l (0 : Fin 1)) (piece_hi n l 0 rfl) rfl).trans ?_
  exact v22_at _

/-- Column 1 of the start indices is the position. -/
theorem v25_col1 (x1 : (⟨S8x127, .i32⟩ : BufTy).Contents (Elt F)) (n : Fin 8) (l : Fin 127) :
    val_main_v25 (F := F) x1 (ix3 n l (1 : Fin 3)) = BitVec.ofNat 32 l.val := by
  unfold val_main_v25
  refine (concatenate_apply_piece (2 : Fin S8x127x3.rank) _ _ (ix3 n l (1 : Fin 3)) 1 (by simp) S8x127x1
    (val_main_v23 (F := F)) rfl rfl 1 rfl (ix3 n l (0 : Fin 1)) (piece_hi n l 1 rfl) rfl).trans ?_
  exact v23_at _

/-- Column 2 of the start indices is the head word, where it is below 128. -/
theorem v25_col2 (x1 : (⟨S8x127, .i32⟩ : BufTy).Contents (Elt F)) (n : Fin 8) (l : Fin 127)
    (h : (x1 (ix2 n l)).toNat < 128) :
    val_main_v25 (F := F) x1 (ix3 n l (2 : Fin 3)) = x1 (ix2 n l) := by
  unfold val_main_v25
  refine (concatenate_apply_piece (2 : Fin S8x127x3.rank) _ _ (ix3 n l (2 : Fin 3)) 2 (by simp) S8x127x1
    (val_main_v24 (F := F) x1) rfl rfl 2 rfl (ix3 n l (0 : Fin 1)) (piece_hi n l 2 rfl) rfl).trans ?_
  exact v24_at x1 n l 0 h

/-! ## The gather read at an index -/

local notation "gd" => gather_S8x127x128x512_S8x127x3_S8x127x512_2_012_n_n_012_2_111512

/-- A small natural number as a word, read signed, is itself. -/
theorem toInt_toNat_ofNat (k : Nat) (hk : k < 2 ^ 31) : (BitVec.ofNat 32 k).toInt.toNat = k := by
  rw [toInt_ofNat_small k hk, Int.toNat_natCast]

/-- A small word read signed is its value. -/
theorem toInt_toNat_small (w : BitVec 32) (hw : w.toNat < 2 ^ 31) : w.toInt.toNat = w.toNat := by
  rw [toInt_eq_toNat_of_lt hw, Int.toNat_natCast]

/-- The start-indices index at which result index `(n, l, h)` reads component `c` of its start index. -/
theorem siIdx_at (n : Fin 8) (l : Fin 127) (h : Fin 512) (k : Nat) (hk : k < (gd).startIndexMap.length) (c : Fin 3)
    (hkc : k = c.val) : (gd).siIdx (ix3 n l h) ⟨k, hk⟩ = ix3 n l c := by
  subst hkc
  funext b; refine Fin.ext ?_
  match b with
  | ⟨0, _⟩ => rfl
  | ⟨1, _⟩ => rfl
  | ⟨2, _⟩ => rfl

/-- The start of the slice on one of the first three operand axes: the start index's component for that axis, read
    signed and clamped to the axis. -/
theorem start_at {w : Nat} (idx : IVec S8x127x3 w) (n : Fin 8) (l : Fin 127) (h : Fin 512) (a : Fin 4)
    (ha : a ∈ (gd).startIndexMap) (c : Fin 3) (hc : List.idxOf a (gd).startIndexMap = c.val) :
    (gd).start (ix3 n l h) idx a
      = min (idx (ix3 n l c)).toInt.toNat (S8x127x128x512.size a - (gd).sliceSizes a) := by
  unfold GatherDims.start
  rw [dif_pos ha, siIdx_at n l h _ _ c hc]

section Axes
variable (idx : IVec S8x127x3 32) (n : Fin 8) (l : Fin 127) (h : Fin 512)

/-- The operand coordinate on a collapsed axis is the clamped start alone. -/
theorem opIdx_collapsed (a : Fin 4) (ha : a ∈ (gd).collapsedSliceDims) :
    ((gd).operandIdx (ix3 n l h) idx a).val = (gd).start (ix3 n l h) idx a := by
  show (gd).start (ix3 n l h) idx a + (gd).batchCoord (ix3 n l h) a + (gd).offCoord (ix3 n l h) a = _
  rw [GatherDims.batchCoord_eq_zero _ _ _ List.not_mem_nil, Nat.add_zero,
    GatherDims.offCoord_eq_zero _ _ _ (fun hm => ((GatherDims.mem_sKept _ _).mp hm).1 ha), Nat.add_zero]

theorem opIdx_ax0 (e0 : idx (ix3 n l (0 : Fin 3)) = BitVec.ofNat 32 n.val) :
    ((gd).operandIdx (ix3 n l h) idx (0 : Fin 4)).val = n.val := by
  rw [opIdx_collapsed idx n l h 0 (by decide), start_at idx n l h 0 (by decide) 0 (by decide), e0,
    toInt_toNat_ofNat _ (by omega)]
  show min n.val 7 = n.val
  omega

theorem opIdx_ax1 (e1 : idx (ix3 n l (1 : Fin 3)) = BitVec.ofNat 32 l.val) :
    ((gd).operandIdx (ix3 n l h) idx (1 : Fin 4)).val = l.val := by
  rw [opIdx_collapsed idx n l h 1 (by decide), start_at idx n l h 1 (by decide) 1 (by decide), e1,
    toInt_toNat_ofNat _ (by omega)]
  show min l.val 126 = l.val
  omega

theorem opIdx_ax2 (w : Fin 128) (e2 : (idx (ix3 n l (2 : Fin 3))).toNat = w.val) :
    ((gd).operandIdx (ix3 n l h) idx (2 : Fin 4)).val = w.val := by
  rw [opIdx_collapsed idx n l h 2 (by decide), start_at idx n l h 2 (by decide) 2 (by decide),
    toInt_toNat_small _ (by omega), e2]
  show min w.val 127 = w.val
  omega

/-- On the last operand axis the slice is whole: the coordinate is the result's last coordinate. -/
theorem opIdx_ax3 : ((gd).operandIdx (ix3 n l h) idx (3 : Fin 4)).val = h.val := by
  show (gd).start (ix3 n l h) idx 3 + (gd).batchCoord (ix3 n l h) 3 + (gd).offCoord (ix3 n l h) 3 = _
  rw [GatherDims.batchCoord_eq_zero _ _ _ List.not_mem_nil, Nat.add_zero]
  unfold GatherDims.start GatherDims.offCoord
  rw [dif_neg (by decide), dif_pos (by decide)]
  show 0 + h.val = h.val
  omega

end Axes

/-- THE GATHER READ AT `(n, l, h)`: where the three components of the start index at `(n, l)` are the batch number, the
    position and a head word below 128, no clamp binds and the operand is read at `(n, l, head, h)`. -/
theorem gather_at {α : Type} (x : S8x127x128x512.Idx → α) (idx : IVec S8x127x3 32) (n : Fin 8) (l : Fin 127) (h : Fin 512)
    (w : Fin 128)
    (e0 : idx (ix3 n l (0 : Fin 3)) = BitVec.ofNat 32 n.val) (e1 : idx (ix3 n l (1 : Fin 3)) = BitVec.ofNat 32 l.val)
    (e2 : (idx (ix3 n l (2 : Fin 3))).toNat = w.val) :
    Host.gather gd x idx (ix3 n l h) = x (ix4 n l w h) := by
  unfold Host.gather
  congr 1
  funext a
  refine Fin.ext ?_
  match a with
  | ⟨0, _⟩ => exact opIdx_ax0 idx n l h e0
  | ⟨1, _⟩ => exact opIdx_ax1 idx n l h e1
  | ⟨2, _⟩ => exact opIdx_ax2 idx n l h w e2
  | ⟨3, _⟩ => exact opIdx_ax3 idx n l h

/-! ## The reference's stages at an index, at the ideal instance -/

section Stages
open Cert.Spec

variable (x0 : (⟨S8x128x128x512, .f32⟩ : BufTy).Contents (Elt Ideal)) (x1 : (⟨S8x127, .i32⟩ : BufTy).Contents (Elt Ideal))
  (x2 : (⟨S512x512, .f32⟩ : BufTy).Contents (Elt Ideal)) (x3 : (⟨S512, .f32⟩ : BufTy).Contents (Elt Ideal))
  (x4 : (⟨S50x512, .f32⟩ : BufTy).Contents (Elt Ideal)) (x5 : (⟨S50, .f32⟩ : BufTy).Contents (Elt Ideal))
  (n : Fin 8) (l : Fin 127)

/-- The gathered row is the specification's: the feature array at batch `n`, position `l + 1`, the head word of
    `(n, l)`. -/
theorem v26_at (hh : (x1 (ix2 n l)).toNat < 128) (h : Fin 512) :
    val_main_v26 (F := Ideal) x0 x1 (ix3 n l h) = row x0 x1 n l h := by
  unfold val_main_v26
  have e2 : (val_main_v25 (F := Ideal) x1 (ix3 n l (2 : Fin 3))).toNat = (headIx x1 n l).val := by
    rw [v25_col2 x1 n l hh]
    exact (Nat.mod_eq_of_lt hh).symm
  rw [gather_at _ _ n l h (headIx x1 n l) (v25_col0 x1 n l) (v25_col1 x1 n l) e2, val_main_v0_apply]
  unfold row
  congr 1
  funext a
  refine Fin.ext ?_
  match a with
  | ⟨0, _⟩ => rfl
  | ⟨1, _⟩ => exact Nat.add_comm 1 l.val
  | ⟨2, _⟩ => rfl
  | ⟨3, _⟩ => rfl

/-- The first contraction. -/
theorem v27_at (hh : (x1 (ix2 n l)).toNat < 128) (d : Fin 512) :
    val_main_v27 (F := Ideal) x0 x1 x2 (ix3 n l d) = ∑ h : Fin 512, row x0 x1 n l h * x2 (ix2 d h) := by
  rw [val_main_v27_apply]
  refine Finset.sum_congr rfl fun k _ => ?_
  have el : lidx_main_v27 (ix3 n l d) k = ix3 n l k := by
    funext a; match a with | ⟨0, _⟩ => rfl | ⟨1, _⟩ => rfl | ⟨2, _⟩ => rfl
  have er : ridx_main_v27 (ix3 n l d) k = ix2 d k := by
    funext a; match a with | ⟨0, _⟩ => rfl | ⟨1, _⟩ => rfl
  rw [el, er, v26_at x0 x1 n l hh k]

/-- The hidden layer. -/
theorem v31_at (hh : (x1 (ix2 n l)).toNat < 128) (d : Fin 512) :
    val_main_v31 (F := Ideal) x0 x1 x2 x3 (ix3 n l d) = hidden (row x0 x1 n l) x2 x3 d := by
  rw [val_main_v31_apply, val_main_v30_apply, v27_at x0 x1 x2 n l hh d, val_main_v29_apply, val_main_v28_apply]
  have e : idx_main_v28 (idx_main_v29 (ix3 n l d)) = ix1 d := by
    funext a; match a with | ⟨0, _⟩ => rfl
  rw [e]
  rfl

/-- The second contraction. -/
theorem v32_at (hh : (x1 (ix2 n l)).toNat < 128) (k : Fin 50) :
    val_main_v32 (F := Ideal) x0 x1 x2 x3 x4 (ix3 n l k) = ∑ d : Fin 512, hidden (row x0 x1 n l) x2 x3 d * x4 (ix2 k d) := by
  rw [val_main_v32_apply]
  refine Finset.sum_congr rfl fun d _ => ?_
  have el : lidx_main_v32 (ix3 n l k) d = ix3 n l d := by
    funext a; match a with | ⟨0, _⟩ => rfl | ⟨1, _⟩ => rfl | ⟨2, _⟩ => rfl
  have er : ridx_main_v32 (ix3 n l k) d = ix2 k d := by
    funext a; match a with | ⟨0, _⟩ => rfl | ⟨1, _⟩ => rfl
  rw [el, er, v31_at x0 x1 x2 x3 n l hh d]

/-- The output layer. -/
theorem v35_at (hh : (x1 (ix2 n l)).toNat < 128) (k : Fin 50) :
    val_main_v35 (F := Ideal) x0 x1 x2 x3 x4 x5 (ix3 n l k) = outRow (row x0 x1 n l) x2 x3 x4 x5 k := by
  rw [val_main_v35_apply, v32_at x0 x1 x2 x3 x4 n l hh k, val_main_v34_apply, val_main_v33_apply]
  have e : idx_main_v33 (idx_main_v34 (ix3 n l k)) = ix1 k := by
    funext a; match a with | ⟨0, _⟩ => rfl
  rw [e]
  rfl

/-- THE REFERENCE IS THE SPECIFICATION: where every head word is below 128, the reference's result is `G` of the
    arguments. -/
theorem val_main_v35_eq_G (hh : ∀ j : S8x127.Idx, (x1 j).toNat < 128) :
    val_main_v35 (F := Ideal) x0 x1 x2 x3 x4 x5 = G x0 x1 x2 x3 x4 x5 := by
  funext j
  obtain ⟨n, l, k, rfl⟩ : ∃ (n : Fin 8) (l : Fin 127) (k : Fin 50), j = ix3 n l k := ⟨j 0, j 1, j 2, eq_ix3 j⟩
  exact v35_at x0 x1 x2 x3 x4 x5 n l (hh _) k

end Stages

/-! ## The run -/

/-- On every device, from any memory with zero counters whose head words are below 128: every weakly fair execution
    of the reference terminates with its result at the specification `G` of the arguments' launch contents, the
    arguments unchanged. -/
theorem run_G (m : (ℓ : Loc nD τ sig) → Buf (Elt Ideal) ℓ) (ρ : Dev nD → PrngReg)
    (hheads : ∀ (c : Dev nD) (j : S8x127.Idx), (m ((c.tc : Thread nD τ).loc main_arg1) j).toNat < 128) :
    θ_run (defs (F := Ideal)) (onTc (τ := τ) (main (F := Ideal))) ⟨m, fun _ => 0, ρ⟩ (fun r => ∀ c : Dev nD,
      r.2.mem ((c.tc : Thread nD τ).loc main_v35) = Cert.Spec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).1.trans (val_main_v35_eq (F := Ideal) _ _ _ _ _ _)).trans (val_main_v35_eq_G _ _ _ _ _ _ (hheads c)), (h c).2⟩)
    (Cert.ReferenceIdeal.Value.run (F := Ideal) m ρ)

end Cert.ReferenceIdeal.RefValue

end
-- ==== Proof.KI.Kit.lean ====
/-
  The launch kit of the kernel program: the memory the one pipelined
  region finds, the prefetched table as the heads argument, the blocks its five windows show the
  body, the memrefs the body is called on at a grid point, the body's own DMA semaphores and the
  invariant the region keeps for it, and the reading of the region's post at the argument arrays.
  Everything here is stated for any family of float types.
-/
import proofs.«414620_j69801808495255_1_alg».proof.Proof.Gen.KernelIdeal.Skeleton
import proofs.«414620_j69801808495255_1_alg».proof.Proof.Gen.KernelIdeal.Launch
import Idealize.ShloMosaic.Lib.Pipeline.FrameBody
import Idealize.ShloMosaic.Lib.Ring
import Idealize.ShloMosaic.Lib.Tactic
import Idealize.ShloMosaic.Lib.Pipeline.Value
import Idealize.ShloMosaic.Lib.StableHlo.Run
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The memory the region is entered with -/

/-- What core `c`'s buffer `b` holds when the region starts: the launch memory after the two host transposes. -/
abbrev V (c : Dev nD) (b : Ref sig .tc) : Buf (Elt F) ((c : Thread nD τ).loc b) :=
  StableHlo.after hostOps0 (fun b => m (c, b)) b

/-- The host transposes allocate nothing. -/
theorem hostOps0_fresh : (hostOps0 : List (HloOp τ sig (Elt F))).Forall fun op => op.fresh = ∅ := by
  simp only [List.Forall]; repeat' constructor

/-- The program is its host transposes followed by the region, which therefore starts from `V`. -/
theorem hmain (𝒱₀ : Variants) :
    Pipeline.HMainP (Ix := Unit) (Name := ℕ) (U := Pipeline.UD sig nD τ) (Lvl := ℕ) pcfgs 0 defs₀ 𝒱₀ m (main (F := F)) (V m) :=
  Pipeline.hmainP_prefix pcfgs 0 defs₀ 𝒱₀ m main hostOps0 hostOps0_sub hostOps0_fresh main_chain

/-- A buffer neither transpose writes is found as launched. -/
theorem V_of_not_written (c : Dev nD) (b : Ref sig .tc)
    (h0 : Proc.devRef (τ := τ) .tc b ≠ Proc.devRef .tc main_v0) (h1 : Proc.devRef (τ := τ) .tc b ≠ Proc.devRef .tc main_v1) :
    V m c b = m ((c : Thread nD τ).loc b) :=
  StableHlo.after_of_forall_not_mem (b := Proc.devRef .tc b) _ _ (List.forall_iff_forall_mem.mp (by
    simp only [hostOps0, List.Forall, StableHlo.unary_writes, Finset.mem_singleton]
    exact ⟨h0, h1⟩))

theorem V_main_arg0 (c : Dev nD) : V m c main_arg0 = m ((c : Thread nD τ).loc main_arg0) :=
  V_of_not_written m c _ (StableHlo.devRef_ne_of_ne (by decide)) (StableHlo.devRef_ne_of_ne (by decide))
theorem V_main_arg1 (c : Dev nD) : V m c main_arg1 = m ((c : Thread nD τ).loc main_arg1) :=
  V_of_not_written m c _ (StableHlo.devRef_ne_of_ne (by decide)) (StableHlo.devRef_ne_of_ne (by decide))
theorem V_main_arg2 (c : Dev nD) : V m c main_arg2 = m ((c : Thread nD τ).loc main_arg2) :=
  V_of_not_written m c _ (StableHlo.devRef_ne_of_ne (by decide)) (StableHlo.devRef_ne_of_ne (by decide))
theorem V_main_arg3 (c : Dev nD) : V m c main_arg3 = m ((c : Thread nD τ).loc main_arg3) :=
  V_of_not_written m c _ (StableHlo.devRef_ne_of_ne (by decide)) (StableHlo.devRef_ne_of_ne (by decide))
theorem V_main_arg4 (c : Dev nD) : V m c main_arg4 = m ((c : Thread nD τ).loc main_arg4) :=
  V_of_not_written m c _ (StableHlo.devRef_ne_of_ne (by decide)) (StableHlo.devRef_ne_of_ne (by decide))
theorem V_main_arg5 (c : Dev nD) : V m c main_arg5 = m ((c : Thread nD τ).loc main_arg5) :=
  V_of_not_written m c _ (StableHlo.devRef_ne_of_ne (by decide)) (StableHlo.devRef_ne_of_ne (by decide))

/-! ## The two transposed weights, read -/

/-- The first weight window's array is the transpose of the first weight argument. -/
theorem V_main_v0 (c : Dev nD) :
    (V m c main_v0 : S512x512.Idx → Elt F .f32)
      = transpose S512x512 [1, 0] (m ((c : Thread nD τ).loc main_arg2) : S512x512.Idx → Elt F .f32) transposes_S512x512_S512x512_1_0 := by
  dsimp only [V, hostOps0]; after_results

/-- The second weight window's array is the transpose of the second weight argument. -/
theorem V_main_v1 (c : Dev nD) :
    (V m c main_v1 : S512x50.Idx → Elt F .f32)
      = transpose S512x50 [1, 0] (m ((c : Thread nD τ).loc main_arg4) : S50x512.Idx → Elt F .f32) transposes_S50x512_S512x50_1_0 := by
  dsimp only [V, hostOps0]; after_results

/-- Entry `(p, q)` of the first transposed weight is entry `(q, p)` of the argument. -/
theorem V_main_v0_apply (c : Dev nD) (p q : Fin 512) :
    (V m c main_v0 : S512x512.Idx → Elt F .f32) (ValueIdx.ix2 p q)
      = (m ((c : Thread nD τ).loc main_arg2) : S512x512.Idx → Elt F .f32) (ValueIdx.ix2 q p) := by
  rw [V_main_v0]
  refine transpose_apply _ _ _ _ _ fun b => ?_
  match b with
  | ⟨0, _⟩ => rfl
  | ⟨1, _⟩ => rfl

/-- Entry `(p, q)` of the second transposed weight is entry `(q, p)` of the argument. -/
theorem V_main_v1_apply (c : Dev nD) (p : Fin 512) (q : Fin 50) :
    (V m c main_v1 : S512x50.Idx → Elt F .f32) (ValueIdx.ix2 p q)
      = (m ((c : Thread nD τ).loc main_arg4) : S50x512.Idx → Elt F .f32) (ValueIdx.ix2 q p) := by
  rw [V_main_v1]
  refine transpose_apply _ _ _ _ _ fun b => ?_
  match b with
  | ⟨0, _⟩ => rfl
  | ⟨1, _⟩ => rfl

/-! ## The prefetched table -/

/-- The table's contents when the region starts; there is one device, so device 0's. -/
def tbl : pre0.Contents (Elt F) := fun j => V m (0 : Dev nD) (pre0.ref j)

/-- Every device sees those contents. -/
theorem V_pre (c : Dev nD) (j : Fin 1) : V m c (pre0.ref j) = tbl m j := by
  obtain rfl : c = 0 := Subsingleton.elim _ _; rfl

/-- The region's side condition on the table's words. No window's index map reads the table, so it is trivial. -/
abbrev Ok : Prop := ok0 (F := F) (tbl m)

theorem ok : Ok m := trivial

/-- The table's contents as admissible contents, and the pipeline pinned at them. -/
abbrev adm (hO : Ok m) : (pcfg0 (F := F)).Adm := ⟨tbl m, hO⟩
abbrev cfgM (hO : Ok m) : Pipeline.Cfg sig Λ₀ := cfg0 (adm m hO)

/-- The one table is the heads argument as launched. -/
theorem tbl_eq : tbl m 0 = m ((0 : Dev nD).tc.loc main_arg1) :=
  V_main_arg1 m 0

/-! ## The blocks the windows show the body -/

/-- Window `w`'s block at grid point `t`: its array as the region found it, read through the block's rectangle. -/
def iblk (hO : Ok m) (c : Dev nD) (w : Fin (cfgM m hO).W) (t : Fin (cfgM m hO).N) :
    (((cfgM m hO).win w).xblock ((cfgM m hO).grid.coords t)).Idx → Elt F ((cfgM m hO).win w).elt :=
  (((cfgM m hO).win w).blk t).view.read (Elt F) (V m c (Pipeline.arrRef spec0 w))

/-- An input window whose body leaves the block in place holds that block at every point, whether or not the
    point fetched it: an unfetched point has the same block index as the one before. Window 0. -/
theorem before_0 (hO : Ok m) {c : Dev nD} (dat : Dat τ (Elt F) Unit ℕ (Pipeline.UD sig nD τ) ℕ (cfgM m hO) c)
    (hA : dat.A 0 = V m c (Pipeline.arrRef spec0 0)) (hafter : ∀ t, dat.after 0 t = iblk m hO c 0 t)
    (t : Fin (cfgM m hO).N) (d) : dat.before 0 t d = iblk m hO c 0 t :=
  (dat.before_in_eq_fetched 0 rfl (fun _ => rfl) (fun _ _ _ => rfl)
    (fun t => by rw [hafter]; unfold Dat.blockOf iblk; rw [hA]; rfl) t d).trans
    (by unfold Dat.fetched Dat.blockOf iblk; rw [hA]; rfl)
/-- The same of window 1. -/
theorem before_1 (hO : Ok m) {c : Dev nD} (dat : Dat τ (Elt F) Unit ℕ (Pipeline.UD sig nD τ) ℕ (cfgM m hO) c)
    (hA : dat.A 1 = V m c (Pipeline.arrRef spec0 1)) (hafter : ∀ t, dat.after 1 t = iblk m hO c 1 t)
    (t : Fin (cfgM m hO).N) (d) : dat.before 1 t d = iblk m hO c 1 t :=
  (dat.before_in_eq_fetched 1 rfl (fun _ => rfl) (fun _ _ _ => rfl)
    (fun t => by rw [hafter]; unfold Dat.blockOf iblk; rw [hA]; rfl) t d).trans
    (by unfold Dat.fetched Dat.blockOf iblk; rw [hA]; rfl)
/-- The same of window 2. -/
theorem before_2 (hO : Ok m) {c : Dev nD} (dat : Dat τ (Elt F) Unit ℕ (Pipeline.UD sig nD τ) ℕ (cfgM m hO) c)
    (hA : dat.A 2 = V m c (Pipeline.arrRef spec0 2)) (hafter : ∀ t, dat.after 2 t = iblk m hO c 2 t)
    (t : Fin (cfgM m hO).N) (d) : dat.before 2 t d = iblk m hO c 2 t :=
  (dat.before_in_eq_fetched 2 rfl (fun _ => rfl) (fun _ _ _ => rfl)
    (fun t => by rw [hafter]; unfold Dat.blockOf iblk; rw [hA]; rfl) t d).trans
    (by unfold Dat.fetched Dat.blockOf iblk; rw [hA]; rfl)
/-- The same of window 3. -/
theorem before_3 (hO : Ok m) {c : Dev nD} (dat : Dat τ (Elt F) Unit ℕ (Pipeline.UD sig nD τ) ℕ (cfgM m hO) c)
    (hA : dat.A 3 = V m c (Pipeline.arrRef spec0 3)) (hafter : ∀ t, dat.after 3 t = iblk m hO c 3 t)
    (t : Fin (cfgM m hO).N) (d) : dat.before 3 t d = iblk m hO c 3 t :=
  (dat.before_in_eq_fetched 3 rfl (fun _ => rfl) (fun _ _ _ => rfl)
    (fun t => by rw [hafter]; unfold Dat.blockOf iblk; rw [hA]; rfl) t d).trans
    (by unfold Dat.fetched Dat.blockOf iblk; rw [hA]; rfl)

/-- Windows 0 to 3 take their whole arrays as one block with block index zero on every axis, so the block at any
    point is the array itself. Window 0: the first transposed weight. -/
theorem iblk_0 (hO : Ok m) (c : Dev nD) (t : Fin (cfgM m hO).N) :
    (iblk m hO c 0 t : S512x512.Idx → Elt F .f32) = (V m c main_v0 : S512x512.Idx → Elt F .f32) := by
  refine funext fun (j : S512x512.Idx) => ?_
  unfold iblk
  show (V m c main_v0 : S512x512.Idx → Elt F .f32) ((((cfgM m hO).win 0).blk t).view.emb j) = (V m c main_v0 : S512x512.Idx → Elt F .f32) j
  congr 1
  funext a
  apply Fin.ext
  match a with
  | ⟨0, _⟩ => show 0 * 512 + 1 * (j 0).val = (j 0).val; omega
  | ⟨1, _⟩ => show 0 * 512 + 1 * (j 1).val = (j 1).val; omega

/-- Window 1: the first bias. -/
theorem iblk_1 (hO : Ok m) (c : Dev nD) (t : Fin (cfgM m hO).N) :
    (iblk m hO c 1 t : S512.Idx → Elt F .f32) = (V m c main_arg3 : S512.Idx → Elt F .f32) := by
  refine funext fun (j : S512.Idx) => ?_
  unfold iblk
  show (V m c main_arg3 : S512.Idx → Elt F .f32) ((((cfgM m hO).win 1).blk t).view.emb j) = (V m c main_arg3 : S512.Idx → Elt F .f32) j
  congr 1
  funext a
  apply Fin.ext
  match a with
  | ⟨0, _⟩ => show 0 * 512 + 1 * (j 0).val = (j 0).val; omega

/-- Window 2: the second transposed weight. -/
theorem iblk_2 (hO : Ok m) (c : Dev nD) (t : Fin (cfgM m hO).N) :
    (iblk m hO c 2 t : S512x50.Idx → Elt F .f32) = (V m c main_v1 : S512x50.Idx → Elt F .f32) := by
  refine funext fun (j : S512x50.Idx) => ?_
  unfold iblk
  show (V m c main_v1 : S512x50.Idx → Elt F .f32) ((((cfgM m hO).win 2).blk t).view.emb j) = (V m c main_v1 : S512x50.Idx → Elt F .f32) j
  congr 1
  funext a
  apply Fin.ext
  match a with
  | ⟨0, _⟩ => show 0 * 512 + 1 * (j 0).val = (j 0).val; omega
  | ⟨1, _⟩ => show 0 * 50 + 1 * (j 1).val = (j 1).val; omega

/-- Window 3: the second bias. -/
theorem iblk_3 (hO : Ok m) (c : Dev nD) (t : Fin (cfgM m hO).N) :
    (iblk m hO c 3 t : S50.Idx → Elt F .f32) = (V m c main_arg5 : S50.Idx → Elt F .f32) := by
  refine funext fun (j : S50.Idx) => ?_
  unfold iblk
  show (V m c main_arg5 : S50.Idx → Elt F .f32) ((((cfgM m hO).win 3).blk t).view.emb j) = (V m c main_arg5 : S50.Idx → Elt F .f32) j
  congr 1
  funext a
  apply Fin.ext
  match a with
  | ⟨0, _⟩ => show 0 * 50 + 1 * (j 0).val = (j 0).val; omega

/-! ## What the body is called on at a grid point -/

/-- Window `w`'s staging memref in use at point `t`, and that it is a whole buffer. -/
abbrev ms_0 (hO : Ok m) (t : Fin (cfgM m hO).N) : Memref sig .tc .vmem S512x512 .f32 := spec0_0.stage ((cfgM m hO).slots t 0)
abbrev hs_0 (hO : Ok m) (t : Fin (cfgM m hO).N) : (ms_0 m hO t).IsWhole := hstage0_0 (((cfgM m hO).slots t 0).cast nbuf0_0)
abbrev ms_1 (hO : Ok m) (t : Fin (cfgM m hO).N) : Memref sig .tc .vmem S512 .f32 := spec0_1.stage ((cfgM m hO).slots t 1)
abbrev hs_1 (hO : Ok m) (t : Fin (cfgM m hO).N) : (ms_1 m hO t).IsWhole := hstage0_1 (((cfgM m hO).slots t 1).cast nbuf0_1)
abbrev ms_2 (hO : Ok m) (t : Fin (cfgM m hO).N) : Memref sig .tc .vmem S512x50 .f32 := spec0_2.stage ((cfgM m hO).slots t 2)
abbrev hs_2 (hO : Ok m) (t : Fin (cfgM m hO).N) : (ms_2 m hO t).IsWhole := hstage0_2 (((cfgM m hO).slots t 2).cast nbuf0_2)
abbrev ms_3 (hO : Ok m) (t : Fin (cfgM m hO).N) : Memref sig .tc .vmem S50 .f32 := spec0_3.stage ((cfgM m hO).slots t 3)
abbrev hs_3 (hO : Ok m) (t : Fin (cfgM m hO).N) : (ms_3 m hO t).IsWhole := hstage0_3 (((cfgM m hO).slots t 3).cast nbuf0_3)
abbrev ms_4 (hO : Ok m) (t : Fin (cfgM m hO).N) : Memref sig .tc .vmem S1x127x50 .f32 := spec0_4.stage ((cfgM m hO).slots t 4)
abbrev hs_4 (hO : Ok m) (t : Fin (cfgM m hO).N) : (ms_4 m hO t).IsWhole := hstage0_4 (((cfgM m hO).slots t 4).cast nbuf0_4)

/-- The gather scratch, the features left in HBM, and the heads table, each a whole buffer. -/
abbrev scM : Memref sig .tc .vmem S128x512 .f32 := Memref.whole cc0_scratch0
abbrev hbM : Memref sig .tc .hbm S8x128x128x512 .f32 := Memref.whole main_arg0
abbrev tbM : Memref sig .tc .smem S8x127 .i32 := Memref.whole main_arg1

/-- The kernel body as the region's body table applies it at point `t` of the pipeline pinned at contents `a`. -/
abbrev bodyAt (a : (pcfg0 (F := F)).Adm) (t : Fin (cfg0 a).N) : Prog (TpuEff nD τ sig (Elt F) Λ₀ .tc) PUnit :=
  cc0__gather_mlp_kernel (grid0.coords t) tbM (Memref.isWhole_whole _) hbM (Memref.isWhole_whole _)
    (spec0_0.stage ((cfg0 a).slots t 0)) (hstage0_0 (((cfg0 a).slots t 0).cast nbuf0_0))
    (spec0_1.stage ((cfg0 a).slots t 1)) (hstage0_1 (((cfg0 a).slots t 1).cast nbuf0_1))
    (spec0_2.stage ((cfg0 a).slots t 2)) (hstage0_2 (((cfg0 a).slots t 2).cast nbuf0_2))
    (spec0_3.stage ((cfg0 a).slots t 3)) (hstage0_3 (((cfg0 a).slots t 3).cast nbuf0_3))
    (spec0_4.stage ((cfg0 a).slots t 4)) (hstage0_4 (((cfg0 a).slots t 4).cast nbuf0_4))
    scM (Memref.isWhole_whole _) cc0_scratch1

/-- The label the region calls at point `t`, on the point and the slots in use, is `bodyAt` there. -/
theorem body_eq (hO : Ok m) (t : Fin (cfgM m hO).N) :
    (defs₀ (F := F)) .tc (cfgM m hO).body ((cfgM m hO).bodyArgs t ((cfgM m hO).slots t)) = bodyAt (adm m hO) t := rfl

/-! ## The body's own semaphores and the invariant kept for it -/

/-- The thirty-two DMA semaphores of the body's own, by their numbers in the pool. -/
abbrev osem : Fin 32 → SemLoc sig := fun j =>
  (![SemLoc.dma 6, SemLoc.dma 7, SemLoc.dma 8, SemLoc.dma 9, SemLoc.dma 10, SemLoc.dma 11, SemLoc.dma 12, SemLoc.dma 13, SemLoc.dma 14, SemLoc.dma 15, SemLoc.dma 16, SemLoc.dma 17, SemLoc.dma 18, SemLoc.dma 19, SemLoc.dma 20, SemLoc.dma 21, SemLoc.dma 22, SemLoc.dma 23, SemLoc.dma 24, SemLoc.dma 25, SemLoc.dma 26, SemLoc.dma 27, SemLoc.dma 28, SemLoc.dma 29, SemLoc.dma 30, SemLoc.dma 31, SemLoc.dma 32, SemLoc.dma 33, SemLoc.dma 34, SemLoc.dma 35, SemLoc.dma 36, SemLoc.dma 37] : Fin 32 → SemLoc sig) j

/-- None of them is a window's staging semaphore. -/
theorem ownSemFacts : Pipeline.OwnSemFacts spec0 osem := by decide

/-- The thirty-two counters at zero, one conjunct each. -/
abbrev semsZero (c : Dev nD) : sProp 𝕄 :=
  iprop(semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0)

theorem ownSems0_eq (c : Dev nD) :
    (Pipeline.ownSems0 (Ix := Unit) (Name := ℕ) (U := Pipeline.UD sig nD τ) (Lvl := ℕ) (Val := Elt F) (τ := τ) osem c : sProp 𝕄)
      = semsZero c := by
  rw [Pipeline.ownSems0_eq_of_list c osem [0, 1, 2, 3, 4, 5, 6, 7, 8, 9, 10, 11, 12, 13, 14, 15, 16, 17, 18, 19, 20, 21, 22, 23, 24, 25, 26, 27, 28, 29, 30, 31] (by decide) (by decide)]; rfl

/-- The one unscoped buffer the body reads by its own DMA: the features. -/
def H0 : Finset (Ref sig .tc) := {main_arg0}
theorem H0_sub : H0 ⊆ Pipeline.restRefsP sig pre0 spec0 := by decide

theorem hbmPts_eq (c : Dev nD) :
    (bigSep H0 (fun b => ((c : Thread nD τ).loc b) ↦{fullShare} V m c b) : sProp 𝕄)
      = iprop(hbM.view.loc (c : Thread nD τ) ↦{fullShare} V m c main_arg0) := by
  rw [BI.bigSep_eq_bigSepL_of_eq [main_arg0] (by decide) (by decide)]; rfl

/-- The invariant the region keeps for a body with transfers of its own, conjunct by conjunct: the scratch owned at
    some contents, the generator register at some state, the own counters at zero, the features at their launch
    contents. -/
theorem PhiD_eq (c : Dev nD) :
    (Pipeline.ΦD osem spec0 H0 (V m) c : sProp 𝕄)
      = iprop((∃ d, owns (c : Thread nD τ) scM fullShare d) ∗ (∃ r, prngReg c r) ∗ semsZero c
          ∗ (hbM.view.loc (c : Thread nD τ) ↦{fullShare} V m c main_arg0)) := by
  rw [Pipeline.ΦD_eq, scopedRest0_eq, ownSems0_eq, hbmPts_eq]; simp only [scM, owns_whole]; rfl

/-- The table's half the region hands the body: the heads at half the full share. -/
theorem PhiT_eq (c : Dev nD) :
    (Pipeline.ΦT pre0 (tbl m) c : sProp 𝕄) = iprop(tbM.view.loc (c : Thread nD τ) ↦{fullShare.right} tbl m 0) := by
  unfold Pipeline.ΦT Pipeline.prefHeld
  rw [show (Finset.univ : Finset (Fin 1)) = {(0 : Fin 1)} from by decide, bigSep_singleton]
  rfl

/-! ## The region's post read at the arrays -/

/-- From a run to the region's relational post, for any proof data whose arrays are the region-entry contents: the
    six argument arrays end as launched. The two biases are input windows' arrays, which the post's first clause
    keeps at their entry contents; the features, the heads and the two weight arguments are no window's array, and
    the post's second clause keeps them; no host transpose wrote any of the six. -/
theorem frame_of (hO : Ok m)
    (rdat : (c : Dev nD) → Pipeline.RDat τ (Elt F) Unit ℕ (Pipeline.UD sig nD τ) ℕ ((Pipeline.pin pcfgs fun _ => adm m hO) 0) c)
    (hA : ∀ c w, (rdat c).A w = V m c (Pipeline.arrRef spec0 w))
    (h : θ_run defs (onTc (τ := τ) (main (F := F))) (s₀ m ρ)
      (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_arg0 (by decide : main_arg0 ∈ Pipeline.restRefs sig spec0)).trans (V_main_arg0 m c),
     ((h c).2 main_arg1 (by decide : main_arg1 ∈ Pipeline.restRefs sig spec0)).trans (V_main_arg1 m c),
     ((h c).2 main_arg2 (by decide : main_arg2 ∈ Pipeline.restRefs sig spec0)).trans (V_main_arg2 m c),
     (Pipeline.RDat.FramePost.arr_in h c 1 rfl).trans ((hA c 1).trans (V_main_arg3 m c)),
     ((h c).2 main_arg4 (by decide : main_arg4 ∈ Pipeline.restRefs sig spec0)).trans (V_main_arg4 m c),
     (Pipeline.RDat.FramePost.arr_in h c 3 rfl).trans ((hA c 3).trans (V_main_arg5 m c))⟩) h

/-- From a run to the region's exact post: the result array ends at what the proof data computes for the output
    window after every write-back, and the six argument arrays end as launched. -/
theorem value_of (hO : Ok m)
    (dats : (p : Fin 1) → (c : Dev nD) →
      Dat τ (Elt F) Unit ℕ (Pipeline.UD sig nD τ) ℕ ((Pipeline.pin pcfgs fun _ => adm m hO) p) c)
    (hA : ∀ c w, (dats 0 c).A w = V m c (Pipeline.arrRef spec0 w))
    (h : θ_run defs (onTc (τ := τ) (main (F := F))) (s₀ m ρ)
      (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_v2) = (dats 0 c).arrAt 4 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c).1 4,
     ((h c).2 main_arg0 (by decide : main_arg0 ∈ Pipeline.restRefs sig spec0)).trans (V_main_arg0 m c),
     ((h c).2 main_arg1 (by decide : main_arg1 ∈ Pipeline.restRefs sig spec0)).trans (V_main_arg1 m c),
     ((h c).2 main_arg2 (by decide : main_arg2 ∈ Pipeline.restRefs sig spec0)).trans (V_main_arg2 m c),
     ((h c).1 1).trans (((dats 0 c).arrAt_in 1 rfl _).trans ((hA c 1).trans (V_main_arg3 m c))),
     ((h c).2 main_arg4 (by decide : main_arg4 ∈ Pipeline.restRefs sig spec0)).trans (V_main_arg4 m c),
     ((h c).1 3).trans (((dats 0 c).arrAt_in 3 rfl _).trans ((hA c 3).trans (V_main_arg5 m c)))⟩) h

end Cert.KernelIdeal.Hand

end
-- ==== Proof.KI.Body.lean ====
/-
  One grid point of the kernel, as a Hoare triple at any float family.  At batch `i` the body copies, for
  each position l < 127, the feature row `feat[i, l + 1, heads[i, l], :]` into row l of its scratch (row 127 of the
  scratch is never written and keeps whatever it held), then stores into its output block the two-layer
  perceptron of the scratch's 128 rows, of which the block keeps the first 127.
-/
import proofs.«414620_j69801808495255_1_alg».proof.Proof.KI.Kit
import Idealize.ShloMosaic.Lib.WholeRead

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ
/-- The head word of batch `i`, position `l`, read off the table's contents. -/
def headWord (xt : S8x127.Idx → BitVec 32) (i : grid0.Coords) (l : Fin 127) : BitVec 32 :=
  xt (ValueIdx.ix2 (⟨(i 0).val, (i 0).isLt⟩ : Fin 8) l)

/-- What the scratch holds once the 127 copies have landed: row l (l < 127) is the feature row the head
    word of (i, l) selects, under the side condition that the word is below 128; nothing is said of row 127. -/
def RowsOK (i : grid0.Coords) (xt : S8x127.Idx → BitVec 32) (fh : S8x128x128x512.Idx → Elt F .f32)
    (d8 : Vec F S128x512 .f32) : Prop :=
  ∀ (l : Fin 127) (hl : (headWord xt i l).toNat < 128) (h : Fin 512),
    d8 (ValueIdx.ix2 (⟨l.val, by omega⟩ : Fin 128) h)
      = fh (ValueIdx.ix4 (⟨(i 0).val, (i 0).isLt⟩ : Fin 8) (⟨l.val + 1, by omega⟩ : Fin 128) (⟨(headWord xt i l).toNat, hl⟩ : Fin 128) h)

/-! ## The feature array as read tokens

Up to 32 copies read the feature array at once, one per transfer cell, so the array is held as one read share per cell
(split off the full share one at a time) and put back together after the last wait. -/

theorem tokStart {ℓ : Loc nD τ sig} (f : Buf (Elt F) ℓ) :
    (ℓ ↦{fullShare} f : sProp 𝕄) ⊢ (ℓ ↦{Transfers.shareDrop fullShare 0} f) := .rfl

theorem tokEnd {ℓ : Loc nD τ sig} (f : Buf (Elt F) ℓ) :
    (ℓ ↦{Transfers.shareDrop fullShare 0} f : sProp 𝕄) ⊢ (ℓ ↦{fullShare} f) := .rfl

theorem tokStep {ℓ : Loc nD τ sig} (f : Buf (Elt F) ℓ) (k : ℕ) :
    (ℓ ↦{Transfers.shareDrop fullShare k} f : sProp 𝕄)
      ⊢ iprop((ℓ ↦{Transfers.shareDrop fullShare (k + 1)} f) ∗ ℓ ↦{Transfers.shareTokN fullShare k} f) :=
  (pointsTo_share (PosShare.mem_left_op_right _)).1

theorem tokJoin {ℓ : Loc nD τ sig} (f : Buf (Elt F) ℓ) (k : ℕ) :
    (ℓ ↦{Transfers.shareDrop fullShare (k + 1)} f : sProp 𝕄)
      ⊢ iprop((ℓ ↦{Transfers.shareTokN fullShare k} f) -∗ ℓ ↦{Transfers.shareDrop fullShare k} f) :=
  BI.wand_intro (pointsTo_share (PosShare.mem_left_op_right _)).2

/-! ## The side condition of a copy -/

/-- A slice of one row of the feature array at batch `i`, a position below 128 and a head below 128 lies inside it. -/
theorem chk_of_lt (i : grid0.Coords) (N : ℕ) (hN : N < 128) (v : BitVec 32) (hv : v.toNat < 128) :
    ∀ a, (![(BitVec.ofNat 32 (i 0).val).toNat, N, v.toNat, 0] : Fin 4 → ℕ) a + S1x1x1x512.size a ≤ S8x128x128x512.size a := by
  have hi : (i 0).val < 8 := (i 0).isLt
  have h0 : (BitVec.ofNat 32 (i 0).val).toNat = (i 0).val := by
    rw [BitVec.toNat_ofNat]; exact Nat.mod_eq_of_lt (by omega)
  intro a
  match a with
  | ⟨0, _⟩ => show (BitVec.ofNat 32 (i 0).val).toNat + 1 ≤ 8; omega
  | ⟨1, _⟩ => show N + 1 ≤ 128; omega
  | ⟨2, _⟩ => show v.toNat + 1 ≤ 128; omega
  | ⟨3, _⟩ => show 0 + 512 ≤ 512; omega

/-- Every word a load reads off the table is one of the table's words, so below 128. -/
theorem word_lt (c : Dev nD) (xt : Buf (Elt F) (tbM.view.loc (c : Thread nD τ)))
    (hw : ∀ j : S8x127.Idx, ((xt : S8x127.Idx → BitVec 32) j).toNat < 128)
    (r : LoadRect S8x127) (x : r.shape.Idx) : (tbM.view.readAt (Elt F) r xt x : BitVec 32).toNat < 128 :=
  hw _

open Lean Elab Tactic in
/-- `for_each_nat lo hi "tac"` runs the tactic text `tac` once for each `k = lo, …, hi - 1` in turn (`down`: from
    `hi - 1` down to `lo`), each time with `%` in the text replaced by the numeral `k`. -/
elab "for_each_nat " lo:num hi:num dn:(&" down")? t:str : tactic => do
  let ks := (List.range (hi.getNat - lo.getNat)).map (· + lo.getNat)
  let ks := if dn.isSome then ks.reverse else ks
  for k in ks do
    let s := (t.getString.replace "%+" (toString (k + 1))).replace "%" (toString k)
    match Parser.runParserCategory (← getEnv) `tactic s with
    | .ok stx => evalTactic stx
    | .error e => throwError "for_each_nat: {e}"

/-! ## The scratch by rows

The 127 copies land in 127 different rows of the scratch while up to 32 of them are in flight, so the scratch is
held row by row: row `l` as the elements of the very memref the body builds for it. The rows partition the buffer;
`restSet v n` is what rows `n, n + 1, …, 127` cover, so that rows are split off (and put back) one at a time. -/

/-- Row `l` lies inside the scratch. -/
theorem rowInb (l : Fin 128) : ∀ a, (![l.val, 0] : Fin 2 → ℕ) a + S1x512.size a ≤ S128x512.size a :=
  Fin.forall_fin_two.mpr ⟨by show l.val + 1 ≤ 128; omega, by show 0 + 512 ≤ 512; omega⟩

/-- The rectangle of row `l`. -/
def rowRect (l : Fin 128) : Rect S128x512 := Rect.unit ![l.val, 0] S1x512.size (rowInb l)

/-- The buffer elements under row `l` of a view of the scratch's shape. -/
def rowSet (v : View sig .tc .vmem S128x512 .f32) (l : Fin 128) : Finset v.ty.Idx := (v.slice (rowRect l)).set

/-- Two different rows share no element. -/
theorem rowSet_disjoint (v : View sig .tc .vmem S128x512 .f32) {l l' : Fin 128} (h : l ≠ l') :
    Disjoint (rowSet v l) (rowSet v l') :=
  View.disjoint_slice_of_sep v _ _ (⟨0, by decide⟩ : Fin S128x512.rank) rfl rfl (by
    have := Fin.val_ne_of_ne h
    show l.val + 1 ≤ l'.val ∨ l'.val + 1 ≤ l.val
    omega)

/-- The rows cover the view. -/
theorem biUnion_rowSet (v : View sig .tc .vmem S128x512 .f32) : Finset.univ.biUnion (rowSet v) = v.set := by
  ext j
  rw [Finset.mem_biUnion]
  constructor
  · rintro ⟨l, -, hj⟩; exact View.set_slice_subset v _ hj
  · intro hj
    obtain ⟨x, -, rfl⟩ := Finset.mem_map.mp hj
    refine ⟨⟨(x 0).val, (x 0).isLt⟩, Finset.mem_univ _, ?_⟩
    rw [rowSet, View.set_slice]
    refine Finset.mem_map_of_mem _ ?_
    rw [rowRect, Rect.mem_set_unit]
    intro a
    match a with
    | ⟨0, _⟩ => exact ⟨Nat.le_refl _, Nat.lt_succ_self _⟩
    | ⟨1, _⟩ =>
      have h1 : (x 1).val < 512 := (x 1).isLt
      exact ⟨Nat.zero_le _, by show (x 1).val < 0 + 512; omega⟩

/-- What rows `n` and later cover. -/
def restSet (v : View sig .tc .vmem S128x512 .f32) (n : ℕ) : Finset v.ty.Idx :=
  (Finset.univ.filter fun l : Fin 128 => n ≤ l.val).biUnion (rowSet v)

theorem restSet_zero (v : View sig .tc .vmem S128x512 .f32) : restSet v 0 = v.set := by
  rw [restSet, Finset.filter_true_of_mem (fun _ _ => Nat.zero_le _), biUnion_rowSet]

theorem restSet_succ (v : View sig .tc .vmem S128x512 .f32) (n : ℕ) (hn : n < 128) :
    restSet v n = rowSet v ⟨n, hn⟩ ∪ restSet v (n + 1) := by
  have e : (Finset.univ.filter fun l : Fin 128 => n ≤ l.val)
      = insert (⟨n, hn⟩ : Fin 128) (Finset.univ.filter fun l : Fin 128 => n + 1 ≤ l.val) := by
    ext l
    simp only [Finset.mem_filter, Finset.mem_univ, true_and, Finset.mem_insert, Fin.ext_iff]
    omega
  rw [restSet, e, Finset.biUnion_insert]; rfl

theorem restSet_last (v : View sig .tc .vmem S128x512 .f32) : restSet v 128 = ∅ := by
  rw [restSet, Finset.filter_false_of_mem (fun l _ => by have := l.isLt; omega), Finset.biUnion_empty]

theorem disjoint_rowSet_restSet (v : View sig .tc .vmem S128x512 .f32) (n : ℕ) (hn : n < 128) :
    Disjoint (rowSet v ⟨n, hn⟩) (restSet v (n + 1)) :=
  (Finset.disjoint_biUnion_right _ _ _).mpr fun l hl => rowSet_disjoint v (by
    have h := (Finset.mem_filter.mp hl).2
    intro e
    rw [← e] at h
    exact absurd h (Nat.not_succ_le_self n))

/-- Row `l` of the scratch, as the memref the body builds for it. -/
abbrev rowM (arg8 : Memref sig .tc .vmem S128x512 .f32) (l : ℕ)
    (h : ∀ a, (![l, 0] : Fin 2 → ℕ) a + S1x512.size a ≤ S128x512.size a) : Memref sig .tc .vmem S512 .f32 :=
  (arg8.slice (Rect.unit (s := S128x512) ![l, 0] S1x512.size h) (fun _ => rfl)).squeeze S512 squeezes_S1x512_S512

theorem rowM_set (arg8 : Memref sig .tc .vmem S128x512 .f32) (n : ℕ) (hn : n < 128)
    (h : ∀ a, (![n, 0] : Fin 2 → ℕ) a + S1x512.size a ≤ S128x512.size a) :
    (rowM arg8 n h).view.set = rowSet arg8.view ⟨n, hn⟩ := by
  rw [Memref.set_view_squeeze]; rfl

theorem restStart (c : Dev nD) (arg8 : Memref sig .tc .vmem S128x512 .f32) (f : Buf (Elt F) (arg8.view.loc (c : Thread nD τ))) :
    (arg8.view.loc (c : Thread nD τ) ↦[arg8.view.set]{fullShare} f : sProp 𝕄)
      ⊢ (arg8.view.loc (c : Thread nD τ) ↦[restSet arg8.view 0]{fullShare} f) := by
  rw [restSet_zero]

theorem restEnd (c : Dev nD) (arg8 : Memref sig .tc .vmem S128x512 .f32) (f : Buf (Elt F) (arg8.view.loc (c : Thread nD τ))) :
    (arg8.view.loc (c : Thread nD τ) ↦[restSet arg8.view 0]{fullShare} f : sProp 𝕄)
      ⊢ (arg8.view.loc (c : Thread nD τ) ↦[arg8.view.set]{fullShare} f) := by
  rw [restSet_zero]

/-- Nothing is left after the last row, so what is held of nothing may be restated at any contents. -/
theorem restEmpty (c : Dev nD) (arg8 : Memref sig .tc .vmem S128x512 .f32) (f g : Buf (Elt F) (arg8.view.loc (c : Thread nD τ))) :
    (arg8.view.loc (c : Thread nD τ) ↦[restSet arg8.view 128]{fullShare} f : sProp 𝕄)
      ⊢ (arg8.view.loc (c : Thread nD τ) ↦[restSet arg8.view 128]{fullShare} g) := by
  rw [restSet_last, pointsTo_empty, pointsTo_empty]

/-- Row `n` split off what rows `n` and later cover. -/
theorem rowPeel (c : Dev nD) (arg8 : Memref sig .tc .vmem S128x512 .f32) (f : Buf (Elt F) (arg8.view.loc (c : Thread nD τ)))
    (n : ℕ) (hn : n < 128) (h : ∀ a, (![n, 0] : Fin 2 → ℕ) a + S1x512.size a ≤ S128x512.size a) :
    (arg8.view.loc (c : Thread nD τ) ↦[restSet arg8.view n]{fullShare} f : sProp 𝕄)
      ⊢ iprop(((rowM arg8 n h).view.loc (c : Thread nD τ) ↦[(rowM arg8 n h).view.set]{fullShare} f)
          ∗ (arg8.view.loc (c : Thread nD τ) ↦[restSet arg8.view (n + 1)]{fullShare} f)) := by
  rw [restSet_succ _ n hn, rowM_set arg8 n hn h]
  exact (pointsTo_union (disjoint_rowSet_restSet _ n hn)).1

/-- Row `n` put back. -/
theorem rowJoin (c : Dev nD) (arg8 : Memref sig .tc .vmem S128x512 .f32) (g : Buf (Elt F) (arg8.view.loc (c : Thread nD τ)))
    (n : ℕ) (hn : n < 128) (h : ∀ a, (![n, 0] : Fin 2 → ℕ) a + S1x512.size a ≤ S128x512.size a) :
    ((rowM arg8 n h).view.loc (c : Thread nD τ) ↦[(rowM arg8 n h).view.set]{fullShare} g : sProp 𝕄)
      ⊢ iprop((arg8.view.loc (c : Thread nD τ) ↦[restSet arg8.view (n + 1)]{fullShare} g)
          -∗ (arg8.view.loc (c : Thread nD τ) ↦[restSet arg8.view n]{fullShare} g)) := by
  rw [restSet_succ _ n hn, rowM_set arg8 n hn h]
  exact BI.wand_intro (pointsTo_union (disjoint_rowSet_restSet _ n hn)).2

/-! ## What the scratch holds after the copies -/

/-- The scratch's contents after the 127 copies over contents `d0`: row `l < 127` is the feature row that the head word
    of `(i, l)` selects, row 127 is `d0`'s. -/
def scratchAfter (i : grid0.Coords) (xt : S8x127.Idx → BitVec 32) (fh : S8x128x128x512.Idx → Elt F .f32)
    (hw : ∀ j : S8x127.Idx, (xt j).toNat < 128) (d0 : Vec F S128x512 .f32) : Vec F S128x512 .f32 := fun x =>
  if hx : (x 0).val < 127 then
    fh (ValueIdx.ix4 (⟨(i 0).val, (i 0).isLt⟩ : Fin 8) (⟨(x 0).val + 1, by omega⟩ : Fin 128)
      (⟨(headWord xt i ⟨(x 0).val, hx⟩).toNat, hw _⟩ : Fin 128) (⟨(x 1).val, (x 1).isLt⟩ : Fin 512))
  else d0 x

theorem rowsOK_scratchAfter (i : grid0.Coords) (xt : S8x127.Idx → BitVec 32) (fh : S8x128x128x512.Idx → Elt F .f32)
    (hw : ∀ j : S8x127.Idx, (xt j).toNat < 128) (d0 : Vec F S128x512 .f32) :
    RowsOK i xt fh (scratchAfter i xt fh hw d0) := by
  intro l hl h
  have hx : ((ValueIdx.ix2 (⟨l.val, by omega⟩ : Fin 128) h : S128x512.Idx) 0).val < 127 := l.isLt
  unfold scratchAfter
  rw [dif_pos hx]

/-- The word the body reads for position `n` is the table's head word there. -/
theorem word_eq (c : Dev nD) (i : grid0.Coords) (xt : Buf (Elt F) (tbM.view.loc (c : Thread nD τ))) (n : ℕ) (hn : n < 127)
    (inbT : ∀ a, (![(Scalar.indexCast (BitVec.ofNat 32 (i 0).val)).toNat, n] : Fin 2 → ℕ) a + S1x1.size a ≤ S8x127.size a)
    (x : (Rect.unit (s := S8x127) ![(Scalar.indexCast (BitVec.ofNat 32 (i 0).val)).toNat, n] S1x1.size inbT).toLoadRect.shape.Idx) :
    tbM.view.readAt (Elt F) (Rect.unit (s := S8x127) ![(Scalar.indexCast (BitVec.ofNat 32 (i 0).val)).toNat, n] S1x1.size inbT).toLoadRect xt x
      = headWord (xt : S8x127.Idx → BitVec 32) i ⟨n, hn⟩ := by
  have hi : (i 0).val < 8 := (i 0).isLt
  have h0 : (BitVec.ofNat 32 (i 0).val).toNat = (i 0).val := by
    rw [BitVec.toNat_ofNat]; exact Nat.mod_eq_of_lt (by omega)
  rw [View.readAt_apply]
  show (xt : S8x127.Idx → BitVec 32) _ = (xt : S8x127.Idx → BitVec 32) _
  congr 1
  funext a
  apply Fin.ext
  match a with
  | ⟨0, h0⟩ =>
    have hx : (x ⟨0, h0⟩).val < 1 := (x ⟨0, h0⟩).isLt
    show (BitVec.ofNat 32 (i 0).val).toNat + 1 * (x ⟨0, h0⟩).val = (i 0).val
    omega
  | ⟨1, h1⟩ =>
    have hx : (x ⟨1, h1⟩).val < 1 := (x ⟨1, h1⟩).isLt
    show n + 1 * (x ⟨1, h1⟩).val = n
    omega

/-- An index of a row's own shape, matched with the row's `[1, 512]` rectangle, is column `y 0` of its one row. -/
theorem reshape_row (hn : S512.numel = S1x512.numel) (y : S512.Idx) :
    Shape.reshapeEquiv hn y
      = (ValueIdx.ix2 (⟨0, Nat.one_pos⟩ : Fin 1) (⟨(y 0).val, (y 0).isLt⟩ : Fin 512) : S1x512.Idx) :=
  Shape.reshapeEquiv_eq_of_rowMajor hn
    ((Shape.rowMajor_val_two (d := ![1, 512]) _).trans
      ((show 0 * 512 + (y 0).val = (y 0).val by omega).trans (Shape.rowMajor_val_one (d := ![512]) y).symm))

/-- The same for the feature array's `[1, 1, 1, 512]` rectangle. -/
theorem reshape_src (hn : S512.numel = S1x1x1x512.numel) (y : S512.Idx) :
    Shape.reshapeEquiv hn y
      = (ValueIdx.ix4 (⟨0, Nat.one_pos⟩ : Fin 1) (⟨0, Nat.one_pos⟩ : Fin 1) (⟨0, Nat.one_pos⟩ : Fin 1)
          (⟨(y 0).val, (y 0).isLt⟩ : Fin 512) : S1x1x1x512.Idx) :=
  Shape.reshapeEquiv_eq_of_rowMajor hn
    ((Shape.rowMajor_val_four (d := ![1, 1, 1, 512]) _).trans
      ((show ((0 * 1 + 0) * 1 + 0) * 512 + (y 0).val = (y 0).val by omega).trans
        (Shape.rowMajor_val_one (d := ![512]) y).symm))

/-- Reading row `n`'s memref is reading the scratch at row `n`. -/
theorem rowM_read (arg8 : Memref sig .tc .vmem S128x512 .f32) (n : ℕ) (hn : n < 128)
    (h : ∀ a, (![n, 0] : Fin 2 → ℕ) a + S1x512.size a ≤ S128x512.size a) (g : arg8.view.ty.Contents (Elt F)) (y : S512.Idx) :
    (rowM arg8 n h).view.read (Elt F) g y
      = arg8.view.read (Elt F) g (ValueIdx.ix2 (⟨n, hn⟩ : Fin 128) (⟨(y 0).val, (y 0).isLt⟩ : Fin 512)) := by
  show arg8.view.read (Elt F) g ((Rect.unit (s := S128x512) ![n, 0] S1x512.size h).emb (Shape.reshapeEquiv _ y)) = _
  rw [reshape_row]
  congr 1
  funext a
  apply Fin.ext
  match a with
  | ⟨0, _⟩ => show n + 1 * 0 = n; omega
  | ⟨1, _⟩ => show 0 + 1 * (y 0).val = (y 0).val; omega

/-- Contents that read the same through row `n`'s memref agree on the row's elements. -/
theorem rowM_ext (arg8 : Memref sig .tc .vmem S128x512 .f32) (n : ℕ)
    (h : ∀ a, (![n, 0] : Fin 2 → ℕ) a + S1x512.size a ≤ S128x512.size a) (g g' : arg8.view.ty.Contents (Elt F))
    (hr : ∀ y, (rowM arg8 n h).view.read (Elt F) g y = (rowM arg8 n h).view.read (Elt F) g' y) :
    ∀ j ∈ (rowM arg8 n h).view.set, g j = g' j := by
  intro j hj
  obtain ⟨y, -, rfl⟩ := Finset.mem_map.mp hj
  have := hr y
  rw [View.read_apply, View.read_apply] at this
  exact (cast_bijective _).1 this

/-- A row the copy for position `n` has landed in holds row `n` of `scratchAfter`: the copy delivers the feature
    array read at batch `i`, position `n + 1`, the head the word read for `(i, n)` names. -/
theorem rowLanded (c : Dev nD) (i : grid0.Coords) (xt : Buf (Elt F) (tbM.view.loc (c : Thread nD τ)))
    (fh : Buf (Elt F) (hbM.view.loc (c : Thread nD τ)))
    (hw : ∀ j : S8x127.Idx, ((xt : S8x127.Idx → BitVec 32) j).toNat < 128)
    (arg8 : Memref sig .tc .vmem S128x512 .f32) (harg8 : arg8.IsWhole) (f0 : Buf (Elt F) (arg8.view.loc (c : Thread nD τ)))
    (n : ℕ) (hn : n < 127) (h : ∀ a, (![n, 0] : Fin 2 → ℕ) a + S1x512.size a ≤ S128x512.size a)
    (inbT : ∀ a, (![(Scalar.indexCast (BitVec.ofNat 32 (i 0).val)).toNat, n] : Fin 2 → ℕ) a + S1x1.size a ≤ S8x127.size a)
    (x : (Rect.unit (s := S8x127) ![(Scalar.indexCast (BitVec.ofNat 32 (i 0).val)).toNat, n] S1x1.size inbT).toLoadRect.shape.Idx)
    (inbH : ∀ a, (![(BitVec.ofNat 32 (i 0).val).toNat, n + 1,
        (tbM.view.readAt (Elt F) (Rect.unit (s := S8x127) ![(Scalar.indexCast (BitVec.ofNat 32 (i 0).val)).toNat, n] S1x1.size inbT).toLoadRect xt x : BitVec 32).toNat,
        0] : Fin 4 → ℕ) a + S1x1x1x512.size a ≤ S8x128x128x512.size a)
    (w : S512.Idx → Elt F .f32)
    (hwEq : w = ReadAs.same.apply (View.read (Elt F)
            ((hbM.slice (Rect.unit (s := S8x128x128x512) ![(BitVec.ofNat 32 (i 0).val).toNat, n + 1,
                (tbM.view.readAt (Elt F) (Rect.unit (s := S8x127) ![(Scalar.indexCast (BitVec.ofNat 32 (i 0).val)).toNat, n] S1x1.size inbT).toLoadRect xt x : BitVec 32).toNat,
                0] S1x1x1x512.size inbH) (fun _ => rfl)).squeeze S512 squeezes_S1x1x1x512_S512).view fh)) :
    ((rowM arg8 n h).view.loc (c : Thread nD τ) ↦[(rowM arg8 n h).view.set]{fullShare}
        (rowM arg8 n h).view.writes (Elt F) f0 [⟨Rect.whole S512, w⟩] : sProp 𝕄)
      ⊢ ((rowM arg8 n h).view.loc (c : Thread nD τ) ↦[(rowM arg8 n h).view.set]{fullShare}
          harg8.unread (scratchAfter i (xt : S8x127.Idx → BitVec 32) (fh : S8x128x128x512.Idx → Elt F .f32) hw (arg8.view.read (Elt F) f0))) := by
  subst hwEq
  have hi : (i 0).val < 8 := (i 0).isLt
  have h0 : (BitVec.ofNat 32 (i 0).val).toNat = (i 0).val := by
    rw [BitVec.toNat_ofNat]; exact Nat.mod_eq_of_lt (by omega)
  refine Entails.of_eq (pointsTo_congr (rowM_ext arg8 n h _ _ fun y => ?_))
  have hL := View.read_writes_cons_emb (rowM arg8 n h).view f0 (Rect.whole S512)
    (ReadAs.same.apply (View.read (Elt F)
            ((hbM.slice (Rect.unit (s := S8x128x128x512) ![(BitVec.ofNat 32 (i 0).val).toNat, n + 1,
                (tbM.view.readAt (Elt F) (Rect.unit (s := S8x127) ![(Scalar.indexCast (BitVec.ofNat 32 (i 0).val)).toNat, n] S1x1.size inbT).toLoadRect xt x : BitVec 32).toNat,
                0] S1x1x1x512.size inbH) (fun _ => rfl)).squeeze S512 squeezes_S1x1x1x512_S512).view fh)) [] y
  rw [Rect.emb_whole_apply] at hL
  rw [hL, rowM_read arg8 n (by omega) h, harg8.read_unread]
  have hx : ((ValueIdx.ix2 (⟨n, by omega⟩ : Fin 128) (⟨(y 0).val, (y 0).isLt⟩ : Fin 512) : S128x512.Idx) 0).val < 127 := hn
  unfold scratchAfter
  rw [dif_pos hx]
  show (fh : S8x128x128x512.Idx → Elt F .f32) ((Rect.unit (s := S8x128x128x512) _ S1x1x1x512.size inbH).emb (Shape.reshapeEquiv _ y)) = _
  rw [reshape_src]
  congr 1
  funext a
  apply Fin.ext
  match a with
  | ⟨0, _⟩ => show (BitVec.ofNat 32 (i 0).val).toNat + 1 * 0 = (i 0).val; omega
  | ⟨1, _⟩ => show n + 1 + 1 * 0 = n + 1; omega
  | ⟨2, _⟩ =>
    show (tbM.view.readAt (Elt F) (Rect.unit (s := S8x127) ![(Scalar.indexCast (BitVec.ofNat 32 (i 0).val)).toNat, n] S1x1.size inbT).toLoadRect xt x : BitVec 32).toNat + 1 * 0
      = (headWord (xt : S8x127.Idx → BitVec 32) i ⟨n, hn⟩).toNat
    rw [word_eq c i xt n hn inbT x]; omega
  | ⟨3, _⟩ => show 0 + 1 * (y 0).val = (y 0).val; omega

/-- The last row, which no copy touches, holds its row of `scratchAfter` too. -/
theorem rowKept (c : Dev nD) (i : grid0.Coords) (xt : Buf (Elt F) (tbM.view.loc (c : Thread nD τ)))
    (fh : Buf (Elt F) (hbM.view.loc (c : Thread nD τ)))
    (hw : ∀ j : S8x127.Idx, ((xt : S8x127.Idx → BitVec 32) j).toNat < 128)
    (arg8 : Memref sig .tc .vmem S128x512 .f32) (harg8 : arg8.IsWhole) (f0 : Buf (Elt F) (arg8.view.loc (c : Thread nD τ)))
    (h : ∀ a, (![127, 0] : Fin 2 → ℕ) a + S1x512.size a ≤ S128x512.size a) :
    ((rowM arg8 127 h).view.loc (c : Thread nD τ) ↦[(rowM arg8 127 h).view.set]{fullShare} f0 : sProp 𝕄)
      ⊢ ((rowM arg8 127 h).view.loc (c : Thread nD τ) ↦[(rowM arg8 127 h).view.set]{fullShare}
          harg8.unread (scratchAfter i (xt : S8x127.Idx → BitVec 32) (fh : S8x128x128x512.Idx → Elt F .f32) hw (arg8.view.read (Elt F) f0))) := by
  refine Entails.of_eq (pointsTo_congr (rowM_ext arg8 127 h _ _ fun y => ?_))
  rw [rowM_read arg8 127 (by omega) h, rowM_read arg8 127 (by omega) h, harg8.read_unread]
  have hx : ¬ ((ValueIdx.ix2 (⟨127, by omega⟩ : Fin 128) (⟨(y 0).val, (y 0).isLt⟩ : Fin 512) : S128x512.Idx) 0).val < 127 :=
    Nat.lt_irrefl 127
  unfold scratchAfter
  rw [dif_neg hx]

/-! ## Whole-shape loads and stores of a whole memref -/

/-- A load of a whole memref through the whole-shape rectangle at zero offsets reads what the memref holds. -/
theorem readAt_unit_zero_unread {κ : Kind} {sp : Space} {S : Shape} {e : EltTy} {m : Memref sig κ sp S e} (hm : m.IsWhole)
    (X : S.Idx → Elt F e) {off : Fin S.rank → ℕ} (h : off = fun _ => 0) (inb : ∀ a, off a + S.size a ≤ S.size a) :
    m.view.readAt (Elt F) (Rect.unit off S.size inb).toLoadRect (hm.unread X) = X := by
  subst h
  funext x
  rw [hm.readAt_unread]
  exact congrArg X (Rect.emb_whole_apply S x)

/-- One store through that rectangle leaves its payload to be read. -/
theorem read_writes_unit_zero {κ : Kind} {sp : Space} {S : Shape} {e : EltTy} (v : View sig κ sp S e) (f : v.ty.Contents (Elt F))
    {off : Fin S.rank → ℕ} (h : off = fun _ => 0) (inb : ∀ a, off a + S.size a ≤ S.size a) (w : S.Idx → Elt F e) :
    v.read (Elt F) (v.writes (Elt F) f [⟨Rect.unit off S.size inb, w⟩]) = w := by
  subst h
  exact View.read_writes_whole v f w

theorem zeros1 : (![0] : Fin 1 → ℕ) = fun _ => 0 := by
  funext a; match a with | ⟨0, _⟩ => rfl
theorem zeros2 : (![0, 0] : Fin 2 → ℕ) = fun _ => 0 := by
  funext a; match a with | ⟨0, _⟩ => rfl | ⟨1, _⟩ => rfl
theorem zeros3 : (![0, 0, 0] : Fin 3 → ℕ) = fun _ => 0 := by
  funext a; match a with | ⟨0, _⟩ => rfl | ⟨1, _⟩ => rfl | ⟨2, _⟩ => rfl

set_option maxHeartbeats 9696000 in
/-- The kernel body at one grid point.  Given the four weight blocks, the table (held at half a share), the
    32 transfer cells at zero, the feature array whole, and every head word of the table below 128 (`hw`): the
    body runs to the continuation with everything handed back as it was, the scratch at contents `d8` whose
    first 127 rows are the selected feature rows (`RowsOK`), and the output block at the perceptron of `d8`. -/
theorem body_run (c : Dev nD) (i : grid0.Coords)
    (arg3 : Memref sig .tc .vmem S512x512 .f32) (harg3 : arg3.IsWhole) (arg4 : Memref sig .tc .vmem S512 .f32) (harg4 : arg4.IsWhole)
    (arg5 : Memref sig .tc .vmem S512x50 .f32) (harg5 : arg5.IsWhole) (arg6 : Memref sig .tc .vmem S50 .f32) (harg6 : arg6.IsWhole)
    (arg7 : Memref sig .tc .vmem S1x127x50 .f32) (harg7 : arg7.IsWhole) (arg8 : Memref sig .tc .vmem S128x512 .f32) (harg8 : arg8.IsWhole)
    (x0 : Vec F S512x512 .f32) (x1 : Vec F S512 .f32) (x2 : Vec F S512x50 .f32) (x3 : Vec F S50 .f32)
    (xt : Buf (Elt F) (tbM.view.loc (c : Thread nD τ))) (fh : Buf (Elt F) (hbM.view.loc (c : Thread nD τ)))
    (hw : ∀ j : S8x127.Idx, ((xt : S8x127.Idx → BitVec 32) j).toNat < 128)
    (W : Waits sig Unit) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ (∃ d, owns (c : Thread nD τ) arg7 fullShare d) ∗ (∃ d, owns (c : Thread nD τ) arg8 fullShare d)
        ∗ (tbM.view.loc (c : Thread nD τ) ↦{fullShare.right} xt) ∗ semsZero (F := F) c
        ∗ (hbM.view.loc (c : Thread nD τ) ↦{fullShare} fh) ∗ owes (c : Thread nD τ) 0 W
        ∗ (iprop(owns (c : Thread nD τ) arg3 fullShare x0 ∗ owns (c : Thread nD τ) arg4 fullShare x1 ∗ owns (c : Thread nD τ) arg5 fullShare x2
            ∗ owns (c : Thread nD τ) arg6 fullShare x3
            ∗ (∃ d8 : Vec F S128x512 .f32, ⌜RowsOK i (xt : S8x127.Idx → BitVec 32) (fh : S8x128x128x512.Idx → Elt F .f32) d8⌝
                ∗ owns (c : Thread nD τ) arg7 fullShare (k0_pay1 d8 x0 x1 x2 x3) ∗ owns (c : Thread nD τ) arg8 fullShare d8)
            ∗ (tbM.view.loc (c : Thread nD τ) ↦{fullShare.right} xt) ∗ semsZero (F := F) c
            ∗ (hbM.view.loc (c : Thread nD τ) ↦{fullShare} fh) ∗ (∃ W', owes (c : Thread nD τ) 0 W')) -∗ K ⟨⟩))
      ⊢ wp frame (wpE (defs₀ (F := F)) Variants.none c none) Set.univ
          (cc0__gather_mlp_kernel i tbM (Memref.isWhole_whole _) hbM (Memref.isWhole_whole _) arg3 harg3 arg4 harg4 arg5 harg5 arg6 harg6 arg7 harg7 arg8 harg8 cc0_scratch1) K := by
  rw [cc0__gather_mlp_kernel_eq_skeleton]; unfold cc0__gather_mlp_kernel_skel
  simp (config := { proj := false }) only [k0_part63_eq_skeleton, k0_part62_eq_skeleton, k0_part61_eq_skeleton, k0_part60_eq_skeleton, k0_part59_eq_skeleton, k0_part58_eq_skeleton, k0_part57_eq_skeleton, k0_part56_eq_skeleton, k0_part55_eq_skeleton, k0_part54_eq_skeleton, k0_part53_eq_skeleton, k0_part52_eq_skeleton, k0_part51_eq_skeleton, k0_part50_eq_skeleton, k0_part49_eq_skeleton, k0_part48_eq_skeleton, k0_part47_eq_skeleton, k0_part46_eq_skeleton, k0_part45_eq_skeleton, k0_part44_eq_skeleton, k0_part43_eq_skeleton, k0_part42_eq_skeleton, k0_part41_eq_skeleton, k0_part40_eq_skeleton, k0_part39_eq_skeleton, k0_part38_eq_skeleton, k0_part37_eq_skeleton, k0_part36_eq_skeleton, k0_part35_eq_skeleton, k0_part34_eq_skeleton, k0_part33_eq_skeleton, k0_part32_eq_skeleton, k0_part31_eq_skeleton, k0_part30_eq_skeleton, k0_part29_eq_skeleton, k0_part28_eq_skeleton, k0_part27_eq_skeleton, k0_part26_eq_skeleton, k0_part25_eq_skeleton, k0_part24_eq_skeleton, k0_part23_eq_skeleton, k0_part22_eq_skeleton, k0_part21_eq_skeleton, k0_part20_eq_skeleton, k0_part19_eq_skeleton, k0_part18_eq_skeleton, k0_part17_eq_skeleton, k0_part16_eq_skeleton, k0_part15_eq_skeleton, k0_part14_eq_skeleton, k0_part13_eq_skeleton, k0_part12_eq_skeleton, k0_part11_eq_skeleton, k0_part10_eq_skeleton, k0_part9_eq_skeleton, k0_part8_eq_skeleton, k0_part7_eq_skeleton, k0_part6_eq_skeleton, k0_part5_eq_skeleton, k0_part4_eq_skeleton, k0_part3_eq_skeleton, k0_part2_eq_skeleton, k0_part1_eq_skeleton]
  unfold owns semsZero
  iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, HT0, ⟨Hq0, Hq1, Hq2, Hq3, Hq4, Hq5, Hq6, Hq7, Hq8, Hq9, Hq10, Hq11, Hq12, Hq13, Hq14, Hq15, Hq16, Hq17, Hq18, Hq19, Hq20, Hq21, Hq22, Hq23, Hq24, Hq25, Hq26, Hq27, Hq28, Hq29, Hq30, Hq31⟩, Hh0, HW, Hk⟩
  obtain rfl := harg3.eq_unread hf0; obtain rfl := harg4.eq_unread hf1; obtain rfl := harg5.eq_unread hf2; obtain rfl := harg6.eq_unread hf3
  -- the feature array as 38 read tokens, the scratch as its 128 rows
  ihave Hh0 := tokStart _ $$ Hh0
  for_each_nat 0 38 "(ihave Hs := tokStep _ % $$ Hh0; icases Hs with ⟨Hh0, Ht%⟩)"
  ihave HS0 := restStart c arg8 fs0 $$ HS0
  for_each_nat 0 128 "(ihave Hs := rowPeel c arg8 fs0 % (by decide) (by decide) $$ HS0; icases Hs with ⟨HR%, HS0⟩)"
  -- the 127 copies and their waits
  sl_exec (disch := exact chk_of_lt _ _ (by decide) _ (word_lt c xt hw _ _))
  -- each row at its row of `scratchAfter`, the rows put back, the tokens put back
  for_each_nat 0 127 "ihave HR% := rowLanded c i xt fh hw arg8 harg8 fs0 % (by decide) _ _ _ _ (body_run.sl.dma%+ c i xt fh hw) rfl $$ HR%"
  ihave HR127 := rowKept c i xt fh hw arg8 harg8 fs0 _ $$ HR127
  ihave HS0 := restEmpty c arg8 fs0 (harg8.unread (scratchAfter i (xt : S8x127.Idx → BitVec 32) (fh : S8x128x128x512.Idx → Elt F .f32) hw (arg8.view.read (Elt F) fs0))) $$ HS0
  for_each_nat 0 128 down "ihave HS0 := rowJoin c arg8 _ % (by decide) _ $$ HR% HS0"
  ihave HS0 := restEnd c arg8 _ $$ HS0
  for_each_nat 0 38 down "ihave Hh0 := tokJoin _ % $$ Hh0 Ht%"
  ihave Hh0 := tokEnd _ $$ Hh0
  -- the loads of the scratch and the weights, and the store of the result
  sl_exec
  sl_step
  iapply Hk
  isplitl [H0]
  · iexists _; isplitr
    · ipureintro; exact hf0
    · iexact H0
  isplitl [H1]
  · iexists _; isplitr
    · ipureintro; exact hf1
    · iexact H1
  isplitl [H2]
  · iexists _; isplitr
    · ipureintro; exact hf2
    · iexact H2
  isplitl [H3]
  · iexists _; isplitr
    · ipureintro; exact hf3
    · iexact H3
  isplitl [H4 HS0]
  · iexists scratchAfter i (xt : S8x127.Idx → BitVec 32) (fh : S8x128x128x512.Idx → Elt F .f32) hw (arg8.view.read (Elt F) fs0)
    isplitr
    · ipureintro; exact rowsOK_scratchAfter _ _ _ _ _
    isplitl [H4]
    · iexists _; isplitr; swap
      · iexact H4
      · ipureintro
        rw [read_writes_unit_zero _ _ zeros3, readAt_unit_zero_unread harg8 _ zeros2, readAt_unit_zero_unread harg3 _ zeros2,
          readAt_unit_zero_unread harg4 _ zeros1, readAt_unit_zero_unread harg5 _ zeros2, readAt_unit_zero_unread harg6 _ zeros1]
    · iexists _; isplitr
      · ipureintro; exact harg8.read_unread _
      · iexact HS0
  isplitl [HT0]
  · iexact HT0
  isplitl [Hq0 Hq1 Hq2 Hq3 Hq4 Hq5 Hq6 Hq7 Hq8 Hq9 Hq10 Hq11 Hq12 Hq13 Hq14 Hq15 Hq16 Hq17 Hq18 Hq19 Hq20 Hq21 Hq22 Hq23 Hq24 Hq25 Hq26 Hq27 Hq28 Hq29 Hq30 Hq31]
  · for_each_nat 0 31 "(isplitl [Hq%]; iexact Hq%)"
    iexact Hq31
  isplitl [Hh0]
  · iexact Hh0
  iexists _
  iexact HW

end Cert.KernelIdeal.Hand

end
-- ==== Proof.PayIdeal.lean ====
/-
  The kernel's arithmetic at one output index, over the extended reals.  The payload is the first 127 rows of
  tanh (g · w1t + b1) · w2t + b2, stored with a leading unit axis.  Read at (0, l, k) it is

    b2[k] + Σ_d tanh (b1[d] + Σ_h g[l, h] · w1t[h, d]) · w2t[d, k],

  the specification's output row of row l of g against the transposes of w1t and w2t: rows 0..126 of the
  result never read row 127 of g.
-/
import proofs.«414620_j69801808495255_1_alg».proof.Proof.Gen.KernelIdeal.Skeleton
import proofs.«414620_j69801808495255_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.PayIdeal

open Idealize.ShloMosaic Idealize.ShloMosaic.ValueIdx Cert.KernelIdeal Cert.KernelIdeal.Gen

/-! ## The operand indices of the two products, axis by axis -/

theorem lhs_hid_0 (i : S128x512.Idx) (q : dot_S128x512_S512x512_S128x512_1_0_0_1_n_n.contr.Idx) :
    (dot_S128x512_S512x512_S128x512_1_0_0_1_n_n.lhsIdx i q 0).val = (i 0).val := by
  unfold DotDims.lhsIdx
  rw [dif_neg (show ¬(0 : Fin S128x512.rank) ∈ dot_S128x512_S512x512_S128x512_1_0_0_1_n_n.lhsBatch by decide), dif_pos (show (0 : Fin S128x512.rank) ∈ dot_S128x512_S512x512_S128x512_1_0_0_1_n_n.lhsNonContracting by decide)]
  rfl
theorem lhs_hid_1 (i : S128x512.Idx) (q : dot_S128x512_S512x512_S128x512_1_0_0_1_n_n.contr.Idx) :
    (dot_S128x512_S512x512_S128x512_1_0_0_1_n_n.lhsIdx i q 1).val = (q ⟨0, by decide⟩).val :=
  dot_S128x512_S512x512_S128x512_1_0_0_1_n_n.lhsIdx_val_of_single rfl i q
theorem rhs_hid_0 (i : S128x512.Idx) (q : dot_S128x512_S512x512_S128x512_1_0_0_1_n_n.contr.Idx) :
    (dot_S128x512_S512x512_S128x512_1_0_0_1_n_n.rhsIdx i q 0).val = (q ⟨0, by decide⟩).val :=
  dot_S128x512_S512x512_S128x512_1_0_0_1_n_n.rhsIdx_val_of_single rfl i q
theorem rhs_hid_1 (i : S128x512.Idx) (q : dot_S128x512_S512x512_S128x512_1_0_0_1_n_n.contr.Idx) :
    (dot_S128x512_S512x512_S128x512_1_0_0_1_n_n.rhsIdx i q 1).val = (i 1).val := by
  unfold DotDims.rhsIdx
  rw [dif_neg (show ¬(1 : Fin S512x512.rank) ∈ dot_S128x512_S512x512_S128x512_1_0_0_1_n_n.rhsBatch by decide), dif_pos (show (1 : Fin S512x512.rank) ∈ dot_S128x512_S512x512_S128x512_1_0_0_1_n_n.rhsNonContracting by decide)]
  rfl

theorem lhs_out_0 (i : S128x50.Idx) (q : dot_S128x512_S512x50_S128x50_1_0_0_1_n_n.contr.Idx) :
    (dot_S128x512_S512x50_S128x50_1_0_0_1_n_n.lhsIdx i q 0).val = (i 0).val := by
  unfold DotDims.lhsIdx
  rw [dif_neg (show ¬(0 : Fin S128x512.rank) ∈ dot_S128x512_S512x50_S128x50_1_0_0_1_n_n.lhsBatch by decide), dif_pos (show (0 : Fin S128x512.rank) ∈ dot_S128x512_S512x50_S128x50_1_0_0_1_n_n.lhsNonContracting by decide)]
  rfl
theorem lhs_out_1 (i : S128x50.Idx) (q : dot_S128x512_S512x50_S128x50_1_0_0_1_n_n.contr.Idx) :
    (dot_S128x512_S512x50_S128x50_1_0_0_1_n_n.lhsIdx i q 1).val = (q ⟨0, by decide⟩).val :=
  dot_S128x512_S512x50_S128x50_1_0_0_1_n_n.lhsIdx_val_of_single rfl i q
theorem rhs_out_0 (i : S128x50.Idx) (q : dot_S128x512_S512x50_S128x50_1_0_0_1_n_n.contr.Idx) :
    (dot_S128x512_S512x50_S128x50_1_0_0_1_n_n.rhsIdx i q 0).val = (q ⟨0, by decide⟩).val :=
  dot_S128x512_S512x50_S128x50_1_0_0_1_n_n.rhsIdx_val_of_single rfl i q
theorem rhs_out_1 (i : S128x50.Idx) (q : dot_S128x512_S512x50_S128x50_1_0_0_1_n_n.contr.Idx) :
    (dot_S128x512_S512x50_S128x50_1_0_0_1_n_n.rhsIdx i q 1).val = (i 1).val := by
  unfold DotDims.rhsIdx
  rw [dif_neg (show ¬(1 : Fin S512x50.rank) ∈ dot_S128x512_S512x50_S128x50_1_0_0_1_n_n.rhsBatch by decide), dif_pos (show (1 : Fin S512x50.rank) ∈ dot_S128x512_S512x50_S128x50_1_0_0_1_n_n.rhsNonContracting by decide)]
  rfl

/-! ## The two products at an index -/

/-- The first product into a zero accumulator: entry (p, d) is Σ_h x[p, h] · w[h, d]. -/
theorem mm_hid_apply (x : FVec Ideal S128x512 .f32) (w : FVec Ideal S512x512 .f32) (p : Fin 128) (d : Fin 512) :
    matmul dot_S128x512_S512x512_S128x512_1_0_0_1_n_n none x w (constant (F := Ideal) S128x512 .f32 0x00000000#32) (ix2 p d)
      = ∑ h : Fin 512, x (ix2 p h) * w (ix2 h d) := by
  simp only [matmul]
  rw [Ideal.matmul_constant_zero_apply, ← Equiv.sum_comp (contrEquiv1 dot_S128x512_S512x512_S128x512_1_0_0_1_n_n 512 rfl rfl).symm]
  refine Finset.sum_congr rfl fun h _ => ?_
  have hk := contrEquiv1_symm_val dot_S128x512_S512x512_S128x512_1_0_0_1_n_n 512 rfl rfl h
  have el : dot_S128x512_S512x512_S128x512_1_0_0_1_n_n.lhsIdx (ix2 p d) ((contrEquiv1 dot_S128x512_S512x512_S128x512_1_0_0_1_n_n 512 rfl rfl).symm h) = ix2 p h := funext fun a => Fin.ext (by
    match a with
    | ⟨0, _⟩ => exact lhs_hid_0 _ _
    | ⟨1, _⟩ => exact (lhs_hid_1 _ _).trans hk)
  have er : dot_S128x512_S512x512_S128x512_1_0_0_1_n_n.rhsIdx (ix2 p d) ((contrEquiv1 dot_S128x512_S512x512_S128x512_1_0_0_1_n_n 512 rfl rfl).symm h) = ix2 h d := funext fun a => Fin.ext (by
    match a with
    | ⟨0, _⟩ => exact (rhs_hid_0 _ _).trans hk
    | ⟨1, _⟩ => exact rhs_hid_1 _ _)
  rw [el, er]

/-- The second product into a zero accumulator: entry (p, k) is Σ_d y[p, d] · w[d, k]. -/
theorem mm_out_apply (y : FVec Ideal S128x512 .f32) (w : FVec Ideal S512x50 .f32) (p : Fin 128) (k : Fin 50) :
    matmul dot_S128x512_S512x50_S128x50_1_0_0_1_n_n none y w (constant (F := Ideal) S128x50 .f32 0x00000000#32) (ix2 p k)
      = ∑ d : Fin 512, y (ix2 p d) * w (ix2 d k) := by
  simp only [matmul]
  rw [Ideal.matmul_constant_zero_apply, ← Equiv.sum_comp (contrEquiv1 dot_S128x512_S512x50_S128x50_1_0_0_1_n_n 512 rfl rfl).symm]
  refine Finset.sum_congr rfl fun d _ => ?_
  have hk := contrEquiv1_symm_val dot_S128x512_S512x50_S128x50_1_0_0_1_n_n 512 rfl rfl d
  have el : dot_S128x512_S512x50_S128x50_1_0_0_1_n_n.lhsIdx (ix2 p k) ((contrEquiv1 dot_S128x512_S512x50_S128x50_1_0_0_1_n_n 512 rfl rfl).symm d) = ix2 p d := funext fun a => Fin.ext (by
    match a with
    | ⟨0, _⟩ => exact lhs_out_0 _ _
    | ⟨1, _⟩ => exact (lhs_out_1 _ _).trans hk)
  have er : dot_S128x512_S512x50_S128x50_1_0_0_1_n_n.rhsIdx (ix2 p k) ((contrEquiv1 dot_S128x512_S512x50_S128x50_1_0_0_1_n_n 512 rfl rfl).symm d) = ix2 d k := funext fun a => Fin.ext (by
    match a with
    | ⟨0, _⟩ => exact (rhs_out_0 _ _).trans hk
    | ⟨1, _⟩ => exact rhs_out_1 _ _)
  rw [el, er]

/-! ## A bias row repeated over the rows -/

/-- A vector viewed as one row and repeated over 128 rows reads, at (p, c), its entry c. -/
theorem bias_hid_apply (b : FVec Ideal S512 .f32) (p : Fin 128) (c : Fin 512) :
    broadcastTo S128x512 (shapeCast S1x512 b shapeCasts_S512_S1x512) broadcasts_S1x512_S128x512 (ix2 p c) = b (ix1 c) := by
  rw [broadcastTo_1b_ab_apply, shapeCast_a_1a_apply]

theorem bias_out_apply (b : FVec Ideal S50 .f32) (p : Fin 128) (c : Fin 50) :
    broadcastTo S128x50 (shapeCast S1x50 b shapeCasts_S50_S1x50) broadcasts_S1x50_S128x50 (ix2 p c) = b (ix1 c) := by
  rw [broadcastTo_1b_ab_apply, shapeCast_a_1a_apply]

/-! ## The hyperbolic tangent of a vector at an index -/

theorem tanh_apply {s : Shape} (x : FVec Ideal s .f32) (i : s.Idx) : Idealize.ShloMosaic.tanh x i = Ideal.tanh (x i) := rfl

/-! ## The payload at an index -/

/-- The payload at (0, l, k), written out: only row l of g is read. -/
theorem pay_formula (g : Vec Ideal S128x512 .f32) (w1t : Vec Ideal S512x512 .f32) (b1 : Vec Ideal S512 .f32)
    (w2t : Vec Ideal S512x50 .f32) (b2 : Vec Ideal S50 .f32) (l : Fin 127) (k : Fin 50) :
    Cert.KernelIdeal.Gen.k0_pay1 (F := Ideal) g w1t b1 w2t b2 (ix3 (0 : Fin 1) l k)
      = (∑ d : Fin 512, Ideal.tanh ((∑ h : Fin 512, g (ix2 (⟨l.val, by omega⟩ : Fin 128) h) * w1t (ix2 h d)) + b1 (ix1 d))
            * w2t (ix2 d k)) + b2 (ix1 k) := by
  unfold Gen.k0_pay1
  refine (shapeCast_ab_1ab_apply _ _ (0 : Fin 1) l k).trans ?_
  refine (slice2_axis0_apply 0 _ _ l k (⟨l.val, by omega⟩ : Fin 128) (Nat.zero_add _).symm).trans ?_
  rw [addf_apply, bias_out_apply, shapeCast_self w2t, mm_out_apply]
  refine congrArg (· + b2 (ix1 k)) (Finset.sum_congr rfl fun d _ => ?_)
  refine congrArg (· * w2t (ix2 d k)) ?_
  rw [tanh_apply, addf_apply, bias_hid_apply, shapeCast_self w1t, mm_hid_apply]

/-- The payload at (0, l, k) is the specification's output row of row l of g, against w1t and w2t read as the
    transposes they are. -/
theorem pay_apply (g : Vec Ideal S128x512 .f32) (w1t : Vec Ideal S512x512 .f32) (b1 : Vec Ideal S512 .f32)
    (w2t : Vec Ideal S512x50 .f32) (b2 : Vec Ideal S50 .f32) (l : Fin 127) (k : Fin 50) :
    Cert.KernelIdeal.Gen.k0_pay1 (F := Ideal) g w1t b1 w2t b2 (ValueIdx.ix3 (0 : Fin 1) l k)
      = Cert.Spec.outRow (fun h => g (ValueIdx.ix2 (⟨l.val, by omega⟩ : Fin 128) h)) (fun j => w1t (ValueIdx.ix2 (j 1) (j 0))) b1
          (fun j => w2t (ValueIdx.ix2 (j 1) (j 0))) b2 k :=
  (pay_formula g w1t b1 w2t b2 l k).trans rfl

end Cert.KernelIdeal.PayIdeal

end
-- ==== Proof.KI.Value.lean ====
/-
  The idealized kernel program's run with its result named.  At every grid point the body leaves in the output
  window the two-layer perceptron of the feature rows the point's head words select; the windows' blocks are
  the batches, so after the last write-back the result array is the specification's function of the six
  argument arrays, and the arguments are as launched.
-/
import proofs.«414620_j69801808495255_1_alg».proof.Proof.KI.Body
import proofs.«414620_j69801808495255_1_alg».proof.Proof.PayIdeal
import proofs.«414620_j69801808495255_1_alg».proof.Proof.Spec
import Idealize.ShloMosaic.Lib.Pipeline.Value
import Idealize.ShloMosaic.Lib.Pipeline.Frame
import Idealize.ShloMosaic.Lib.Pipeline.Dat
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (Pipeline.UD sig nD τ) ℕ

variable (m : (ℓ : Loc nD τ sig) → Buf (Elt Ideal) ℓ) (ρ : Dev nD → PrngReg)

/-! ## The block each grid point leaves in the output window -/

/-- The batch a grid point works on: its one coordinate. -/
def batchOf (hO : Ok m) (t : Fin (cfgM m hO).N) : Fin 8 :=
  ⟨((cfgM m hO).grid.coords t 0).val, ((cfgM m hO).grid.coords t 0).isLt⟩

/-- The output block of point `t`: entry (0, l, k) is the specification's output row of the feature row that
    batch `t`, position `l` selects, at label `k`. -/
def outBlk (hO : Ok m) (c : Dev nD) (t : Fin (cfgM m hO).N) : S1x127x50.Idx → EReal := fun j =>
  Cert.Spec.outRow
    (Cert.Spec.row (m ((c.tc : Thread nD τ).loc main_arg0)) (m ((c.tc : Thread nD τ).loc main_arg1)) (batchOf m hO t) (j 1))
    (m ((c.tc : Thread nD τ).loc main_arg2)) (m ((c.tc : Thread nD τ).loc main_arg3))
    (m ((c.tc : Thread nD τ).loc main_arg4)) (m ((c.tc : Thread nD τ).loc main_arg5)) (j 2)

/-! ## The pipeline's proof data -/

/-- The proof data of the one pipeline on core `c`: the arrays as the region finds them; after the body at point
    `t` each input's buffer at its block and the output's at `outBlk`; the invariant: the scratch, the generator
    register, the body's own counters at zero, the features at their launch contents, and the table's half;
    nothing owed; full shares. -/
def dats (hO : Ok m) (_ : Fin 1) (c : Dev nD) : Dat τ (Elt Ideal) Unit ℕ (Pipeline.UD sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => outBlk m hO c t
  Φ _ := iprop(Pipeline.ΦD osem spec0 H0 (V m) c ∗ Pipeline.ΦT pre0 (tbl m) c)
  q _ := fullShare
  owed _ := 0

theorem A_eq (hO : Ok m) (c : Dev nD) (w : Fin (cfgM m hO).W) : (dats m hO 0 c).A w = V m c (Pipeline.arrRef spec0 w) := by
  dsimp only [dats]

theorem after_0 (hO : Ok m) (c : Dev nD) (t : Fin (cfgM m hO).N) : (dats m hO 0 c).after 0 t = iblk m hO c 0 t := by dsimp only [dats]; try rfl
theorem after_1 (hO : Ok m) (c : Dev nD) (t : Fin (cfgM m hO).N) : (dats m hO 0 c).after 1 t = iblk m hO c 1 t := by dsimp only [dats]; try rfl
theorem after_2 (hO : Ok m) (c : Dev nD) (t : Fin (cfgM m hO).N) : (dats m hO 0 c).after 2 t = iblk m hO c 2 t := by dsimp only [dats]; try rfl
theorem after_3 (hO : Ok m) (c : Dev nD) (t : Fin (cfgM m hO).N) : (dats m hO 0 c).after 3 t = iblk m hO c 3 t := by dsimp only [dats]; try rfl
theorem after_4 (hO : Ok m) (c : Dev nD) (t : Fin (cfgM m hO).N) : (dats m hO 0 c).after 4 t = outBlk m hO c t := by dsimp only [dats]; try rfl

theorem dbefore_0 (hO : Ok m) (c : Dev nD) (t : Fin (cfgM m hO).N) (d) : (dats m hO 0 c).before 0 t d = iblk m hO c 0 t :=
  before_0 m hO (dats m hO 0 c) (A_eq m hO c 0) (after_0 m hO c) t d
theorem dbefore_1 (hO : Ok m) (c : Dev nD) (t : Fin (cfgM m hO).N) (d) : (dats m hO 0 c).before 1 t d = iblk m hO c 1 t :=
  before_1 m hO (dats m hO 0 c) (A_eq m hO c 1) (after_1 m hO c) t d
theorem dbefore_2 (hO : Ok m) (c : Dev nD) (t : Fin (cfgM m hO).N) (d) : (dats m hO 0 c).before 2 t d = iblk m hO c 2 t :=
  before_2 m hO (dats m hO 0 c) (A_eq m hO c 2) (after_2 m hO c) t d
theorem dbefore_3 (hO : Ok m) (c : Dev nD) (t : Fin (cfgM m hO).N) (d) : (dats m hO 0 c).before 3 t d = iblk m hO c 3 t :=
  before_3 m hO (dats m hO 0 c) (A_eq m hO c 3) (after_3 m hO c) t d

/-! ## The payload at the blocks the body is handed, index by index -/

open Idealize.ShloMosaic.ValueIdx in
/-- Over variables: the payload of scratch contents whose first 127 rows are the feature rows the head words of
    batch `i` select, against weights that are the transposes of `W1` and `W2`, is at (0, l, k) the
    specification's output row of the selected row. The head word is below 128, so reducing it modulo 128
    changes nothing. -/
theorem pay_rows (i : grid0.Coords) (xt : S8x127.Idx → BitVec 32) (fh : S8x128x128x512.Idx → EReal)
    (d8 : Vec Ideal S128x512 .f32) (w1t : Vec Ideal S512x512 .f32) (b1 : Vec Ideal S512 .f32)
    (w2t : Vec Ideal S512x50 .f32) (b2 : Vec Ideal S50 .f32)
    (W1 : Cert.Spec.SW1.Idx → EReal) (W2 : Cert.Spec.SW2.Idx → EReal)
    (hw : ∀ j : S8x127.Idx, (xt j).toNat < 128) (hR : RowsOK (F := Ideal) i xt fh d8)
    (h1 : ∀ p q : Fin 512, w1t (ix2 p q) = W1 (ix2 q p))
    (h2 : ∀ (p : Fin 512) (q : Fin 50), w2t (ix2 p q) = W2 (ix2 q p))
    (l : Fin 127) (k : Fin 50) :
    k0_pay1 (F := Ideal) d8 w1t b1 w2t b2 (ix3 (0 : Fin 1) l k)
      = Cert.Spec.outRow (Cert.Spec.row fh xt (⟨(i 0).val, (i 0).isLt⟩ : Fin 8) l) W1 b1 W2 b2 k := by
  rw [PayIdeal.pay_apply]
  have hrow : (fun h => d8 (ix2 (⟨l.val, by omega⟩ : Fin 128) h))
      = Cert.Spec.row fh xt (⟨(i 0).val, (i 0).isLt⟩ : Fin 8) l := by
    funext h
    rw [hR l (hw _) h]
    unfold Cert.Spec.row
    refine congrArg fh ?_
    have hx : (⟨(headWord xt i l).toNat, hw _⟩ : Fin 128) = Cert.Spec.headIx xt (⟨(i 0).val, (i 0).isLt⟩ : Fin 8) l :=
      Fin.ext (Nat.mod_eq_of_lt (hw _)).symm
    rw [hx]
  have hW1 : (fun j : Cert.Spec.SW1.Idx => w1t (ix2 (j 1) (j 0))) = W1 := by
    funext j; exact (h1 (j 1) (j 0)).trans (congrArg W1 (eq_ix2 j).symm)
  have hW2 : (fun j : Cert.Spec.SW2.Idx => w2t (ix2 (j 1) (j 0))) = W2 := by
    funext j; exact (h2 (j 1) (j 0)).trans (congrArg W2 (eq_ix2 j).symm)
  rw [hrow, hW1, hW2]

open Idealize.ShloMosaic.ValueIdx in
/-- What the body leaves in the output window at point `t`, given that the scratch's first 127 rows are the
    selected feature rows: the block `outBlk`. The weights the body is handed are the host transposes of the
    two weight arguments, the biases the arguments themselves, the table the heads argument. -/
theorem pay_eq_outBlk (hO : Ok m) (c : Dev nD) (t : Fin (cfgM m hO).N)
    (hheads : ∀ (c : Dev nD) (j : S8x127.Idx), (m ((c.tc : Thread nD τ).loc main_arg1) j).toNat < 128)
    (d8 : Vec Ideal S128x512 .f32)
    (hR : RowsOK (F := Ideal) (grid0.coords t) (tbl m 0 : S8x127.Idx → BitVec 32)
      (V m c main_arg0 : S8x128x128x512.Idx → EReal) d8) :
    k0_pay1 (F := Ideal) d8 (iblk m hO c 0 t) (iblk m hO c 1 t) (iblk m hO c 2 t) (iblk m hO c 3 t)
      = outBlk m hO c t := by
  obtain rfl : c = 0 := Subsingleton.elim _ _
  have hw : ∀ j : S8x127.Idx, ((tbl m 0 : S8x127.Idx → BitVec 32) j).toNat < 128 := by
    rw [tbl_eq]; exact hheads 0
  have h1 : ∀ p q : Fin 512, (iblk m hO 0 0 t : S512x512.Idx → EReal) (ix2 p q)
      = (m (((0 : Dev nD).tc : Thread nD τ).loc main_arg2) : S512x512.Idx → EReal) (ix2 q p) := fun p q =>
    (congrFun (iblk_0 m hO 0 t) (ix2 p q)).trans (V_main_v0_apply m 0 p q)
  have h2 : ∀ (p : Fin 512) (q : Fin 50), (iblk m hO 0 2 t : S512x50.Idx → EReal) (ix2 p q)
      = (m (((0 : Dev nD).tc : Thread nD τ).loc main_arg4) : S50x512.Idx → EReal) (ix2 q p) := fun p q =>
    (congrFun (iblk_2 m hO 0 t) (ix2 p q)).trans (V_main_v1_apply m 0 p q)
  refine funext fun j => ?_
  have h0 : j 0 = (0 : Fin 1) := Fin.ext (Nat.lt_one_iff.mp (j 0).isLt)
  have hj : j = ix3 (0 : Fin 1) (j 1) (j 2) := (eq_ix3 j).trans (congrArg (fun a : Fin 1 => ix3 a (j 1) (j 2)) h0)
  refine (congrArg _ hj).trans ?_
  refine (pay_rows (grid0.coords t) (tbl m 0) (V m 0 main_arg0) d8 _ _ _ _ _ _ hw hR h1 h2 (j 1) (j 2)).trans ?_
  unfold outBlk
  rw [iblk_1, iblk_3, V_main_arg3, V_main_arg5, V_main_arg0, tbl_eq]
  rfl

/-! ## The body obligation, at a generic point -/

/-- What the body is called with at point `t`, the windows one by one, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms_0 m hO t) fullShare ((dats m hO 0 c).before 0 t d))
    ∗ (∃ d, owns (c : Thread nD τ) (ms_1 m hO t) fullShare ((dats m hO 0 c).before 1 t d))
    ∗ (∃ d, owns (c : Thread nD τ) (ms_2 m hO t) fullShare ((dats m hO 0 c).before 2 t d))
    ∗ (∃ d, owns (c : Thread nD τ) (ms_3 m hO t) fullShare ((dats m hO 0 c).before 3 t d))
    ∗ (∃ d, owns (c : Thread nD τ) (ms_4 m hO t) fullShare ((dats m hO 0 c).before 4 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms_0 m hO t) fullShare ((dats m hO 0 c).after 0 t)
    ∗ owns (c : Thread nD τ) (ms_1 m hO t) fullShare ((dats m hO 0 c).after 1 t)
    ∗ owns (c : Thread nD τ) (ms_2 m hO t) fullShare ((dats m hO 0 c).after 2 t)
    ∗ owns (c : Thread nD τ) (ms_3 m hO t) fullShare ((dats m hO 0 c).after 3 t)
    ∗ owns (c : Thread nD τ) (ms_4 m hO t) fullShare ((dats m hO 0 c).after 4 t))

set_option maxHeartbeats 4000000 in
/-- The body at any point. The inputs' buffers hold their blocks; the invariant hands the body its scratch, the
    generator register, its counters at zero, the features and the table's half, and takes them back as they were;
    the output buffer comes back at the payload of the scratch, whose first 127 rows are the selected feature rows,
    which is `outBlk`. -/
theorem sound_body (hO : Ok m)
    (hheads : ∀ (c : Dev nD) (j : S8x127.Idx), (m ((c.tc : Thread nD τ).loc main_arg1) j).toNat < 128)
    (c : Dev nD) (t : Fin (cfgM m hO).N) :
    bodyPre m hO c t ⊢ wp frame (wpE (defs₀ (F := Ideal)) Variants.none c none) Set.univ (bodyAt (adm m hO) t)
      (fun _ => bodyPost m hO c t) := by
  have hw : ∀ j : S8x127.Idx, ((tbl m 0 : S8x127.Idx → BitVec 32) j).toNat < 128 := by
    rw [tbl_eq]; exact hheads 0
  unfold bodyPre bodyPost bodyAt
  simp only [dbefore_0, dbefore_1, dbefore_2, dbefore_3]
  rw [show (dats m hO 0 c).Φ t.succ = (dats m hO 0 c).Φ t.castSucc from rfl,
    after_0, after_1, after_2, after_3, after_4]
  rw [show (dats m hO 0 c).Φ t.castSucc = iprop(Pipeline.ΦD osem spec0 H0 (V m) c ∗ Pipeline.ΦT pre0 (tbl m) c) from rfl,
    PhiD_eq, PhiT_eq]
  unfold Dat.owesAt Pipeline.owesWithin
  rw [show (dats m hO 0 c).owed t.castSucc = 0 from rfl, show (dats m hO 0 c).owed t.succ = 0 from rfl]
  iintro ⟨⟨⟨HS0, Hg, Hsem, Hh0⟩, HT0⟩, ⟨%W, -, HW⟩, ⟨%d0, H0⟩, ⟨%d1, H1⟩, ⟨%d2, H2⟩, ⟨%d3, H3⟩, ⟨%d4, H4⟩⟩
  iapply (body_run c (grid0.coords t) _ _ _ _ _ _ _ _ _ _ _ _ (iblk m hO c 0 t) (iblk m hO c 1 t) (iblk m hO c 2 t)
    (iblk m hO c 3 t) (tbl m 0) (V m c main_arg0) hw W _)
  isplitl [H0]; · iexact H0
  isplitl [H1]; · iexact H1
  isplitl [H2]; · iexact H2
  isplitl [H3]; · iexact H3
  isplitl [H4]; · iexists _; iexact H4
  isplitl [HS0]; · iexact HS0
  isplitl [HT0]; · iexact HT0
  isplitl [Hsem]; · iexact Hsem
  isplitl [Hh0]; · iexact Hh0
  isplitl [HW]; · iexact HW
  iintro ⟨H0, H1, H2, H3, ⟨%d8, %hR, H4, HS0⟩, HT0, Hsem, Hh0, ⟨%W', HW'⟩⟩
  rw [pay_eq_outBlk m hO c t hheads d8 hR]
  isplitl [HS0 Hg Hsem Hh0 HT0]
  · isplitl [HS0 Hg Hsem Hh0]
    · isplitl [HS0]; · iexists d8; iexact HS0
      isplitl [Hg]; · iexact Hg
      isplitl [Hsem]; · iexact Hsem
      iexact Hh0
    iexact HT0
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  iexact H4

set_option maxRecDepth 131072 in
set_option maxHeartbeats 3000000 in
/-- The library's body obligation, at every point. -/
theorem body_obligation (hO : Ok m)
    (hheads : ∀ (c : Dev nD) (j : S8x127.Idx), (m ((c.tc : Thread nD τ).loc main_arg1) j).toNat < 128)
    (c : Dev nD) : BodyObligation (dats m hO 0 c) (defs₀ (F := Ideal)) Variants.none () Set.univ := fun t => by
  rw [bigSep_W0, bigSep_W0]
  exact sound_body m hO hheads c t

/-! ## The run -/

set_option backward.isDefEq.respectTransparency.types false in
/-- From any memory with zero counters, under the side condition on the head words: every weakly fair execution of
    the program terminates, every array of the pipeline ends at what the proof data computes for it after every
    write-back, and every other unscoped buffer at its region-entry contents. -/
theorem run_value (hO : Ok m)
    (hheads : ∀ (c : Dev nD) (j : S8x127.Idx), (m ((c.tc : Thread nD τ).loc main_arg1) j).toNat < 128) :
    θ_run defs (onTc (τ := τ) (main (F := Ideal))) (s₀ m ρ)
      (Pipeline.FramePost (Pipeline.pin pcfgs fun _ => adm m hO) (dats m hO) 0 (V m)) :=
  Pipeline.θ_run_frameP_dma pcfgs (fun _ => adm m hO) (dats m hO) (0 : Fin 1) launch0 osem defs₀ Variants.none
    ownSemFacts H0 H0_sub m ρ main
    (hbody := fun c => (body_obligation m hO hheads c).loose)
    (hshare := fun c => (dats m hO 0 c).share_full fun _ => rfl)
    (howed := fun _ _ => rfl) (V := V m) (hmain := hmain m Variants.none) (hA := A_eq m hO) (hpf := V_pre m)
    (hin := fun _ => .rfl) (hout := fun c => by change iprop(_ ∗ _) ⊢ _; iintro ⟨HD, -⟩; iexact HD)

/-! ## From the blocks to the array -/

/-- The output window is written back at every point. -/
theorem flush_4 (hO : Ok m) : ∀ t : Fin (cfgM m hO).N, ((cfgM m hO).win 4).flush t = true :=
  (by decide +kernel : ∀ t : Fin grid0.N, Pipeline.Window.flushOf grid0 true cc0_transform_5 t = true)

/-- The output's block index at a point, decided over the grid: the point's coordinate on the batch axis, zero on the
    other two. -/
theorem idx_facts : ∀ t : Fin grid0.N, cc0_transform_5 (grid0.coords t) (0 : Fin 3) = (grid0.coords t 0).val
    ∧ cc0_transform_5 (grid0.coords t) (1 : Fin 3) = 0 ∧ cc0_transform_5 (grid0.coords t) (2 : Fin 3) = 0 := by
  decide +kernel

/-- Every batch is some point's. -/
theorem idx_onto : ∀ n : Fin 8, ∃ t : Fin grid0.N, (grid0.coords t 0).val = n.val := by
  decide +kernel

open Idealize.ShloMosaic.ValueIdx in
/-- Where an element of point `t`'s output block sits in the result array: at the point's batch, the same
    position and label. -/
theorem emb_blk (hO : Ok m) (t : Fin (cfgM m hO).N) (j : S1x127x50.Idx) :
    (((cfgM m hO).win 4).blk t).view.emb j = ix3 (batchOf m hO t) (j 1) (j 2) := by
  obtain ⟨e0, e1, e2⟩ := idx_facts t
  funext a; apply Fin.ext
  match a with
  | ⟨0, _⟩ =>
    show cc0_transform_5 (grid0.coords t) (0 : Fin 3) * 1 + 1 * (j 0).val = (grid0.coords t 0).val
    have h0 : (j 0).val = 0 := Nat.lt_one_iff.mp (j 0).isLt
    omega
  | ⟨1, _⟩ => show cc0_transform_5 (grid0.coords t) (1 : Fin 3) * 127 + 1 * (j 1).val = (j 1).val; omega
  | ⟨2, _⟩ => show cc0_transform_5 (grid0.coords t) (2 : Fin 3) * 50 + 1 * (j 2).val = (j 2).val; omega

/-- What point `t` writes back is block `t` of the specification's function of the argument arrays. -/
theorem flushed_eq (hO : Ok m) (c : Dev nD) (t : Fin (cfgM m hO).N) :
    (dats m hO 0 c).flushed 4 t = (((cfgM m hO).win 4).blk t).view.read (Elt Ideal)
      (Cert.Spec.G (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5))) := by
  show ((cfgM m hO).win 4).cut ((cfgM m hO).grid.coords t) ((dats m hO 0 c).after 4 t) = _
  rw [after_4]
  refine funext fun (j : S1x127x50.Idx) => ?_
  show outBlk m hO c t j = Cert.Spec.G _ _ _ _ _ _ ((((cfgM m hO).win 4).blk t).view.emb j)
  rw [emb_blk]
  rfl

open Idealize.ShloMosaic.ValueIdx in
/-- Every index of the result array is in the block of the point of its batch. -/
theorem cover (hO : Ok m) (i : S8x127x50.Idx) :
    ∃ t : Fin (cfgM m hO).N, ((cfgM m hO).win 4).flush t = true ∧ i ∈ (((cfgM m hO).win 4).blk t).view.set := by
  obtain ⟨t, ht⟩ := idx_onto ⟨(i 0).val, (i 0).isLt⟩
  refine ⟨t, flush_4 m hO t, ?_⟩
  have hb : (i 0 : Fin 8) = batchOf m hO t := Fin.ext ht.symm
  have hi : i = (((cfgM m hO).win 4).blk t).view.emb (ix3 (0 : Fin 1) (i 1 : Fin 127) (i 2 : Fin 50)) := by
    rw [emb_blk]
    exact (eq_ix3 i).trans (congrArg (fun a : Fin 8 => ix3 a (i 1) (i 2)) hb)
  rw [hi]
  exact View.emb_mem_set _ _

/-- The result array after the run: the specification's function of the argument arrays. -/
theorem final (hO : Ok m) (c : Dev nD) :
    (dats m hO 0 c).arrAt 4 (cfgM m hO).N
      = Cert.Spec.G (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5)) :=
  (dats m hO 0 c).arrAt_eq_of_cover 4 _ (fun t _ => flushed_eq m hO c t) (cover m hO)

/-! ## The run, read -/

/-- At the extended reals, from any memory with zero counters whose head words are all below 128: every weakly fair
    execution of the program terminates with the result array at the specification's function of the six argument
    arrays, and the arguments as launched. -/
theorem kernel_run_G (m : (ℓ : Loc nD τ sig) → Buf (Elt Ideal) ℓ) (ρ : Dev nD → PrngReg)
    (hheads : ∀ (c : Dev nD) (j : S8x127.Idx), (m ((c.tc : Thread nD τ).loc main_arg1) j).toNat < 128) :
    θ_run (defs (F := Ideal)) (onTc (τ := τ) (main (F := Ideal))) ⟨m, fun _ => 0, ρ⟩ (fun r => ∀ c : Dev nD,
      r.2.mem ((c.tc : Thread nD τ).loc main_v2)
        = Cert.Spec.G (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (final m (ok m) c), (h c).2⟩)
    (value_of m ρ (ok m) (dats m (ok m)) (A_eq m (ok m)) (run_value m ρ (ok m) hheads))

end Cert.KernelIdeal.Hand

end
-- ==== Proof.K.Kit.lean ====
/-
  The launch kit of the kernel program: the memory the one pipelined
  region finds, the prefetched table as the heads argument, the blocks its five windows show the
  body, the memrefs the body is called on at a grid point, the body's own DMA semaphores and the
  invariant the region keeps for it, and the reading of the region's post at the argument arrays.
  Everything here is stated for any family of float types.
-/
import proofs.«414620_j69801808495255_1_alg».proof.Proof.Gen.Kernel.Skeleton
import proofs.«414620_j69801808495255_1_alg».proof.Proof.Gen.Kernel.Launch
import Idealize.ShloMosaic.Lib.Pipeline.FrameBody
import Idealize.ShloMosaic.Lib.Ring
import Idealize.ShloMosaic.Lib.Tactic
import Idealize.ShloMosaic.Lib.Pipeline.Value
import Idealize.ShloMosaic.Lib.StableHlo.Run
import Idealize.ShloMosaic.Lib.ValueIdx

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The memory the region is entered with -/

/-- What core `c`'s buffer `b` holds when the region starts: the launch memory after the two host transposes. -/
abbrev V (c : Dev nD) (b : Ref sig .tc) : Buf (Elt F) ((c : Thread nD τ).loc b) :=
  StableHlo.after hostOps0 (fun b => m (c, b)) b

/-- The host transposes allocate nothing. -/
theorem hostOps0_fresh : (hostOps0 : List (HloOp τ sig (Elt F))).Forall fun op => op.fresh = ∅ := by
  simp only [List.Forall]; repeat' constructor

/-- The program is its host transposes followed by the region, which therefore starts from `V`. -/
theorem hmain (𝒱₀ : Variants) :
    Pipeline.HMainP (Ix := Unit) (Name := ℕ) (U := Pipeline.UD sig nD τ) (Lvl := ℕ) pcfgs 0 defs₀ 𝒱₀ m (main (F := F)) (V m) :=
  Pipeline.hmainP_prefix pcfgs 0 defs₀ 𝒱₀ m main hostOps0 hostOps0_sub hostOps0_fresh main_chain

/-- A buffer neither transpose writes is found as launched. -/
theorem V_of_not_written (c : Dev nD) (b : Ref sig .tc)
    (h0 : Proc.devRef (τ := τ) .tc b ≠ Proc.devRef .tc main_v0) (h1 : Proc.devRef (τ := τ) .tc b ≠ Proc.devRef .tc main_v1) :
    V m c b = m ((c : Thread nD τ).loc b) :=
  StableHlo.after_of_forall_not_mem (b := Proc.devRef .tc b) _ _ (List.forall_iff_forall_mem.mp (by
    simp only [hostOps0, List.Forall, StableHlo.unary_writes, Finset.mem_singleton]
    exact ⟨h0, h1⟩))

theorem V_main_arg0 (c : Dev nD) : V m c main_arg0 = m ((c : Thread nD τ).loc main_arg0) :=
  V_of_not_written m c _ (StableHlo.devRef_ne_of_ne (by decide)) (StableHlo.devRef_ne_of_ne (by decide))
theorem V_main_arg1 (c : Dev nD) : V m c main_arg1 = m ((c : Thread nD τ).loc main_arg1) :=
  V_of_not_written m c _ (StableHlo.devRef_ne_of_ne (by decide)) (StableHlo.devRef_ne_of_ne (by decide))
theorem V_main_arg2 (c : Dev nD) : V m c main_arg2 = m ((c : Thread nD τ).loc main_arg2) :=
  V_of_not_written m c _ (StableHlo.devRef_ne_of_ne (by decide)) (StableHlo.devRef_ne_of_ne (by decide))
theorem V_main_arg3 (c : Dev nD) : V m c main_arg3 = m ((c : Thread nD τ).loc main_arg3) :=
  V_of_not_written m c _ (StableHlo.devRef_ne_of_ne (by decide)) (StableHlo.devRef_ne_of_ne (by decide))
theorem V_main_arg4 (c : Dev nD) : V m c main_arg4 = m ((c : Thread nD τ).loc main_arg4) :=
  V_of_not_written m c _ (StableHlo.devRef_ne_of_ne (by decide)) (StableHlo.devRef_ne_of_ne (by decide))
theorem V_main_arg5 (c : Dev nD) : V m c main_arg5 = m ((c : Thread nD τ).loc main_arg5) :=
  V_of_not_written m c _ (StableHlo.devRef_ne_of_ne (by decide)) (StableHlo.devRef_ne_of_ne (by decide))

/-! ## The two transposed weights, read -/

/-- The first weight window's array is the transpose of the first weight argument. -/
theorem V_main_v0 (c : Dev nD) :
    (V m c main_v0 : S512x512.Idx → Elt F .f32)
      = transpose S512x512 [1, 0] (m ((c : Thread nD τ).loc main_arg2) : S512x512.Idx → Elt F .f32) transposes_S512x512_S512x512_1_0 := by
  dsimp only [V, hostOps0]; after_results

/-- The second weight window's array is the transpose of the second weight argument. -/
theorem V_main_v1 (c : Dev nD) :
    (V m c main_v1 : S512x50.Idx → Elt F .f32)
      = transpose S512x50 [1, 0] (m ((c : Thread nD τ).loc main_arg4) : S50x512.Idx → Elt F .f32) transposes_S50x512_S512x50_1_0 := by
  dsimp only [V, hostOps0]; after_results

/-- Entry `(p, q)` of the first transposed weight is entry `(q, p)` of the argument. -/
theorem V_main_v0_apply (c : Dev nD) (p q : Fin 512) :
    (V m c main_v0 : S512x512.Idx → Elt F .f32) (ValueIdx.ix2 p q)
      = (m ((c : Thread nD τ).loc main_arg2) : S512x512.Idx → Elt F .f32) (ValueIdx.ix2 q p) := by
  rw [V_main_v0]
  refine transpose_apply _ _ _ _ _ fun b => ?_
  match b with
  | ⟨0, _⟩ => rfl
  | ⟨1, _⟩ => rfl

/-- Entry `(p, q)` of the second transposed weight is entry `(q, p)` of the argument. -/
theorem V_main_v1_apply (c : Dev nD) (p : Fin 512) (q : Fin 50) :
    (V m c main_v1 : S512x50.Idx → Elt F .f32) (ValueIdx.ix2 p q)
      = (m ((c : Thread nD τ).loc main_arg4) : S50x512.Idx → Elt F .f32) (ValueIdx.ix2 q p) := by
  rw [V_main_v1]
  refine transpose_apply _ _ _ _ _ fun b => ?_
  match b with
  | ⟨0, _⟩ => rfl
  | ⟨1, _⟩ => rfl

/-! ## The prefetched table -/

/-- The table's contents when the region starts; there is one device, so device 0's. -/
def tbl : pre0.Contents (Elt F) := fun j => V m (0 : Dev nD) (pre0.ref j)

/-- Every device sees those contents. -/
theorem V_pre (c : Dev nD) (j : Fin 1) : V m c (pre0.ref j) = tbl m j := by
  obtain rfl : c = 0 := Subsingleton.elim _ _; rfl

/-- The region's side condition on the table's words. No window's index map reads the table, so it is trivial. -/
abbrev Ok : Prop := ok0 (F := F) (tbl m)

theorem ok : Ok m := trivial

/-- The table's contents as admissible contents, and the pipeline pinned at them. -/
abbrev adm (hO : Ok m) : (pcfg0 (F := F)).Adm := ⟨tbl m, hO⟩
abbrev cfgM (hO : Ok m) : Pipeline.Cfg sig Λ₀ := cfg0 (adm m hO)

/-- The one table is the heads argument as launched. -/
theorem tbl_eq : tbl m 0 = m ((0 : Dev nD).tc.loc main_arg1) :=
  V_main_arg1 m 0

/-! ## The blocks the windows show the body -/

/-- Window `w`'s block at grid point `t`: its array as the region found it, read through the block's rectangle. -/
def iblk (hO : Ok m) (c : Dev nD) (w : Fin (cfgM m hO).W) (t : Fin (cfgM m hO).N) :
    (((cfgM m hO).win w).xblock ((cfgM m hO).grid.coords t)).Idx → Elt F ((cfgM m hO).win w).elt :=
  (((cfgM m hO).win w).blk t).view.read (Elt F) (V m c (Pipeline.arrRef spec0 w))

/-- An input window whose body leaves the block in place holds that block at every point, whether or not the
    point fetched it: an unfetched point has the same block index as the one before. Window 0. -/
theorem before_0 (hO : Ok m) {c : Dev nD} (dat : Dat τ (Elt F) Unit ℕ (Pipeline.UD sig nD τ) ℕ (cfgM m hO) c)
    (hA : dat.A 0 = V m c (Pipeline.arrRef spec0 0)) (hafter : ∀ t, dat.after 0 t = iblk m hO c 0 t)
    (t : Fin (cfgM m hO).N) (d) : dat.before 0 t d = iblk m hO c 0 t :=
  (dat.before_in_eq_fetched 0 rfl (fun _ => rfl) (fun _ _ _ => rfl)
    (fun t => by rw [hafter]; unfold Dat.blockOf iblk; rw [hA]; rfl) t d).trans
    (by unfold Dat.fetched Dat.blockOf iblk; rw [hA]; rfl)
/-- The same of window 1. -/
theorem before_1 (hO : Ok m) {c : Dev nD} (dat : Dat τ (Elt F) Unit ℕ (Pipeline.UD sig nD τ) ℕ (cfgM m hO) c)
    (hA : dat.A 1 = V m c (Pipeline.arrRef spec0 1)) (hafter : ∀ t, dat.after 1 t = iblk m hO c 1 t)
    (t : Fin (cfgM m hO).N) (d) : dat.before 1 t d = iblk m hO c 1 t :=
  (dat.before_in_eq_fetched 1 rfl (fun _ => rfl) (fun _ _ _ => rfl)
    (fun t => by rw [hafter]; unfold Dat.blockOf iblk; rw [hA]; rfl) t d).trans
    (by unfold Dat.fetched Dat.blockOf iblk; rw [hA]; rfl)
/-- The same of window 2. -/
theorem before_2 (hO : Ok m) {c : Dev nD} (dat : Dat τ (Elt F) Unit ℕ (Pipeline.UD sig nD τ) ℕ (cfgM m hO) c)
    (hA : dat.A 2 = V m c (Pipeline.arrRef spec0 2)) (hafter : ∀ t, dat.after 2 t = iblk m hO c 2 t)
    (t : Fin (cfgM m hO).N) (d) : dat.before 2 t d = iblk m hO c 2 t :=
  (dat.before_in_eq_fetched 2 rfl (fun _ => rfl) (fun _ _ _ => rfl)
    (fun t => by rw [hafter]; unfold Dat.blockOf iblk; rw [hA]; rfl) t d).trans
    (by unfold Dat.fetched Dat.blockOf iblk; rw [hA]; rfl)
/-- The same of window 3. -/
theorem before_3 (hO : Ok m) {c : Dev nD} (dat : Dat τ (Elt F) Unit ℕ (Pipeline.UD sig nD τ) ℕ (cfgM m hO) c)
    (hA : dat.A 3 = V m c (Pipeline.arrRef spec0 3)) (hafter : ∀ t, dat.after 3 t = iblk m hO c 3 t)
    (t : Fin (cfgM m hO).N) (d) : dat.before 3 t d = iblk m hO c 3 t :=
  (dat.before_in_eq_fetched 3 rfl (fun _ => rfl) (fun _ _ _ => rfl)
    (fun t => by rw [hafter]; unfold Dat.blockOf iblk; rw [hA]; rfl) t d).trans
    (by unfold Dat.fetched Dat.blockOf iblk; rw [hA]; rfl)

/-- Windows 0 to 3 take their whole arrays as one block with block index zero on every axis, so the block at any
    point is the array itself. Window 0: the first transposed weight. -/
theorem iblk_0 (hO : Ok m) (c : Dev nD) (t : Fin (cfgM m hO).N) :
    (iblk m hO c 0 t : S512x512.Idx → Elt F .f32) = (V m c main_v0 : S512x512.Idx → Elt F .f32) := by
  refine funext fun (j : S512x512.Idx) => ?_
  unfold iblk
  show (V m c main_v0 : S512x512.Idx → Elt F .f32) ((((cfgM m hO).win 0).blk t).view.emb j) = (V m c main_v0 : S512x512.Idx → Elt F .f32) j
  congr 1
  funext a
  apply Fin.ext
  match a with
  | ⟨0, _⟩ => show 0 * 512 + 1 * (j 0).val = (j 0).val; omega
  | ⟨1, _⟩ => show 0 * 512 + 1 * (j 1).val = (j 1).val; omega

/-- Window 1: the first bias. -/
theorem iblk_1 (hO : Ok m) (c : Dev nD) (t : Fin (cfgM m hO).N) :
    (iblk m hO c 1 t : S512.Idx → Elt F .f32) = (V m c main_arg3 : S512.Idx → Elt F .f32) := by
  refine funext fun (j : S512.Idx) => ?_
  unfold iblk
  show (V m c main_arg3 : S512.Idx → Elt F .f32) ((((cfgM m hO).win 1).blk t).view.emb j) = (V m c main_arg3 : S512.Idx → Elt F .f32) j
  congr 1
  funext a
  apply Fin.ext
  match a with
  | ⟨0, _⟩ => show 0 * 512 + 1 * (j 0).val = (j 0).val; omega

/-- Window 2: the second transposed weight. -/
theorem iblk_2 (hO : Ok m) (c : Dev nD) (t : Fin (cfgM m hO).N) :
    (iblk m hO c 2 t : S512x50.Idx → Elt F .f32) = (V m c main_v1 : S512x50.Idx → Elt F .f32) := by
  refine funext fun (j : S512x50.Idx) => ?_
  unfold iblk
  show (V m c main_v1 : S512x50.Idx → Elt F .f32) ((((cfgM m hO).win 2).blk t).view.emb j) = (V m c main_v1 : S512x50.Idx → Elt F .f32) j
  congr 1
  funext a
  apply Fin.ext
  match a with
  | ⟨0, _⟩ => show 0 * 512 + 1 * (j 0).val = (j 0).val; omega
  | ⟨1, _⟩ => show 0 * 50 + 1 * (j 1).val = (j 1).val; omega

/-- Window 3: the second bias. -/
theorem iblk_3 (hO : Ok m) (c : Dev nD) (t : Fin (cfgM m hO).N) :
    (iblk m hO c 3 t : S50.Idx → Elt F .f32) = (V m c main_arg5 : S50.Idx → Elt F .f32) := by
  refine funext fun (j : S50.Idx) => ?_
  unfold iblk
  show (V m c main_arg5 : S50.Idx → Elt F .f32) ((((cfgM m hO).win 3).blk t).view.emb j) = (V m c main_arg5 : S50.Idx → Elt F .f32) j
  congr 1
  funext a
  apply Fin.ext
  match a with
  | ⟨0, _⟩ => show 0 * 50 + 1 * (j 0).val = (j 0).val; omega

/-! ## What the body is called on at a grid point -/

/-- Window `w`'s staging memref in use at point `t`, and that it is a whole buffer. -/
abbrev ms_0 (hO : Ok m) (t : Fin (cfgM m hO).N) : Memref sig .tc .vmem S512x512 .f32 := spec0_0.stage ((cfgM m hO).slots t 0)
abbrev hs_0 (hO : Ok m) (t : Fin (cfgM m hO).N) : (ms_0 m hO t).IsWhole := hstage0_0 (((cfgM m hO).slots t 0).cast nbuf0_0)
abbrev ms_1 (hO : Ok m) (t : Fin (cfgM m hO).N) : Memref sig .tc .vmem S512 .f32 := spec0_1.stage ((cfgM m hO).slots t 1)
abbrev hs_1 (hO : Ok m) (t : Fin (cfgM m hO).N) : (ms_1 m hO t).IsWhole := hstage0_1 (((cfgM m hO).slots t 1).cast nbuf0_1)
abbrev ms_2 (hO : Ok m) (t : Fin (cfgM m hO).N) : Memref sig .tc .vmem S512x50 .f32 := spec0_2.stage ((cfgM m hO).slots t 2)
abbrev hs_2 (hO : Ok m) (t : Fin (cfgM m hO).N) : (ms_2 m hO t).IsWhole := hstage0_2 (((cfgM m hO).slots t 2).cast nbuf0_2)
abbrev ms_3 (hO : Ok m) (t : Fin (cfgM m hO).N) : Memref sig .tc .vmem S50 .f32 := spec0_3.stage ((cfgM m hO).slots t 3)
abbrev hs_3 (hO : Ok m) (t : Fin (cfgM m hO).N) : (ms_3 m hO t).IsWhole := hstage0_3 (((cfgM m hO).slots t 3).cast nbuf0_3)
abbrev ms_4 (hO : Ok m) (t : Fin (cfgM m hO).N) : Memref sig .tc .vmem S1x127x50 .f32 := spec0_4.stage ((cfgM m hO).slots t 4)
abbrev hs_4 (hO : Ok m) (t : Fin (cfgM m hO).N) : (ms_4 m hO t).IsWhole := hstage0_4 (((cfgM m hO).slots t 4).cast nbuf0_4)

/-- The gather scratch, the features left in HBM, and the heads table, each a whole buffer. -/
abbrev scM : Memref sig .tc .vmem S128x512 .f32 := Memref.whole cc0_scratch0
abbrev hbM : Memref sig .tc .hbm S8x128x128x512 .f32 := Memref.whole main_arg0
abbrev tbM : Memref sig .tc .smem S8x127 .i32 := Memref.whole main_arg1

/-- The kernel body as the region's body table applies it at point `t` of the pipeline pinned at contents `a`. -/
abbrev bodyAt (a : (pcfg0 (F := F)).Adm) (t : Fin (cfg0 a).N) : Prog (TpuEff nD τ sig (Elt F) Λ₀ .tc) PUnit :=
  cc0__gather_mlp_kernel (grid0.coords t) tbM (Memref.isWhole_whole _) hbM (Memref.isWhole_whole _)
    (spec0_0.stage ((cfg0 a).slots t 0)) (hstage0_0 (((cfg0 a).slots t 0).cast nbuf0_0))
    (spec0_1.stage ((cfg0 a).slots t 1)) (hstage0_1 (((cfg0 a).slots t 1).cast nbuf0_1))
    (spec0_2.stage ((cfg0 a).slots t 2)) (hstage0_2 (((cfg0 a).slots t 2).cast nbuf0_2))
    (spec0_3.stage ((cfg0 a).slots t 3)) (hstage0_3 (((cfg0 a).slots t 3).cast nbuf0_3))
    (spec0_4.stage ((cfg0 a).slots t 4)) (hstage0_4 (((cfg0 a).slots t 4).cast nbuf0_4))
    scM (Memref.isWhole_whole _) cc0_scratch1

/-- The label the region calls at point `t`, on the point and the slots in use, is `bodyAt` there. -/
theorem body_eq (hO : Ok m) (t : Fin (cfgM m hO).N) :
    (defs₀ (F := F)) .tc (cfgM m hO).body ((cfgM m hO).bodyArgs t ((cfgM m hO).slots t)) = bodyAt (adm m hO) t := rfl

/-! ## The body's own semaphores and the invariant kept for it -/

/-- The thirty-two DMA semaphores of the body's own, by their numbers in the pool. -/
abbrev osem : Fin 32 → SemLoc sig := fun j =>
  (![SemLoc.dma 6, SemLoc.dma 7, SemLoc.dma 8, SemLoc.dma 9, SemLoc.dma 10, SemLoc.dma 11, SemLoc.dma 12, SemLoc.dma 13, SemLoc.dma 14, SemLoc.dma 15, SemLoc.dma 16, SemLoc.dma 17, SemLoc.dma 18, SemLoc.dma 19, SemLoc.dma 20, SemLoc.dma 21, SemLoc.dma 22, SemLoc.dma 23, SemLoc.dma 24, SemLoc.dma 25, SemLoc.dma 26, SemLoc.dma 27, SemLoc.dma 28, SemLoc.dma 29, SemLoc.dma 30, SemLoc.dma 31, SemLoc.dma 32, SemLoc.dma 33, SemLoc.dma 34, SemLoc.dma 35, SemLoc.dma 36, SemLoc.dma 37] : Fin 32 → SemLoc sig) j

/-- None of them is a window's staging semaphore. -/
theorem ownSemFacts : Pipeline.OwnSemFacts spec0 osem := by decide

/-- The thirty-two counters at zero, one conjunct each. -/
abbrev semsZero (c : Dev nD) : sProp 𝕄 :=
  iprop(semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0)

theorem ownSems0_eq (c : Dev nD) :
    (Pipeline.ownSems0 (Ix := Unit) (Name := ℕ) (U := Pipeline.UD sig nD τ) (Lvl := ℕ) (Val := Elt F) (τ := τ) osem c : sProp 𝕄)
      = semsZero c := by
  rw [Pipeline.ownSems0_eq_of_list c osem [0, 1, 2, 3, 4, 5, 6, 7, 8, 9, 10, 11, 12, 13, 14, 15, 16, 17, 18, 19, 20, 21, 22, 23, 24, 25, 26, 27, 28, 29, 30, 31] (by decide) (by decide)]; rfl

/-- The one unscoped buffer the body reads by its own DMA: the features. -/
def H0 : Finset (Ref sig .tc) := {main_arg0}
theorem H0_sub : H0 ⊆ Pipeline.restRefsP sig pre0 spec0 := by decide

theorem hbmPts_eq (c : Dev nD) :
    (bigSep H0 (fun b => ((c : Thread nD τ).loc b) ↦{fullShare} V m c b) : sProp 𝕄)
      = iprop(hbM.view.loc (c : Thread nD τ) ↦{fullShare} V m c main_arg0) := by
  rw [BI.bigSep_eq_bigSepL_of_eq [main_arg0] (by decide) (by decide)]; rfl

/-- The invariant the region keeps for a body with transfers of its own, conjunct by conjunct: the scratch owned at
    some contents, the generator register at some state, the own counters at zero, the features at their launch
    contents. -/
theorem PhiD_eq (c : Dev nD) :
    (Pipeline.ΦD osem spec0 H0 (V m) c : sProp 𝕄)
      = iprop((∃ d, owns (c : Thread nD τ) scM fullShare d) ∗ (∃ r, prngReg c r) ∗ semsZero c
          ∗ (hbM.view.loc (c : Thread nD τ) ↦{fullShare} V m c main_arg0)) := by
  rw [Pipeline.ΦD_eq, scopedRest0_eq, ownSems0_eq, hbmPts_eq]; simp only [scM, owns_whole]; rfl

/-- The table's half the region hands the body: the heads at half the full share. -/
theorem PhiT_eq (c : Dev nD) :
    (Pipeline.ΦT pre0 (tbl m) c : sProp 𝕄) = iprop(tbM.view.loc (c : Thread nD τ) ↦{fullShare.right} tbl m 0) := by
  unfold Pipeline.ΦT Pipeline.prefHeld
  rw [show (Finset.univ : Finset (Fin 1)) = {(0 : Fin 1)} from by decide, bigSep_singleton]
  rfl

/-! ## The region's post read at the arrays -/

/-- From a run to the region's relational post, for any proof data whose arrays are the region-entry contents: the
    six argument arrays end as launched. The two biases are input windows' arrays, which the post's first clause
    keeps at their entry contents; the features, the heads and the two weight arguments are no window's array, and
    the post's second clause keeps them; no host transpose wrote any of the six. -/
theorem frame_of (hO : Ok m)
    (rdat : (c : Dev nD) → Pipeline.RDat τ (Elt F) Unit ℕ (Pipeline.UD sig nD τ) ℕ ((Pipeline.pin pcfgs fun _ => adm m hO) 0) c)
    (hA : ∀ c w, (rdat c).A w = V m c (Pipeline.arrRef spec0 w))
    (h : θ_run defs (onTc (τ := τ) (main (F := F))) (s₀ m ρ)
      (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_arg0 (by decide : main_arg0 ∈ Pipeline.restRefs sig spec0)).trans (V_main_arg0 m c),
     ((h c).2 main_arg1 (by decide : main_arg1 ∈ Pipeline.restRefs sig spec0)).trans (V_main_arg1 m c),
     ((h c).2 main_arg2 (by decide : main_arg2 ∈ Pipeline.restRefs sig spec0)).trans (V_main_arg2 m c),
     (Pipeline.RDat.FramePost.arr_in h c 1 rfl).trans ((hA c 1).trans (V_main_arg3 m c)),
     ((h c).2 main_arg4 (by decide : main_arg4 ∈ Pipeline.restRefs sig spec0)).trans (V_main_arg4 m c),
     (Pipeline.RDat.FramePost.arr_in h c 3 rfl).trans ((hA c 3).trans (V_main_arg5 m c))⟩) h

/-- From a run to the region's exact post: the result array ends at what the proof data computes for the output
    window after every write-back, and the six argument arrays end as launched. -/
theorem value_of (hO : Ok m)
    (dats : (p : Fin 1) → (c : Dev nD) →
      Dat τ (Elt F) Unit ℕ (Pipeline.UD sig nD τ) ℕ ((Pipeline.pin pcfgs fun _ => adm m hO) p) c)
    (hA : ∀ c w, (dats 0 c).A w = V m c (Pipeline.arrRef spec0 w))
    (h : θ_run defs (onTc (τ := τ) (main (F := F))) (s₀ m ρ)
      (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_v2) = (dats 0 c).arrAt 4 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c).1 4,
     ((h c).2 main_arg0 (by decide : main_arg0 ∈ Pipeline.restRefs sig spec0)).trans (V_main_arg0 m c),
     ((h c).2 main_arg1 (by decide : main_arg1 ∈ Pipeline.restRefs sig spec0)).trans (V_main_arg1 m c),
     ((h c).2 main_arg2 (by decide : main_arg2 ∈ Pipeline.restRefs sig spec0)).trans (V_main_arg2 m c),
     ((h c).1 1).trans (((dats 0 c).arrAt_in 1 rfl _).trans ((hA c 1).trans (V_main_arg3 m c))),
     ((h c).2 main_arg4 (by decide : main_arg4 ∈ Pipeline.restRefs sig spec0)).trans (V_main_arg4 m c),
     ((h c).1 3).trans (((dats 0 c).arrAt_in 3 rfl _).trans ((hA c 3).trans (V_main_arg5 m c)))⟩) h

end Cert.Kernel.Hand

end
-- ==== Proof.K.Body.lean ====
/-
  One grid point of the kernel, as a Hoare triple at any float family.  At batch `i` the body copies, for
  each position l < 127, the feature row `feat[i, l + 1, heads[i, l], :]` into row l of its scratch (row 127 of the
  scratch is never written and keeps whatever it held), then stores into its output block the two-layer
  perceptron of the scratch's 128 rows, of which the block keeps the first 127.
-/
import proofs.«414620_j69801808495255_1_alg».proof.Proof.K.Kit
import Idealize.ShloMosaic.Lib.WholeRead

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ
/-- The head word of batch `i`, position `l`, read off the table's contents. -/
def headWord (xt : S8x127.Idx → BitVec 32) (i : grid0.Coords) (l : Fin 127) : BitVec 32 :=
  xt (ValueIdx.ix2 (⟨(i 0).val, (i 0).isLt⟩ : Fin 8) l)

/-- What the scratch holds once the 127 copies have landed: row l (l < 127) is the feature row the head
    word of (i, l) selects, under the side condition that the word is below 128; nothing is said of row 127. -/
def RowsOK (i : grid0.Coords) (xt : S8x127.Idx → BitVec 32) (fh : S8x128x128x512.Idx → Elt F .f32)
    (d8 : Vec F S128x512 .f32) : Prop :=
  ∀ (l : Fin 127) (hl : (headWord xt i l).toNat < 128) (h : Fin 512),
    d8 (ValueIdx.ix2 (⟨l.val, by omega⟩ : Fin 128) h)
      = fh (ValueIdx.ix4 (⟨(i 0).val, (i 0).isLt⟩ : Fin 8) (⟨l.val + 1, by omega⟩ : Fin 128) (⟨(headWord xt i l).toNat, hl⟩ : Fin 128) h)

/-! ## The feature array as read tokens

Up to 32 copies read the feature array at once, one per transfer cell, so the array is held as one read share per cell
(split off the full share one at a time) and put back together after the last wait. -/

theorem tokStart {ℓ : Loc nD τ sig} (f : Buf (Elt F) ℓ) :
    (ℓ ↦{fullShare} f : sProp 𝕄) ⊢ (ℓ ↦{Transfers.shareDrop fullShare 0} f) := .rfl

theorem tokEnd {ℓ : Loc nD τ sig} (f : Buf (Elt F) ℓ) :
    (ℓ ↦{Transfers.shareDrop fullShare 0} f : sProp 𝕄) ⊢ (ℓ ↦{fullShare} f) := .rfl

theorem tokStep {ℓ : Loc nD τ sig} (f : Buf (Elt F) ℓ) (k : ℕ) :
    (ℓ ↦{Transfers.shareDrop fullShare k} f : sProp 𝕄)
      ⊢ iprop((ℓ ↦{Transfers.shareDrop fullShare (k + 1)} f) ∗ ℓ ↦{Transfers.shareTokN fullShare k} f) :=
  (pointsTo_share (PosShare.mem_left_op_right _)).1

theorem tokJoin {ℓ : Loc nD τ sig} (f : Buf (Elt F) ℓ) (k : ℕ) :
    (ℓ ↦{Transfers.shareDrop fullShare (k + 1)} f : sProp 𝕄)
      ⊢ iprop((ℓ ↦{Transfers.shareTokN fullShare k} f) -∗ ℓ ↦{Transfers.shareDrop fullShare k} f) :=
  BI.wand_intro (pointsTo_share (PosShare.mem_left_op_right _)).2

/-! ## The side condition of a copy -/

/-- A slice of one row of the feature array at batch `i`, a position below 128 and a head below 128 lies inside it. -/
theorem chk_of_lt (i : grid0.Coords) (N : ℕ) (hN : N < 128) (v : BitVec 32) (hv : v.toNat < 128) :
    ∀ a, (![(BitVec.ofNat 32 (i 0).val).toNat, N, v.toNat, 0] : Fin 4 → ℕ) a + S1x1x1x512.size a ≤ S8x128x128x512.size a := by
  have hi : (i 0).val < 8 := (i 0).isLt
  have h0 : (BitVec.ofNat 32 (i 0).val).toNat = (i 0).val := by
    rw [BitVec.toNat_ofNat]; exact Nat.mod_eq_of_lt (by omega)
  intro a
  match a with
  | ⟨0, _⟩ => show (BitVec.ofNat 32 (i 0).val).toNat + 1 ≤ 8; omega
  | ⟨1, _⟩ => show N + 1 ≤ 128; omega
  | ⟨2, _⟩ => show v.toNat + 1 ≤ 128; omega
  | ⟨3, _⟩ => show 0 + 512 ≤ 512; omega

/-- Every word a load reads off the table is one of the table's words, so below 128. -/
theorem word_lt (c : Dev nD) (xt : Buf (Elt F) (tbM.view.loc (c : Thread nD τ)))
    (hw : ∀ j : S8x127.Idx, ((xt : S8x127.Idx → BitVec 32) j).toNat < 128)
    (r : LoadRect S8x127) (x : r.shape.Idx) : (tbM.view.readAt (Elt F) r xt x : BitVec 32).toNat < 128 :=
  hw _

open Lean Elab Tactic in
/-- `for_each_nat lo hi "tac"` runs the tactic text `tac` once for each `k = lo, …, hi - 1` in turn (`down`: from
    `hi - 1` down to `lo`), each time with `%` in the text replaced by the numeral `k`. -/
elab "for_each_nat " lo:num hi:num dn:(&" down")? t:str : tactic => do
  let ks := (List.range (hi.getNat - lo.getNat)).map (· + lo.getNat)
  let ks := if dn.isSome then ks.reverse else ks
  for k in ks do
    let s := (t.getString.replace "%+" (toString (k + 1))).replace "%" (toString k)
    match Parser.runParserCategory (← getEnv) `tactic s with
    | .ok stx => evalTactic stx
    | .error e => throwError "for_each_nat: {e}"

/-! ## The scratch by rows

The 127 copies land in 127 different rows of the scratch while up to 32 of them are in flight, so the scratch is
held row by row: row `l` as the elements of the very memref the body builds for it. The rows partition the buffer;
`restSet v n` is what rows `n, n + 1, …, 127` cover, so that rows are split off (and put back) one at a time. -/

/-- Row `l` lies inside the scratch. -/
theorem rowInb (l : Fin 128) : ∀ a, (![l.val, 0] : Fin 2 → ℕ) a + S1x512.size a ≤ S128x512.size a :=
  Fin.forall_fin_two.mpr ⟨by show l.val + 1 ≤ 128; omega, by show 0 + 512 ≤ 512; omega⟩

/-- The rectangle of row `l`. -/
def rowRect (l : Fin 128) : Rect S128x512 := Rect.unit ![l.val, 0] S1x512.size (rowInb l)

/-- The buffer elements under row `l` of a view of the scratch's shape. -/
def rowSet (v : View sig .tc .vmem S128x512 .f32) (l : Fin 128) : Finset v.ty.Idx := (v.slice (rowRect l)).set

/-- Two different rows share no element. -/
theorem rowSet_disjoint (v : View sig .tc .vmem S128x512 .f32) {l l' : Fin 128} (h : l ≠ l') :
    Disjoint (rowSet v l) (rowSet v l') :=
  View.disjoint_slice_of_sep v _ _ (⟨0, by decide⟩ : Fin S128x512.rank) rfl rfl (by
    have := Fin.val_ne_of_ne h
    show l.val + 1 ≤ l'.val ∨ l'.val + 1 ≤ l.val
    omega)

/-- The rows cover the view. -/
theorem biUnion_rowSet (v : View sig .tc .vmem S128x512 .f32) : Finset.univ.biUnion (rowSet v) = v.set := by
  ext j
  rw [Finset.mem_biUnion]
  constructor
  · rintro ⟨l, -, hj⟩; exact View.set_slice_subset v _ hj
  · intro hj
    obtain ⟨x, -, rfl⟩ := Finset.mem_map.mp hj
    refine ⟨⟨(x 0).val, (x 0).isLt⟩, Finset.mem_univ _, ?_⟩
    rw [rowSet, View.set_slice]
    refine Finset.mem_map_of_mem _ ?_
    rw [rowRect, Rect.mem_set_unit]
    intro a
    match a with
    | ⟨0, _⟩ => exact ⟨Nat.le_refl _, Nat.lt_succ_self _⟩
    | ⟨1, _⟩ =>
      have h1 : (x 1).val < 512 := (x 1).isLt
      exact ⟨Nat.zero_le _, by show (x 1).val < 0 + 512; omega⟩

/-- What rows `n` and later cover. -/
def restSet (v : View sig .tc .vmem S128x512 .f32) (n : ℕ) : Finset v.ty.Idx :=
  (Finset.univ.filter fun l : Fin 128 => n ≤ l.val).biUnion (rowSet v)

theorem restSet_zero (v : View sig .tc .vmem S128x512 .f32) : restSet v 0 = v.set := by
  rw [restSet, Finset.filter_true_of_mem (fun _ _ => Nat.zero_le _), biUnion_rowSet]

theorem restSet_succ (v : View sig .tc .vmem S128x512 .f32) (n : ℕ) (hn : n < 128) :
    restSet v n = rowSet v ⟨n, hn⟩ ∪ restSet v (n + 1) := by
  have e : (Finset.univ.filter fun l : Fin 128 => n ≤ l.val)
      = insert (⟨n, hn⟩ : Fin 128) (Finset.univ.filter fun l : Fin 128 => n + 1 ≤ l.val) := by
    ext l
    simp only [Finset.mem_filter, Finset.mem_univ, true_and, Finset.mem_insert, Fin.ext_iff]
    omega
  rw [restSet, e, Finset.biUnion_insert]; rfl

theorem restSet_last (v : View sig .tc .vmem S128x512 .f32) : restSet v 128 = ∅ := by
  rw [restSet, Finset.filter_false_of_mem (fun l _ => by have := l.isLt; omega), Finset.biUnion_empty]

theorem disjoint_rowSet_restSet (v : View sig .tc .vmem S128x512 .f32) (n : ℕ) (hn : n < 128) :
    Disjoint (rowSet v ⟨n, hn⟩) (restSet v (n + 1)) :=
  (Finset.disjoint_biUnion_right _ _ _).mpr fun l hl => rowSet_disjoint v (by
    have h := (Finset.mem_filter.mp hl).2
    intro e
    rw [← e] at h
    exact absurd h (Nat.not_succ_le_self n))

/-- Row `l` of the scratch, as the memref the body builds for it. -/
abbrev rowM (arg8 : Memref sig .tc .vmem S128x512 .f32) (l : ℕ)
    (h : ∀ a, (![l, 0] : Fin 2 → ℕ) a + S1x512.size a ≤ S128x512.size a) : Memref sig .tc .vmem S512 .f32 :=
  (arg8.slice (Rect.unit (s := S128x512) ![l, 0] S1x512.size h) (fun _ => rfl)).squeeze S512 squeezes_S1x512_S512

theorem rowM_set (arg8 : Memref sig .tc .vmem S128x512 .f32) (n : ℕ) (hn : n < 128)
    (h : ∀ a, (![n, 0] : Fin 2 → ℕ) a + S1x512.size a ≤ S128x512.size a) :
    (rowM arg8 n h).view.set = rowSet arg8.view ⟨n, hn⟩ := by
  rw [Memref.set_view_squeeze]; rfl

theorem restStart (c : Dev nD) (arg8 : Memref sig .tc .vmem S128x512 .f32) (f : Buf (Elt F) (arg8.view.loc (c : Thread nD τ))) :
    (arg8.view.loc (c : Thread nD τ) ↦[arg8.view.set]{fullShare} f : sProp 𝕄)
      ⊢ (arg8.view.loc (c : Thread nD τ) ↦[restSet arg8.view 0]{fullShare} f) := by
  rw [restSet_zero]

theorem restEnd (c : Dev nD) (arg8 : Memref sig .tc .vmem S128x512 .f32) (f : Buf (Elt F) (arg8.view.loc (c : Thread nD τ))) :
    (arg8.view.loc (c : Thread nD τ) ↦[restSet arg8.view 0]{fullShare} f : sProp 𝕄)
      ⊢ (arg8.view.loc (c : Thread nD τ) ↦[arg8.view.set]{fullShare} f) := by
  rw [restSet_zero]

/-- Nothing is left after the last row, so what is held of nothing may be restated at any contents. -/
theorem restEmpty (c : Dev nD) (arg8 : Memref sig .tc .vmem S128x512 .f32) (f g : Buf (Elt F) (arg8.view.loc (c : Thread nD τ))) :
    (arg8.view.loc (c : Thread nD τ) ↦[restSet arg8.view 128]{fullShare} f : sProp 𝕄)
      ⊢ (arg8.view.loc (c : Thread nD τ) ↦[restSet arg8.view 128]{fullShare} g) := by
  rw [restSet_last, pointsTo_empty, pointsTo_empty]

/-- Row `n` split off what rows `n` and later cover. -/
theorem rowPeel (c : Dev nD) (arg8 : Memref sig .tc .vmem S128x512 .f32) (f : Buf (Elt F) (arg8.view.loc (c : Thread nD τ)))
    (n : ℕ) (hn : n < 128) (h : ∀ a, (![n, 0] : Fin 2 → ℕ) a + S1x512.size a ≤ S128x512.size a) :
    (arg8.view.loc (c : Thread nD τ) ↦[restSet arg8.view n]{fullShare} f : sProp 𝕄)
      ⊢ iprop(((rowM arg8 n h).view.loc (c : Thread nD τ) ↦[(rowM arg8 n h).view.set]{fullShare} f)
          ∗ (arg8.view.loc (c : Thread nD τ) ↦[restSet arg8.view (n + 1)]{fullShare} f)) := by
  rw [restSet_succ _ n hn, rowM_set arg8 n hn h]
  exact (pointsTo_union (disjoint_rowSet_restSet _ n hn)).1

/-- Row `n` put back. -/
theorem rowJoin (c : Dev nD) (arg8 : Memref sig .tc .vmem S128x512 .f32) (g : Buf (Elt F) (arg8.view.loc (c : Thread nD τ)))
    (n : ℕ) (hn : n < 128) (h : ∀ a, (![n, 0] : Fin 2 → ℕ) a + S1x512.size a ≤ S128x512.size a) :
    ((rowM arg8 n h).view.loc (c : Thread nD τ) ↦[(rowM arg8 n h).view.set]{fullShare} g : sProp 𝕄)
      ⊢ iprop((arg8.view.loc (c : Thread nD τ) ↦[restSet arg8.view (n + 1)]{fullShare} g)
          -∗ (arg8.view.loc (c : Thread nD τ) ↦[restSet arg8.view n]{fullShare} g)) := by
  rw [restSet_succ _ n hn, rowM_set arg8 n hn h]
  exact BI.wand_intro (pointsTo_union (disjoint_rowSet_restSet _ n hn)).2

/-! ## What the scratch holds after the copies -/

/-- The scratch's contents after the 127 copies over contents `d0`: row `l < 127` is the feature row that the head word
    of `(i, l)` selects, row 127 is `d0`'s. -/
def scratchAfter (i : grid0.Coords) (xt : S8x127.Idx → BitVec 32) (fh : S8x128x128x512.Idx → Elt F .f32)
    (hw : ∀ j : S8x127.Idx, (xt j).toNat < 128) (d0 : Vec F S128x512 .f32) : Vec F S128x512 .f32 := fun x =>
  if hx : (x 0).val < 127 then
    fh (ValueIdx.ix4 (⟨(i 0).val, (i 0).isLt⟩ : Fin 8) (⟨(x 0).val + 1, by omega⟩ : Fin 128)
      (⟨(headWord xt i ⟨(x 0).val, hx⟩).toNat, hw _⟩ : Fin 128) (⟨(x 1).val, (x 1).isLt⟩ : Fin 512))
  else d0 x

theorem rowsOK_scratchAfter (i : grid0.Coords) (xt : S8x127.Idx → BitVec 32) (fh : S8x128x128x512.Idx → Elt F .f32)
    (hw : ∀ j : S8x127.Idx, (xt j).toNat < 128) (d0 : Vec F S128x512 .f32) :
    RowsOK i xt fh (scratchAfter i xt fh hw d0) := by
  intro l hl h
  have hx : ((ValueIdx.ix2 (⟨l.val, by omega⟩ : Fin 128) h : S128x512.Idx) 0).val < 127 := l.isLt
  unfold scratchAfter
  rw [dif_pos hx]

/-- The word the body reads for position `n` is the table's head word there. -/
theorem word_eq (c : Dev nD) (i : grid0.Coords) (xt : Buf (Elt F) (tbM.view.loc (c : Thread nD τ))) (n : ℕ) (hn : n < 127)
    (inbT : ∀ a, (![(Scalar.indexCast (BitVec.ofNat 32 (i 0).val)).toNat, n] : Fin 2 → ℕ) a + S1x1.size a ≤ S8x127.size a)
    (x : (Rect.unit (s := S8x127) ![(Scalar.indexCast (BitVec.ofNat 32 (i 0).val)).toNat, n] S1x1.size inbT).toLoadRect.shape.Idx) :
    tbM.view.readAt (Elt F) (Rect.unit (s := S8x127) ![(Scalar.indexCast (BitVec.ofNat 32 (i 0).val)).toNat, n] S1x1.size inbT).toLoadRect xt x
      = headWord (xt : S8x127.Idx → BitVec 32) i ⟨n, hn⟩ := by
  have hi : (i 0).val < 8 := (i 0).isLt
  have h0 : (BitVec.ofNat 32 (i 0).val).toNat = (i 0).val := by
    rw [BitVec.toNat_ofNat]; exact Nat.mod_eq_of_lt (by omega)
  rw [View.readAt_apply]
  show (xt : S8x127.Idx → BitVec 32) _ = (xt : S8x127.Idx → BitVec 32) _
  congr 1
  funext a
  apply Fin.ext
  match a with
  | ⟨0, h0⟩ =>
    have hx : (x ⟨0, h0⟩).val < 1 := (x ⟨0, h0⟩).isLt
    show (BitVec.ofNat 32 (i 0).val).toNat + 1 * (x ⟨0, h0⟩).val = (i 0).val
    omega
  | ⟨1, h1⟩ =>
    have hx : (x ⟨1, h1⟩).val < 1 := (x ⟨1, h1⟩).isLt
    show n + 1 * (x ⟨1, h1⟩).val = n
    omega

/-- An index of a row's own shape, matched with the row's `[1, 512]` rectangle, is column `y 0` of its one row. -/
theorem reshape_row (hn : S512.numel = S1x512.numel) (y : S512.Idx) :
    Shape.reshapeEquiv hn y
      = (ValueIdx.ix2 (⟨0, Nat.one_pos⟩ : Fin 1) (⟨(y 0).val, (y 0).isLt⟩ : Fin 512) : S1x512.Idx) :=
  Shape.reshapeEquiv_eq_of_rowMajor hn
    ((Shape.rowMajor_val_two (d := ![1, 512]) _).trans
      ((show 0 * 512 + (y 0).val = (y 0).val by omega).trans (Shape.rowMajor_val_one (d := ![512]) y).symm))

/-- The same for the feature array's `[1, 1, 1, 512]` rectangle. -/
theorem reshape_src (hn : S512.numel = S1x1x1x512.numel) (y : S512.Idx) :
    Shape.reshapeEquiv hn y
      = (ValueIdx.ix4 (⟨0, Nat.one_pos⟩ : Fin 1) (⟨0, Nat.one_pos⟩ : Fin 1) (⟨0, Nat.one_pos⟩ : Fin 1)
          (⟨(y 0).val, (y 0).isLt⟩ : Fin 512) : S1x1x1x512.Idx) :=
  Shape.reshapeEquiv_eq_of_rowMajor hn
    ((Shape.rowMajor_val_four (d := ![1, 1, 1, 512]) _).trans
      ((show ((0 * 1 + 0) * 1 + 0) * 512 + (y 0).val = (y 0).val by omega).trans
        (Shape.rowMajor_val_one (d := ![512]) y).symm))

/-- Reading row `n`'s memref is reading the scratch at row `n`. -/
theorem rowM_read (arg8 : Memref sig .tc .vmem S128x512 .f32) (n : ℕ) (hn : n < 128)
    (h : ∀ a, (![n, 0] : Fin 2 → ℕ) a + S1x512.size a ≤ S128x512.size a) (g : arg8.view.ty.Contents (Elt F)) (y : S512.Idx) :
    (rowM arg8 n h).view.read (Elt F) g y
      = arg8.view.read (Elt F) g (ValueIdx.ix2 (⟨n, hn⟩ : Fin 128) (⟨(y 0).val, (y 0).isLt⟩ : Fin 512)) := by
  show arg8.view.read (Elt F) g ((Rect.unit (s := S128x512) ![n, 0] S1x512.size h).emb (Shape.reshapeEquiv _ y)) = _
  rw [reshape_row]
  congr 1
  funext a
  apply Fin.ext
  match a with
  | ⟨0, _⟩ => show n + 1 * 0 = n; omega
  | ⟨1, _⟩ => show 0 + 1 * (y 0).val = (y 0).val; omega

/-- Contents that read the same through row `n`'s memref agree on the row's elements. -/
theorem rowM_ext (arg8 : Memref sig .tc .vmem S128x512 .f32) (n : ℕ)
    (h : ∀ a, (![n, 0] : Fin 2 → ℕ) a + S1x512.size a ≤ S128x512.size a) (g g' : arg8.view.ty.Contents (Elt F))
    (hr : ∀ y, (rowM arg8 n h).view.read (Elt F) g y = (rowM arg8 n h).view.read (Elt F) g' y) :
    ∀ j ∈ (rowM arg8 n h).view.set, g j = g' j := by
  intro j hj
  obtain ⟨y, -, rfl⟩ := Finset.mem_map.mp hj
  have := hr y
  rw [View.read_apply, View.read_apply] at this
  exact (cast_bijective _).1 this

/-- A row the copy for position `n` has landed in holds row `n` of `scratchAfter`: the copy delivers the feature
    array read at batch `i`, position `n + 1`, the head the word read for `(i, n)` names. -/
theorem rowLanded (c : Dev nD) (i : grid0.Coords) (xt : Buf (Elt F) (tbM.view.loc (c : Thread nD τ)))
    (fh : Buf (Elt F) (hbM.view.loc (c : Thread nD τ)))
    (hw : ∀ j : S8x127.Idx, ((xt : S8x127.Idx → BitVec 32) j).toNat < 128)
    (arg8 : Memref sig .tc .vmem S128x512 .f32) (harg8 : arg8.IsWhole) (f0 : Buf (Elt F) (arg8.view.loc (c : Thread nD τ)))
    (n : ℕ) (hn : n < 127) (h : ∀ a, (![n, 0] : Fin 2 → ℕ) a + S1x512.size a ≤ S128x512.size a)
    (inbT : ∀ a, (![(Scalar.indexCast (BitVec.ofNat 32 (i 0).val)).toNat, n] : Fin 2 → ℕ) a + S1x1.size a ≤ S8x127.size a)
    (x : (Rect.unit (s := S8x127) ![(Scalar.indexCast (BitVec.ofNat 32 (i 0).val)).toNat, n] S1x1.size inbT).toLoadRect.shape.Idx)
    (inbH : ∀ a, (![(BitVec.ofNat 32 (i 0).val).toNat, n + 1,
        (tbM.view.readAt (Elt F) (Rect.unit (s := S8x127) ![(Scalar.indexCast (BitVec.ofNat 32 (i 0).val)).toNat, n] S1x1.size inbT).toLoadRect xt x : BitVec 32).toNat,
        0] : Fin 4 → ℕ) a + S1x1x1x512.size a ≤ S8x128x128x512.size a)
    (w : S512.Idx → Elt F .f32)
    (hwEq : w = ReadAs.same.apply (View.read (Elt F)
            ((hbM.slice (Rect.unit (s := S8x128x128x512) ![(BitVec.ofNat 32 (i 0).val).toNat, n + 1,
                (tbM.view.readAt (Elt F) (Rect.unit (s := S8x127) ![(Scalar.indexCast (BitVec.ofNat 32 (i 0).val)).toNat, n] S1x1.size inbT).toLoadRect xt x : BitVec 32).toNat,
                0] S1x1x1x512.size inbH) (fun _ => rfl)).squeeze S512 squeezes_S1x1x1x512_S512).view fh)) :
    ((rowM arg8 n h).view.loc (c : Thread nD τ) ↦[(rowM arg8 n h).view.set]{fullShare}
        (rowM arg8 n h).view.writes (Elt F) f0 [⟨Rect.whole S512, w⟩] : sProp 𝕄)
      ⊢ ((rowM arg8 n h).view.loc (c : Thread nD τ) ↦[(rowM arg8 n h).view.set]{fullShare}
          harg8.unread (scratchAfter i (xt : S8x127.Idx → BitVec 32) (fh : S8x128x128x512.Idx → Elt F .f32) hw (arg8.view.read (Elt F) f0))) := by
  subst hwEq
  have hi : (i 0).val < 8 := (i 0).isLt
  have h0 : (BitVec.ofNat 32 (i 0).val).toNat = (i 0).val := by
    rw [BitVec.toNat_ofNat]; exact Nat.mod_eq_of_lt (by omega)
  refine Entails.of_eq (pointsTo_congr (rowM_ext arg8 n h _ _ fun y => ?_))
  have hL := View.read_writes_cons_emb (rowM arg8 n h).view f0 (Rect.whole S512)
    (ReadAs.same.apply (View.read (Elt F)
            ((hbM.slice (Rect.unit (s := S8x128x128x512) ![(BitVec.ofNat 32 (i 0).val).toNat, n + 1,
                (tbM.view.readAt (Elt F) (Rect.unit (s := S8x127) ![(Scalar.indexCast (BitVec.ofNat 32 (i 0).val)).toNat, n] S1x1.size inbT).toLoadRect xt x : BitVec 32).toNat,
                0] S1x1x1x512.size inbH) (fun _ => rfl)).squeeze S512 squeezes_S1x1x1x512_S512).view fh)) [] y
  rw [Rect.emb_whole_apply] at hL
  rw [hL, rowM_read arg8 n (by omega) h, harg8.read_unread]
  have hx : ((ValueIdx.ix2 (⟨n, by omega⟩ : Fin 128) (⟨(y 0).val, (y 0).isLt⟩ : Fin 512) : S128x512.Idx) 0).val < 127 := hn
  unfold scratchAfter
  rw [dif_pos hx]
  show (fh : S8x128x128x512.Idx → Elt F .f32) ((Rect.unit (s := S8x128x128x512) _ S1x1x1x512.size inbH).emb (Shape.reshapeEquiv _ y)) = _
  rw [reshape_src]
  congr 1
  funext a
  apply Fin.ext
  match a with
  | ⟨0, _⟩ => show (BitVec.ofNat 32 (i 0).val).toNat + 1 * 0 = (i 0).val; omega
  | ⟨1, _⟩ => show n + 1 + 1 * 0 = n + 1; omega
  | ⟨2, _⟩ =>
    show (tbM.view.readAt (Elt F) (Rect.unit (s := S8x127) ![(Scalar.indexCast (BitVec.ofNat 32 (i 0).val)).toNat, n] S1x1.size inbT).toLoadRect xt x : BitVec 32).toNat + 1 * 0
      = (headWord (xt : S8x127.Idx → BitVec 32) i ⟨n, hn⟩).toNat
    rw [word_eq c i xt n hn inbT x]; omega
  | ⟨3, _⟩ => show 0 + 1 * (y 0).val = (y 0).val; omega

/-- The last row, which no copy touches, holds its row of `scratchAfter` too. -/
theorem rowKept (c : Dev nD) (i : grid0.Coords) (xt : Buf (Elt F) (tbM.view.loc (c : Thread nD τ)))
    (fh : Buf (Elt F) (hbM.view.loc (c : Thread nD τ)))
    (hw : ∀ j : S8x127.Idx, ((xt : S8x127.Idx → BitVec 32) j).toNat < 128)
    (arg8 : Memref sig .tc .vmem S128x512 .f32) (harg8 : arg8.IsWhole) (f0 : Buf (Elt F) (arg8.view.loc (c : Thread nD τ)))
    (h : ∀ a, (![127, 0] : Fin 2 → ℕ) a + S1x512.size a ≤ S128x512.size a) :
    ((rowM arg8 127 h).view.loc (c : Thread nD τ) ↦[(rowM arg8 127 h).view.set]{fullShare} f0 : sProp 𝕄)
      ⊢ ((rowM arg8 127 h).view.loc (c : Thread nD τ) ↦[(rowM arg8 127 h).view.set]{fullShare}
          harg8.unread (scratchAfter i (xt : S8x127.Idx → BitVec 32) (fh : S8x128x128x512.Idx → Elt F .f32) hw (arg8.view.read (Elt F) f0))) := by
  refine Entails.of_eq (pointsTo_congr (rowM_ext arg8 127 h _ _ fun y => ?_))
  rw [rowM_read arg8 127 (by omega) h, rowM_read arg8 127 (by omega) h, harg8.read_unread]
  have hx : ¬ ((ValueIdx.ix2 (⟨127, by omega⟩ : Fin 128) (⟨(y 0).val, (y 0).isLt⟩ : Fin 512) : S128x512.Idx) 0).val < 127 :=
    Nat.lt_irrefl 127
  unfold scratchAfter
  rw [dif_neg hx]

/-! ## Whole-shape loads and stores of a whole memref -/

/-- A load of a whole memref through the whole-shape rectangle at zero offsets reads what the memref holds. -/
theorem readAt_unit_zero_unread {κ : Kind} {sp : Space} {S : Shape} {e : EltTy} {m : Memref sig κ sp S e} (hm : m.IsWhole)
    (X : S.Idx → Elt F e) {off : Fin S.rank → ℕ} (h : off = fun _ => 0) (inb : ∀ a, off a + S.size a ≤ S.size a) :
    m.view.readAt (Elt F) (Rect.unit off S.size inb).toLoadRect (hm.unread X) = X := by
  subst h
  funext x
  rw [hm.readAt_unread]
  exact congrArg X (Rect.emb_whole_apply S x)

/-- One store through that rectangle leaves its payload to be read. -/
theorem read_writes_unit_zero {κ : Kind} {sp : Space} {S : Shape} {e : EltTy} (v : View sig κ sp S e) (f : v.ty.Contents (Elt F))
    {off : Fin S.rank → ℕ} (h : off = fun _ => 0) (inb : ∀ a, off a + S.size a ≤ S.size a) (w : S.Idx → Elt F e) :
    v.read (Elt F) (v.writes (Elt F) f [⟨Rect.unit off S.size inb, w⟩]) = w := by
  subst h
  exact View.read_writes_whole v f w

theorem zeros1 : (![0] : Fin 1 → ℕ) = fun _ => 0 := by
  funext a; match a with | ⟨0, _⟩ => rfl
theorem zeros2 : (![0, 0] : Fin 2 → ℕ) = fun _ => 0 := by
  funext a; match a with | ⟨0, _⟩ => rfl | ⟨1, _⟩ => rfl
theorem zeros3 : (![0, 0, 0] : Fin 3 → ℕ) = fun _ => 0 := by
  funext a; match a with | ⟨0, _⟩ => rfl | ⟨1, _⟩ => rfl | ⟨2, _⟩ => rfl

set_option maxHeartbeats 9696000 in
/-- The kernel body at one grid point.  Given the four weight blocks, the table (held at half a share), the
    32 transfer cells at zero, the feature array whole, and every head word of the table below 128 (`hw`): the
    body runs to the continuation with everything handed back as it was, the scratch at contents `d8` whose
    first 127 rows are the selected feature rows (`RowsOK`), and the output block at the perceptron of `d8`. -/
theorem body_run (c : Dev nD) (i : grid0.Coords)
    (arg3 : Memref sig .tc .vmem S512x512 .f32) (harg3 : arg3.IsWhole) (arg4 : Memref sig .tc .vmem S512 .f32) (harg4 : arg4.IsWhole)
    (arg5 : Memref sig .tc .vmem S512x50 .f32) (harg5 : arg5.IsWhole) (arg6 : Memref sig .tc .vmem S50 .f32) (harg6 : arg6.IsWhole)
    (arg7 : Memref sig .tc .vmem S1x127x50 .f32) (harg7 : arg7.IsWhole) (arg8 : Memref sig .tc .vmem S128x512 .f32) (harg8 : arg8.IsWhole)
    (x0 : Vec F S512x512 .f32) (x1 : Vec F S512 .f32) (x2 : Vec F S512x50 .f32) (x3 : Vec F S50 .f32)
    (xt : Buf (Elt F) (tbM.view.loc (c : Thread nD τ))) (fh : Buf (Elt F) (hbM.view.loc (c : Thread nD τ)))
    (hw : ∀ j : S8x127.Idx, ((xt : S8x127.Idx → BitVec 32) j).toNat < 128)
    (W : Waits sig Unit) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ (∃ d, owns (c : Thread nD τ) arg7 fullShare d) ∗ (∃ d, owns (c : Thread nD τ) arg8 fullShare d)
        ∗ (tbM.view.loc (c : Thread nD τ) ↦{fullShare.right} xt) ∗ semsZero (F := F) c
        ∗ (hbM.view.loc (c : Thread nD τ) ↦{fullShare} fh) ∗ owes (c : Thread nD τ) 0 W
        ∗ (iprop(owns (c : Thread nD τ) arg3 fullShare x0 ∗ owns (c : Thread nD τ) arg4 fullShare x1 ∗ owns (c : Thread nD τ) arg5 fullShare x2
            ∗ owns (c : Thread nD τ) arg6 fullShare x3
            ∗ (∃ d8 : Vec F S128x512 .f32, ⌜RowsOK i (xt : S8x127.Idx → BitVec 32) (fh : S8x128x128x512.Idx → Elt F .f32) d8⌝
                ∗ owns (c : Thread nD τ) arg7 fullShare (k0_pay1 d8 x0 x1 x2 x3) ∗ owns (c : Thread nD τ) arg8 fullShare d8)
            ∗ (tbM.view.loc (c : Thread nD τ) ↦{fullShare.right} xt) ∗ semsZero (F := F) c
            ∗ (hbM.view.loc (c : Thread nD τ) ↦{fullShare} fh) ∗ (∃ W', owes (c : Thread nD τ) 0 W')) -∗ K ⟨⟩))
      ⊢ wp frame (wpE (defs₀ (F := F)) Variants.none c none) Set.univ
          (cc0__gather_mlp_kernel i tbM (Memref.isWhole_whole _) hbM (Memref.isWhole_whole _) arg3 harg3 arg4 harg4 arg5 harg5 arg6 harg6 arg7 harg7 arg8 harg8 cc0_scratch1) K := by
  rw [cc0__gather_mlp_kernel_eq_skeleton]; unfold cc0__gather_mlp_kernel_skel
  simp (config := { proj := false }) only [k0_part63_eq_skeleton, k0_part62_eq_skeleton, k0_part61_eq_skeleton, k0_part60_eq_skeleton, k0_part59_eq_skeleton, k0_part58_eq_skeleton, k0_part57_eq_skeleton, k0_part56_eq_skeleton, k0_part55_eq_skeleton, k0_part54_eq_skeleton, k0_part53_eq_skeleton, k0_part52_eq_skeleton, k0_part51_eq_skeleton, k0_part50_eq_skeleton, k0_part49_eq_skeleton, k0_part48_eq_skeleton, k0_part47_eq_skeleton, k0_part46_eq_skeleton, k0_part45_eq_skeleton, k0_part44_eq_skeleton, k0_part43_eq_skeleton, k0_part42_eq_skeleton, k0_part41_eq_skeleton, k0_part40_eq_skeleton, k0_part39_eq_skeleton, k0_part38_eq_skeleton, k0_part37_eq_skeleton, k0_part36_eq_skeleton, k0_part35_eq_skeleton, k0_part34_eq_skeleton, k0_part33_eq_skeleton, k0_part32_eq_skeleton, k0_part31_eq_skeleton, k0_part30_eq_skeleton, k0_part29_eq_skeleton, k0_part28_eq_skeleton, k0_part27_eq_skeleton, k0_part26_eq_skeleton, k0_part25_eq_skeleton, k0_part24_eq_skeleton, k0_part23_eq_skeleton, k0_part22_eq_skeleton, k0_part21_eq_skeleton, k0_part20_eq_skeleton, k0_part19_eq_skeleton, k0_part18_eq_skeleton, k0_part17_eq_skeleton, k0_part16_eq_skeleton, k0_part15_eq_skeleton, k0_part14_eq_skeleton, k0_part13_eq_skeleton, k0_part12_eq_skeleton, k0_part11_eq_skeleton, k0_part10_eq_skeleton, k0_part9_eq_skeleton, k0_part8_eq_skeleton, k0_part7_eq_skeleton, k0_part6_eq_skeleton, k0_part5_eq_skeleton, k0_part4_eq_skeleton, k0_part3_eq_skeleton, k0_part2_eq_skeleton, k0_part1_eq_skeleton]
  unfold owns semsZero
  iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, HT0, ⟨Hq0, Hq1, Hq2, Hq3, Hq4, Hq5, Hq6, Hq7, Hq8, Hq9, Hq10, Hq11, Hq12, Hq13, Hq14, Hq15, Hq16, Hq17, Hq18, Hq19, Hq20, Hq21, Hq22, Hq23, Hq24, Hq25, Hq26, Hq27, Hq28, Hq29, Hq30, Hq31⟩, Hh0, HW, Hk⟩
  obtain rfl := harg3.eq_unread hf0; obtain rfl := harg4.eq_unread hf1; obtain rfl := harg5.eq_unread hf2; obtain rfl := harg6.eq_unread hf3
  -- the feature array as 38 read tokens, the scratch as its 128 rows
  ihave Hh0 := tokStart _ $$ Hh0
  for_each_nat 0 38 "(ihave Hs := tokStep _ % $$ Hh0; icases Hs with ⟨Hh0, Ht%⟩)"
  ihave HS0 := restStart c arg8 fs0 $$ HS0
  for_each_nat 0 128 "(ihave Hs := rowPeel c arg8 fs0 % (by decide) (by decide) $$ HS0; icases Hs with ⟨HR%, HS0⟩)"
  -- the 127 copies and their waits
  sl_exec (disch := exact chk_of_lt _ _ (by decide) _ (word_lt c xt hw _ _))
  -- each row at its row of `scratchAfter`, the rows put back, the tokens put back
  for_each_nat 0 127 "ihave HR% := rowLanded c i xt fh hw arg8 harg8 fs0 % (by decide) _ _ _ _ (body_run.sl.dma%+ c i xt fh hw) rfl $$ HR%"
  ihave HR127 := rowKept c i xt fh hw arg8 harg8 fs0 _ $$ HR127
  ihave HS0 := restEmpty c arg8 fs0 (harg8.unread (scratchAfter i (xt : S8x127.Idx → BitVec 32) (fh : S8x128x128x512.Idx → Elt F .f32) hw (arg8.view.read (Elt F) fs0))) $$ HS0
  for_each_nat 0 128 down "ihave HS0 := rowJoin c arg8 _ % (by decide) _ $$ HR% HS0"
  ihave HS0 := restEnd c arg8 _ $$ HS0
  for_each_nat 0 38 down "ihave Hh0 := tokJoin _ % $$ Hh0 Ht%"
  ihave Hh0 := tokEnd _ $$ Hh0
  -- the loads of the scratch and the weights, and the store of the result
  sl_exec
  sl_step
  iapply Hk
  isplitl [H0]
  · iexists _; isplitr
    · ipureintro; exact hf0
    · iexact H0
  isplitl [H1]
  · iexists _; isplitr
    · ipureintro; exact hf1
    · iexact H1
  isplitl [H2]
  · iexists _; isplitr
    · ipureintro; exact hf2
    · iexact H2
  isplitl [H3]
  · iexists _; isplitr
    · ipureintro; exact hf3
    · iexact H3
  isplitl [H4 HS0]
  · iexists scratchAfter i (xt : S8x127.Idx → BitVec 32) (fh : S8x128x128x512.Idx → Elt F .f32) hw (arg8.view.read (Elt F) fs0)
    isplitr
    · ipureintro; exact rowsOK_scratchAfter _ _ _ _ _
    isplitl [H4]
    · iexists _; isplitr; swap
      · iexact H4
      · ipureintro
        rw [read_writes_unit_zero _ _ zeros3, readAt_unit_zero_unread harg8 _ zeros2, readAt_unit_zero_unread harg3 _ zeros2,
          readAt_unit_zero_unread harg4 _ zeros1, readAt_unit_zero_unread harg5 _ zeros2, readAt_unit_zero_unread harg6 _ zeros1]
    · iexists _; isplitr
      · ipureintro; exact harg8.read_unread _
      · iexact HS0
  isplitl [HT0]
  · iexact HT0
  isplitl [Hq0 Hq1 Hq2 Hq3 Hq4 Hq5 Hq6 Hq7 Hq8 Hq9 Hq10 Hq11 Hq12 Hq13 Hq14 Hq15 Hq16 Hq17 Hq18 Hq19 Hq20 Hq21 Hq22 Hq23 Hq24 Hq25 Hq26 Hq27 Hq28 Hq29 Hq30 Hq31]
  · for_each_nat 0 31 "(isplitl [Hq%]; iexact Hq%)"
    iexact Hq31
  isplitl [Hh0]
  · iexact Hh0
  iexists _
  iexact HW

end Cert.Kernel.Hand

end
-- ==== Proof.K.Frame.lean ====
/-
  The frame claim of the word-level kernel program: every weakly fair execution of the program
  terminates without a fault and leaves the six argument arrays as launched.  Nothing is said of what the
  output array ends up holding: the output window's blocks are left unnamed in the proof data, and
  what the body's triple says of the scratch and the output block is dropped to "some contents".
  The one side condition the body needs, that every head word is below 128, is read off the heads
  argument as launched, which is the prefetched table the region hands the body.
-/
import proofs.«414620_j69801808495255_1_alg».proof.Proof.K.Body
import Idealize.ShloMosaic.Lib.Pipeline.Frame
import Idealize.ShloMosaic.Lib.Pipeline.Dat
import Idealize.ShloMosaic.PureOps.BitExact

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The proof data -/

/-- The one output window, whose contents this claim does not name. -/
def forgets : Fin 5 → Bool := fun w => w.val == 4

/-- The proof data of the pipeline on core c: the arrays as the region finds them; after the body at
    point t each input's buffer still at its block, the output block unnamed; the invariant is the
    scratch, the generator register, the body's own counters at zero, the features at their launch
    contents, and the table's half; nothing owed between points; full shares. -/
def fdats (hO : Ok m) (_ : Fin 1) (c : Dev nD) :
    Dat τ (Elt F) Unit ℕ (Pipeline.UD sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, h⟩ => Pipeline.Dat.unnamed (cfg := (cfgM m hO)) ⟨4, h⟩ t
  Φ _ := iprop(Pipeline.ΦD osem spec0 H0 (V m) c ∗ Pipeline.ΦT pre0 (tbl m) c)
  q _ := fullShare
  owed _ := 0

theorem fA_eq (hO : Ok m) (c : Dev nD) (w : Fin (cfgM m hO).W) :
    (fdats m hO 0 c).A w = V m c (Pipeline.arrRef spec0 w) := by
  dsimp only [fdats]

theorem fafter_0 (hO : Ok m) (c : Dev nD) (t : Fin (cfgM m hO).N) : (fdats m hO 0 c).after 0 t = iblk m hO c 0 t := by dsimp only [fdats]; try rfl
theorem fafter_1 (hO : Ok m) (c : Dev nD) (t : Fin (cfgM m hO).N) : (fdats m hO 0 c).after 1 t = iblk m hO c 1 t := by dsimp only [fdats]; try rfl
theorem fafter_2 (hO : Ok m) (c : Dev nD) (t : Fin (cfgM m hO).N) : (fdats m hO 0 c).after 2 t = iblk m hO c 2 t := by dsimp only [fdats]; try rfl
theorem fafter_3 (hO : Ok m) (c : Dev nD) (t : Fin (cfgM m hO).N) : (fdats m hO 0 c).after 3 t = iblk m hO c 3 t := by dsimp only [fdats]; try rfl

theorem fbefore_0 (hO : Ok m) (c : Dev nD) (t : Fin (cfgM m hO).N) (d) : (fdats m hO 0 c).before 0 t d = iblk m hO c 0 t :=
  before_0 m hO (fdats m hO 0 c) (fA_eq m hO c 0) (fafter_0 m hO c) t d
theorem fbefore_1 (hO : Ok m) (c : Dev nD) (t : Fin (cfgM m hO).N) (d) : (fdats m hO 0 c).before 1 t d = iblk m hO c 1 t :=
  before_1 m hO (fdats m hO 0 c) (fA_eq m hO c 1) (fafter_1 m hO c) t d
theorem fbefore_2 (hO : Ok m) (c : Dev nD) (t : Fin (cfgM m hO).N) (d) : (fdats m hO 0 c).before 2 t d = iblk m hO c 2 t :=
  before_2 m hO (fdats m hO 0 c) (fA_eq m hO c 2) (fafter_2 m hO c) t d
theorem fbefore_3 (hO : Ok m) (c : Dev nD) (t : Fin (cfgM m hO).N) (d) : (fdats m hO 0 c).before 3 t d = iblk m hO c 3 t :=
  before_3 m hO (fdats m hO 0 c) (fA_eq m hO c 3) (fafter_3 m hO c) t d

/-! ## The body obligation -/

/-- What the body is called with at point t, the windows one by one, -/
def fbodyPre (hO : Ok m) (c : Dev nD) (t : Fin (cfgM m hO).N) : sProp 𝕄 :=
  iprop((fdats m hO 0 c).Φ t.castSucc ∗ (fdats m hO 0 c).owesAt () t.castSucc
    ∗ (∃ d, owns (c : Thread nD τ) (ms_0 m hO t) fullShare ((fdats m hO 0 c).before 0 t d))
    ∗ (∃ d, owns (c : Thread nD τ) (ms_1 m hO t) fullShare ((fdats m hO 0 c).before 1 t d))
    ∗ (∃ d, owns (c : Thread nD τ) (ms_2 m hO t) fullShare ((fdats m hO 0 c).before 2 t d))
    ∗ (∃ d, owns (c : Thread nD τ) (ms_3 m hO t) fullShare ((fdats m hO 0 c).before 3 t d))
    ∗ (∃ d, owns (c : Thread nD τ) (ms_4 m hO t) fullShare d))

/-- and what it returns. -/
def fbodyPost (hO : Ok m) (c : Dev nD) (t : Fin (cfgM m hO).N) : sProp 𝕄 :=
  iprop((fdats m hO 0 c).Φ t.succ ∗ (fdats m hO 0 c).owesAt () t.succ
    ∗ owns (c : Thread nD τ) (ms_0 m hO t) fullShare ((fdats m hO 0 c).after 0 t)
    ∗ owns (c : Thread nD τ) (ms_1 m hO t) fullShare ((fdats m hO 0 c).after 1 t)
    ∗ owns (c : Thread nD τ) (ms_2 m hO t) fullShare ((fdats m hO 0 c).after 2 t)
    ∗ owns (c : Thread nD τ) (ms_3 m hO t) fullShare ((fdats m hO 0 c).after 3 t)
    ∗ (∃ d, owns (c : Thread nD τ) (ms_4 m hO t) fullShare d))

set_option maxHeartbeats 6000000 in
set_option maxRecDepth 131072 in
/-- The body at any point.  The inputs' buffers hold their blocks; the invariant hands the body its scratch,
    the register, its counters at zero, the features and the table's half; the body's triple applies, the
    head words being below 128; what it says of the scratch's rows and of the output block's contents is
    weakened to "some contents", and everything else goes back into the invariant as it was. -/
theorem fsound_body (hO : Ok m)
    (hw : ∀ j : S8x127.Idx, ((tbl m 0 : S8x127.Idx → BitVec 32) j).toNat < 128)
    (c : Dev nD) (t : Fin (cfgM m hO).N) :
    fbodyPre m hO c t ⊢ wp frame (wpE (defs₀ (F := F)) Variants.none c none) Set.univ (bodyAt (adm m hO) t) (fun _ => fbodyPost m hO c t) := by
  unfold fbodyPre fbodyPost bodyAt
  simp only [fbefore_0, fbefore_1, fbefore_2, fbefore_3]
  rw [show (fdats m hO 0 c).Φ t.succ = (fdats m hO 0 c).Φ t.castSucc from rfl,
    fafter_0, fafter_1, fafter_2, fafter_3]
  rw [show (fdats m hO 0 c).Φ t.castSucc = iprop(Pipeline.ΦD osem spec0 H0 (V m) c ∗ Pipeline.ΦT pre0 (tbl m) c) from rfl, PhiD_eq, PhiT_eq]
  unfold Dat.owesAt Pipeline.owesWithin
  rw [show (fdats m hO 0 c).owed t.castSucc = 0 from rfl, show (fdats m hO 0 c).owed t.succ = 0 from rfl]
  iintro ⟨⟨⟨HS0, Hg, Hq, Hh0⟩, HT0⟩, ⟨%W, -, HW⟩, ⟨%d0, H0⟩, ⟨%d1, H1⟩, ⟨%d2, H2⟩, ⟨%d3, H3⟩, H4⟩
  iapply (body_run c (grid0.coords t) _ _ _ _ _ _ _ _ _ _ _ _ (iblk m hO c 0 t) (iblk m hO c 1 t) (iblk m hO c 2 t) (iblk m hO c 3 t) (tbl m 0) (V m c main_arg0) hw W _)
  isplitl [H0]; · iexact H0
  isplitl [H1]; · iexact H1
  isplitl [H2]; · iexact H2
  isplitl [H3]; · iexact H3
  isplitl [H4]; · iexact H4
  isplitl [HS0]; · iexact HS0
  isplitl [HT0]; · iexact HT0
  isplitl [Hq]; · iexact Hq
  isplitl [Hh0]; · iexact Hh0
  isplitl [HW]; · iexact HW
  iintro ⟨H0, H1, H2, H3, ⟨%d8, -, H4, HS0⟩, HT0, Hq, Hh0, ⟨%W', HW'⟩⟩
  isplitl [HS0 Hg Hq Hh0 HT0]
  · isplitl [HS0 Hg Hq Hh0]
    · isplitl [HS0]
      · iexists d8; iexact HS0
      isplitl [Hg]
      · iexact Hg
      isplitl [Hq]
      · iexact Hq
      iexact Hh0
    iexact HT0
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  iexists _; iexact H4

set_option maxRecDepth 131072 in
set_option maxHeartbeats 3000000 in
/-- The library's body obligation, at every point. -/
theorem fbody_obligation (hO : Ok m)
    (hw : ∀ j : S8x127.Idx, ((tbl m 0 : S8x127.Idx → BitVec 32) j).toNat < 128) (c : Dev nD) :
    BodyObligation (fdats (F := F) m hO 0 c) (defs₀ (F := F)) Variants.none () Set.univ forgets := fun t => by
  rw [bigSep_W0, bigSep_W0]
  exact fsound_body m hO hw c t

/-! ## The run and the frame -/

set_option backward.isDefEq.respectTransparency.types false in
/-- From any memory with zero counters whose head words are below 128, every weakly fair execution of the
    program terminates, every input array of the pipeline unchanged and every other unscoped buffer at its
    region-entry contents; nothing is stated of the output window. -/
theorem frun_main (hO : Ok m)
    (hw : ∀ j : S8x127.Idx, ((tbl m 0 : S8x127.Idx → BitVec 32) j).toNat < 128) :
    θ_run defs (onTc (τ := τ) (main (F := F))) (s₀ m ρ)
      (Pipeline.RDat.FramePost ((Pipeline.pin pcfgs fun _ => adm m hO) 0) (fun c => (fdats m hO 0 c).toRForget forgets) (V m)) :=
  Pipeline.RDat.θ_run_frameP_dma pcfgs (fun _ => adm m hO) (0 : Fin 1) launch0 osem defs₀ Variants.none (fun c => (fdats m hO 0 c).toRForget forgets) ownSemFacts H0 H0_sub m ρ main
    (hbody := fun c => (fbody_obligation m hO hw c).toRForget) (hshare := fun c => ((fdats m hO 0 c).toRForget forgets).share_full fun _ => rfl)
    (howed := fun _ _ => rfl) (V := V m) (hmain := hmain m Variants.none) (hA := fA_eq m hO) (hpf := V_pre m) (hin := fun _ => .rfl) (hout := fun c => by change iprop(_ ∗ _) ⊢ _; iintro ⟨HD, -⟩; iexact HD)

/-- The frame claim at any float family: if every word of the heads argument is below 128, every weakly fair
    execution of the program terminates, nothing faulting, and the six argument arrays end as launched. -/
theorem frame_any
    (hheads : ∀ (c : Dev nD) (j : S8x127.Idx),
      ((m ((c.tc : Thread nD τ).loc main_arg1) : S8x127.Idx → BitVec 32) j).toNat < 128) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (ok m) (fun c => (fdats m (ok m) 0 c).toRForget forgets) (fA_eq m (ok m))
    (frun_main m ρ (ok m) (fun j => by rw [tbl_eq]; exact hheads 0 j))

/-- The frame claim of the word-level program. -/
theorem frame_bits (m : (ℓ : Loc nD τ sig) → Buf (Elt Bits) ℓ) (ρ : Dev nD → PrngReg)
    (hheads : ∀ (c : Dev nD) (j : S8x127.Idx), (m ((c.tc : Thread nD τ).loc main_arg1) j).toNat < 128) :
    θ_run (defs (F := Bits)) (onTc (τ := τ) (main (F := Bits))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_any m ρ hheads

end Cert.Kernel.Hand

end
-- ==== Proof.lean ====
/-
  The certificate of the gather-and-perceptron kernel against its jnp reference.

  For batch n, position l < 127 and label k both programs compute
      out[n, l, k] = b2[k] + Σ_d tanh (b1[d] + Σ_h feat[n, l + 1, heads[n, l], h] · W1[d, h]) · W2[k, d]
  over the extended reals (Proof/Spec.lean, `Cert.Spec.G`), on the domain where every float input is finite and
  every head index lies in [0, 128) — outside it the reference's gather reads out of range.

  * The reference's host program is read off its run one operation at a time (Proof/RefValue.lean).
  * The kernel gathers the 127 selected feature rows of a batch into a scratch by 127 row copies and applies
    the two matrix products to the scratch's 128 rows, keeping the first 127; the row that is never written
    reaches no kept entry, since a matrix product's row depends on that row of its left factor alone
    (Proof/PayIdeal.lean).  The body's Hoare triple is Proof/KI/Body.lean, the launch and the proof data
    Proof/KI/Kit.lean and Proof/KI/Value.lean; the word-level program's frame is Proof/K/Frame.lean over the
    same triple.
  * The head words are below 128 by the precondition's last conjunct (Proof/PreHeads.lean), which is what the
    body's 127 range assumptions ask.
-/
import proofs.«414620_j69801808495255_1_alg».proof.Defs
import proofs.«414620_j69801808495255_1_alg».proof.Proof.Gen.Kernel
import proofs.«414620_j69801808495255_1_alg».proof.Proof.Gen.KernelIdeal
import proofs.«414620_j69801808495255_1_alg».proof.Proof.Gen.ReferenceIdeal
import proofs.«414620_j69801808495255_1_alg».proof.Proof.Gen.ReferenceIdeal.Run
import proofs.«414620_j69801808495255_1_alg».proof.Proof.Gen.Pre_finite_inputs
import proofs.«414620_j69801808495255_1_alg».proof.Proof.PreHeads
import proofs.«414620_j69801808495255_1_alg».proof.Proof.RefValue
import proofs.«414620_j69801808495255_1_alg».proof.Proof.KI.Value
import proofs.«414620_j69801808495255_1_alg».proof.Proof.K.Frame
import Idealize.ShloMosaic.Adequacy
import Idealize.ShloMosaic.Init

noncomputable section

namespace Cert.Proof

open Idealize.ShloMosaic Idealize.SL.Sem

/-- The precondition's last conjunct, read at the word-level program's memory: every head word is below 128. -/
theorem heads_K (m : (ℓ : Loc Cert.Kernel.nD Cert.Kernel.τ Cert.Kernel.sig) → Buf (Elt Bits) ℓ)
    (h : Cert.Pre_Kernel (hPre_finite_inputs := Cert.Pre_finite_inputs.Gen.facts) m) (c : Dev Cert.Kernel.nD) (j : Cert.Kernel.S8x127.Idx) :
    (m ((c.tc : Thread Cert.Kernel.nD Cert.Kernel.τ).loc Cert.Kernel.main_arg1) j).toNat < 128 :=
  @Cert.PreHeads.heads_lt_of_pre Bits _ Cert.Pre_finite_inputs.Gen.facts _ _ _ _ _ _ (h c) j

/-- The same at the idealized kernel's memory. -/
theorem heads_KI (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) (j : Cert.KernelIdeal.S8x127.Idx) :
    (m ((c.tc : Thread Cert.KernelIdeal.nD Cert.KernelIdeal.τ).loc Cert.KernelIdeal.main_arg1) j).toNat < 128 :=
  @Cert.PreHeads.heads_lt_of_pre Ideal _ Cert.Pre_finite_inputs.Gen.facts _ _ _ _ _ _ (h c) j

theorem claim : Cert.Claim := ⟨Cert.Kernel.Gen.facts, Cert.KernelIdeal.Gen.facts, Cert.ReferenceIdeal.Gen.facts, Cert.Pre_finite_inputs.Gen.facts,
  -- the word-level kernel runs and leaves its arguments as they were
  fun m ρ h => Cert.Kernel.Hand.frame_bits m ρ (heads_K m h),
  -- so does the idealized kernel: its run with the result named, the result dropped
  fun m ρ h => (θ_run Cert.KernelIdeal.defs _ _).mono (fun _ hr c => (hr c).2) (Cert.KernelIdeal.Hand.kernel_run_G m ρ (heads_KI m h)),
  -- and the reference: its run, the result dropped
  fun m ρ _ => (θ_run Cert.ReferenceIdeal.defs _ _).mono (fun _ hr c => (hr c).2) (Cert.ReferenceIdeal.Value.run (F := Ideal) m ρ),
  -- the ideal pass rewrote nothing
  trivial,
  -- both idealized programs end at the one function of the arguments
  fun m ρ m' ρ' h hagree => ⟨_, Cert.KernelIdeal.Hand.kernel_run_G m ρ (heads_KI m h),
    (θ_run Cert.ReferenceIdeal.defs _ _).mono
      (fun _ hr c => ⟨by rw [(hr c).1, (hagree c).1, (hagree c).2.1, (hagree c).2.2.1, (hagree c).2.2.2.1, (hagree c).2.2.2.2.1, (hagree c).2.2.2.2.2], (hr c).2⟩)
      (Cert.ReferenceIdeal.RefValue.run_G m' ρ' (fun c j => by rw [(hagree c).2.1]; exact heads_KI m h c j))⟩⟩

end Cert.Proof

end
